-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x16 : S_.BroadcastsInDim S8x16 (![] : Fin 0 → Fin S8x16.rank)
  reducesTo_S8x16_S_d0_1 : S8x16.ReducesTo [0, 1] S_
  bcast_S_S256x256 : S_.BroadcastsInDim S256x256 (![] : Fin 0 → Fin S256x256.rank)
  reducesTo_S256x256_S_d0_1 : S256x256.ReducesTo [0, 1] S_

variable [Facts]

def fn_part7 {F : FTy → Type} [FloatOps F] (main_arg25 : FVec F S256x256 .f32) (main_arg26 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S8x16 .f32) (main_arg22 : FVec F S128 .f32) (main_arg23 : FVec F S256 .f32) (main_arg24 : FVec F S256 .f32) (main_arg25 : FVec F S256x256 .f32) (main_arg26 : FVec F S256 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S8x16 .f32 := Host.absf main_arg21
  let main_cst_40 : FVec F S_ .f32 := constant S_ .f32 0x7F800000#32
  let main_v105 : FVec F S8x16 .f32 := broadcastInDim S8x16 ![] bcast_S_S8x16 main_cst_40
  let main_v106 : IVec S8x16 1 := cmpf .olt main_v104 main_v105
  let main_c_41 : IVec S_ 1 := constantI S_ 1 1#1
  let main_v107 : IVec S_ 1 := (fun x v => Host.reduce IntOp.andi x v reducesTo_S8x16_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_arg26 main_v118 main_v119

def fn_part5 {F : FTy → Type} [FloatOps F] (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S8x16 .f32 := Host.absf main_arg11
  let main_cst_20 : FVec F S_ .f32 := constant S_ .f32 0x7F800000#32
  let main_v55 : FVec F S8x16 .f32 := broadcastInDim S8x16 ![] bcast_S_S8x16 main_cst_20
  let main_v56 : IVec S8x16 1 := cmpf .olt main_v54 main_v55
  let main_c_21 : IVec S_ 1 := constantI S_ 1 1#1
  let main_v57 : IVec S_ 1 := (fun x v => Host.reduce IntOp.andi x v reducesTo_S8x16_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : FVec F S100000x128 .f32) (main_arg2 : FVec F S1x256 .f32) (main_arg3 : FVec F S256 .f32) (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S128x1 : Shape := ⟨2, ![128, 1]⟩
abbrev S1x128 : Shape := ⟨2, ![1, 128]⟩
abbrev S1x2000 : Shape := ⟨2, ![1, 2000]⟩
abbrev S2000x128 : Shape := ⟨2, ![2000, 128]⟩
abbrev S1 : Shape := ⟨1, ![1]⟩
abbrev S1x1 : Shape := ⟨2, ![1, 1]⟩

abbrev nBuf : Space → Nat
  | .hbm => 80
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1x256, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S8x16, .f32⟩
  | .hbm, ⟨12, _⟩ => ⟨S128, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S8x16, .f32⟩
  | .hbm, ⟨22, _⟩ => ⟨S128, .f32⟩
  | .hbm, ⟨23, _⟩ => ⟨S256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S128x128, .f32⟩
  | .hbm, ⟨52, _⟩ => ⟨S128, .f32⟩
  | .hbm, ⟨53, _⟩ => ⟨S128x1, .f32⟩
  | .hbm, ⟨54, _⟩ => ⟨S128x128, .f32⟩
  | .hbm, ⟨55, _⟩ => ⟨S128x128, .f32⟩
  | .hbm, ⟨56, _⟩ => ⟨S128, .f32⟩
  | .hbm, ⟨57, _⟩ => ⟨S128x1, .f32⟩
  | .hbm, ⟨58, _⟩ => ⟨S128x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x256, .f32⟩
  | .hbm, ⟨65, _⟩ => ⟨S1x256, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x256, .f32⟩
  | .hbm, ⟨70, _⟩ => ⟨S1x256, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S_, .f32⟩
  | .hbm, ⟨78, _⟩ => ⟨S1x2000, .f32⟩
  | .hbm, ⟨79, _⟩ => ⟨S1x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x2000, .f32⟩
  | .local _ .vmem, ⟨30, _⟩ => ⟨S1x256, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst : Ref sig .tc := ⟨.hbm, 77, rfl⟩
abbrev main_v33 : Ref sig .tc := ⟨.hbm, 78, rfl⟩
abbrev main_v34 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v85 : BitVec 1 := Scalar.cmpi .eq arg0 c49_i32
  let v86 : BitVec 32 := Scalar.extui v85
  let c0_i32_55 : BitVec 32 := 0#32
  let v87 : BitVec 1 := Scalar.cmpi .ne v86 c0_i32_55
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x2000 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S8x16_S128 : S8x16.ShapeCasts S128
  shapeCasts_S128_S1x128 : S128.ShapeCasts S1x128
  shapeCasts_S256_S1x256 : S256.ShapeCasts S1x256
  bcast_S_S1x2000 : S_.BroadcastsInDim S1x2000 (![] : Fin 0 → Fin S1x2000.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x128_S2000x128 : S1x128.Broadcasts S2000x128
  shapeCasts_S128x128_S128x128 : S128x128.ShapeCasts S128x128
  reduces_S2000x128_S128 : S2000x128.Reduces [0] S128
  concatenates_S1x128_S1x128_S1x256_d1 : Shape.Concatenates [S1x128, S1x128] S1x256 1
  inb_S256x256_S256x256_0_0 : ∀ a, (![0, 0] : Fin 2 → Nat) a + S256x256.size a ≤ S256x256.size a
  h_S256x256 : 0 < S256x256.numel
  dot_S1x256_S256x128_S1x128_1_0_0_1_n_n_wf : DotDims.WF S1x256 S256x128 S1x128 [1] [0] [0] [1] [] []
  dot_S1x128_S128x128_S1x128_1_0_0_1_n_n_wf : DotDims.WF S1x128 S128x128 S1x128 [1] [0] [0] [1] [] []
  dot_S2000x128_S128x128_S2000x128_1_0_0_1_n_n_wf : DotDims.WF S2000x128 S128x128 S2000x128 [1] [0] [0] [1] [] []
  dot_S1x2000_S2000x128_S1x128_1_0_0_1_n_n_wf : DotDims.WF S1x2000 S2000x128 S1x128 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x256.size a ≤ S256x256.size a
  hwx0_25 : ∀ i : grid0.Coords, EltTy.bits .f32 = 32 ∨ (Rect.block (s := S256x256) S256x256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x2000.size a ≤ S1x2000.size a
  hwx0_27 : ∀ i : grid0.Coords, EltTy.bits .f32 = 32 ∨ (Rect.block (s := S1x2000) S1x2000.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x256.size a ≤ S1x256.size a
  hwx0_28 : ∀ i : grid0.Coords, EltTy.bits .f32 = 32 ∨ (Rect.block (s := S1x256) S1x256.size (cc0_transform_28 i) (hinb0_28 i)).WholeWords (EltTy.packing .f32)

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x2000_S2000x128_S1x128_1_0_0_1_n_n : DotDims S1x2000 S2000x128 S1x128 where
  lhsContracting := [1]
  rhsContracting := [0]
  lhsNonContracting := [0]
  rhsNonContracting := [1]
  lhsBatch := []
  rhsBatch := []
  wf := dot_S1x2000_S2000x128_S1x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v28) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v30) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v31) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S256x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v32) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v33) S1x2000.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v34) S1x256.size cc0_transform_28 reads0_28 true true 1 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

abbrev idle0 : Fin 29 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun i => !(k0_cond2 i == 1#1) | ⟨_ + 29, h⟩ => absurd h (Nat.not_lt.2 (Nat.le_add_left _ _))

class Facts : Prop extends Facts₀ where

variable [Facts]
-- ==== ReferenceIdeal.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S1 : Shape := ⟨1, ![1]⟩
abbrev S1x1 : Shape := ⟨2, ![1, 1]⟩
abbrev S1x128 : Shape := ⟨2, ![1, 128]⟩
abbrev S100000x8x16 : Shape := ⟨3, ![100000, 8, 16]⟩
abbrev S1x8x16 : Shape := ⟨3, ![1, 8, 16]⟩
abbrev S100000x8 : Shape := ⟨2, ![100000, 8]⟩
abbrev S8 : Shape := ⟨1, ![8]⟩
abbrev S1x8 : Shape := ⟨2, ![1, 8]⟩
abbrev S100000x8x1 : Shape := ⟨3, ![100000, 8, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S100000x128, .f32⟩
  | 2 => ⟨S1x256, .f32⟩
  | 3 => ⟨S256, .f32⟩
  | 4 => ⟨S256, .f32⟩
  | 5 => ⟨S256x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S8x16, .f32⟩
  | 12 => ⟨S128, .f32⟩
  | 13 => ⟨S256, .f32⟩
  | 14 => ⟨S256, .f32⟩
  | 15 => ⟨S256x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S8x16, .f32⟩
  | 22 => ⟨S128, .f32⟩
  | 23 => ⟨S256, .f32⟩
  | 24 => ⟨S256, .f32⟩
  | 25 => ⟨S256x256, .f32⟩
  | 26 => ⟨S256, .f32⟩
  | 27 => ⟨S_, .f32⟩
  | 28 => ⟨S1, .f32⟩
  | 29 => ⟨S1x1, .f32⟩
  | 30 => ⟨S_, .f32⟩
  | 31 => ⟨S1x1, .f32⟩
  | 32 => ⟨S1x1, .f32⟩
  | 33 => ⟨S_, .i32⟩
  | 34 => ⟨S_, .f32⟩
  | 35 => ⟨S1, .f32⟩
  | 36 => ⟨S1x1, .f32⟩
  | 37 => ⟨S_, .f32⟩
  | 38 => ⟨S1x1, .f32⟩
  | 39 => ⟨S1x1, .f32⟩
  | 40 => ⟨S1x256, .f32⟩
  | 41 => ⟨S1x256, .f32⟩
  | 42 => ⟨S1x256, .f32⟩
  | 43 => ⟨S_, .f32⟩
  | 44 => ⟨S_, .f32⟩
  | 45 => ⟨S_, .f32⟩
  | 46 => ⟨S_, .f32⟩
  | 47 => ⟨S1, .f32⟩
  | 48 => ⟨S1x1, .f32⟩
  | 49 => ⟨S1x1, .f32⟩
  | 50 => ⟨S1x1, .f32⟩
  | 51 => ⟨S_, .f32⟩
  | 52 => ⟨S_, .i1⟩
  | 53 => ⟨S_, .f32⟩
  | 54 => ⟨S_, .f32⟩
  | 55 => ⟨S1x1, .f32⟩
  | 56 => ⟨S1x1, .f32⟩
  | 57 => ⟨S1x256, .f32⟩
  | 58 => ⟨S1x256, .f32⟩
  | 59 => ⟨S_, .f32⟩
  | 60 => ⟨S1x1, .f32⟩
  | 61 => ⟨S1x1, .f32⟩
  | 62 => ⟨S1x1, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S_, .f32⟩
  | 70 => ⟨S1x256, .f32⟩
  | 71 => ⟨S1x256, .f32⟩
  | 72 => ⟨S1x128, .f32⟩
  | 73 => ⟨S1x128, .f32⟩
  | 74 => ⟨S1x128, .f32⟩
  | 75 => ⟨S100000x128, .f32⟩
  | 76 => ⟨S1x128, .f32⟩
  | 77 => ⟨S100000x128, .f32⟩
  | 78 => ⟨S100000x128, .f32⟩
  | 79 => ⟨S100000x8x16, .f32⟩
  | 80 => ⟨S1x128, .f32⟩
  | 81 => ⟨S1x128, .f32⟩
  | 82 => ⟨S1x128, .f32⟩
  | 83 => ⟨S1x8x16, .f32⟩
  | 84 => ⟨S100000x8x16, .f32⟩
  | 85 => ⟨S100000x8x16, .f32⟩
  | 86 => ⟨S_, .f32⟩
  | 87 => ⟨S_, .f32⟩
  | 88 => ⟨S100000x8x16, .f32⟩
  | 89 => ⟨S100000x8x16, .i1⟩
  | 90 => ⟨S_, .f32⟩
  | 91 => ⟨S100000x8x16, .f32⟩
  | 92 => ⟨S100000x8x16, .f32⟩
  | 93 => ⟨S100000x8x16, .f32⟩
  | 94 => ⟨S1x8x16, .f32⟩
  | 95 => ⟨S100000x8x16, .f32⟩
  | 96 => ⟨S100000x8x16, .f32⟩
  | 97 => ⟨S_, .f32⟩
  | 98 => ⟨S100000x8, .f32⟩
  | 99 => ⟨S_, .f32⟩
  | 100 => ⟨S8, .f32⟩
  | 101 => ⟨S_, .f32⟩
  | 102 => ⟨S8, .f32⟩
  | 103 => ⟨S8, .f32⟩
  | 104 => ⟨S1x8, .f32⟩
  | 105 => ⟨S100000x8, .f32⟩
  | 106 => ⟨S100000x8, .f32⟩
  | 107 => ⟨S100000x8, .f32⟩
  | 108 => ⟨S_, .f32⟩
  | 109 => ⟨S8, .f32⟩
  | 110 => ⟨S1x8, .f32⟩
  | 111 => ⟨S100000x8, .f32⟩
  | 112 => ⟨S100000x8, .f32⟩
  | 113 => ⟨S100000x8x1, .f32⟩
  | 114 => ⟨S100000x8x16, .f32⟩
  | 115 => ⟨S100000x8x16, .f32⟩
  | 116 => ⟨S_, .f32⟩
  | 117 => ⟨S8x16, .f32⟩
  | 118 => ⟨S1x128, .f32⟩
  | 119 => ⟨S1x128, .f32⟩
  | 120 => ⟨S1x128, .f32⟩
  | 121 => ⟨S_, .f32⟩
  | 122 => ⟨S1, .f32⟩
  | 123 => ⟨S1x1, .f32⟩
  | 124 => ⟨S_, .f32⟩
  | 125 => ⟨S1x1, .f32⟩
  | 126 => ⟨S1x1, .f32⟩
  | 127 => ⟨S_, .i32⟩
  | _ => ⟨S100000x128, .f32⟩

abbrev hbmTy0_1 (i : Nat) : BufTy := match i % 128 with
  | 0 => ⟨S_, .f32⟩
  | 1 => ⟨S1, .f32⟩
  | 2 => ⟨S1x1, .f32⟩
  | 3 => ⟨S_, .f32⟩
  | 4 => ⟨S1x1, .f32⟩
  | 5 => ⟨S1x1, .f32⟩
  | 6 => ⟨S1x256, .f32⟩
  | 7 => ⟨S1x256, .f32⟩
  | 8 => ⟨S1x256, .f32⟩
  | 9 => ⟨S_, .f32⟩
  | 10 => ⟨S_, .f32⟩
  | 11 => ⟨S_, .f32⟩
  | 12 => ⟨S_, .f32⟩
  | 13 => ⟨S1, .f32⟩
  | 14 => ⟨S1x1, .f32⟩
  | 15 => ⟨S1x1, .f32⟩
  | 16 => ⟨S1x1, .f32⟩
  | 17 => ⟨S_, .f32⟩
  | 18 => ⟨S_, .i1⟩
  | 19 => ⟨S_, .f32⟩
  | 20 => ⟨S_, .f32⟩
  | 21 => ⟨S1x1, .f32⟩
  | 22 => ⟨S1x1, .f32⟩
  | 23 => ⟨S1x256, .f32⟩
  | 24 => ⟨S1x256, .f32⟩
  | 25 => ⟨S_, .f32⟩
  | 26 => ⟨S1x1, .f32⟩
  | 27 => ⟨S1x1, .f32⟩
  | 28 => ⟨S1x1, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S_, .f32⟩
  | 36 => ⟨S1x256, .f32⟩
  | 37 => ⟨S1x256, .f32⟩
  | 38 => ⟨S1x128, .f32⟩
  | 39 => ⟨S1x128, .f32⟩
  | 40 => ⟨S1x128, .f32⟩
  | 41 => ⟨S100000x128, .f32⟩
  | 42 => ⟨S1x128, .f32⟩
  | 43 => ⟨S100000x128, .f32⟩
  | 44 => ⟨S100000x128, .f32⟩
  | 45 => ⟨S100000x8x16, .f32⟩
  | 46 => ⟨S1x128, .f32⟩
  | 47 => ⟨S1x128, .f32⟩
  | 48 => ⟨S1x128, .f32⟩
  | 49 => ⟨S1x8x16, .f32⟩
  | 50 => ⟨S100000x8x16, .f32⟩
  | 51 => ⟨S100000x8x16, .f32⟩
  | 52 => ⟨S_, .f32⟩
  | 53 => ⟨S_, .f32⟩
  | 54 => ⟨S100000x8x16, .f32⟩
  | 55 => ⟨S100000x8x16, .i1⟩
  | 56 => ⟨S_, .f32⟩
  | 57 => ⟨S100000x8x16, .f32⟩
  | 58 => ⟨S100000x8x16, .f32⟩
  | 59 => ⟨S100000x8x16, .f32⟩
  | 60 => ⟨S1x8x16, .f32⟩
  | 61 => ⟨S100000x8x16, .f32⟩
  | 62 => ⟨S100000x8x16, .f32⟩
  | 63 => ⟨S_, .f32⟩
  | 64 => ⟨S100000x8, .f32⟩
  | 65 => ⟨S_, .f32⟩
  | 66 => ⟨S8, .f32⟩
  | 67 => ⟨S_, .f32⟩
  | 68 => ⟨S8, .f32⟩
  | 69 => ⟨S8, .f32⟩
  | 70 => ⟨S1x8, .f32⟩
  | 71 => ⟨S100000x8, .f32⟩
  | 72 => ⟨S100000x8, .f32⟩
  | 73 => ⟨S100000x8, .f32⟩
  | 74 => ⟨S_, .f32⟩
  | 75 => ⟨S8, .f32⟩
  | 76 => ⟨S1x8, .f32⟩
  | 77 => ⟨S100000x8, .f32⟩
  | 78 => ⟨S100000x8, .f32⟩
  | 79 => ⟨S100000x8x1, .f32⟩
  | 80 => ⟨S100000x8x16, .f32⟩
  | 81 => ⟨S100000x8x16, .f32⟩
  | 82 => ⟨S_, .f32⟩
  | 83 => ⟨S8x16, .f32⟩
  | 84 => ⟨S1x128, .f32⟩
  | 85 => ⟨S1x128, .f32⟩
  | 86 => ⟨S1x128, .f32⟩
  | 87 => ⟨S1x256, .f32⟩
  | 88 => ⟨S1x256, .f32⟩
  | 89 => ⟨S_, .f32⟩
  | 90 => ⟨S1, .f32⟩
  | 91 => ⟨S1x1, .f32⟩
  | 92 => ⟨S_, .f32⟩
  | 93 => ⟨S1x1, .f32⟩
  | 94 => ⟨S1x1, .f32⟩
  | 95 => ⟨S_, .i32⟩
  | 96 => ⟨S_, .f32⟩
  | 97 => ⟨S1, .f32⟩
  | 98 => ⟨S1x1, .f32⟩
  | 99 => ⟨S_, .f32⟩
  | 100 => ⟨S1x1, .f32⟩
  | 101 => ⟨S1x1, .f32⟩
  | 102 => ⟨S1x256, .f32⟩
  | 103 => ⟨S1x256, .f32⟩
  | 104 => ⟨S1x256, .f32⟩
  | 105 => ⟨S_, .f32⟩
  | 106 => ⟨S_, .f32⟩
  | 107 => ⟨S_, .f32⟩
  | 108 => ⟨S_, .f32⟩
  | 109 => ⟨S1, .f32⟩
  | 110 => ⟨S1x1, .f32⟩
  | 111 => ⟨S1x1, .f32⟩
  | 112 => ⟨S1x1, .f32⟩
  | 113 => ⟨S_, .f32⟩
  | 114 => ⟨S_, .i1⟩
  | 115 => ⟨S_, .f32⟩
  | 116 => ⟨S_, .f32⟩
  | 117 => ⟨S1x1, .f32⟩
  | 118 => ⟨S1x1, .f32⟩
  | 119 => ⟨S1x256, .f32⟩
  | 120 => ⟨S1x256, .f32⟩
  | 121 => ⟨S_, .f32⟩
  | 122 => ⟨S1x1, .f32⟩
  | 123 => ⟨S1x1, .f32⟩
  | 124 => ⟨S1x1, .f32⟩
  | 125 => ⟨S1x256, .f32⟩
  | 126 => ⟨S1x256, .f32⟩
  | 127 => ⟨S1x256, .f32⟩
  | _ => ⟨S100000x128, .f32⟩

abbrev hbmTy0_2 (i : Nat) : BufTy := match i % 128 with
  | 0 => ⟨S1x256, .f32⟩
  | 1 => ⟨S1x256, .f32⟩
  | 2 => ⟨S1x256, .f32⟩
  | 3 => ⟨S_, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S1x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst_1 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_call1_cst : Ref sig .tc := ⟨.hbm, 69, rfl⟩
abbrev main_call1_v0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_2 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_3 : Ref sig .tc := ⟨.hbm, 97, rfl⟩
abbrev main_v35 : Ref sig .tc := ⟨.hbm, 98, rfl⟩
abbrev main_cst_4 : Ref sig .tc := ⟨.hbm, 99, rfl⟩
abbrev main_v36 : Ref sig .tc := ⟨.hbm, 100, rfl⟩
abbrev main_cst_5 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_6 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_7 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_8 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_v56 : Ref sig .tc := ⟨.hbm, 125, rfl⟩
abbrev main_v57 : Ref sig .tc := ⟨.hbm, 126, rfl⟩
abbrev main_c_10 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_cst_3 : Ref sig .tc := ⟨.hbm, 145, rfl⟩
abbrev main_call3_v13 : Ref sig .tc := ⟨.hbm, 146, rfl⟩
abbrev main_call3_cst_4 : Ref sig .tc := ⟨.hbm, 147, rfl⟩
abbrev main_call3_call0_v0 : Ref sig .tc := ⟨.hbm, 148, rfl⟩
abbrev main_call3_call0_v1 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_11 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_call4_cst : Ref sig .tc := ⟨.hbm, 163, rfl⟩
abbrev main_call4_v0 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_cst_12 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_13 : Ref sig .tc := ⟨.hbm, 191, rfl⟩
abbrev main_v89 : Ref sig .tc := ⟨.hbm, 192, rfl⟩
abbrev main_cst_14 : Ref sig .tc := ⟨.hbm, 193, rfl⟩
abbrev main_v90 : Ref sig .tc := ⟨.hbm, 194, rfl⟩
abbrev main_cst_15 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_cst_16 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_cst_17 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_cst_18 : Ref sig .tc := ⟨.hbm, 217, rfl⟩
abbrev main_v110 : Ref sig .tc := ⟨.hbm, 218, rfl⟩
abbrev main_v111 : Ref sig .tc := ⟨.hbm, 219, rfl⟩
abbrev main_cst_19 : Ref sig .tc := ⟨.hbm, 220, rfl⟩
abbrev main_v112 : Ref sig .tc := ⟨.hbm, 221, rfl⟩
abbrev main_v113 : Ref sig .tc := ⟨.hbm, 222, rfl⟩
abbrev main_c_20 : Ref sig .tc := ⟨.hbm, 223, rfl⟩
abbrev main_call6_cst : Ref sig .tc := ⟨.hbm, 224, rfl⟩
abbrev main_call6_v0 : Ref sig .tc := ⟨.hbm, 225, rfl⟩
abbrev main_call6_v1 : Ref sig .tc := ⟨.hbm, 226, rfl⟩
abbrev main_call6_cst_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_v7 : Ref sig .tc := ⟨.hbm, 233, rfl⟩
abbrev main_call6_cst_1 : Ref sig .tc := ⟨.hbm, 234, rfl⟩
abbrev main_call6_v8 : Ref sig .tc := ⟨.hbm, 235, rfl⟩
abbrev main_call6_cst_2 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_v12 : Ref sig .tc := ⟨.hbm, 240, rfl⟩
abbrev main_call6_cst_3 : Ref sig .tc := ⟨.hbm, 241, rfl⟩
abbrev main_call6_v13 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_cst_21 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_call7_cst : Ref sig .tc := ⟨.hbm, 259, rfl⟩
abbrev main_call7_v0 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩

abbrev nD : Nat := 1
abbrev τ : Topo := Topo.v7x

variable {F : FTy → Type} [FloatOps F]

class Facts₀ : Prop where
  reducesTo_S1x256_S1_d1 : S1x256.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S256_S1x256_1 : S256.BroadcastsInDim S1x256 (![1] : Fin 1 → Fin S1x256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x8x16 : S100000x128.ShapeCasts S100000x8x16
  shapeCasts_S1x128_S1x8x16 : S1x128.ShapeCasts S1x8x16
  bcast_S1x8x16_S100000x8x16_0_1_2 : S1x8x16.BroadcastsInDim S100000x8x16 (![0, 1, 2] : Fin 3 → Fin S100000x8x16.rank)
  bcast_S_S100000x8x16 : S_.BroadcastsInDim S100000x8x16 (![] : Fin 0 → Fin S100000x8x16.rank)
  bcast_S8x16_S1x8x16_1_2 : S8x16.BroadcastsInDim S1x8x16 (![1, 2] : Fin 2 → Fin S1x8x16.rank)
  reducesTo_S100000x8x16_S100000x8_d2 : S100000x8x16.ReducesTo [2] S100000x8
  reducesTo_S100000x8_S8_d0 : S100000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S100000x8_S100000x8x1_0_1 : S100000x8.BroadcastsInDim S100000x8x1 (![0, 1] : Fin 2 → Fin S100000x8x1.rank)
  bcast_S100000x8x1_S100000x8x16_0_1_2 : S100000x8x1.BroadcastsInDim S100000x8x16 (![0, 1, 2] : Fin 3 → Fin S100000x8x16.rank)
  reducesTo_S100000x8x16_S8x16_d0 : S100000x8x16.ReducesTo [0] S8x16
  shapeCasts_S8x16_S1x128 : S8x16.ShapeCasts S1x128
  concatenates_S1x128_S1x128_S1x256_d1 : Shape.Concatenates [S1x128, S1x128] S1x256 1
  dot_S1x256_S256x128_S1x128_1_0_0_1_n_n_wf : DotDims.WF S1x256 S256x128 S1x128 [1] [0] [0] [1] [] []
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S1x256_S256x256_S1x256_1_0_0_1_n_n_wf : DotDims.WF S1x256 S256x256 S1x256 [1] [0] [0] [1] [] []

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

class Facts : Prop extends Facts₀ where

variable [Facts]
-- ==== Proof.KState.lean ====
/-
  The kernel's eight scratch vectors as a pure recurrence over the grid points.

  The body keeps, for each of the two streams, the running maximum m, the normaliser s, the weighted sum w (one
  value per lane) and the target's term xr, in eight [1, 128] scratch vectors carried from one grid point to the
  next. Point 0 first stores xr (from the global feature's projection), m = −∞, s = w = 0; every point then
  folds its block of 2000 rows into (m, s, w); the last point reads the state back and writes the [1, 256] result.
  Each stored value is one of the body's pure payload terms of the values loaded before it, so the state after
  point n is those terms composed, point after point.
-/
import proofs.«117868_g33088428049086_cont_sun_c4_530_8_alg».proof.Proof.Gen.KernelIdeal.Frame.Runs

noncomputable section

namespace Cert.KernelIdeal.KState

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Window 0's block at point `t`, at its literal type. -/
abbrev bView (c : Dev nD) (t : Fin cfg0.N) : Vec F S2000x128 .f32 := iblk m c 0 t
/-- Window 1's block at point `t`, at its literal type. -/
abbrev bSp (c : Dev nD) (t : Fin cfg0.N) : Vec F S2000x128 .f32 := iblk m c 1 t
/-- Window 2's block at point `t`, at its literal type. -/
abbrev bG (c : Dev nD) (t : Fin cfg0.N) : Vec F S1x256 .f32 := iblk m c 2 t
/-- Window 3's block at point `t`, at its literal type. -/
abbrev bLnvS (c : Dev nD) (t : Fin cfg0.N) : Vec F S1x256 .f32 := iblk m c 3 t
/-- Window 4's block at point `t`, at its literal type. -/
abbrev bLnvB (c : Dev nD) (t : Fin cfg0.N) : Vec F S1x256 .f32 := iblk m c 4 t
/-- Window 5's block at point `t`, at its literal type. -/
abbrev bWgv (c : Dev nD) (t : Fin cfg0.N) : Vec F S256x128 .f32 := iblk m c 5 t
/-- Window 6's block at point `t`, at its literal type. -/
abbrev bBgv (c : Dev nD) (t : Fin cfg0.N) : Vec F S1x128 .f32 := iblk m c 6 t
/-- Window 7's block at point `t`, at its literal type. -/
abbrev bWlV (c : Dev nD) (t : Fin cfg0.N) : Vec F S128x128 .f32 := iblk m c 7 t
/-- Window 8's block at point `t`, at its literal type. -/
abbrev bBlV (c : Dev nD) (t : Fin cfg0.N) : Vec F S1x128 .f32 := iblk m c 8 t
/-- Window 9's block at point `t`, at its literal type. -/
abbrev bWrV (c : Dev nD) (t : Fin cfg0.N) : Vec F S128x128 .f32 := iblk m c 9 t
/-- Window 10's block at point `t`, at its literal type. -/
abbrev bBrV (c : Dev nD) (t : Fin cfg0.N) : Vec F S1x128 .f32 := iblk m c 10 t
/-- Window 11's block at point `t`, at its literal type. -/
abbrev bAEV (c : Dev nD) (t : Fin cfg0.N) : Vec F S128x128 .f32 := iblk m c 11 t
/-- Window 12's block at point `t`, at its literal type. -/
abbrev bBbV (c : Dev nD) (t : Fin cfg0.N) : Vec F S1x128 .f32 := iblk m c 12 t
/-- Window 13's block at point `t`, at its literal type. -/
abbrev bLnsS (c : Dev nD) (t : Fin cfg0.N) : Vec F S1x256 .f32 := iblk m c 13 t
/-- Window 14's block at point `t`, at its literal type. -/
abbrev bLnsB (c : Dev nD) (t : Fin cfg0.N) : Vec F S1x256 .f32 := iblk m c 14 t
/-- Window 15's block at point `t`, at its literal type. -/
abbrev bWgs (c : Dev nD) (t : Fin cfg0.N) : Vec F S256x128 .f32 := iblk m c 15 t
/-- Window 16's block at point `t`, at its literal type. -/
abbrev bBgs (c : Dev nD) (t : Fin cfg0.N) : Vec F S1x128 .f32 := iblk m c 16 t
/-- Window 17's block at point `t`, at its literal type. -/
abbrev bWlS (c : Dev nD) (t : Fin cfg0.N) : Vec F S128x128 .f32 := iblk m c 17 t
/-- Window 18's block at point `t`, at its literal type. -/
abbrev bBlS (c : Dev nD) (t : Fin cfg0.N) : Vec F S1x128 .f32 := iblk m c 18 t
/-- Window 19's block at point `t`, at its literal type. -/
abbrev bWrS (c : Dev nD) (t : Fin cfg0.N) : Vec F S128x128 .f32 := iblk m c 19 t
/-- Window 20's block at point `t`, at its literal type. -/
abbrev bBrS (c : Dev nD) (t : Fin cfg0.N) : Vec F S1x128 .f32 := iblk m c 20 t
/-- Window 21's block at point `t`, at its literal type. -/
abbrev bAES (c : Dev nD) (t : Fin cfg0.N) : Vec F S128x128 .f32 := iblk m c 21 t
/-- Window 22's block at point `t`, at its literal type. -/
abbrev bBbS (c : Dev nD) (t : Fin cfg0.N) : Vec F S1x128 .f32 := iblk m c 22 t
/-- Window 23's block at point `t`, at its literal type. -/
abbrev bLnpS (c : Dev nD) (t : Fin cfg0.N) : Vec F S1x256 .f32 := iblk m c 23 t
/-- Window 24's block at point `t`, at its literal type. -/
abbrev bLnpB (c : Dev nD) (t : Fin cfg0.N) : Vec F S1x256 .f32 := iblk m c 24 t
/-- Window 25's block at point `t`, at its literal type. -/
abbrev bWmlp (c : Dev nD) (t : Fin cfg0.N) : Vec F S256x256 .f32 := iblk m c 25 t
/-- Window 26's block at point `t`, at its literal type. -/
abbrev bBmlp (c : Dev nD) (t : Fin cfg0.N) : Vec F S1x256 .f32 := iblk m c 26 t
/-- Window 27's block at point `t`, at its literal type. -/
abbrev bOnes (c : Dev nD) (t : Fin cfg0.N) : Vec F S1x2000 .f32 := iblk m c 27 t

/-- The eight carried scratch vectors (view stream, then scene-point stream): running maximum, normaliser,
    weighted sum, target term. -/
structure St (F : FTy → Type) where
  mV : Vec F S1x128 .f32
  sV : Vec F S1x128 .f32
  wV : Vec F S1x128 .f32
  xrV : Vec F S1x128 .f32
  mS : Vec F S1x128 .f32
  sS : Vec F S1x128 .f32
  wS : Vec F S1x128 .f32
  xrS : Vec F S1x128 .f32

/-- What point 0 stores before it streams: the target terms, m = −∞, s = w = 0. -/
def init (c : Dev nD) (t : Fin cfg0.N) : St F where
  mV := k0_pay11
  sV := k0_pay14
  wV := k0_pay16
  xrV := k0_pay7 (k0_pay5 (bBlV m c t)) (k0_pay6 (bG m c t) (bLnvS m c t) (bLnvB m c t) (bWgv m c t) (bBgv m c t) (bWrV m c t)) (bBrV m c t)
  mS := k0_pay12
  sS := k0_pay15
  wS := k0_pay17
  xrS := k0_pay9 (k0_pay8 (bG m c t) (bLnsS m c t) (bLnsB m c t) (bWgs m c t) (bBgs m c t)) (bBlS m c t) (bWrS m c t) (bBrS m c t)

/-- One point's streaming update of the state `p` the point before left: both streams' (m, s, w). -/
def stream (c : Dev nD) (t : Fin cfg0.N) (p : St F) : St F where
  mV := k0_pay32 (k0_pay27 (bView m c t) (bWlV m c t) p.xrV (bAEV m c t) p.mV)
  sV := k0_pay30 (bView m c t) (bOnes m c t) (bWlV m c t) p.xrV (bAEV m c t) p.mV p.sV
  wV := k0_pay31 (k0_pay24 (bOnes m c t)) (k0_pay25 (bView m c t) (bWlV m c t)) (k0_pay28 (bView m c t) (bWlV m c t) p.xrV (bAEV m c t) p.mV) (k0_pay29 (bView m c t) (bWlV m c t) p.xrV (bAEV m c t) p.mV) p.wV
  xrV := p.xrV
  mS := k0_pay3 (k0_pay36 (bSp m c t) (bWlS m c t) p.xrS (bAES m c t) p.mS)
  sS := k0_pay1 (k0_pay33 (bOnes m c t)) (k0_pay37 (bSp m c t) (bWlS m c t) p.xrS (bAES m c t) p.mS) (k0_pay38 (bSp m c t) (bWlS m c t) p.xrS (bAES m c t) p.mS) p.sS
  wS := k0_pay2 (k0_pay33 (bOnes m c t)) (k0_pay34 (bSp m c t) (bWlS m c t)) (k0_pay37 (bSp m c t) (bWlS m c t) p.xrS (bAES m c t) p.mS) (k0_pay38 (bSp m c t) (bWlS m c t) p.xrS (bAES m c t) p.mS) p.wS
  xrS := p.xrS

/-- What the last point writes to the output from the state `p` it has just updated. -/
def fin (c : Dev nD) (t : Fin cfg0.N) (p : St F) : Vec F S1x256 .f32 :=
  k0_pay4 (k0_pay18 p.wV p.sV (bBbV m c t) p.wS p.sS (bBbS m c t) (bG m c t)) (k0_pay19 (bLnpS m c t)) (k0_pay20 (bLnpB m c t)) (k0_pay22 p.wV p.sV (bBbV m c t) p.wS p.sS (bBbS m c t) (bG m c t)) (k0_pay23 p.wV p.sV (bBbV m c t) p.wS p.sS (bBbS m c t) (bG m c t)) (bWmlp m c t) (bBmlp m c t)

/-- The state after point `n`. -/
def kSt (c : Dev nD) : (n : ℕ) → n < cfg0.N → St F
  | 0, h => stream m c ⟨0, h⟩ (init m c ⟨0, h⟩)
  | n + 1, h => stream m c ⟨n + 1, h⟩ (kSt c n (Nat.lt_of_succ_lt h))

end Cert.KernelIdeal.KState

end
-- ==== Proof.KPieceA.lean ====
/-
  What the first grid point leaves in the eight scratch vectors, as values. It first stores the two target terms
  (the global feature through layer norm, ReLU and the two linear maps), the running maxima at minus infinity and
  the normalisers and weighted sums at zero; then it streams its block like every other point, reading those
  freshly stored values back. So each of the six streamed vectors is stored twice, whole both times, and holds
  the second stored value, a pure term of the point's input blocks and of the first stored values; each target
  term is stored once and holds that value.
-/
import proofs.«117868_g33088428049086_cont_sun_c4_530_8_alg».proof.Proof.Pat.KernelIdeal.RunA
import Idealize.ShloMosaic.Lib.Pipeline.Value
import Idealize.ShloMosaic.Lib.Tactic

noncomputable section

namespace Cert.KernelIdeal.KRun

open Cert.KernelIdeal Cert.KernelIdeal.Gen Cert.KernelIdeal.GenP
open Idealize.ShloMosaic Idealize.ShloMosaic.TcCoe Idealize.SL.Sem

variable {F : FTy → Type} [FloatOps F]

/-- The offsets of a whole-vector access are zero on both axes. -/
private theorem hz : (![0, 0] : Fin 2 → Nat) = fun _ => 0 := funext fun a => by fin_cases a <;> rfl

section A

variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x2000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i)
variable (x0 : Vec F S2000x128 .f32) (x1 : Vec F S2000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x2000 .f32)

local notation "runA" => kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27

/-- The two target terms as the first point stores them. -/
local notation "xrV0" => k0_pay7 (k0_pay5 x8) (k0_pay6 x2 x3 x4 x5 x6 x9) x10
local notation "xrS0" => k0_pay9 (k0_pay8 x2 x13 x14 x15 x16) x18 x19 x20

/-- View stream, target term: stored once. -/
theorem canA_3 : View.canon (runA).2.2.2.2.1 = xrV0 := by
  unfold kernelRun0_A
  dsimp only
  sl_unfold_words
  rw [View.canon_unit_zero hz]
  simp only [View.readAt_eq_ld, harg3.read_unread, harg4.read_unread, harg5.read_unread, harg6.read_unread,
    harg7.read_unread, harg9.read_unread, harg10.read_unread, harg11.read_unread, View.ld_unit_zero (S := S1x256) hz,
    View.ld_unit_zero (S := S256x128) hz, View.ld_unit_zero (S := S128x128) hz, View.ld_unit_zero (S := S1x128) hz]

/-- Scene-point stream, target term: stored once. -/
theorem canA_7 : View.canon (runA).2.2.2.2.2.2.2.2.1 = xrS0 := by
  unfold kernelRun0_A
  dsimp only
  sl_unfold_words
  rw [View.canon_unit_zero hz]
  simp only [View.readAt_eq_ld, harg3.read_unread, harg14.read_unread, harg15.read_unread, harg16.read_unread,
    harg17.read_unread, harg19.read_unread, harg20.read_unread, harg21.read_unread, View.ld_unit_zero (S := S1x256) hz,
    View.ld_unit_zero (S := S256x128) hz, View.ld_unit_zero (S := S128x128) hz, View.ld_unit_zero (S := S1x128) hz]

/-- View stream, running maximum: the streamed update over the freshly stored minus infinity and target term. -/
theorem canA_0 : View.canon (runA).2.1 = k0_pay32 (k0_pay27 x0 x7 xrV0 x11 k0_pay11) := by
  unfold kernelRun0_A
  dsimp only
  sl_unfold_words
  rw [View.canon_cons_unit_zero (S := S1x128) hz]
  simp only [View.readAt_eq_ld, View.readCov_unit_zero (S := S1x128) _ hz, harg1.read_unread, harg8.read_unread,
    harg12.read_unread, harg3.read_unread, harg4.read_unread, harg5.read_unread, harg6.read_unread, harg7.read_unread,
    harg9.read_unread, harg10.read_unread, harg11.read_unread, View.ld_unit_zero (S := S2000x128) hz,
    View.ld_unit_zero (S := S1x256) hz, View.ld_unit_zero (S := S256x128) hz, View.ld_unit_zero (S := S128x128) hz,
    View.ld_unit_zero (S := S1x128) hz]

/-- View stream, normaliser. -/
theorem canA_1 : View.canon (runA).2.2.1 = k0_pay30 x0 x27 x7 xrV0 x11 k0_pay11 k0_pay14 := by
  unfold kernelRun0_A
  dsimp only
  sl_unfold_words
  rw [View.canon_cons_unit_zero (S := S1x128) hz]
  simp only [View.readAt_eq_ld, View.readCov_unit_zero (S := S1x128) _ hz, harg1.read_unread, harg28.read_unread,
    harg8.read_unread, harg12.read_unread, harg3.read_unread, harg4.read_unread, harg5.read_unread, harg6.read_unread,
    harg7.read_unread, harg9.read_unread, harg10.read_unread, harg11.read_unread, View.ld_unit_zero (S := S2000x128) hz,
    View.ld_unit_zero (S := S1x2000) hz, View.ld_unit_zero (S := S1x256) hz, View.ld_unit_zero (S := S256x128) hz,
    View.ld_unit_zero (S := S128x128) hz, View.ld_unit_zero (S := S1x128) hz]

/-- View stream, weighted sum. -/
theorem canA_2 : View.canon (runA).2.2.2.1
    = k0_pay31 (k0_pay24 x27) (k0_pay25 x0 x7) (k0_pay28 x0 x7 xrV0 x11 k0_pay11) (k0_pay29 x0 x7 xrV0 x11 k0_pay11) k0_pay16 := by
  unfold kernelRun0_A
  dsimp only
  sl_unfold_words
  rw [View.canon_cons_unit_zero (S := S1x128) hz]
  simp only [View.readAt_eq_ld, View.readCov_unit_zero (S := S1x128) _ hz, harg1.read_unread, harg28.read_unread,
    harg8.read_unread, harg12.read_unread, harg3.read_unread, harg4.read_unread, harg5.read_unread, harg6.read_unread,
    harg7.read_unread, harg9.read_unread, harg10.read_unread, harg11.read_unread, View.ld_unit_zero (S := S2000x128) hz,
    View.ld_unit_zero (S := S1x2000) hz, View.ld_unit_zero (S := S1x256) hz, View.ld_unit_zero (S := S256x128) hz,
    View.ld_unit_zero (S := S128x128) hz, View.ld_unit_zero (S := S1x128) hz]

/-- Scene-point stream, running maximum. -/
theorem canA_4 : View.canon (runA).2.2.2.2.2.1 = k0_pay3 (k0_pay36 x1 x17 xrS0 x21 k0_pay12) := by
  unfold kernelRun0_A
  dsimp only
  sl_unfold_words
  rw [View.canon_cons_unit_zero (S := S1x128) hz]
  simp only [View.readAt_eq_ld, View.readCov_unit_zero (S := S1x128) _ hz, harg2.read_unread, harg18.read_unread,
    harg22.read_unread, harg3.read_unread, harg14.read_unread, harg15.read_unread, harg16.read_unread,
    harg17.read_unread, harg19.read_unread, harg20.read_unread, harg21.read_unread,
    View.ld_unit_zero (S := S2000x128) hz, View.ld_unit_zero (S := S1x256) hz, View.ld_unit_zero (S := S256x128) hz,
    View.ld_unit_zero (S := S128x128) hz, View.ld_unit_zero (S := S1x128) hz]

/-- Scene-point stream, normaliser. -/
theorem canA_5 : View.canon (runA).2.2.2.2.2.2.1
    = k0_pay1 (k0_pay33 x27) (k0_pay37 x1 x17 xrS0 x21 k0_pay12) (k0_pay38 x1 x17 xrS0 x21 k0_pay12) k0_pay15 := by
  unfold kernelRun0_A
  dsimp only
  sl_unfold_words
  rw [View.canon_cons_unit_zero (S := S1x128) hz]
  simp only [View.readAt_eq_ld, View.readCov_unit_zero (S := S1x128) _ hz, harg2.read_unread, harg28.read_unread,
    harg18.read_unread, harg22.read_unread, harg3.read_unread, harg14.read_unread, harg15.read_unread,
    harg16.read_unread, harg17.read_unread, harg19.read_unread, harg20.read_unread, harg21.read_unread,
    View.ld_unit_zero (S := S2000x128) hz, View.ld_unit_zero (S := S1x2000) hz, View.ld_unit_zero (S := S1x256) hz,
    View.ld_unit_zero (S := S256x128) hz, View.ld_unit_zero (S := S128x128) hz, View.ld_unit_zero (S := S1x128) hz]

/-- Scene-point stream, weighted sum. -/
theorem canA_6 : View.canon (runA).2.2.2.2.2.2.2.1
    = k0_pay2 (k0_pay33 x27) (k0_pay34 x1 x17) (k0_pay37 x1 x17 xrS0 x21 k0_pay12) (k0_pay38 x1 x17 xrS0 x21 k0_pay12) k0_pay17 := by
  unfold kernelRun0_A
  dsimp only
  sl_unfold_words
  rw [View.canon_cons_unit_zero (S := S1x128) hz]
  simp only [View.readAt_eq_ld, View.readCov_unit_zero (S := S1x128) _ hz, harg2.read_unread, harg28.read_unread,
    harg18.read_unread, harg22.read_unread, harg3.read_unread, harg14.read_unread, harg15.read_unread,
    harg16.read_unread, harg17.read_unread, harg19.read_unread, harg20.read_unread, harg21.read_unread,
    View.ld_unit_zero (S := S2000x128) hz, View.ld_unit_zero (S := S1x2000) hz, View.ld_unit_zero (S := S1x256) hz,
    View.ld_unit_zero (S := S256x128) hz, View.ld_unit_zero (S := S128x128) hz, View.ld_unit_zero (S := S1x128) hz]

end A

end Cert.KernelIdeal.KRun

end
-- ==== Proof.KPieceB.lean ====
/-
  What a streaming grid point that is neither the first nor the last leaves in the scratch vectors, as values.
  Such a point stores each of the six vectors it updates (running maximum, normaliser, weighted sum, of both
  streams) exactly once and whole, so what the vector holds afterwards is that one stored value: a pure term of
  the point's input blocks and of what the point before left in the scratch vectors. The two target terms are
  not stored into and keep what they held.
-/
import proofs.«117868_g33088428049086_cont_sun_c4_530_8_alg».proof.Proof.Pat.KernelIdeal.RunB
import Idealize.ShloMosaic.Lib.Pipeline.Value
import Idealize.ShloMosaic.Lib.Tactic

noncomputable section

namespace Cert.KernelIdeal.KRun

open Cert.KernelIdeal Cert.KernelIdeal.Gen Cert.KernelIdeal.GenP
open Idealize.ShloMosaic Idealize.ShloMosaic.TcCoe Idealize.SL.Sem

variable {F : FTy → Type} [FloatOps F]

/-- The offsets of a whole-vector access are zero on both axes. -/
private theorem hz : (![0, 0] : Fin 2 → Nat) = fun _ => 0 := funext fun a => by fin_cases a <;> rfl

section B

variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x2000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i)
variable (x0 : Vec F S2000x128 .f32) (x1 : Vec F S2000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x2000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32)

local notation "runB" => kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7

/-- View stream, running maximum: the new maximum of the old one and the block's scores. It reads the view block,
    the left projection, the attention matrix, the target term and the old maximum. -/
theorem canB_0 : View.canon (runB).2.1 = k0_pay32 (k0_pay27 x0 x7 xs3 x11 xs0) := by
  unfold kernelRun0_B
  dsimp only
  sl_unfold_words
  rw [View.canon_unit_zero hz]
  simp only [View.readAt_eq_ld, harg1.read_unread, harg8.read_unread, harg12.read_unread, harg33.read_unread,
    harg30.read_unread, View.ld_unit_zero (S := S2000x128) hz, View.ld_unit_zero (S := S128x128) hz,
    View.ld_unit_zero (S := S1x128) hz]

/-- View stream, normaliser: the old one rescaled plus the block's exponentials summed (against the row of ones). -/
theorem canB_1 : View.canon (runB).2.2.1 = k0_pay30 x0 x27 x7 xs3 x11 xs0 xs1 := by
  unfold kernelRun0_B
  dsimp only
  sl_unfold_words
  rw [View.canon_unit_zero hz]
  simp only [View.readAt_eq_ld, harg1.read_unread, harg28.read_unread, harg8.read_unread, harg33.read_unread,
    harg12.read_unread, harg30.read_unread, harg31.read_unread, View.ld_unit_zero (S := S2000x128) hz,
    View.ld_unit_zero (S := S1x2000) hz, View.ld_unit_zero (S := S128x128) hz, View.ld_unit_zero (S := S1x128) hz]

/-- View stream, weighted sum: the old one rescaled plus the block's weighted rows summed. -/
theorem canB_2 : View.canon (runB).2.2.2.1
    = k0_pay31 (k0_pay24 x27) (k0_pay25 x0 x7) (k0_pay28 x0 x7 xs3 x11 xs0) (k0_pay29 x0 x7 xs3 x11 xs0) xs2 := by
  unfold kernelRun0_B
  dsimp only
  sl_unfold_words
  rw [View.canon_unit_zero hz]
  simp only [View.readAt_eq_ld, harg28.read_unread, harg1.read_unread, harg8.read_unread, harg33.read_unread,
    harg12.read_unread, harg30.read_unread, harg32.read_unread, View.ld_unit_zero (S := S2000x128) hz,
    View.ld_unit_zero (S := S1x2000) hz, View.ld_unit_zero (S := S128x128) hz, View.ld_unit_zero (S := S1x128) hz]

/-- Scene-point stream, running maximum. -/
theorem canB_4 : View.canon (runB).2.2.2.2.2.1 = k0_pay3 (k0_pay36 x1 x17 xs7 x21 xs4) := by
  unfold kernelRun0_B
  dsimp only
  sl_unfold_words
  rw [View.canon_unit_zero hz]
  simp only [View.readAt_eq_ld, harg2.read_unread, harg18.read_unread, harg22.read_unread, harg37.read_unread,
    harg34.read_unread, View.ld_unit_zero (S := S2000x128) hz, View.ld_unit_zero (S := S128x128) hz,
    View.ld_unit_zero (S := S1x128) hz]

/-- Scene-point stream, normaliser. -/
theorem canB_5 : View.canon (runB).2.2.2.2.2.2.1
    = k0_pay1 (k0_pay33 x27) (k0_pay37 x1 x17 xs7 x21 xs4) (k0_pay38 x1 x17 xs7 x21 xs4) xs5 := by
  unfold kernelRun0_B
  dsimp only
  sl_unfold_words
  rw [View.canon_unit_zero hz]
  simp only [View.readAt_eq_ld, harg28.read_unread, harg2.read_unread, harg18.read_unread, harg22.read_unread,
    harg37.read_unread, harg34.read_unread, harg35.read_unread, View.ld_unit_zero (S := S2000x128) hz,
    View.ld_unit_zero (S := S1x2000) hz, View.ld_unit_zero (S := S128x128) hz, View.ld_unit_zero (S := S1x128) hz]

/-- Scene-point stream, weighted sum. -/
theorem canB_6 : View.canon (runB).2.2.2.2.2.2.2.1
    = k0_pay2 (k0_pay33 x27) (k0_pay34 x1 x17) (k0_pay37 x1 x17 xs7 x21 xs4) (k0_pay38 x1 x17 xs7 x21 xs4) xs6 := by
  unfold kernelRun0_B
  dsimp only
  sl_unfold_words
  rw [View.canon_unit_zero hz]
  simp only [View.readAt_eq_ld, harg28.read_unread, harg2.read_unread, harg18.read_unread, harg22.read_unread,
    harg37.read_unread, harg34.read_unread, harg36.read_unread, View.ld_unit_zero (S := S2000x128) hz,
    View.ld_unit_zero (S := S1x2000) hz, View.ld_unit_zero (S := S128x128) hz, View.ld_unit_zero (S := S1x128) hz]

end B

end Cert.KernelIdeal.KRun

end
-- ==== Proof.KPieceC.lean ====
/-
  What the last grid point leaves, as values. It updates the six scratch vectors exactly as every other
  streaming point does (each stored once, whole), then reads the updated normalisers and weighted sums back and
  stores the [1, 256] result once, whole: the epilogue (skip, layer norm, ReLU, linear, skip) of the two
  streams' weighted sums divided by their normalisers. So the result block is that one stored value, a pure term
  of the point's input blocks and of the scratch values this same point has just stored.
-/
import proofs.«117868_g33088428049086_cont_sun_c4_530_8_alg».proof.Proof.Pat.KernelIdeal.RunC
import Idealize.ShloMosaic.Lib.Pipeline.Value
import Idealize.ShloMosaic.Lib.Tactic

noncomputable section

namespace Cert.KernelIdeal.KRun

open Cert.KernelIdeal Cert.KernelIdeal.Gen Cert.KernelIdeal.GenP
open Idealize.ShloMosaic Idealize.ShloMosaic.TcCoe Idealize.SL.Sem

variable {F : FTy → Type} [FloatOps F]

/-- The offsets of a whole-vector access are zero on both axes. -/
private theorem hz : (![0, 0] : Fin 2 → Nat) = fun _ => 0 := funext fun a => by fin_cases a <;> rfl

section C

variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x2000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i)
variable (x0 : Vec F S2000x128 .f32) (x1 : Vec F S2000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x2000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32)

local notation "runC" => kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7

/-- The view stream's normaliser and weighted sum, and the scene-point stream's, as this point has just updated them. -/
local notation "nSV" => k0_pay30 x0 x27 x7 xs3 x11 xs0 xs1
local notation "nWV" => k0_pay31 (k0_pay24 x27) (k0_pay25 x0 x7) (k0_pay28 x0 x7 xs3 x11 xs0) (k0_pay29 x0 x7 xs3 x11 xs0) xs2
local notation "nSS" => k0_pay1 (k0_pay33 x27) (k0_pay37 x1 x17 xs7 x21 xs4) (k0_pay38 x1 x17 xs7 x21 xs4) xs5
local notation "nWS" => k0_pay2 (k0_pay33 x27) (k0_pay34 x1 x17) (k0_pay37 x1 x17 xs7 x21 xs4) (k0_pay38 x1 x17 xs7 x21 xs4) xs6

/-- View stream, running maximum. -/
theorem canC_0 : View.canon (runC).2.1 = k0_pay32 (k0_pay27 x0 x7 xs3 x11 xs0) := by
  unfold kernelRun0_C
  dsimp only
  sl_unfold_words
  rw [View.canon_unit_zero hz]
  simp only [View.readAt_eq_ld, harg1.read_unread, harg8.read_unread, harg12.read_unread, harg33.read_unread,
    harg30.read_unread, View.ld_unit_zero (S := S2000x128) hz, View.ld_unit_zero (S := S128x128) hz,
    View.ld_unit_zero (S := S1x128) hz]

/-- View stream, normaliser. -/
theorem canC_1 : View.canon (runC).2.2.1 = nSV := by
  unfold kernelRun0_C
  dsimp only
  sl_unfold_words
  rw [View.canon_unit_zero hz]
  simp only [View.readAt_eq_ld, harg1.read_unread, harg28.read_unread, harg8.read_unread, harg33.read_unread,
    harg12.read_unread, harg30.read_unread, harg31.read_unread, View.ld_unit_zero (S := S2000x128) hz,
    View.ld_unit_zero (S := S1x2000) hz, View.ld_unit_zero (S := S128x128) hz, View.ld_unit_zero (S := S1x128) hz]

/-- View stream, weighted sum. -/
theorem canC_2 : View.canon (runC).2.2.2.1 = nWV := by
  unfold kernelRun0_C
  dsimp only
  sl_unfold_words
  rw [View.canon_unit_zero hz]
  simp only [View.readAt_eq_ld, harg28.read_unread, harg1.read_unread, harg8.read_unread, harg33.read_unread,
    harg12.read_unread, harg30.read_unread, harg32.read_unread, View.ld_unit_zero (S := S2000x128) hz,
    View.ld_unit_zero (S := S1x2000) hz, View.ld_unit_zero (S := S128x128) hz, View.ld_unit_zero (S := S1x128) hz]

/-- Scene-point stream, running maximum. -/
theorem canC_4 : View.canon (runC).2.2.2.2.2.1 = k0_pay3 (k0_pay36 x1 x17 xs7 x21 xs4) := by
  unfold kernelRun0_C
  dsimp only
  sl_unfold_words
  rw [View.canon_unit_zero hz]
  simp only [View.readAt_eq_ld, harg2.read_unread, harg18.read_unread, harg22.read_unread, harg37.read_unread,
    harg34.read_unread, View.ld_unit_zero (S := S2000x128) hz, View.ld_unit_zero (S := S128x128) hz,
    View.ld_unit_zero (S := S1x128) hz]

/-- Scene-point stream, normaliser. -/
theorem canC_5 : View.canon (runC).2.2.2.2.2.2.1 = nSS := by
  unfold kernelRun0_C
  dsimp only
  sl_unfold_words
  rw [View.canon_unit_zero hz]
  simp only [View.readAt_eq_ld, harg28.read_unread, harg2.read_unread, harg18.read_unread, harg22.read_unread,
    harg37.read_unread, harg34.read_unread, harg35.read_unread, View.ld_unit_zero (S := S2000x128) hz,
    View.ld_unit_zero (S := S1x2000) hz, View.ld_unit_zero (S := S128x128) hz, View.ld_unit_zero (S := S1x128) hz]

/-- Scene-point stream, weighted sum. -/
theorem canC_6 : View.canon (runC).2.2.2.2.2.2.2.1 = nWS := by
  unfold kernelRun0_C
  dsimp only
  sl_unfold_words
  rw [View.canon_unit_zero hz]
  simp only [View.readAt_eq_ld, harg28.read_unread, harg2.read_unread, harg18.read_unread, harg22.read_unread,
    harg37.read_unread, harg34.read_unread, harg36.read_unread, View.ld_unit_zero (S := S2000x128) hz,
    View.ld_unit_zero (S := S1x2000) hz, View.ld_unit_zero (S := S128x128) hz, View.ld_unit_zero (S := S1x128) hz]

/-- The result block: the epilogue of the two streams' updated weighted sums over their updated normalisers, with
    the global feature as the skip. The four scratch values are read back after this point's own stores. -/
theorem canC_28 : View.canon (runC).1
    = k0_pay4 (k0_pay18 nWV nSV x12 nWS nSS x22 x2) (k0_pay19 x23) (k0_pay20 x24) (k0_pay22 nWV nSV x12 nWS nSS x22 x2)
        (k0_pay23 nWV nSV x12 nWS nSS x22 x2) x25 x26 := by
  unfold kernelRun0_C
  dsimp only
  sl_unfold_words
  rw [View.canon_unit_zero hz]
  simp only [View.readAt_eq_ld, View.readCov_unit_zero (S := S1x128) _ hz, harg1.read_unread, harg2.read_unread,
    harg3.read_unread, harg8.read_unread, harg12.read_unread, harg13.read_unread, harg18.read_unread,
    harg22.read_unread, harg23.read_unread, harg24.read_unread, harg25.read_unread, harg26.read_unread,
    harg27.read_unread, harg28.read_unread, harg30.read_unread, harg31.read_unread, harg32.read_unread,
    harg33.read_unread, harg34.read_unread, harg35.read_unread, harg36.read_unread, harg37.read_unread,
    View.ld_unit_zero (S := S2000x128) hz, View.ld_unit_zero (S := S1x2000) hz, View.ld_unit_zero (S := S128x128) hz,
    View.ld_unit_zero (S := S1x128) hz, View.ld_unit_zero (S := S1x256) hz, View.ld_unit_zero (S := S256x256) hz]

end C

end Cert.KernelIdeal.KRun

end
-- ==== Proof.KSteps.lean ====
/-
  The scratch vectors after each grid point are the pure recurrence.

  The grid run states what the output block and the eight carried scratch vectors hold after point n by cases:
  the first point, a middle point, the last point, each as the values its stores leave, read back. Those values
  are the stored payload terms (the three modules before this one), so after the first point the scratch vectors
  are the streamed update of the initial state, after any later point the streamed update of what the point
  before left, and the last point's output block is the epilogue of the state it has just updated. By induction
  on the point the scratch vectors after point n are the state of the recurrence after n.
-/
import proofs.«117868_g33088428049086_cont_sun_c4_530_8_alg».proof.Proof.Pat.KernelIdeal.FrameHead
import proofs.«117868_g33088428049086_cont_sun_c4_530_8_alg».proof.Proof.KState
import proofs.«117868_g33088428049086_cont_sun_c4_530_8_alg».proof.Proof.KPieceA
import proofs.«117868_g33088428049086_cont_sun_c4_530_8_alg».proof.Proof.KPieceB
import proofs.«117868_g33088428049086_cont_sun_c4_530_8_alg».proof.Proof.KPieceC

noncomputable section

namespace Cert.KernelIdeal.KRun

open Cert.KernelIdeal Cert.KernelIdeal.Gen Cert.KernelIdeal.GenP Cert.KernelIdeal.KState
open Idealize.ShloMosaic Idealize.ShloMosaic.TcCoe Idealize.SL.Sem

variable {F : FTy → Type} [FloatOps F]

/-! ## Each case's eight scratch vectors, over the case's own variables -/

section A

variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x2000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i)
variable (x0 : Vec F S2000x128 .f32) (x1 : Vec F S2000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x2000 .f32)

local notation "atA(" f ")" => f c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
local notation "xrV0" => k0_pay7 (k0_pay5 x8) (k0_pay6 x2 x3 x4 x5 x6 x9) x10
local notation "xrS0" => k0_pay9 (k0_pay8 x2 x13 x14 x15 x16) x18 x19 x20

/-- Each scratch vector after the first point is the value its last store left. -/
theorem soutA_0 : atA(sout0_A_0) = k0_pay32 (k0_pay27 x0 x7 xrV0 x11 k0_pay11) := by
  unfold sout0_A_0; exact (View.read_writes_junk_eq_canon _ _).trans atA(canA_0)
theorem soutA_1 : atA(sout0_A_1) = k0_pay30 x0 x27 x7 xrV0 x11 k0_pay11 k0_pay14 := by
  unfold sout0_A_1; exact (View.read_writes_junk_eq_canon _ _).trans atA(canA_1)
theorem soutA_2 : atA(sout0_A_2)
    = k0_pay31 (k0_pay24 x27) (k0_pay25 x0 x7) (k0_pay28 x0 x7 xrV0 x11 k0_pay11) (k0_pay29 x0 x7 xrV0 x11 k0_pay11) k0_pay16 := by
  unfold sout0_A_2; exact (View.read_writes_junk_eq_canon _ _).trans atA(canA_2)
theorem soutA_3 : atA(sout0_A_3) = xrV0 := by
  unfold sout0_A_3; exact (View.read_writes_junk_eq_canon _ _).trans atA(canA_3)
theorem soutA_4 : atA(sout0_A_4) = k0_pay3 (k0_pay36 x1 x17 xrS0 x21 k0_pay12) := by
  unfold sout0_A_4; exact (View.read_writes_junk_eq_canon _ _).trans atA(canA_4)
theorem soutA_5 : atA(sout0_A_5)
    = k0_pay1 (k0_pay33 x27) (k0_pay37 x1 x17 xrS0 x21 k0_pay12) (k0_pay38 x1 x17 xrS0 x21 k0_pay12) k0_pay15 := by
  unfold sout0_A_5; exact (View.read_writes_junk_eq_canon _ _).trans atA(canA_5)
theorem soutA_6 : atA(sout0_A_6)
    = k0_pay2 (k0_pay33 x27) (k0_pay34 x1 x17) (k0_pay37 x1 x17 xrS0 x21 k0_pay12) (k0_pay38 x1 x17 xrS0 x21 k0_pay12) k0_pay17 := by
  unfold sout0_A_6; exact (View.read_writes_junk_eq_canon _ _).trans atA(canA_6)
theorem soutA_7 : atA(sout0_A_7) = xrS0 := by
  unfold sout0_A_7; exact (View.read_writes_junk_eq_canon _ _).trans atA(canA_7)

/-- After the first point: the streamed update of the freshly stored initial values. -/
theorem tupA : (atA(sout0_A_0), atA(sout0_A_1), atA(sout0_A_2), atA(sout0_A_3), atA(sout0_A_4), atA(sout0_A_5), atA(sout0_A_6), atA(sout0_A_7))
    = (k0_pay32 (k0_pay27 x0 x7 xrV0 x11 k0_pay11),
       k0_pay30 x0 x27 x7 xrV0 x11 k0_pay11 k0_pay14,
       k0_pay31 (k0_pay24 x27) (k0_pay25 x0 x7) (k0_pay28 x0 x7 xrV0 x11 k0_pay11) (k0_pay29 x0 x7 xrV0 x11 k0_pay11) k0_pay16,
       xrV0,
       k0_pay3 (k0_pay36 x1 x17 xrS0 x21 k0_pay12),
       k0_pay1 (k0_pay33 x27) (k0_pay37 x1 x17 xrS0 x21 k0_pay12) (k0_pay38 x1 x17 xrS0 x21 k0_pay12) k0_pay15,
       k0_pay2 (k0_pay33 x27) (k0_pay34 x1 x17) (k0_pay37 x1 x17 xrS0 x21 k0_pay12) (k0_pay38 x1 x17 xrS0 x21 k0_pay12) k0_pay17,
       xrS0) :=
  congrArg₂ Prod.mk atA(soutA_0) (congrArg₂ Prod.mk atA(soutA_1) (congrArg₂ Prod.mk atA(soutA_2) (congrArg₂ Prod.mk atA(soutA_3)
    (congrArg₂ Prod.mk atA(soutA_4) (congrArg₂ Prod.mk atA(soutA_5) (congrArg₂ Prod.mk atA(soutA_6) atA(soutA_7)))))))

end A

section B

variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x2000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i)
variable (x0 : Vec F S2000x128 .f32) (x1 : Vec F S2000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x2000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32)

local notation "atB(" f ")" => f c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7

/-- Each scratch vector a middle point stores into is the value that one store left; -/
theorem soutB_0 : atB(sout0_B_0) = k0_pay32 (k0_pay27 x0 x7 xs3 x11 xs0) := by
  unfold sout0_B_0; exact (View.read_writes_junk_eq_canon _ _).trans atB(canB_0)
theorem soutB_1 : atB(sout0_B_1) = k0_pay30 x0 x27 x7 xs3 x11 xs0 xs1 := by
  unfold sout0_B_1; exact (View.read_writes_junk_eq_canon _ _).trans atB(canB_1)
theorem soutB_2 : atB(sout0_B_2)
    = k0_pay31 (k0_pay24 x27) (k0_pay25 x0 x7) (k0_pay28 x0 x7 xs3 x11 xs0) (k0_pay29 x0 x7 xs3 x11 xs0) xs2 := by
  unfold sout0_B_2; exact (View.read_writes_junk_eq_canon _ _).trans atB(canB_2)
theorem soutB_4 : atB(sout0_B_4) = k0_pay3 (k0_pay36 x1 x17 xs7 x21 xs4) := by
  unfold sout0_B_4; exact (View.read_writes_junk_eq_canon _ _).trans atB(canB_4)
theorem soutB_5 : atB(sout0_B_5)
    = k0_pay1 (k0_pay33 x27) (k0_pay37 x1 x17 xs7 x21 xs4) (k0_pay38 x1 x17 xs7 x21 xs4) xs5 := by
  unfold sout0_B_5; exact (View.read_writes_junk_eq_canon _ _).trans atB(canB_5)
theorem soutB_6 : atB(sout0_B_6)
    = k0_pay2 (k0_pay33 x27) (k0_pay34 x1 x17) (k0_pay37 x1 x17 xs7 x21 xs4) (k0_pay38 x1 x17 xs7 x21 xs4) xs6 := by
  unfold sout0_B_6; exact (View.read_writes_junk_eq_canon _ _).trans atB(canB_6)
/-- the two target terms are not stored into and keep what the point before left. -/
theorem soutB_3 : atB(sout0_B_3) = xs3 := rfl
theorem soutB_7 : atB(sout0_B_7) = xs7 := rfl

/-- After a middle point: the streamed update of what the point before left; the target terms are kept. -/
theorem tupB : (atB(sout0_B_0), atB(sout0_B_1), atB(sout0_B_2), atB(sout0_B_3), atB(sout0_B_4), atB(sout0_B_5), atB(sout0_B_6), atB(sout0_B_7))
    = (k0_pay32 (k0_pay27 x0 x7 xs3 x11 xs0),
       k0_pay30 x0 x27 x7 xs3 x11 xs0 xs1,
       k0_pay31 (k0_pay24 x27) (k0_pay25 x0 x7) (k0_pay28 x0 x7 xs3 x11 xs0) (k0_pay29 x0 x7 xs3 x11 xs0) xs2,
       xs3,
       k0_pay3 (k0_pay36 x1 x17 xs7 x21 xs4),
       k0_pay1 (k0_pay33 x27) (k0_pay37 x1 x17 xs7 x21 xs4) (k0_pay38 x1 x17 xs7 x21 xs4) xs5,
       k0_pay2 (k0_pay33 x27) (k0_pay34 x1 x17) (k0_pay37 x1 x17 xs7 x21 xs4) (k0_pay38 x1 x17 xs7 x21 xs4) xs6,
       xs7) :=
  congrArg₂ Prod.mk atB(soutB_0) (congrArg₂ Prod.mk atB(soutB_1) (congrArg₂ Prod.mk atB(soutB_2) (congrArg₂ Prod.mk atB(soutB_3)
    (congrArg₂ Prod.mk atB(soutB_4) (congrArg₂ Prod.mk atB(soutB_5) (congrArg₂ Prod.mk atB(soutB_6) atB(soutB_7)))))))

end B

section C

variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x2000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i)
variable (x0 : Vec F S2000x128 .f32) (x1 : Vec F S2000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x2000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32)

local notation "atC(" f ")" => f c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
local notation "nSV" => k0_pay30 x0 x27 x7 xs3 x11 xs0 xs1
local notation "nWV" => k0_pay31 (k0_pay24 x27) (k0_pay25 x0 x7) (k0_pay28 x0 x7 xs3 x11 xs0) (k0_pay29 x0 x7 xs3 x11 xs0) xs2
local notation "nSS" => k0_pay1 (k0_pay33 x27) (k0_pay37 x1 x17 xs7 x21 xs4) (k0_pay38 x1 x17 xs7 x21 xs4) xs5
local notation "nWS" => k0_pay2 (k0_pay33 x27) (k0_pay34 x1 x17) (k0_pay37 x1 x17 xs7 x21 xs4) (k0_pay38 x1 x17 xs7 x21 xs4) xs6

/-- Each scratch vector the last point stores into is the value that one store left; the target terms are kept. -/
theorem soutC_0 : atC(sout0_C_0) = k0_pay32 (k0_pay27 x0 x7 xs3 x11 xs0) := by
  unfold sout0_C_0; exact (View.read_writes_junk_eq_canon _ _).trans atC(canC_0)
theorem soutC_1 : atC(sout0_C_1) = nSV := by
  unfold sout0_C_1; exact (View.read_writes_junk_eq_canon _ _).trans atC(canC_1)
theorem soutC_2 : atC(sout0_C_2) = nWV := by
  unfold sout0_C_2; exact (View.read_writes_junk_eq_canon _ _).trans atC(canC_2)
theorem soutC_3 : atC(sout0_C_3) = xs3 := rfl
theorem soutC_4 : atC(sout0_C_4) = k0_pay3 (k0_pay36 x1 x17 xs7 x21 xs4) := by
  unfold sout0_C_4; exact (View.read_writes_junk_eq_canon _ _).trans atC(canC_4)
theorem soutC_5 : atC(sout0_C_5) = nSS := by
  unfold sout0_C_5; exact (View.read_writes_junk_eq_canon _ _).trans atC(canC_5)
theorem soutC_6 : atC(sout0_C_6) = nWS := by
  unfold sout0_C_6; exact (View.read_writes_junk_eq_canon _ _).trans atC(canC_6)
theorem soutC_7 : atC(sout0_C_7) = xs7 := rfl

/-- After the last point: the same streamed update. -/
theorem tupC : (atC(sout0_C_0), atC(sout0_C_1), atC(sout0_C_2), atC(sout0_C_3), atC(sout0_C_4), atC(sout0_C_5), atC(sout0_C_6), atC(sout0_C_7))
    = (k0_pay32 (k0_pay27 x0 x7 xs3 x11 xs0), nSV, nWV, xs3, k0_pay3 (k0_pay36 x1 x17 xs7 x21 xs4), nSS, nWS, xs7) :=
  congrArg₂ Prod.mk atC(soutC_0) (congrArg₂ Prod.mk atC(soutC_1) (congrArg₂ Prod.mk atC(soutC_2) (congrArg₂ Prod.mk atC(soutC_3)
    (congrArg₂ Prod.mk atC(soutC_4) (congrArg₂ Prod.mk atC(soutC_5) (congrArg₂ Prod.mk atC(soutC_6) atC(soutC_7)))))))

/-- The last point's output block: the epilogue of the normalisers and weighted sums it has just updated. -/
theorem outC : atC(out0_C_28)
    = k0_pay4 (k0_pay18 nWV nSV x12 nWS nSS x22 x2) (k0_pay19 x23) (k0_pay20 x24) (k0_pay22 nWV nSV x12 nWS nSS x22 x2)
        (k0_pay23 nWV nSV x12 nWS nSS x22 x2) x25 x26 := by
  unfold out0_C_28; exact (View.read_writes_junk_eq_canon _ _).trans atC(canC_28)

end C

/-! ## One grid point, over the run's own memrefs and blocks -/

variable (m : (ℓ : Loc nD τ sig) → Buf (Elt F) ℓ)

/-- The eight scratch vectors of a state, in the run's order. -/
abbrev tup (p : St F) :
    Vec F S1x128 .f32 × Vec F S1x128 .f32 × Vec F S1x128 .f32 × Vec F S1x128 .f32 × Vec F S1x128 .f32 × Vec F S1x128 .f32 × Vec F S1x128 .f32 × Vec F S1x128 .f32 :=
  (p.mV, p.sV, p.wV, p.xrV, p.mS, p.sS, p.wS, p.xrS)

section Point

variable (c : Dev nD) (t : Fin cfg0.N)

/-- A case's lemma at point `t`: the point's staging memrefs, the scratch memrefs, the case's two condition facts, the
    point's twenty-eight input blocks. -/
local notation "atP[" f ", " ha ", " hb "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ha hb (bView m c t) (bSp m c t) (bG m c t) (bLnvS m c t) (bLnvB m c t) (bWgv m c t) (bBgv m c t) (bWlV m c t) (bBlV m c t) (bWrV m c t) (bBrV m c t) (bAEV m c t) (bBbV m c t) (bLnsS m c t) (bLnsB m c t) (bWgs m c t) (bBgs m c t) (bWlS m c t) (bBlS m c t) (bWrS m c t) (bBrS m c t) (bAES m c t) (bBbS m c t) (bLnpS m c t) (bLnpB m c t) (bWmlp m c t) (bBmlp m c t) (bOnes m c t)

/-- What the point before `t` left (output block, then the eight scratch vectors), as the run spells it. -/
local notation "prv" => outsAt0 m c (t.val - 1) (Nat.lt_of_le_of_lt (Nat.sub_le _ _) t.isLt)

/-- The first point leaves the streamed update of the initial state. -/
theorem step_A (h0 : t.val % 50 = 0) (h1 : ¬t.val % 50 = 49) :
    (outsAt0 m c t.val t.isLt).2 = tup (stream m c t (init m c t)) := by
  rw [outsAt0_A m c t h0 h1]
  dsimp only
  refine (atP[tupA, ((hcond0_0 t).mpr h0), (fun h => h1 ((hcond0_1 t).mp h))]).trans ?_
  rfl

/-- A middle point leaves the streamed update of the state the point before left. -/
theorem step_B (h0 : ¬t.val % 50 = 0) (h1 : ¬t.val % 50 = 49) (p : St F)
    (hp : (prv).2 = tup p) :
    (outsAt0 m c t.val t.isLt).2 = tup (stream m c t p) := by
  rw [outsAt0_B m c t h0 h1]
  dsimp only
  refine ((atP[tupB, (fun h => h0 ((hcond0_0 t).mp h)), (fun h => h1 ((hcond0_1 t).mp h))]) (prv).2.1 (prv).2.2.1 (prv).2.2.2.1 (prv).2.2.2.2.1 (prv).2.2.2.2.2.1 (prv).2.2.2.2.2.2.1 (prv).2.2.2.2.2.2.2.1 (prv).2.2.2.2.2.2.2.2).trans ?_
  rw [hp]
  rfl

/-- The last point leaves the same streamed update in the scratch vectors, -/
theorem step_C (h0 : ¬t.val % 50 = 0) (h1 : t.val % 50 = 49) (p : St F)
    (hp : (prv).2 = tup p) :
    (outsAt0 m c t.val t.isLt).2 = tup (stream m c t p) := by
  rw [outsAt0_C m c t h0 h1]
  dsimp only
  refine ((atP[tupC, (fun h => h0 ((hcond0_0 t).mp h)), ((hcond0_1 t).mpr h1)]) (prv).2.1 (prv).2.2.1 (prv).2.2.2.1 (prv).2.2.2.2.1 (prv).2.2.2.2.2.1 (prv).2.2.2.2.2.2.1 (prv).2.2.2.2.2.2.2.1 (prv).2.2.2.2.2.2.2.2).trans ?_
  rw [hp]
  rfl

/-- and in the output block the epilogue of the state it has just updated. -/
theorem out_C (h0 : ¬t.val % 50 = 0) (h1 : t.val % 50 = 49) (p : St F)
    (hp : (prv).2 = tup p) :
    (outsAt0 m c t.val t.isLt).1 = fin m c t (stream m c t p) := by
  rw [outsAt0_C m c t h0 h1]
  dsimp only
  refine ((atP[outC, (fun h => h0 ((hcond0_0 t).mp h)), ((hcond0_1 t).mpr h1)]) (prv).2.1 (prv).2.2.1 (prv).2.2.2.1 (prv).2.2.2.2.1 (prv).2.2.2.2.2.1 (prv).2.2.2.2.2.2.1 (prv).2.2.2.2.2.2.2.1 (prv).2.2.2.2.2.2.2.2).trans ?_
  rw [hp]
  rfl

end Point

/-! ## The induction over the grid -/

/-- After point `n` the eight scratch vectors hold the recurrence's state after `n`. -/
theorem outsAt0_tup (c : Dev nD) : ∀ (n : ℕ) (hn : n < cfg0.N), (outsAt0 m c n hn).2 = tup (kSt m c n hn)
  | 0, hn => step_A m c ⟨0, hn⟩ (Nat.zero_mod 50) (by show ¬(0 % 50 = 49); decide)
  | n + 1, hn => by
    have hlt : n + 1 < 50 := lt_of_lt_of_eq hn (show cfg0.N = 50 from N_0)
    by_cases h1 : (n + 1) % 50 = 49
    · have h0 : ¬(n + 1) % 50 = 0 := by omega
      exact step_C m c ⟨n + 1, hn⟩ h0 h1 (kSt m c n (Nat.lt_of_succ_lt hn)) (outsAt0_tup c n (Nat.lt_of_succ_lt hn))
    · have h0 : ¬(n + 1) % 50 = 0 := by omega
      exact step_B m c ⟨n + 1, hn⟩ h0 h1 (kSt m c n (Nat.lt_of_succ_lt hn)) (outsAt0_tup c n (Nat.lt_of_succ_lt hn))

/-- The same, with the eight vectors written out. -/
theorem outsAt0_eq (c : Dev nD) (n : ℕ) (hn : n < cfg0.N) :
    (outsAt0 m c n hn).2 = ((kSt m c n hn).mV, (kSt m c n hn).sV, (kSt m c n hn).wV, (kSt m c n hn).xrV,
      (kSt m c n hn).mS, (kSt m c n hn).sS, (kSt m c n hn).wS, (kSt m c n hn).xrS) :=
  outsAt0_tup m c n hn

/-- After the last point the output block holds the epilogue of the recurrence's final state. -/
theorem out_last (c : Dev nD) (h : 49 < cfg0.N) : (outsAt0 m c 49 h).1 = fin m c ⟨49, h⟩ (kSt m c 49 h) :=
  out_C m c ⟨49, h⟩ (by show ¬(49 % 50 = 0); decide) (by show 49 % 50 = 49; decide) (kSt m c 48 (Nat.lt_of_succ_lt h))
    (outsAt0_tup m c 48 (Nat.lt_of_succ_lt h))

end Cert.KernelIdeal.KRun

end
-- ==== Proof.KRun.lean ====
/-
  The kernel's result array after the run.

  The result window's block is the whole [1, 256] array, and only the last grid point writes it back. What that
  point writes is what its stores left in the output block: the epilogue of the recurrence's final state (the
  module before this one). One flushing point whose block covers every index, so the array ends holding exactly
  that value; the twenty-seven arguments are as launched.
-/
import proofs.«117868_g33088428049086_cont_sun_c4_530_8_alg».proof.Proof.Pat.KernelIdeal.Value
import proofs.«117868_g33088428049086_cont_sun_c4_530_8_alg».proof.Proof.KSteps

noncomputable section

namespace Cert.KernelIdeal.KRun

open Cert.KernelIdeal Cert.KernelIdeal.Gen Cert.KernelIdeal.GenP Cert.KernelIdeal.ValueP Cert.KernelIdeal.KState
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The grid has fifty points: point 49 is the last. -/
theorem h49 : 49 < cfg0.N := by rw [show cfg0.N = 50 from N_0]; decide

/-- The kernel's result: the epilogue of the recurrence's state after the last point. -/
abbrev result (c : Dev nD) : Buf (Elt F) ((c : Thread nD τ).loc main_v34) := fin m c ⟨49, h49⟩ (kSt m c 49 h49)

/-- The last point's block of the result window, cut for the write-back, is the block: the window's one block is the
    whole [1, 256] array, read through zero offsets. For any contents. -/
theorem cut_whole (c : Dev nD) (X : Buf (Elt F) ((c : Thread nD τ).loc main_v34)) :
    (cfg0.win 28).cut (grid0.coords ⟨49, h49⟩) X = ((cfg0.win 28).blk ⟨49, h49⟩).view.read (Elt F) X := by
  have hz' : (fun a => win0_28.index ⟨49, h49⟩ a * main_v34.ty.shape.size a) = fun _ => 0 :=
    funext fun a => by fin_cases a <;> decide +kernel
  exact (Memref.read_access_unit_zero (Elt F) main_v34 hz' (fun a => by rw [congrFun hz' a]; simp) X).symm

/-- What the last point leaves in the output block is the result (stated at the grid point itself, as the write-back
    reads it). -/
theorem out_pt (c : Dev nD) :
    (outsAt0 m c (⟨49, h49⟩ : Fin cfg0.N).val (⟨49, h49⟩ : Fin cfg0.N).isLt).1 = result m c :=
  out_C m c ⟨49, h49⟩ (by show ¬(49 % 50 = 0); decide) (by show 49 % 50 = 49; decide) (kSt m c 48 (Nat.lt_of_succ_lt h49))
    (outsAt0_tup m c 48 (Nat.lt_of_succ_lt h49))

/-- The one write-back, at point 49, writes it. -/
theorem flushed_eq (c : Dev nD) (t : Fin cfg0.N) (hf : (cfg0.win 28).flush t = true) :
    (dats m 0 c).flushed 28 t = ((cfg0.win 28).blk t).view.read (Elt F) (result m c) := by
  have hN : cfg0.N = 50 := N_0
  have ht : t.val = 49 := by have := (flush0_28 t).mp hf; have := t.isLt; omega
  obtain rfl : t = ⟨49, h49⟩ := Fin.ext ht
  exact (flushed28 m c ⟨49, h49⟩).trans
    ((congrArg ((cfg0.win 28).cut (grid0.coords ⟨49, h49⟩)) (out_pt m c)).trans (cut_whole c (result m c)))

/-- So the result array ends holding it: point 49's block covers every index. -/
theorem final28 (c : Dev nD) : (dats m 0 c).arrAt 28 cfg0.N = result m c :=
  (dats m 0 c).arrAt_eq_of_cover 28 (result m c) (flushed_eq m c) fun i =>
    ⟨⟨49, h49⟩, (flush0_28 ⟨49, h49⟩).mpr rfl, by
      show i ∈ ((View.whole main_v34).slice (win0_28.rect ⟨49, h49⟩)).set
      rw [View.set_slice_whole, Rect.mem_set_unit]
      intro a
      have h0 : (i 0 : Nat) < 1 := (i 0).isLt
      have h1 : (i 1 : Nat) < 256 := (i 1).isLt
      match a with
      | ⟨0, _⟩ =>
        show win0_28.index ⟨49, h49⟩ 0 * win0_28.size 0 ≤ (i 0 : Nat)
          ∧ (i 0 : Nat) < win0_28.index ⟨49, h49⟩ 0 * win0_28.size 0 + win0_28.xsize (grid0.coords ⟨49, h49⟩) 0
        rw [show win0_28.index ⟨49, h49⟩ 0 * win0_28.size 0 = 0 from by decide +kernel,
          show win0_28.xsize (grid0.coords ⟨49, h49⟩) 0 = 1 from by decide +kernel]
        omega
      | ⟨1, _⟩ =>
        show win0_28.index ⟨49, h49⟩ 1 * win0_28.size 1 ≤ (i 1 : Nat)
          ∧ (i 1 : Nat) < win0_28.index ⟨49, h49⟩ 1 * win0_28.size 1 + win0_28.xsize (grid0.coords ⟨49, h49⟩) 1
        rw [show win0_28.index ⟨49, h49⟩ 1 * win0_28.size 1 = 0 from by decide +kernel,
          show win0_28.xsize (grid0.coords ⟨49, h49⟩) 1 = 256 from by decide +kernel]
        omega⟩

/-- The run, read: the result array at the epilogue of the recurrence's final state, every argument unchanged. -/
theorem run : θ_run defs (onTc (τ := τ) (main (F := F))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final28 m c), (h c).2⟩) (run_blocks m ρ)

end Cert.KernelIdeal.KRun

end
-- ==== Proof.Spec.lean ====
/-
  The value both programs compute, as formulas over the extended reals.

  The operator: two GATv2 attention aggregations over star graphs (100000 view rows and 100000 scene-point
  rows, each attending into ONE global node), between a LayerNorm → ReLU → Linear projection of the previous
  global feature (the attention's target) and a skip + LayerNorm → ReLU → Linear + skip epilogue on the
  [1, 256] global feature.

  This module fixes the argument bundle and the pieces the two programs compute by the same formula
  (the layer norm, the projections); the attention itself is written twice elsewhere — as the softmax over all
  rows the reference takes, and as the running (max, normaliser, weighted sum) recurrence over row blocks the
  kernel runs — and proved equal on finite inputs.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals, indexed by the library's shape index. -/
abbrev A2 (a b : ℕ) : Type := (⟨2, ![a, b]⟩ : Shape).Idx → EReal
/-- A rank-1 array of extended reals. -/
abbrev A1 (a : ℕ) : Type := (⟨1, ![a]⟩ : Shape).Idx → EReal

/-- The 27 argument arrays, in the programs' argument order (arg0 … arg26). -/
structure Args where
  view : A2 100000 128
  sp : A2 100000 128
  g : A2 1 256
  lnvS : A1 256
  lnvB : A1 256
  Wgv : A2 256 128
  bgv : A1 128
  WlV : A2 128 128
  blV : A1 128
  WrV : A2 128 128
  brV : A1 128
  attV : A2 8 16
  biasV : A1 128
  lnsS : A1 256
  lnsB : A1 256
  Wgs : A2 256 128
  bgs : A1 128
  WlS : A2 128 128
  blS : A1 128
  WrS : A2 128 128
  brS : A1 128
  attS : A2 8 16
  biasS : A1 128
  lnpS : A1 256
  lnpB : A1 256
  Wmlp : A2 256 256
  bmlp : A1 256

/-- Every entry of an array is a real number. -/
def Fin2 {a b : ℕ} (x : A2 a b) : Prop := ∀ i, ∃ r : ℝ, x i = (r : EReal)
def Fin1 {a : ℕ} (x : A1 a) : Prop := ∀ i, ∃ r : ℝ, x i = (r : EReal)

/-- Every entry of every argument is a real number: what the precondition `finite_inputs` says. -/
structure Args.Finite (A : Args) : Prop where
  view : Fin2 A.view
  sp : Fin2 A.sp
  g : Fin2 A.g
  lnvS : Fin1 A.lnvS
  lnvB : Fin1 A.lnvB
  Wgv : Fin2 A.Wgv
  bgv : Fin1 A.bgv
  WlV : Fin2 A.WlV
  blV : Fin1 A.blV
  WrV : Fin2 A.WrV
  brV : Fin1 A.brV
  attV : Fin2 A.attV
  biasV : Fin1 A.biasV
  lnsS : Fin1 A.lnsS
  lnsB : Fin1 A.lnsB
  Wgs : Fin2 A.Wgs
  bgs : Fin1 A.bgs
  WlS : Fin2 A.WlS
  blS : Fin1 A.blS
  WrS : Fin2 A.WrS
  brS : Fin1 A.brS
  attS : Fin2 A.attS
  biasS : Fin1 A.biasS
  lnpS : Fin1 A.lnpS
  lnpB : Fin1 A.lnpB
  Wmlp : Fin2 A.Wmlp
  bmlp : Fin1 A.bmlp

/-- The float literals both programs share, kept as their binary words: 256, the layer norm's epsilon
    (the f32 nearest 1e-5) and the leaky-ReLU slope (the f32 nearest 0.2). -/
def c256 : EReal := Ideal.ofBits .f32 0x43800000#32
def eps : EReal := Ideal.ofBits .f32 0x3727C5AC#32
def slope : EReal := Ideal.ofBits .f32 0x3E4CCCCD#32

/-- The mean of a 256-vector: its sum divided by 256. -/
def mean (x : Fin 256 → EReal) : EReal := Ideal.div (∑ k : Fin 256, x k) c256

/-- The biased variance of a 256-vector: the mean of the squared deviations. -/
def var (x : Fin 256 → EReal) : EReal :=
  Ideal.div (∑ k : Fin 256, (x k - mean x) * (x k - mean x)) c256

/-- Layer norm over the 256 features: (x − μ) · (σ² + ε)^(−1/2) · scale + shift. -/
def lnorm (x s b : Fin 256 → EReal) (j : Fin 256) : EReal :=
  (x j - mean x) * Ideal.rsqrt (var x + eps) * s j + b j

/-- The projection of the global feature into a source-node space: relu (lnorm g) · W + bias, a 128-vector. -/
def proj (g s b : Fin 256 → EReal) (W : A2 256 128) (bias : A1 128) (j : Fin 128) : EReal :=
  (∑ i : Fin 256, max (lnorm g s b i) 0 * W (ix2 i j)) + bias (ix1 j)

/-- The global feature as a 256-vector. -/
def gvec (A : Args) (j : Fin 256) : EReal := A.g (ix2 0 j)

/-- The attention target's features, view stream and scene-point stream. -/
def tgtV (A : Args) : Fin 128 → EReal :=
  proj (gvec A) (fun j => A.lnvS (ix1 j)) (fun j => A.lnvB (ix1 j)) A.Wgv A.bgv
def tgtS (A : Args) : Fin 128 → EReal :=
  proj (gvec A) (fun j => A.lnsS (ix1 j)) (fun j => A.lnsB (ix1 j)) A.Wgs A.bgs

/-- The epilogue on the skip-added feature `x` (a 256-vector): x + (relu (lnorm x) · W_mlp + b_mlp). -/
def epilogue (A : Args) (x : Fin 256 → EReal) (j : Fin 256) : EReal :=
  x j + ((∑ i : Fin 256, max (lnorm x (fun k => A.lnpS (ix1 k)) (fun k => A.lnpB (ix1 k)) i) 0 * A.Wmlp (ix2 i j))
    + A.bmlp (ix1 j))

/-- The two attention outputs concatenated along the feature axis and added to the global feature:
    entry j < 128 comes from the view stream, entry 128 + j from the scene-point stream. -/
def skipped (A : Args) (v2g s2g : Fin 128 → EReal) (j : Fin 256) : EReal :=
  gvec A j + (if h : j.val < 128 then v2g ⟨j.val, h⟩ else s2g ⟨j.val - 128, by omega⟩)

/-- The whole result from the two attention outputs. -/
def result (A : Args) (v2g s2g : Fin 128 → EReal) : A2 1 256 :=
  fun i => epilogue A (skipped A v2g s2g) (i 1)

end Cert.Spec

end
-- ==== Proof.Forms.lean ====
/-
  The attention aggregation written twice.

  One stream (view rows or scene-point rows) attends into a single target node. With
    y n j  = Σ_i x n i · Wl i j                     (the projected row, bias left out)
    xl n j = y n j + bl j,   xr j = Σ_i tgt i · Wr i j + br j
    logit n h = Σ_c leaky (xl n (16h+c) + xr (16h+c)) · att h c
  the reference takes the softmax over ALL rows n of `logit · h` and returns Σ_n α n h · xl n (16h+c) + bias.
  The kernel keeps, per lane k = 16h+c, a running maximum m, normaliser s and weighted sum w over blocks of 2000
  rows, rescaling by exp (m_old − m_new) at every block, takes the logits head-replicated across the 16 lanes of a
  head through one product with a block-diagonal matrix, leaves the bias bl out of the streamed sum and adds it
  back once at the end: w / s + (bl + bias).
-/
import proofs.«117868_g33088428049086_cont_sun_c4_530_8_alg».proof.Proof.Spec

noncomputable section

namespace Cert.Spec

open Idealize.ShloMosaic Idealize.ShloMosaic.ValueIdx
open scoped BigOperators

/-! ## The running softmax on one lane -/

namespace Online

/-- One block's update of the running (maximum, normaliser, weighted sum) on one lane: `l` the block's logits,
    `y` the block's values, row by row. -/
def step {B : ℕ} (st : EReal × EReal × EReal) (l y : Fin B → EReal) : EReal × EReal × EReal :=
  (max st.1 (Finset.univ.fold max ⊥ l),
   st.2.1 * Ideal.exp (st.1 - max st.1 (Finset.univ.fold max ⊥ l))
     + ∑ r : Fin B, Ideal.exp (l r - max st.1 (Finset.univ.fold max ⊥ l)),
   st.2.2 * Ideal.exp (st.1 - max st.1 (Finset.univ.fold max ⊥ l))
     + ∑ r : Fin B, Ideal.exp (l r - max st.1 (Finset.univ.fold max ⊥ l)) * y r)

/-- The state after block `t`, from (−∞, 0, 0) before block 0. -/
def run {B : ℕ} (l y : ℕ → Fin B → EReal) : ℕ → EReal × EReal × EReal
  | 0 => step (⊥, 0, 0) (l 0) (y 0)
  | t + 1 => step (run l y t) (l (t + 1)) (y (t + 1))

end Online

/-! ## One stream -/

/-- One attention stream's arrays: the source rows, the target's (projected) features, the two linear maps with
    their biases, the attention vector per head and the output bias. -/
structure Stream where
  x : A2 100000 128
  tgt : Fin 128 → EReal
  Wl : A2 128 128
  bl : A1 128
  Wr : A2 128 128
  br : A1 128
  att : A2 8 16
  bias : A1 128

def Args.streamV (A : Args) : Stream := ⟨A.view, tgtV A, A.WlV, A.blV, A.WrV, A.brV, A.attV, A.biasV⟩
def Args.streamS (A : Args) : Stream := ⟨A.sp, tgtS A, A.WlS, A.blS, A.WrS, A.brS, A.attS, A.biasS⟩

/-- Lane 16h + c of head h, channel c. -/
def hc (h : Fin 8) (c : Fin 16) : Fin 128 := ⟨16 * h.val + c.val, by omega⟩
/-- The head and the channel of a lane. -/
def headOf (k : Fin 128) : Fin 8 := ⟨k.val / 16, by omega⟩
def chanOf (k : Fin 128) : Fin 16 := ⟨k.val % 16, Nat.mod_lt _ (by norm_num)⟩

/-- leaky ReLU with the shared slope, as a choice on the sign. -/
def leaky (z : EReal) : EReal := if 0 ≤ z then z else slope * z

namespace Stream

variable (s : Stream)

/-- The projected row without its bias. -/
def y (n : Fin 100000) (j : Fin 128) : EReal := ∑ i : Fin 128, s.x (ix2 n i) * s.Wl (ix2 i j)

/-! ### As the reference computes it -/

def xl (n : Fin 100000) (j : Fin 128) : EReal := s.y n j + s.bl (ix1 j)
def xr (j : Fin 128) : EReal := (∑ i : Fin 128, s.tgt i * s.Wr (ix2 i j)) + s.br (ix1 j)
def logitR (n : Fin 100000) (h : Fin 8) : EReal :=
  ∑ c : Fin 16, leaky (s.xl n (hc h c) + s.xr (hc h c)) * s.att (ix2 h c)
/-- The maximum of a head's logits over all rows (the softmax's shift). -/
def maxR (h : Fin 8) : EReal := max ⊥ (Finset.univ.fold max ⊥ fun n : Fin 100000 => s.logitR n h)
def pR (n : Fin 100000) (h : Fin 8) : EReal := Ideal.exp (s.logitR n h - s.maxR h)
def alphaR (n : Fin 100000) (h : Fin 8) : EReal := Ideal.div (s.pR n h) (∑ n' : Fin 100000, s.pR n' h)
/-- The reference's aggregation at lane k. -/
def outR (k : Fin 128) : EReal :=
  (∑ n : Fin 100000, s.alphaR n (headOf k) * s.xl n k) + s.bias (ix1 k)

/-! ### As the kernel computes it -/

/-- The target's term with the row bias bl folded in. -/
def xrK (j : Fin 128) : EReal := (s.bl (ix1 j) + ∑ i : Fin 128, s.tgt i * s.Wr (ix2 i j)) + s.br (ix1 j)
/-- leaky ReLU as a maximum (the slope is below one). -/
def eK (n : Fin 100000) (j : Fin 128) : EReal := max (s.y n j + s.xrK j) (slope * (s.y n j + s.xrK j))
/-- The block-diagonal logit matrix: the attention vector's entry of row j, on the lanes of j's own head. -/
def AE (j k : Fin 128) : EReal :=
  (if j.val / 16 = k.val / 16 then (1 : EReal) else 0) * s.att (ix2 (headOf j) (chanOf j))
/-- The head-replicated logit of row n at lane k. -/
def lbK (n : Fin 100000) (k : Fin 128) : EReal := ∑ j : Fin 128, s.eK n j * s.AE j k
/-- Block t's logits and values on lane k (row t·2000 + r); zero past the last block. -/
def lblk (k : Fin 128) (t : ℕ) (r : Fin 2000) : EReal :=
  if h : t < 50 then s.lbK ⟨t * 2000 + r.val, by have := r.isLt; omega⟩ k else 0
def yblk (k : Fin 128) (t : ℕ) (r : Fin 2000) : EReal :=
  if h : t < 50 then s.y ⟨t * 2000 + r.val, by have := r.isLt; omega⟩ k else 0
/-- The running state on lane k after block t. -/
def stateK (k : Fin 128) (t : ℕ) : EReal × EReal × EReal := Online.run (s.lblk k) (s.yblk k) t
/-- The kernel's aggregation at lane k: the weighted sum over the normaliser after the last block, plus the
    two biases added once. -/
def outK (k : Fin 128) : EReal :=
  Ideal.div (s.stateK k 49).2.2 (s.stateK k 49).2.1 + (s.bl (ix1 k) + s.bias (ix1 k))

end Stream

/-- What the reference's program returns, and what the kernel's program returns. -/
def RForm (A : Args) : A2 1 256 := result A A.streamV.outR A.streamS.outR
def KForm (A : Args) : A2 1 256 := result A A.streamV.outK A.streamS.outK

end Cert.Spec

end
-- ==== Proof.ArgsK.lean ====
/-
  The argument arrays of the program, read off a memory, as the bundle the value formulas are written over.
-/
import proofs.«117868_g33088428049086_cont_sun_c4_530_8_alg».proof.KernelIdeal
import proofs.«117868_g33088428049086_cont_sun_c4_530_8_alg».proof.Proof.Spec

noncomputable section

namespace Cert.KernelIdeal

open Idealize.ShloMosaic Idealize.ShloMosaic.TcCoe Idealize.SL.Sem

/-- Core `c`'s 27 argument arrays in the memory `m`, in argument order. -/
def argsOf (m : (ℓ : Loc nD τ sig) → Buf (Elt Ideal) ℓ) (c : Dev nD) : Cert.Spec.Args where
  view := m ((c.tc : Thread nD τ).loc main_arg0)
  sp := m ((c.tc : Thread nD τ).loc main_arg1)
  g := m ((c.tc : Thread nD τ).loc main_arg2)
  lnvS := m ((c.tc : Thread nD τ).loc main_arg3)
  lnvB := m ((c.tc : Thread nD τ).loc main_arg4)
  Wgv := m ((c.tc : Thread nD τ).loc main_arg5)
  bgv := m ((c.tc : Thread nD τ).loc main_arg6)
  WlV := m ((c.tc : Thread nD τ).loc main_arg7)
  blV := m ((c.tc : Thread nD τ).loc main_arg8)
  WrV := m ((c.tc : Thread nD τ).loc main_arg9)
  brV := m ((c.tc : Thread nD τ).loc main_arg10)
  attV := m ((c.tc : Thread nD τ).loc main_arg11)
  biasV := m ((c.tc : Thread nD τ).loc main_arg12)
  lnsS := m ((c.tc : Thread nD τ).loc main_arg13)
  lnsB := m ((c.tc : Thread nD τ).loc main_arg14)
  Wgs := m ((c.tc : Thread nD τ).loc main_arg15)
  bgs := m ((c.tc : Thread nD τ).loc main_arg16)
  WlS := m ((c.tc : Thread nD τ).loc main_arg17)
  blS := m ((c.tc : Thread nD τ).loc main_arg18)
  WrS := m ((c.tc : Thread nD τ).loc main_arg19)
  brS := m ((c.tc : Thread nD τ).loc main_arg20)
  attS := m ((c.tc : Thread nD τ).loc main_arg21)
  biasS := m ((c.tc : Thread nD τ).loc main_arg22)
  lnpS := m ((c.tc : Thread nD τ).loc main_arg23)
  lnpB := m ((c.tc : Thread nD τ).loc main_arg24)
  Wmlp := m ((c.tc : Thread nD τ).loc main_arg25)
  bmlp := m ((c.tc : Thread nD τ).loc main_arg26)

end Cert.KernelIdeal

end
-- ==== Proof.KReadBlk.lean ====
/-
  Each window's block at a grid point, read off the argument arrays.

  The two streamed windows (the view rows and the scene-point rows) move one block of 2000 rows per grid point:
  row r of point t's block is row t · 2000 + r of the array. Every other window's block is its whole array at
  every point, because its index map is constantly zero and its block shape is the array's shape.
-/
import proofs.«117868_g33088428049086_cont_sun_c4_530_8_alg».proof.Proof.KState
import proofs.«117868_g33088428049086_cont_sun_c4_530_8_alg».proof.Proof.ArgsK

noncomputable section

namespace Cert.KernelIdeal.KRead

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The streamed windows -/

/-- The printed index maps of the two streamed windows, decided over the grid: block t along the rows, block 0
    along the features. -/
theorem idx_stream : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row r of the view block at point t is row t · 2000 + r of the view array. -/
theorem bView_apply (c : Dev nD) (t : Fin cfg0.N) (r : Fin 2000) (i : Fin 128) (h : t.val * 2000 + r.val < 100000) :
    KState.bView m c t (ix2 r i) = (argsOf m c).view (ix2 ⟨t.val * 2000 + r.val, h⟩ i) := by
  obtain ⟨e0, e1, -, -⟩ := idx_stream t
  show V m c main_arg0 (((cfg0.win 0).blk t).view.emb (ix2 r i)) = _
  rw [V_main_arg0]
  show m ((c : Thread nD τ).loc main_arg0) _ = m ((c : Thread nD τ).loc main_arg0) _
  refine congrArg _ ?_
  funext a; apply Fin.ext
  match a with
  | ⟨0, _⟩ => show win0_0.index t (0 : Fin 2) * 2000 + 1 * r.val = t.val * 2000 + r.val; omega
  | ⟨1, _⟩ => show win0_0.index t (1 : Fin 2) * 128 + 1 * i.val = i.val; omega

/-- Row r of the scene-point block at point t is row t · 2000 + r of the scene-point array. -/
theorem bSp_apply (c : Dev nD) (t : Fin cfg0.N) (r : Fin 2000) (i : Fin 128) (h : t.val * 2000 + r.val < 100000) :
    KState.bSp m c t (ix2 r i) = (argsOf m c).sp (ix2 ⟨t.val * 2000 + r.val, h⟩ i) := by
  obtain ⟨-, -, e0, e1⟩ := idx_stream t
  show V m c main_arg1 (((cfg0.win 1).blk t).view.emb (ix2 r i)) = _
  rw [V_main_arg1]
  show m ((c : Thread nD τ).loc main_arg1) _ = m ((c : Thread nD τ).loc main_arg1) _
  refine congrArg _ ?_
  funext a; apply Fin.ext
  match a with
  | ⟨0, _⟩ => show win0_1.index t (0 : Fin 2) * 2000 + 1 * r.val = t.val * 2000 + r.val; omega
  | ⟨1, _⟩ => show win0_1.index t (1 : Fin 2) * 128 + 1 * i.val = i.val; omega

/-! ## The whole-array windows

For each of them the block's coordinate a of an index y is 0 · size a + 1 · y a = y a: the block is the array. -/

/-- The embedding of a block whose index is zero on both axes is the identity on coordinates. -/
local macro "whole_block" y:ident : tactic => `(tactic| (
  refine congrArg _ ?_
  funext a; apply Fin.ext
  match a with
  | ⟨0, _⟩ => show 0 * _ + 1 * ($y 0).val = ($y 0).val; omega
  | ⟨1, _⟩ => show 0 * _ + 1 * ($y 1).val = ($y 1).val; omega))

theorem bG_eq (c : Dev nD) (t : Fin cfg0.N) : KState.bG m c t = V m c main_arg2 := by
  funext y; show V m c main_arg2 (((cfg0.win 2).blk t).view.emb y) = V m c main_arg2 y; whole_block y
theorem bLnvS_eq (c : Dev nD) (t : Fin cfg0.N) : KState.bLnvS m c t = V m c main_v20 := by
  funext y; show V m c main_v20 (((cfg0.win 3).blk t).view.emb y) = V m c main_v20 y; whole_block y
theorem bLnvB_eq (c : Dev nD) (t : Fin cfg0.N) : KState.bLnvB m c t = V m c main_v21 := by
  funext y; show V m c main_v21 (((cfg0.win 4).blk t).view.emb y) = V m c main_v21 y; whole_block y
theorem bWgv_eq (c : Dev nD) (t : Fin cfg0.N) : KState.bWgv m c t = V m c main_arg5 := by
  funext y; show V m c main_arg5 (((cfg0.win 5).blk t).view.emb y) = V m c main_arg5 y; whole_block y
theorem bBgv_eq (c : Dev nD) (t : Fin cfg0.N) : KState.bBgv m c t = V m c main_v22 := by
  funext y; show V m c main_v22 (((cfg0.win 6).blk t).view.emb y) = V m c main_v22 y; whole_block y
theorem bWlV_eq (c : Dev nD) (t : Fin cfg0.N) : KState.bWlV m c t = V m c main_arg7 := by
  funext y; show V m c main_arg7 (((cfg0.win 7).blk t).view.emb y) = V m c main_arg7 y; whole_block y
theorem bBlV_eq (c : Dev nD) (t : Fin cfg0.N) : KState.bBlV m c t = V m c main_v23 := by
  funext y; show V m c main_v23 (((cfg0.win 8).blk t).view.emb y) = V m c main_v23 y; whole_block y
theorem bWrV_eq (c : Dev nD) (t : Fin cfg0.N) : KState.bWrV m c t = V m c main_arg9 := by
  funext y; show V m c main_arg9 (((cfg0.win 9).blk t).view.emb y) = V m c main_arg9 y; whole_block y
theorem bBrV_eq (c : Dev nD) (t : Fin cfg0.N) : KState.bBrV m c t = V m c main_v24 := by
  funext y; show V m c main_v24 (((cfg0.win 10).blk t).view.emb y) = V m c main_v24 y; whole_block y
theorem bAEV_eq (c : Dev nD) (t : Fin cfg0.N) : KState.bAEV m c t = V m c main_v11 := by
  funext y; show V m c main_v11 (((cfg0.win 11).blk t).view.emb y) = V m c main_v11 y; whole_block y
theorem bBbV_eq (c : Dev nD) (t : Fin cfg0.N) : KState.bBbV m c t = V m c main_v17 := by
  funext y; show V m c main_v17 (((cfg0.win 12).blk t).view.emb y) = V m c main_v17 y; whole_block y
theorem bLnsS_eq (c : Dev nD) (t : Fin cfg0.N) : KState.bLnsS m c t = V m c main_v25 := by
  funext y; show V m c main_v25 (((cfg0.win 13).blk t).view.emb y) = V m c main_v25 y; whole_block y
theorem bLnsB_eq (c : Dev nD) (t : Fin cfg0.N) : KState.bLnsB m c t = V m c main_v26 := by
  funext y; show V m c main_v26 (((cfg0.win 14).blk t).view.emb y) = V m c main_v26 y; whole_block y
theorem bWgs_eq (c : Dev nD) (t : Fin cfg0.N) : KState.bWgs m c t = V m c main_arg15 := by
  funext y; show V m c main_arg15 (((cfg0.win 15).blk t).view.emb y) = V m c main_arg15 y; whole_block y
theorem bBgs_eq (c : Dev nD) (t : Fin cfg0.N) : KState.bBgs m c t = V m c main_v27 := by
  funext y; show V m c main_v27 (((cfg0.win 16).blk t).view.emb y) = V m c main_v27 y; whole_block y
theorem bWlS_eq (c : Dev nD) (t : Fin cfg0.N) : KState.bWlS m c t = V m c main_arg17 := by
  funext y; show V m c main_arg17 (((cfg0.win 17).blk t).view.emb y) = V m c main_arg17 y; whole_block y
theorem bBlS_eq (c : Dev nD) (t : Fin cfg0.N) : KState.bBlS m c t = V m c main_v28 := by
  funext y; show V m c main_v28 (((cfg0.win 18).blk t).view.emb y) = V m c main_v28 y; whole_block y
theorem bWrS_eq (c : Dev nD) (t : Fin cfg0.N) : KState.bWrS m c t = V m c main_arg19 := by
  funext y; show V m c main_arg19 (((cfg0.win 19).blk t).view.emb y) = V m c main_arg19 y; whole_block y
theorem bBrS_eq (c : Dev nD) (t : Fin cfg0.N) : KState.bBrS m c t = V m c main_v29 := by
  funext y; show V m c main_v29 (((cfg0.win 20).blk t).view.emb y) = V m c main_v29 y; whole_block y
theorem bAES_eq (c : Dev nD) (t : Fin cfg0.N) : KState.bAES m c t = V m c main_v15 := by
  funext y; show V m c main_v15 (((cfg0.win 21).blk t).view.emb y) = V m c main_v15 y; whole_block y
theorem bBbS_eq (c : Dev nD) (t : Fin cfg0.N) : KState.bBbS m c t = V m c main_v19 := by
  funext y; show V m c main_v19 (((cfg0.win 22).blk t).view.emb y) = V m c main_v19 y; whole_block y
theorem bLnpS_eq (c : Dev nD) (t : Fin cfg0.N) : KState.bLnpS m c t = V m c main_v30 := by
  funext y; show V m c main_v30 (((cfg0.win 23).blk t).view.emb y) = V m c main_v30 y; whole_block y
theorem bLnpB_eq (c : Dev nD) (t : Fin cfg0.N) : KState.bLnpB m c t = V m c main_v31 := by
  funext y; show V m c main_v31 (((cfg0.win 24).blk t).view.emb y) = V m c main_v31 y; whole_block y
theorem bWmlp_eq (c : Dev nD) (t : Fin cfg0.N) : KState.bWmlp m c t = V m c main_arg25 := by
  funext y; show V m c main_arg25 (((cfg0.win 25).blk t).view.emb y) = V m c main_arg25 y; whole_block y
theorem bBmlp_eq (c : Dev nD) (t : Fin cfg0.N) : KState.bBmlp m c t = V m c main_v32 := by
  funext y; show V m c main_v32 (((cfg0.win 26).blk t).view.emb y) = V m c main_v32 y; whole_block y
theorem bOnes_eq (c : Dev nD) (t : Fin cfg0.N) : KState.bOnes m c t = V m c main_v33 := by
  funext y; show V m c main_v33 (((cfg0.win 27).blk t).view.emb y) = V m c main_v33 y; whole_block y

/-! ## The argument windows, as the argument bundle's arrays -/

theorem bG_arg (c : Dev nD) (t : Fin cfg0.N) : KState.bG m c t = (argsOf m c).g :=
  (bG_eq m c t).trans (V_main_arg2 m c)
theorem bWgv_arg (c : Dev nD) (t : Fin cfg0.N) : KState.bWgv m c t = (argsOf m c).Wgv :=
  (bWgv_eq m c t).trans (V_main_arg5 m c)
theorem bWlV_arg (c : Dev nD) (t : Fin cfg0.N) : KState.bWlV m c t = (argsOf m c).WlV :=
  (bWlV_eq m c t).trans (V_main_arg7 m c)
theorem bWrV_arg (c : Dev nD) (t : Fin cfg0.N) : KState.bWrV m c t = (argsOf m c).WrV :=
  (bWrV_eq m c t).trans (V_main_arg9 m c)
theorem bWgs_arg (c : Dev nD) (t : Fin cfg0.N) : KState.bWgs m c t = (argsOf m c).Wgs :=
  (bWgs_eq m c t).trans (V_main_arg15 m c)
theorem bWlS_arg (c : Dev nD) (t : Fin cfg0.N) : KState.bWlS m c t = (argsOf m c).WlS :=
  (bWlS_eq m c t).trans (V_main_arg17 m c)
theorem bWrS_arg (c : Dev nD) (t : Fin cfg0.N) : KState.bWrS m c t = (argsOf m c).WrS :=
  (bWrS_eq m c t).trans (V_main_arg19 m c)
theorem bWmlp_arg (c : Dev nD) (t : Fin cfg0.N) : KState.bWmlp m c t = (argsOf m c).Wmlp :=
  (bWmlp_eq m c t).trans (V_main_arg25 m c)

end Cert.KernelIdeal.KRead

end
-- ==== Proof.KPay.lean ====
/-
  The body's stored values, read at one lane.

  One grid point folds a block of 2000 rows into the running (maximum m, normaliser s, weighted sum w) of each
  stream. With y r k = Σ_i x r i · Wl i k the projected row, z r j = y r j + xr j the row plus the target's term,
  e r j = max (z r j) (slope · z r j) the leaky ReLU and l r k = Σ_j e r j · AE j k the head-replicated logit, the
  point stores, on lane k,
      m' = max m (max_r l r k),   s · exp (m − m') + Σ_r exp (l r k − m'),   w · exp (m − m') + Σ_r exp (l r k − m') · y r k,
  the row sums taken as products with a row of ones. Every product of two blocks into the zero splat is, entry by
  entry, the sum over the contracted coordinate; the block maximum starts from the word of −∞, the bottom of the
  extended reals; the casts between equal shapes are the identity. Point 0 first stores m = −∞ and s = w = 0.
-/
import proofs.«117868_g33088428049086_cont_sun_c4_530_8_alg».proof.Proof.Gen.KernelIdeal.Skeleton
import proofs.«117868_g33088428049086_cont_sun_c4_530_8_alg».proof.Proof.Forms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx
open scoped BigOperators

/-- A plain product of an m×k by a k×n block into the zero splat, read at (a, b): the sum over the contracted
    coordinate of the products of the entries. -/
theorem matmul2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The word of −∞ reads as the bottom of the extended reals. -/
theorem ofBits_negInf : Ideal.ofBits .f32 0xFF800000#32 = ⊥ := by simp [Ideal.ofBits, Ideal.ieee]

theorem pay11_apply (i : S1x128.Idx) : (k0_pay11 (F := Ideal)) i = ⊥ := by
  unfold k0_pay11 k0_pay10
  rw [shapeCast_self]
  exact ofBits_negInf

theorem pay14_apply (i : S1x128.Idx) : (k0_pay14 (F := Ideal)) i = 0 := by
  unfold k0_pay14 k0_pay13
  rw [shapeCast_self]
  exact Ideal.ofBits_zero_f32

theorem pay25_apply (x : Vec Ideal S2000x128 .f32) (Wl : Vec Ideal S128x128 .f32) (r : Fin 2000) (k : Fin 128) :
    k0_pay25 x Wl (ix2 r k) = ∑ i : Fin 128, x (ix2 r i) * Wl (ix2 i k) := by
  unfold k0_pay25
  exact matmul2_apply _ _ _ _ _ _

/-! ## What point 0 stores before it streams -/

theorem pay12_apply (i : S1x128.Idx) : (k0_pay12 (F := Ideal)) i = ⊥ := by
  unfold k0_pay12 k0_pay10
  rw [shapeCast_self]
  exact ofBits_negInf

theorem pay15_apply (i : S1x128.Idx) : (k0_pay15 (F := Ideal)) i = 0 := by
  unfold k0_pay15 k0_pay13
  rw [shapeCast_self]
  exact Ideal.ofBits_zero_f32

theorem pay16_apply (i : S1x128.Idx) : (k0_pay16 (F := Ideal)) i = 0 := by
  unfold k0_pay16 k0_pay13
  rw [shapeCast_self]
  exact Ideal.ofBits_zero_f32

theorem pay17_apply (i : S1x128.Idx) : (k0_pay17 (F := Ideal)) i = 0 := by
  unfold k0_pay17 k0_pay13
  rw [shapeCast_self]
  exact Ideal.ofBits_zero_f32

/-! ## The view stream's block terms -/

/-- The projected row r at lane k (the bias left out). -/
def yv (x : Vec Ideal S2000x128 .f32) (Wl : Vec Ideal S128x128 .f32) (k : Fin 128) (r : Fin 2000) : EReal :=
  ∑ i : Fin 128, x (ix2 r i) * Wl (ix2 i k)

/-- The projected row plus the target's term. -/
def zv (x : Vec Ideal S2000x128 .f32) (Wl : Vec Ideal S128x128 .f32) (xr : Vec Ideal S1x128 .f32)
    (r : Fin 2000) (j : Fin 128) : EReal :=
  (∑ i : Fin 128, x (ix2 r i) * Wl (ix2 i j)) + xr (ix2 0 j)

/-- The head-replicated logit of row r at lane k. -/
def lb (x : Vec Ideal S2000x128 .f32) (Wl : Vec Ideal S128x128 .f32) (xr : Vec Ideal S1x128 .f32)
    (AE : Vec Ideal S128x128 .f32) (k : Fin 128) (r : Fin 2000) : EReal :=
  ∑ j : Fin 128, max (zv x Wl xr r j) (Cert.Spec.slope * zv x Wl xr r j) * AE (ix2 j k)

theorem pay26_apply (x : Vec Ideal S2000x128 .f32) (Wl : Vec Ideal S128x128 .f32) (xr : Vec Ideal S1x128 .f32)
    (AE : Vec Ideal S128x128 .f32) (r : Fin 2000) (k : Fin 128) :
    k0_pay26 x Wl xr AE (ix2 r k) = lb x Wl xr AE k r := by
  unfold k0_pay26
  refine (matmul2_apply _ _ _ _ _ _).trans ?_
  unfold lb zv
  refine Finset.sum_congr rfl fun j _ => ?_
  rw [shapeCast_self, maximumf_apply, mulf_apply, addf_apply, broadcast_apply, pay25_apply,
    broadcastTo_1b_ab_apply]
  rfl

/-- The reduced index (k) with the row coordinate r put back is (r, k). -/
theorem lift_rows (h : S2000x128.Reduces [0] S128) (k : Fin 128) (r : Fin 2000) :
    h.lift (ix1 k) r = ix2 r k := by
  funext a; apply Fin.ext
  match a with
  | ⟨0, _⟩ => rfl
  | ⟨1, _⟩ => rfl

/-- The block's maximum over its rows, lane by lane, from −∞. -/
theorem rowmax_apply (src : FVec Ideal S2000x128 .f32) (h : S2000x128.Reduces [0] S128)
    (hφ : FKind.Formats .f32) (hacc : (0xFF800000#32 : BitVec 32) = FKind.maximumf.neutral .f32 hφ) (k : Fin 128) :
    multiReduction .maximumf [0] S128 src 0xFF800000#32 h hφ hacc (ix1 k)
      = Finset.univ.fold max ⊥ (fun r : Fin 2000 => src (ix2 r k)) := by
  refine (Ideal.multiReduction_maximumf_single src 0xFF800000#32 h hφ hacc (ix1 k)).trans ?_
  have hf : (src ∘ h.lift (ix1 k)) = fun r : Fin 2000 => src (ix2 r k) :=
    funext fun r => congrArg src (lift_rows h k r)
  rw [hf]
  show Finset.univ.fold max (Ideal.ofBits .f32 0xFF800000#32) _ = _
  rw [ofBits_negInf]
  rfl

theorem pay27_apply (x : Vec Ideal S2000x128 .f32) (Wl : Vec Ideal S128x128 .f32) (xr : Vec Ideal S1x128 .f32)
    (AE : Vec Ideal S128x128 .f32) (mOld : Vec Ideal S1x128 .f32) (k : Fin 128) :
    k0_pay27 x Wl xr AE mOld (ix2 0 k)
      = max (mOld (ix2 0 k)) (Finset.univ.fold max ⊥ (lb x Wl xr AE k)) := by
  unfold k0_pay27
  refine (maximumf_apply _ _ _).trans ?_
  rw [shapeCast_a_1a_apply]
  refine congrArg (max (mOld (ix2 0 k))) ?_
  refine (rowmax_apply _ _ _ _ k).trans ?_
  exact congrArg (Finset.univ.fold max ⊥) (funext fun r => pay26_apply x Wl xr AE r k)

theorem pay28_apply (x : Vec Ideal S2000x128 .f32) (Wl : Vec Ideal S128x128 .f32) (xr : Vec Ideal S1x128 .f32)
    (AE : Vec Ideal S128x128 .f32) (mOld : Vec Ideal S1x128 .f32) (k : Fin 128) :
    k0_pay28 x Wl xr AE mOld (ix2 0 k)
      = Ideal.exp (mOld (ix2 0 k) - max (mOld (ix2 0 k)) (Finset.univ.fold max ⊥ (lb x Wl xr AE k))) := by
  unfold k0_pay28
  show Ideal.exp (mOld (ix2 0 k) - k0_pay27 x Wl xr AE mOld (ix2 0 k)) = _
  rw [pay27_apply]

theorem pay29_apply (x : Vec Ideal S2000x128 .f32) (Wl : Vec Ideal S128x128 .f32) (xr : Vec Ideal S1x128 .f32)
    (AE : Vec Ideal S128x128 .f32) (mOld : Vec Ideal S1x128 .f32) (r : Fin 2000) (k : Fin 128) :
    k0_pay29 x Wl xr AE mOld (ix2 r k)
      = Ideal.exp (lb x Wl xr AE k r - max (mOld (ix2 0 k)) (Finset.univ.fold max ⊥ (lb x Wl xr AE k))) := by
  unfold k0_pay29
  show Ideal.exp (k0_pay26 x Wl xr AE (ix2 r k)
    - broadcastTo S2000x128 (k0_pay27 x Wl xr AE mOld) Facts₀.broadcasts_S1x128_S2000x128 (ix2 r k)) = _
  rw [pay26_apply, broadcastTo_1b_ab_apply, pay27_apply]

/-- THE VIEW STREAM'S STEP on lane k: the three stored values are one block's update of the running
    (maximum, normaliser, weighted sum), the block's logits being `lb` and its values `yv`. The row sums are
    taken by a product with a row of ones. -/
theorem view_step (x : Vec Ideal S2000x128 .f32) (ones : Vec Ideal S1x2000 .f32) (Wl : Vec Ideal S128x128 .f32)
    (xr : Vec Ideal S1x128 .f32) (AE : Vec Ideal S128x128 .f32) (mOld sOld wOld : Vec Ideal S1x128 .f32)
    (hones : ∀ i, ones i = 1) (k : Fin 128) :
    (k0_pay32 (k0_pay27 x Wl xr AE mOld) (ix2 0 k),
     k0_pay30 x ones Wl xr AE mOld sOld (ix2 0 k),
     k0_pay31 (k0_pay24 ones) (k0_pay25 x Wl) (k0_pay28 x Wl xr AE mOld) (k0_pay29 x Wl xr AE mOld) wOld (ix2 0 k))
      = Cert.Spec.Online.step (mOld (ix2 0 k), sOld (ix2 0 k), wOld (ix2 0 k)) (lb x Wl xr AE k) (yv x Wl k) := by
  have h32 : k0_pay32 (k0_pay27 x Wl xr AE mOld) (ix2 0 k)
      = max (mOld (ix2 0 k)) (Finset.univ.fold max ⊥ (lb x Wl xr AE k)) := by
    unfold k0_pay32
    rw [shapeCast_self, pay27_apply]
  have h30 : k0_pay30 x ones Wl xr AE mOld sOld (ix2 0 k)
      = sOld (ix2 0 k) * Ideal.exp (mOld (ix2 0 k) - max (mOld (ix2 0 k)) (Finset.univ.fold max ⊥ (lb x Wl xr AE k)))
        + ∑ r : Fin 2000, Ideal.exp (lb x Wl xr AE k r - max (mOld (ix2 0 k)) (Finset.univ.fold max ⊥ (lb x Wl xr AE k))) := by
    unfold k0_pay30 k0_pay24
    rw [shapeCast_self, addf_apply, mulf_apply, pay28_apply]
    congr 1
    refine (matmul2_apply _ _ _ _ _ _).trans ?_
    refine Finset.sum_congr rfl fun r _ => ?_
    rw [shapeCast_self, hones, one_mul, pay29_apply]
  have h31 : k0_pay31 (k0_pay24 ones) (k0_pay25 x Wl) (k0_pay28 x Wl xr AE mOld) (k0_pay29 x Wl xr AE mOld) wOld (ix2 0 k)
      = wOld (ix2 0 k) * Ideal.exp (mOld (ix2 0 k) - max (mOld (ix2 0 k)) (Finset.univ.fold max ⊥ (lb x Wl xr AE k)))
        + ∑ r : Fin 2000, Ideal.exp (lb x Wl xr AE k r - max (mOld (ix2 0 k)) (Finset.univ.fold max ⊥ (lb x Wl xr AE k)))
            * yv x Wl k r := by
    unfold k0_pay31 k0_pay24
    rw [shapeCast_self, addf_apply, mulf_apply, pay28_apply]
    congr 1
    refine (matmul2_apply _ _ _ _ _ _).trans ?_
    refine Finset.sum_congr rfl fun r _ => ?_
    rw [shapeCast_self, hones, one_mul, mulf_apply, pay29_apply, pay25_apply]
    rfl
  rw [h32, h30, h31]
  rfl

/-! ## The scene-point stream's block terms: the same formulas over the stream's own values -/

theorem pay34_apply (x : Vec Ideal S2000x128 .f32) (Wl : Vec Ideal S128x128 .f32) (r : Fin 2000) (k : Fin 128) :
    k0_pay34 x Wl (ix2 r k) = ∑ i : Fin 128, x (ix2 r i) * Wl (ix2 i k) := by
  unfold k0_pay34
  exact matmul2_apply _ _ _ _ _ _

theorem pay35_apply (x : Vec Ideal S2000x128 .f32) (Wl : Vec Ideal S128x128 .f32) (xr : Vec Ideal S1x128 .f32)
    (AE : Vec Ideal S128x128 .f32) (r : Fin 2000) (k : Fin 128) :
    k0_pay35 x Wl xr AE (ix2 r k) = lb x Wl xr AE k r := by
  unfold k0_pay35
  refine (matmul2_apply _ _ _ _ _ _).trans ?_
  unfold lb zv
  refine Finset.sum_congr rfl fun j _ => ?_
  rw [shapeCast_self, maximumf_apply, mulf_apply, addf_apply, broadcast_apply, pay34_apply,
    broadcastTo_1b_ab_apply]
  rfl

theorem pay36_apply (x : Vec Ideal S2000x128 .f32) (Wl : Vec Ideal S128x128 .f32) (xr : Vec Ideal S1x128 .f32)
    (AE : Vec Ideal S128x128 .f32) (mOld : Vec Ideal S1x128 .f32) (k : Fin 128) :
    k0_pay36 x Wl xr AE mOld (ix2 0 k)
      = max (mOld (ix2 0 k)) (Finset.univ.fold max ⊥ (lb x Wl xr AE k)) := by
  unfold k0_pay36
  refine (maximumf_apply _ _ _).trans ?_
  rw [shapeCast_a_1a_apply]
  refine congrArg (max (mOld (ix2 0 k))) ?_
  refine (rowmax_apply _ _ _ _ k).trans ?_
  exact congrArg (Finset.univ.fold max ⊥) (funext fun r => pay35_apply x Wl xr AE r k)

theorem pay37_apply (x : Vec Ideal S2000x128 .f32) (Wl : Vec Ideal S128x128 .f32) (xr : Vec Ideal S1x128 .f32)
    (AE : Vec Ideal S128x128 .f32) (mOld : Vec Ideal S1x128 .f32) (k : Fin 128) :
    k0_pay37 x Wl xr AE mOld (ix2 0 k)
      = Ideal.exp (mOld (ix2 0 k) - max (mOld (ix2 0 k)) (Finset.univ.fold max ⊥ (lb x Wl xr AE k))) := by
  unfold k0_pay37
  show Ideal.exp (mOld (ix2 0 k) - k0_pay36 x Wl xr AE mOld (ix2 0 k)) = _
  rw [pay36_apply]

theorem pay38_apply (x : Vec Ideal S2000x128 .f32) (Wl : Vec Ideal S128x128 .f32) (xr : Vec Ideal S1x128 .f32)
    (AE : Vec Ideal S128x128 .f32) (mOld : Vec Ideal S1x128 .f32) (r : Fin 2000) (k : Fin 128) :
    k0_pay38 x Wl xr AE mOld (ix2 r k)
      = Ideal.exp (lb x Wl xr AE k r - max (mOld (ix2 0 k)) (Finset.univ.fold max ⊥ (lb x Wl xr AE k))) := by
  unfold k0_pay38
  show Ideal.exp (k0_pay35 x Wl xr AE (ix2 r k)
    - broadcastTo S2000x128 (k0_pay36 x Wl xr AE mOld) Facts₀.broadcasts_S1x128_S2000x128 (ix2 r k)) = _
  rw [pay35_apply, broadcastTo_1b_ab_apply, pay36_apply]

/-- THE SCENE-POINT STREAM'S STEP on lane k: the same update over that stream's block, weights and state. -/
theorem sp_step (x : Vec Ideal S2000x128 .f32) (ones : Vec Ideal S1x2000 .f32) (Wl : Vec Ideal S128x128 .f32)
    (xr : Vec Ideal S1x128 .f32) (AE : Vec Ideal S128x128 .f32) (mOld sOld wOld : Vec Ideal S1x128 .f32)
    (hones : ∀ i, ones i = 1) (k : Fin 128) :
    (k0_pay3 (k0_pay36 x Wl xr AE mOld) (ix2 0 k),
     k0_pay1 (k0_pay33 ones) (k0_pay37 x Wl xr AE mOld) (k0_pay38 x Wl xr AE mOld) sOld (ix2 0 k),
     k0_pay2 (k0_pay33 ones) (k0_pay34 x Wl) (k0_pay37 x Wl xr AE mOld) (k0_pay38 x Wl xr AE mOld) wOld (ix2 0 k))
      = Cert.Spec.Online.step (mOld (ix2 0 k), sOld (ix2 0 k), wOld (ix2 0 k)) (lb x Wl xr AE k) (yv x Wl k) := by
  have h3 : k0_pay3 (k0_pay36 x Wl xr AE mOld) (ix2 0 k)
      = max (mOld (ix2 0 k)) (Finset.univ.fold max ⊥ (lb x Wl xr AE k)) := by
    unfold k0_pay3
    rw [shapeCast_self, pay36_apply]
  have h1 : k0_pay1 (k0_pay33 ones) (k0_pay37 x Wl xr AE mOld) (k0_pay38 x Wl xr AE mOld) sOld (ix2 0 k)
      = sOld (ix2 0 k) * Ideal.exp (mOld (ix2 0 k) - max (mOld (ix2 0 k)) (Finset.univ.fold max ⊥ (lb x Wl xr AE k)))
        + ∑ r : Fin 2000, Ideal.exp (lb x Wl xr AE k r - max (mOld (ix2 0 k)) (Finset.univ.fold max ⊥ (lb x Wl xr AE k))) := by
    unfold k0_pay1 k0_pay33
    rw [shapeCast_self, addf_apply, mulf_apply, pay37_apply]
    congr 1
    refine (matmul2_apply _ _ _ _ _ _).trans ?_
    refine Finset.sum_congr rfl fun r _ => ?_
    rw [shapeCast_self, hones, one_mul, pay38_apply]
  have h2 : k0_pay2 (k0_pay33 ones) (k0_pay34 x Wl) (k0_pay37 x Wl xr AE mOld) (k0_pay38 x Wl xr AE mOld) wOld (ix2 0 k)
      = wOld (ix2 0 k) * Ideal.exp (mOld (ix2 0 k) - max (mOld (ix2 0 k)) (Finset.univ.fold max ⊥ (lb x Wl xr AE k)))
        + ∑ r : Fin 2000, Ideal.exp (lb x Wl xr AE k r - max (mOld (ix2 0 k)) (Finset.univ.fold max ⊥ (lb x Wl xr AE k)))
            * yv x Wl k r := by
    unfold k0_pay2 k0_pay33
    rw [shapeCast_self, addf_apply, mulf_apply, pay37_apply]
    congr 1
    refine (matmul2_apply _ _ _ _ _ _).trans ?_
    refine Finset.sum_congr rfl fun r _ => ?_
    rw [shapeCast_self, hones, one_mul, mulf_apply, pay38_apply, pay34_apply]
    rfl
  rw [h3, h1, h2]
  rfl

end Cert.KernelIdeal.KPay

end
-- ==== Proof.KPayEnds.lean ====
/-
  The prologue and the epilogue of the body, read at an index.

  Before the first block the body forms, for each stream, the target's term of the pre-activation: the global
  feature goes through the layer norm (mean and variance over its 256 lanes, the reciprocal square root of the
  variance plus ε, scale and shift), a ReLU and a linear map into the 128 source lanes, then through the
  stream's right linear map; the stream's row bias and right bias are added once. After the last block it forms the
  skip-added feature — the global feature plus, side by side, the two streams' weighted sum over normaliser plus
  bias — and applies the second layer norm, ReLU and linear map with the second skip.

  Here these terms are read lane by lane over arbitrary vectors of the right shapes (no memory, no grid): each
  equals the specification's formula at that lane.
-/
import proofs.«117868_g33088428049086_cont_sun_c4_530_8_alg».proof.Proof.Gen.KernelIdeal.Skeleton
import proofs.«117868_g33088428049086_cont_sun_c4_530_8_alg».proof.Proof.Forms
import proofs.«117868_g33088428049086_cont_sun_c4_530_8_alg».proof.Proof.KPay
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx
open Cert.KernelIdeal Cert.KernelIdeal.Gen
open scoped BigOperators

/-! ## The layout and reduction steps of the prologue and epilogue, read at an index -/

/-- The sum along the 256 lanes of a one-row vector. -/
theorem rowSum_apply (x : FVec Ideal S1x256 .f32) (h : S1x256.Reduces [1] S1)
    (hφ : FTy.f32 = FTy.f32 ∨ FTy.f32 = FTy.bf16)
    (hacc : (0x00000000#32 : BitVec FTy.f32.bits) = (0x00000000#32 : BitVec FTy.f32.bits)) (j : S1.Idx) :
    multiReduction (F := Ideal) .add [1] S1 x 0x00000000#32 h hφ hacc j = ∑ k : Fin 256, x (ix2 0 k) := by
  refine (Ideal.multiReduction_add_single x 0x00000000#32 h hφ hacc j).trans ?_
  refine Finset.sum_congr rfl (fun k _ => congrArg x ?_)
  refine Shape.idx_ext₂ ?_ rfl
  have hj : (j 0).val < 1 := (j 0).isLt
  show (j 0).val = 0
  omega

/-- A one-element vector viewed as a 1 × 1 matrix. -/
theorem cast11_apply (x : FVec Ideal S1 .f32) (h : S1.ShapeCasts S1x1) (j : S1x1.Idx) :
    shapeCast S1x1 x h j = x (ix1 0) := by
  obtain ⟨p, q, rfl⟩ : ∃ (p : Fin 1) (q : Fin 1), j = ix2 p q := ⟨j 0, j 1, eq_ix2 j⟩
  have hq : q = 0 := Subsingleton.elim _ _
  subst hq
  exact shapeCast_a_1a_apply x h p 0

/-- A 1 × 1 matrix broadcast along the 256 lanes. -/
theorem bcast11_apply (x : FVec Ideal S1x1 .f32) (h : S1x1.Broadcasts S1x256) (j : S1x256.Idx) :
    broadcastTo S1x256 x h j = x (ix2 0 0) := by
  refine broadcastTo_apply x h j (ix2 0 0) (fun a => ?_)
  have h1 : S1x1.size a = 1 := by
    match a with
    | ⟨0, _⟩ => rfl
    | ⟨1, _⟩ => rfl
  rw [if_pos h1]
  match a with
  | ⟨0, _⟩ => rfl
  | ⟨1, _⟩ => rfl

/-- The same as a function of the reduced index (the form a rewrite of an unfolded payload finds). -/
theorem rowSum_fun (x : FVec Ideal S1x256 .f32) (h : S1x256.Reduces [1] S1)
    (hφ : FTy.f32 = FTy.f32 ∨ FTy.f32 = FTy.bf16)
    (hacc : (0x00000000#32 : BitVec FTy.f32.bits) = (0x00000000#32 : BitVec FTy.f32.bits)) :
    multiReduction (F := Ideal) .add [1] S1 x 0x00000000#32 h hφ hacc = fun _ => ∑ k : Fin 256, x (ix2 0 k) :=
  funext (rowSum_apply x h hφ hacc)

theorem rsqrt_apply {s : Shape} {φ : FTy} (a : FVec Ideal s φ) (i : s.Idx) : rsqrt a i = Ideal.rsqrt (a i) := rfl

theorem scalar_zero : Scalar.ofBits (F := Ideal) .f32 0x00000000#32 = (0 : EReal) := Ideal.ofBits_zero_f32

/-! ### The three products, each into the zero splat -/

/-- A 128-lane row vector times a 128 × 128 matrix. -/
theorem matmul128_apply (v : FVec Ideal S1x128 .f32) (W : FVec Ideal S128x128 .f32) (j : Fin 128) :
    matmul (F := Ideal) dot_S1x128_S128x128_S1x128_1_0_0_1_n_n none v W (constant S1x128 .f32 0x00000000#32) (ix2 0 j)
      = ∑ i : Fin 128, v (ix2 0 i) * W (ix2 i j) :=
  matmul2_apply _ none v W 0 j

/-- A 256-lane row vector times a 256 × 128 matrix. -/
theorem matmul256x128_apply (v : FVec Ideal S1x256 .f32) (W : FVec Ideal S256x128 .f32) (j : Fin 128) :
    matmul (F := Ideal) dot_S1x256_S256x128_S1x128_1_0_0_1_n_n none v W (constant S1x128 .f32 0x00000000#32) (ix2 0 j)
      = ∑ i : Fin 256, v (ix2 0 i) * W (ix2 i j) :=
  matmul2_apply _ none v W 0 j

/-- A 256-lane row vector times a 256 × 256 matrix. -/
theorem matmul256x256_apply (v : FVec Ideal S1x256 .f32) (W : FVec Ideal S256x256 .f32) (j : Fin 256) :
    matmul (F := Ideal) dot_S1x256_S256x256_S1x256_1_0_0_1_n_n none v W (constant S1x256 .f32 0x00000000#32) (ix2 0 j)
      = ∑ i : Fin 256, v (ix2 0 i) * W (ix2 i j) :=
  matmul2_apply _ none v W 0 j

/-! ## The attention target's term -/

theorem pay7_apply (g lnS lnB : Vec Ideal S1x256 .f32) (Wg : Vec Ideal S256x128 .f32) (bg bl br : Vec Ideal S1x128 .f32)
    (Wr : Vec Ideal S128x128 .f32) (j : Fin 128) :
    k0_pay7 (k0_pay5 bl) (k0_pay6 g lnS lnB Wg bg Wr) br (ix2 0 j)
      = (bl (ix2 0 j) + ∑ i : Fin 128,
          Cert.Spec.proj (fun k => g (ix2 0 k)) (fun k => lnS (ix2 0 k)) (fun k => lnB (ix2 0 k)) Wg
            (fun i => bg (ix2 0 (i 0))) i * Wr (ix2 i j)) + br (ix2 0 j) := by
  unfold k0_pay7 k0_pay5 k0_pay6
  simp only []
  rw [rowSum_fun, rowSum_fun]
  simp only [addf_apply, mulf_apply, subf_apply, divf_apply, maximumf_apply, broadcast_apply, rsqrt_apply, shapeCast_self,
    bcast11_apply, cast11_apply, matmul128_apply, matmul256x128_apply, scalar_zero]
  rfl

theorem pay9_apply (g lnS lnB : Vec Ideal S1x256 .f32) (Wg : Vec Ideal S256x128 .f32) (bg bl br : Vec Ideal S1x128 .f32)
    (Wr : Vec Ideal S128x128 .f32) (j : Fin 128) :
    k0_pay9 (k0_pay8 g lnS lnB Wg bg) bl Wr br (ix2 0 j)
      = (bl (ix2 0 j) + ∑ i : Fin 128,
          Cert.Spec.proj (fun k => g (ix2 0 k)) (fun k => lnS (ix2 0 k)) (fun k => lnB (ix2 0 k)) Wg
            (fun i => bg (ix2 0 (i 0))) i * Wr (ix2 i j)) + br (ix2 0 j) := by
  unfold k0_pay9 k0_pay8
  simp only []
  rw [rowSum_fun, rowSum_fun]
  simp only [addf_apply, mulf_apply, subf_apply, divf_apply, maximumf_apply, broadcast_apply, rsqrt_apply, shapeCast_self,
    bcast11_apply, cast11_apply, matmul128_apply, matmul256x128_apply, scalar_zero]
  rfl

/-! ## The epilogue -/

/-- Two 128-lane rows side by side, read at lane j: the first below 128, the second from 128 on. -/
theorem concat_apply (a b : FVec Ideal S1x128 .f32) (h : Shape.Concatenates [S1x128, S1x128] S1x256 1) (j : Fin 256) :
    concatenate S1x256 1 [⟨S1x128, a⟩, ⟨S1x128, b⟩] h (ix2 0 j)
      = if hj : j.val < 128 then a (ix2 0 ⟨j.val, hj⟩) else b (ix2 0 ⟨j.val - 128, by have := j.isLt; omega⟩) := by
  split_ifs with hj
  · refine concatenate_pair_apply_left (t := S1x256) (s₁ := S1x128) (s₂ := S1x128) 1 a b h (ix2 0 j) rfl
      (ix2 0 ⟨j.val, hj⟩) (fun c => ?_)
    match c with
    | ⟨0, _⟩ => rfl
    | ⟨1, _⟩ => rfl
  · refine concatenate_pair_apply_right (t := S1x256) (s₁ := S1x128) (s₂ := S1x128) 1 a b h (ix2 0 j) rfl rfl
      (ix2 0 ⟨j.val - 128, by have := j.isLt; omega⟩) (fun c hc => ?_) ?_
    · match c with
      | ⟨0, _⟩ => rfl
      | ⟨1, _⟩ => exact absurd rfl hc
    · show j.val - 128 + 128 = j.val
      omega

/-- The skip-added global feature as the kernel forms it from the two streams' final states: the global feature
    plus, on lanes below 128, the first stream's weighted sum over its normaliser plus its bias, and on the lanes
    from 128 on the second stream's. -/
def skipK (wV sV bbV wS sS bbS : Vec Ideal S1x128 .f32) (g : Vec Ideal S1x256 .f32) (j : Fin 256) : EReal :=
  g (ix2 0 j) + (if h : j.val < 128 then
      Ideal.div (wV (ix2 0 ⟨j.val, h⟩)) (sV (ix2 0 ⟨j.val, h⟩)) + bbV (ix2 0 ⟨j.val, h⟩)
    else
      Ideal.div (wS (ix2 0 ⟨j.val - 128, by have := j.isLt; omega⟩)) (sS (ix2 0 ⟨j.val - 128, by have := j.isLt; omega⟩))
        + bbS (ix2 0 ⟨j.val - 128, by have := j.isLt; omega⟩))

theorem pay18_apply (wV sV bbV wS sS bbS : Vec Ideal S1x128 .f32) (g : Vec Ideal S1x256 .f32) (j : Fin 256) :
    k0_pay18 wV sV bbV wS sS bbS g (ix2 0 j) = skipK wV sV bbV wS sS bbS g j := by
  unfold k0_pay18 skipK
  simp only [addf_apply]
  rw [concat_apply]
  split_ifs with hj
  · simp only [addf_apply, divf_apply, shapeCast_self]
  · simp only [addf_apply, divf_apply, shapeCast_self]

theorem pay18_fun (wV sV bbV wS sS bbS : Vec Ideal S1x128 .f32) (g : Vec Ideal S1x256 .f32) :
    k0_pay18 wV sV bbV wS sS bbS g = fun i => skipK wV sV bbV wS sS bbS g (i 1) := by
  funext i
  obtain ⟨p, q, rfl⟩ : ∃ (p : Fin 1) (q : Fin 256), i = ix2 p q := ⟨i 0, i 1, eq_ix2 i⟩
  have hp : p = 0 := Subsingleton.elim _ _
  subst hp
  exact pay18_apply wV sV bbV wS sS bbS g q

theorem pay4_apply (wV sV bbV wS sS bbS : Vec Ideal S1x128 .f32) (g lnpS lnpB bmlp : Vec Ideal S1x256 .f32)
    (Wmlp : Vec Ideal S256x256 .f32) (j : Fin 256) :
    k0_pay4 (k0_pay18 wV sV bbV wS sS bbS g) (k0_pay19 lnpS) (k0_pay20 lnpB) (k0_pay22 wV sV bbV wS sS bbS g)
        (k0_pay23 wV sV bbV wS sS bbS g) Wmlp bmlp (ix2 0 j)
      = skipK wV sV bbV wS sS bbS g j
        + ((∑ i : Fin 256, max (Cert.Spec.lnorm (skipK wV sV bbV wS sS bbS g) (fun k => lnpS (ix2 0 k))
              (fun k => lnpB (ix2 0 k)) i) 0 * Wmlp (ix2 i j)) + bmlp (ix2 0 j)) := by
  unfold k0_pay4 k0_pay19 k0_pay20 k0_pay22 k0_pay23 k0_pay21
  rw [pay18_fun]
  simp only []
  rw [rowSum_fun, rowSum_fun]
  simp only [addf_apply, mulf_apply, subf_apply, divf_apply, maximumf_apply, broadcast_apply, rsqrt_apply, shapeCast_self,
    bcast11_apply, cast11_apply, matmul256x256_apply, scalar_zero]
  rfl

end Cert.KernelIdeal.KPay

end
-- ==== Proof.KHost.lean ====
/-
  The operands the program computes before its one kernel call, read at an index.

  Before the kernel runs, the program reshapes each 1-D parameter vector to a row, adds the two bias vectors of
  each stream (bl + bias) into one row, fills a [1, 2000] row with the constant one, and builds for each stream
  the block-diagonal logit matrix: entry (j, k) is the attention vector's entry of lane j when lanes j and k lie
  in the same head (j / 16 = k / 16) and zero otherwise. This module reads each of those arrays, as the kernel
  call finds it, at one index, in terms of the program's argument arrays.
-/
import proofs.«117868_g33088428049086_cont_sun_c4_530_8_alg».proof.Proof.Gen.KernelIdeal.Frame.Runs
import proofs.«117868_g33088428049086_cont_sun_c4_530_8_alg».proof.Proof.Forms
import proofs.«117868_g33088428049086_cont_sun_c4_530_8_alg».proof.Proof.ArgsK
import Idealize.ShloMosaic.Lib.StableHlo.Run
import Idealize.ShloMosaic.Lib.StableHlo.Predicate
import Idealize.ShloMosaic.Lib.ValueIdx
import Idealize.ShloMosaic.Lib.ValueLayout

noncomputable section

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- What one array holds after the operations before the kernel call: each operation's result at its own array,
    every other array as it was. -/
local macro "host_term" : tactic =>
  `(tactic| (dsimp only [Gen.V]
             simp only [Gen.hostOps0, Gen.hostOps0_1, Gen.hostOps0_2, List.flatten_cons, List.flatten_nil,
               List.append_nil, List.cons_append, List.nil_append]
             after_results_simp
             try rfl))

/-! ## The word of the constant one -/

/-- The single-precision word 0x3F800000 (sign 0, exponent 127, fraction 0) denotes 2^23 · 2^(−23) = 1. -/
theorem ofBits_one_f32 : Ideal.ofBits .f32 0x3F800000#32 = (1 : EReal) := by
  simp [Ideal.ofBits, Ideal.ieee]
  rw [← EReal.coe_mul, ← EReal.coe_one]
  congr 1
  norm_num

/-! ## The row of ones -/

theorem V_v33_term : (V m c main_v33 : S1x2000.Idx → EReal)
    = broadcastInDim S1x2000 ![] bcast_S_S1x2000 (constant (F := Ideal) S_ .f32 0x3F800000#32) := by
  host_term

/-- The [1, 2000] row the kernel sums rows with is one everywhere. -/
theorem V_ones (i : S1x2000.Idx) : (V m c main_v33 : S1x2000.Idx → EReal) i = (1 : EReal) := by
  rw [V_v33_term, Predicate.bcast_scalar bcast_S_S1x2000 (by decide), constant_apply]
  exact ofBits_one_f32

/-! ## A vector reshaped to a row -/

/-- A 256-vector as a [1, 256] row reads, at (0, j), the vector at j. -/
theorem row256 (x : S256.Idx → EReal) (j : Fin 256) :
    shapeCast S1x256 x shapeCasts_S256_S1x256 (ix2 (0 : Fin 1) j) = x (ix1 j) :=
  shapeCast_a_1a_apply x shapeCasts_S256_S1x256 0 j

/-- A 128-vector as a [1, 128] row reads, at (0, k), the vector at k. -/
theorem row128 (x : S128.Idx → EReal) (k : Fin 128) :
    shapeCast S1x128 x shapeCasts_S128_S1x128 (ix2 (0 : Fin 1) k) = x (ix1 k) :=
  shapeCast_a_1a_apply x shapeCasts_S128_S1x128 0 k

theorem V_v20_term : (V m c main_v20 : S1x256.Idx → EReal)
    = shapeCast S1x256 (m ((c.tc : Thread nD τ).loc main_arg3) : S256.Idx → EReal) shapeCasts_S256_S1x256 := by
  host_term

/-- The view stream's layer-norm scale as a row. -/
theorem V_row_lnvS (j : Fin 256) :
    (V m c main_v20 : S1x256.Idx → EReal) (ix2 (0 : Fin 1) j) = (argsOf m c).lnvS (ix1 j) := by
  rw [V_v20_term, row256]; rfl

theorem V_v21_term : (V m c main_v21 : S1x256.Idx → EReal)
    = shapeCast S1x256 (m ((c.tc : Thread nD τ).loc main_arg4) : S256.Idx → EReal) shapeCasts_S256_S1x256 := by
  host_term

/-- The view stream's layer-norm shift as a row. -/
theorem V_row_lnvB (j : Fin 256) :
    (V m c main_v21 : S1x256.Idx → EReal) (ix2 (0 : Fin 1) j) = (argsOf m c).lnvB (ix1 j) := by
  rw [V_v21_term, row256]; rfl

theorem V_v22_term : (V m c main_v22 : S1x128.Idx → EReal)
    = shapeCast S1x128 (m ((c.tc : Thread nD τ).loc main_arg6) : S128.Idx → EReal) shapeCasts_S128_S1x128 := by
  host_term

/-- The view stream's projection bias as a row. -/
theorem V_row_bgv (k : Fin 128) :
    (V m c main_v22 : S1x128.Idx → EReal) (ix2 (0 : Fin 1) k) = (argsOf m c).bgv (ix1 k) := by
  rw [V_v22_term, row128]; rfl

theorem V_v23_term : (V m c main_v23 : S1x128.Idx → EReal)
    = shapeCast S1x128 (m ((c.tc : Thread nD τ).loc main_arg8) : S128.Idx → EReal) shapeCasts_S128_S1x128 := by
  host_term

/-- The view stream's source-side bias bl as a row. -/
theorem V_row_blV (k : Fin 128) :
    (V m c main_v23 : S1x128.Idx → EReal) (ix2 (0 : Fin 1) k) = (argsOf m c).blV (ix1 k) := by
  rw [V_v23_term, row128]; rfl

theorem V_v24_term : (V m c main_v24 : S1x128.Idx → EReal)
    = shapeCast S1x128 (m ((c.tc : Thread nD τ).loc main_arg10) : S128.Idx → EReal) shapeCasts_S128_S1x128 := by
  host_term

/-- The view stream's target-side bias br as a row. -/
theorem V_row_brV (k : Fin 128) :
    (V m c main_v24 : S1x128.Idx → EReal) (ix2 (0 : Fin 1) k) = (argsOf m c).brV (ix1 k) := by
  rw [V_v24_term, row128]; rfl

theorem V_v25_term : (V m c main_v25 : S1x256.Idx → EReal)
    = shapeCast S1x256 (m ((c.tc : Thread nD τ).loc main_arg13) : S256.Idx → EReal) shapeCasts_S256_S1x256 := by
  host_term

/-- The scene-point stream's layer-norm scale as a row. -/
theorem V_row_lnsS (j : Fin 256) :
    (V m c main_v25 : S1x256.Idx → EReal) (ix2 (0 : Fin 1) j) = (argsOf m c).lnsS (ix1 j) := by
  rw [V_v25_term, row256]; rfl

theorem V_v26_term : (V m c main_v26 : S1x256.Idx → EReal)
    = shapeCast S1x256 (m ((c.tc : Thread nD τ).loc main_arg14) : S256.Idx → EReal) shapeCasts_S256_S1x256 := by
  host_term

/-- The scene-point stream's layer-norm shift as a row. -/
theorem V_row_lnsB (j : Fin 256) :
    (V m c main_v26 : S1x256.Idx → EReal) (ix2 (0 : Fin 1) j) = (argsOf m c).lnsB (ix1 j) := by
  rw [V_v26_term, row256]; rfl

theorem V_v27_term : (V m c main_v27 : S1x128.Idx → EReal)
    = shapeCast S1x128 (m ((c.tc : Thread nD τ).loc main_arg16) : S128.Idx → EReal) shapeCasts_S128_S1x128 := by
  host_term

/-- The scene-point stream's projection bias as a row. -/
theorem V_row_bgs (k : Fin 128) :
    (V m c main_v27 : S1x128.Idx → EReal) (ix2 (0 : Fin 1) k) = (argsOf m c).bgs (ix1 k) := by
  rw [V_v27_term, row128]; rfl

theorem V_v28_term : (V m c main_v28 : S1x128.Idx → EReal)
    = shapeCast S1x128 (m ((c.tc : Thread nD τ).loc main_arg18) : S128.Idx → EReal) shapeCasts_S128_S1x128 := by
  host_term

/-- The scene-point stream's source-side bias bl as a row. -/
theorem V_row_blS (k : Fin 128) :
    (V m c main_v28 : S1x128.Idx → EReal) (ix2 (0 : Fin 1) k) = (argsOf m c).blS (ix1 k) := by
  rw [V_v28_term, row128]; rfl

theorem V_v29_term : (V m c main_v29 : S1x128.Idx → EReal)
    = shapeCast S1x128 (m ((c.tc : Thread nD τ).loc main_arg20) : S128.Idx → EReal) shapeCasts_S128_S1x128 := by
  host_term

/-- The scene-point stream's target-side bias br as a row. -/
theorem V_row_brS (k : Fin 128) :
    (V m c main_v29 : S1x128.Idx → EReal) (ix2 (0 : Fin 1) k) = (argsOf m c).brS (ix1 k) := by
  rw [V_v29_term, row128]; rfl

theorem V_v30_term : (V m c main_v30 : S1x256.Idx → EReal)
    = shapeCast S1x256 (m ((c.tc : Thread nD τ).loc main_arg23) : S256.Idx → EReal) shapeCasts_S256_S1x256 := by
  host_term

/-- The epilogue's layer-norm scale as a row. -/
theorem V_row_lnpS (j : Fin 256) :
    (V m c main_v30 : S1x256.Idx → EReal) (ix2 (0 : Fin 1) j) = (argsOf m c).lnpS (ix1 j) := by
  rw [V_v30_term, row256]; rfl

theorem V_v31_term : (V m c main_v31 : S1x256.Idx → EReal)
    = shapeCast S1x256 (m ((c.tc : Thread nD τ).loc main_arg24) : S256.Idx → EReal) shapeCasts_S256_S1x256 := by
  host_term

/-- The epilogue's layer-norm shift as a row. -/
theorem V_row_lnpB (j : Fin 256) :
    (V m c main_v31 : S1x256.Idx → EReal) (ix2 (0 : Fin 1) j) = (argsOf m c).lnpB (ix1 j) := by
  rw [V_v31_term, row256]; rfl

theorem V_v32_term : (V m c main_v32 : S1x256.Idx → EReal)
    = shapeCast S1x256 (m ((c.tc : Thread nD τ).loc main_arg26) : S256.Idx → EReal) shapeCasts_S256_S1x256 := by
  host_term

/-- The epilogue's linear bias as a row. -/
theorem V_row_bmlp (j : Fin 256) :
    (V m c main_v32 : S1x256.Idx → EReal) (ix2 (0 : Fin 1) j) = (argsOf m c).bmlp (ix1 j) := by
  rw [V_v32_term, row256]; rfl

/-! ## The two bias vectors of a stream added, as a row -/

theorem V_v17_term : (V m c main_v17 : S1x128.Idx → EReal)
    = (shapeCast S1x128 (addf (F := Ideal) (s := S128) (φ := .f32) (m ((c.tc : Thread nD τ).loc main_arg8))
        (m ((c.tc : Thread nD τ).loc main_arg12))) shapeCasts_S128_S1x128 : S1x128.Idx → EReal) := by
  host_term

/-- The view stream's bl + bias as a row. -/
theorem V_bbV (k : Fin 128) :
    (V m c main_v17 : S1x128.Idx → EReal) (ix2 (0 : Fin 1) k)
      = (argsOf m c).blV (ix1 k) + (argsOf m c).biasV (ix1 k) := by
  rw [V_v17_term, row128, addf_apply]; rfl

theorem V_v19_term : (V m c main_v19 : S1x128.Idx → EReal)
    = (shapeCast S1x128 (addf (F := Ideal) (s := S128) (φ := .f32) (m ((c.tc : Thread nD τ).loc main_arg18))
        (m ((c.tc : Thread nD τ).loc main_arg22))) shapeCasts_S128_S1x128 : S1x128.Idx → EReal) := by
  host_term

/-- The scene-point stream's bl + bias as a row. -/
theorem V_bbS (k : Fin 128) :
    (V m c main_v19 : S1x128.Idx → EReal) (ix2 (0 : Fin 1) k)
      = (argsOf m c).blS (ix1 k) + (argsOf m c).biasS (ix1 k) := by
  rw [V_v19_term, row128, addf_apply]; rfl

end Cert.KernelIdeal.KHost

end
-- ==== Proof.KHostAE.lean ====
/-
  The two block-diagonal logit matrices the program builds before its one kernel call, read at an entry.

  For each stream the program forms, from the lane numbers 0 … 127, the head number of every lane by a floor
  division by 16 (spelt on 32-bit words: quotient toward zero, sign test, remainder test, correction by one),
  compares the head numbers of row lane j and column lane k, converts the one-bit answer to a float, and
  multiplies by the attention vector's entry of lane j (the [8, 16] array read row-major: head j / 16, channel
  j mod 16). Entry (j, k) is therefore the attention entry of lane j when j / 16 = k / 16 and zero otherwise.
  The floor division is settled on the words alone, lane by lane; the arrays are only ever read at one index.
-/
import proofs.«117868_g33088428049086_cont_sun_c4_530_8_alg».proof.Proof.Gen.KernelIdeal.Frame.Runs
import proofs.«117868_g33088428049086_cont_sun_c4_530_8_alg».proof.Proof.Forms
import proofs.«117868_g33088428049086_cont_sun_c4_530_8_alg».proof.Proof.ArgsK
import Idealize.ShloMosaic.Lib.StableHlo.Run
import Idealize.ShloMosaic.Lib.StableHlo.Predicate
import Idealize.ShloMosaic.Lib.ValueIdx
import Idealize.ShloMosaic.Lib.ValueLayout

noncomputable section

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-! ## Floor division by 16 on words -/

/-- The sign of a word: 0, −1 or 1. -/
def sgnW (x : BitVec 32) : BitVec 32 := if x = 0 then 0 else if x.msb then -1 else 1

/-- Floor division by 16 as the program spells it on one word: the quotient rounded toward zero, less one when
    the signs of dividend and divisor differ and the remainder is not zero. -/
def fdivW (x : BitVec 32) : BitVec 32 :=
  Scalar.select
    (IntOp.andi (IntOp.cmpi .ne (sgnW x) (sgnW 16#32)) (IntOp.cmpi .ne (IntOp.remsi .host x 16#32) 0#32))
    (IntOp.subi (IntOp.divsi .host x 16#32) 1#32)
    (IntOp.divsi .host x 16#32)

/-- On the lane numbers 0 … 127 it is the natural quotient: every lane number is non-negative, so no correction
    applies. Checked lane by lane on the 32-bit words. -/
theorem fdivW_eq : ∀ j : Fin 128, fdivW (BitVec.ofNat 32 j.val) = BitVec.ofNat 32 (j.val / 16) := by
  decide +kernel

/-- The lanes' head numbers as the program computes them, on the whole vector of lane numbers. -/
def headWords : IVec S128 32 :=
  select
    (andi (cmpi .ne (signi (iotaInDim S128 32 0)) (broadcastInDim S128 ![] bcast_S_S128 (signi (constantI S_ 32 16#32))))
      (cmpi .ne (Host.remsi (iotaInDim S128 32 0) (broadcastInDim S128 ![] bcast_S_S128 (constantI S_ 32 16#32)))
        (broadcastInDim S128 ![] bcast_S_S128 (constantI S_ 32 0#32))))
    (subi (Host.divsi (iotaInDim S128 32 0) (broadcastInDim S128 ![] bcast_S_S128 (constantI S_ 32 16#32)))
      (broadcastInDim S128 ![] bcast_S_S128 (constantI S_ 32 1#32)))
    (Host.divsi (iotaInDim S128 32 0) (broadcastInDim S128 ![] bcast_S_S128 (constantI S_ 32 16#32)))

theorem headWords_apply (j : Fin 128) : headWords (ix1 j) = BitVec.ofNat 32 (j.val / 16) :=
  (show headWords (ix1 j) = fdivW (BitVec.ofNat 32 j.val) from rfl).trans (fdivW_eq j)

/-! ## A compare of two small words, converted to a float -/

theorem ofNat32_inj {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The one-bit result of an equality compare, read as an unsigned integer into a float, is 1 or 0. -/
theorem uitofp_cmpi_eq (x y : BitVec 32) :
    FloatOps.uitofp (F := Ideal) .f32 (IntOp.cmpi .eq x y) = if x = y then (1 : EReal) else 0 := by
  show (((IntOp.cmpi .eq x y).toNat : ℝ) : EReal) = _
  by_cases h : x = y
  · simp [IntOp.cmpi, h]
  · simp [IntOp.cmpi, h]

theorem ofFin_eq_ix1 {n : ℕ} (k : Fin n) : Shape.Idx.ofFin k = ix1 k := by
  funext a; match a with | ⟨0, _⟩ => exact Fin.ext rfl

/-! ## The block-diagonal matrix read at an entry -/

/-- Over any head-number vector `W` with `W j = j / 16` and any [8, 16] attention array: entry (j, k) of
    (W[:, None] == W[None, :]) · att.reshape(128)[:, None]. -/
theorem AE_read (W : S128.Idx → BitVec 32) (att : S8x16.Idx → EReal)
    (hW : ∀ j : Fin 128, W (ix1 j) = BitVec.ofNat 32 (j.val / 16)) (j k : Fin 128) :
    mulf (F := Ideal)
      (uitofp (F := Ideal) .f32
        (cmpi .eq
          (broadcastInDim S128x128 ![0, 1] bcast_S128x1_S128x128_0_1 (broadcastInDim S128x1 ![0] bcast_S128_S128x1_0 W))
          (broadcastInDim S128x128 ![0, 1] bcast_S1x128_S128x128_0_1 (broadcastInDim S1x128 ![1] bcast_S128_S1x128_1 W))))
      (broadcastInDim S128x128 ![0, 1] bcast_S128x1_S128x128_0_1
        (broadcastInDim S128x1 ![0] bcast_S128_S128x1_0 (shapeCast S128 att shapeCasts_S8x16_S128)))
      (ix2 j k)
    = (if j.val / 16 = k.val / 16 then (1 : EReal) else 0) * att (ix2 (Cert.Spec.headOf j) (Cert.Spec.chanOf j)) := by
  have hA : broadcastInDim S128x128 ![0, 1] bcast_S128x1_S128x128_0_1 (broadcastInDim S128x1 ![0] bcast_S128_S128x1_0 W) (ix2 j k)
      = BitVec.ofNat 32 (j.val / 16) :=
    ((Predicate.bcast_rows bcast_S128_S128x1_0 bcast_S128x1_S128x128_0_1 W j k).trans (congrArg W (ofFin_eq_ix1 j))).trans (hW j)
  have hB : broadcastInDim S128x128 ![0, 1] bcast_S1x128_S128x128_0_1 (broadcastInDim S1x128 ![1] bcast_S128_S1x128_1 W) (ix2 j k)
      = BitVec.ofNat 32 (k.val / 16) :=
    ((Predicate.bcast_cols bcast_S128_S1x128_1 bcast_S1x128_S128x128_0_1 W j k).trans (congrArg W (ofFin_eq_ix1 k))).trans (hW k)
  have hC : broadcastInDim S128x128 ![0, 1] bcast_S128x1_S128x128_0_1
        (broadcastInDim S128x1 ![0] bcast_S128_S128x1_0 (shapeCast S128 att shapeCasts_S8x16_S128)) (ix2 j k)
      = att (ix2 (Cert.Spec.headOf j) (Cert.Spec.chanOf j)) := by
    refine ((Predicate.bcast_rows bcast_S128_S128x1_0 bcast_S128x1_S128x128_0_1 _ j k).trans
      (congrArg _ (ofFin_eq_ix1 j))).trans ?_
    exact shapeCast_apply att shapeCasts_S8x16_S128 (ix1 j) (ix2 (Cert.Spec.headOf j) (Cert.Spec.chanOf j)) (by
      rw [Shape.rowMajor_val_two, Shape.rowMajor_val_one]
      show j.val / 16 * 16 + j.val % 16 = j.val
      omega)
  rw [mulf_apply, hC]
  congr 1
  show FloatOps.uitofp (F := Ideal) .f32 (IntOp.cmpi .eq _ _) = _
  rw [hA, hB, uitofp_cmpi_eq]
  have hj := j.isLt
  have hk := k.isLt
  rw [if_congr (ofNat32_inj (a := j.val / 16) (b := k.val / 16) (by omega) (by omega)) rfl rfl]

/-! ## The arrays before the kernel call, stretch by stretch -/

/-- The operations before the kernel call are three stretches run in order. -/
theorem V_split (b : Ref sig .tc) :
    V m c b = StableHlo.after (hostOps0_2 (F := Ideal)) (StableHlo.after (hostOps0_1 (F := Ideal))
      (StableHlo.after (hostOps0 (F := Ideal)) (fun b => m (c, b)))) (Proc.devRef .tc b) := by
  dsimp only [Gen.V]
  simp only [List.flatten_cons, List.flatten_nil, List.append_nil, StableHlo.after_append]

/-- After the first two stretches the head numbers of the lanes sit in their array, whatever was held before. -/
theorem after01_v1 (V0 : Valuation τ sig (Elt Ideal)) :
    (StableHlo.after (hostOps0_1 (F := Ideal)) (StableHlo.after (hostOps0 (F := Ideal)) V0) (Proc.devRef .tc main_v1)
      : S128.Idx → BitVec 32) = headWords := by
  simp only [Gen.hostOps0, Gen.hostOps0_1]
  after_results_simp
  try simp only [TRef.ofBuf, TRef.toBuf, cast_eq]
  try rfl

/-- The first two stretches leave the two attention arrays as they were. -/
theorem after01_arg11 (V0 : Valuation τ sig (Elt Ideal)) :
    StableHlo.after (hostOps0_1 (F := Ideal)) (StableHlo.after (hostOps0 (F := Ideal)) V0) (Proc.devRef .tc main_arg11)
      = V0 (Proc.devRef .tc main_arg11) := by
  simp only [Gen.hostOps0, Gen.hostOps0_1]
  after_results_simp

theorem after01_arg21 (V0 : Valuation τ sig (Elt Ideal)) :
    StableHlo.after (hostOps0_1 (F := Ideal)) (StableHlo.after (hostOps0 (F := Ideal)) V0) (Proc.devRef .tc main_arg21)
      = V0 (Proc.devRef .tc main_arg21) := by
  simp only [Gen.hostOps0, Gen.hostOps0_1]
  after_results_simp

/-- The third stretch builds the view stream's matrix from the head numbers and the attention array it finds. -/
theorem after2_v11 (V1 : Valuation τ sig (Elt Ideal)) :
    (StableHlo.after (hostOps0_2 (F := Ideal)) V1 (Proc.devRef .tc main_v11) : S128x128.Idx → EReal)
      = mulf (F := Ideal)
          (uitofp (F := Ideal) .f32
            (cmpi .eq
              (broadcastInDim S128x128 ![0, 1] bcast_S128x1_S128x128_0_1
                (broadcastInDim S128x1 ![0] bcast_S128_S128x1_0 (V1 (Proc.devRef .tc main_v1) : S128.Idx → BitVec 32)))
              (broadcastInDim S128x128 ![0, 1] bcast_S1x128_S128x128_0_1
                (broadcastInDim S1x128 ![1] bcast_S128_S1x128_1 (V1 (Proc.devRef .tc main_v1) : S128.Idx → BitVec 32)))))
          (broadcastInDim S128x128 ![0, 1] bcast_S128x1_S128x128_0_1
            (broadcastInDim S128x1 ![0] bcast_S128_S128x1_0
              (shapeCast S128 (V1 (Proc.devRef .tc main_arg11) : S8x16.Idx → EReal) shapeCasts_S8x16_S128))) := by
  simp only [Gen.hostOps0_2]
  after_results_simp
  try rfl

/-- Likewise the scene-point stream's matrix. -/
theorem after2_v15 (V1 : Valuation τ sig (Elt Ideal)) :
    (StableHlo.after (hostOps0_2 (F := Ideal)) V1 (Proc.devRef .tc main_v15) : S128x128.Idx → EReal)
      = mulf (F := Ideal)
          (uitofp (F := Ideal) .f32
            (cmpi .eq
              (broadcastInDim S128x128 ![0, 1] bcast_S128x1_S128x128_0_1
                (broadcastInDim S128x1 ![0] bcast_S128_S128x1_0 (V1 (Proc.devRef .tc main_v1) : S128.Idx → BitVec 32)))
              (broadcastInDim S128x128 ![0, 1] bcast_S1x128_S128x128_0_1
                (broadcastInDim S1x128 ![1] bcast_S128_S1x128_1 (V1 (Proc.devRef .tc main_v1) : S128.Idx → BitVec 32)))))
          (broadcastInDim S128x128 ![0, 1] bcast_S128x1_S128x128_0_1
            (broadcastInDim S128x1 ![0] bcast_S128_S128x1_0
              (shapeCast S128 (V1 (Proc.devRef .tc main_arg21) : S8x16.Idx → EReal) shapeCasts_S8x16_S128))) := by
  simp only [Gen.hostOps0_2]
  after_results_simp
  try rfl

/-! ## The two matrices as the kernel call finds them -/

/-- The view stream's block-diagonal logit matrix. -/
theorem V_AEV (j k : Fin 128) :
    (V m c main_v11 : S128x128.Idx → EReal) (ix2 j k) = (argsOf m c).streamV.AE j k := by
  rw [V_split, after2_v11, after01_v1, after01_arg11]
  exact AE_read headWords _ headWords_apply j k

/-- The scene-point stream's block-diagonal logit matrix. -/
theorem V_AES (j k : Fin 128) :
    (V m c main_v15 : S128x128.Idx → EReal) (ix2 j k) = (argsOf m c).streamS.AE j k := by
  rw [V_split, after2_v15, after01_v1, after01_arg21]
  exact AE_read headWords _ headWords_apply j k

end Cert.KernelIdeal.KHost

end
-- ==== Proof.KRead.lean ====
/-
  From the kernel's pure recurrence to the formula.

  The kernel's eight scratch vectors after grid point n are, lane by lane, the running softmax of the two
  streams: on lane k the triple (m, s, w) is the state Online.run reaches after block n of 2000 rows, and the
  target term xr is the constant xrK k. Each point's update is one Online.step whose logits and values are the
  payload's block terms; once the blocks are read off the argument arrays (row r of block t is row t · 2000 + r;
  every other window is its whole array; the host-made rows, the block-diagonal logit matrix and the row of ones
  are what the host operations computed) those terms are the formula's lblk and yblk. The last point's write is
  the epilogue of the skip-added feature, whose two halves are w / s + (bl + bias) of the two final states.
-/
import proofs.«117868_g33088428049086_cont_sun_c4_530_8_alg».proof.Proof.KState
import proofs.«117868_g33088428049086_cont_sun_c4_530_8_alg».proof.Proof.Forms
import proofs.«117868_g33088428049086_cont_sun_c4_530_8_alg».proof.Proof.ArgsK
import proofs.«117868_g33088428049086_cont_sun_c4_530_8_alg».proof.Proof.KReadBlk
import proofs.«117868_g33088428049086_cont_sun_c4_530_8_alg».proof.Proof.KPay
import proofs.«117868_g33088428049086_cont_sun_c4_530_8_alg».proof.Proof.KPayEnds
import proofs.«117868_g33088428049086_cont_sun_c4_530_8_alg».proof.Proof.KHost
import proofs.«117868_g33088428049086_cont_sun_c4_530_8_alg».proof.Proof.KHostAE

noncomputable section

namespace Cert.KernelIdeal.KRead

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-! ## A block's logits and values, over variables

Stated over variables of the literal vector types, with the reads as hypotheses; instantiated at the blocks below. -/

section abstract

open Cert.Spec

/-- Block t's values on lane k: the projected rows t · 2000 + r. -/
theorem yv_eq_yblk (s : Stream) (x : Vec Ideal S2000x128 .f32) (Wl : Vec Ideal S128x128 .f32) (k : Fin 128)
    (t : ℕ) (ht : t < 50)
    (hx : ∀ (r : Fin 2000) (i : Fin 128) (h : t * 2000 + r.val < 100000), x (ix2 r i) = s.x (ix2 ⟨t * 2000 + r.val, h⟩ i))
    (hWl : Wl = s.Wl) :
    KPay.yv x Wl k = s.yblk k t := by
  funext r
  have h : t * 2000 + r.val < 100000 := by have := r.isLt; omega
  simp only [KPay.yv, Stream.yblk, dif_pos ht, Stream.y, hx r _ h, hWl]

/-- Block t's head-replicated logits on lane k. -/
theorem lb_eq_lblk (s : Stream) (x : Vec Ideal S2000x128 .f32) (Wl : Vec Ideal S128x128 .f32)
    (xr : Vec Ideal S1x128 .f32) (AE : Vec Ideal S128x128 .f32) (k : Fin 128) (t : ℕ) (ht : t < 50)
    (hx : ∀ (r : Fin 2000) (i : Fin 128) (h : t * 2000 + r.val < 100000), x (ix2 r i) = s.x (ix2 ⟨t * 2000 + r.val, h⟩ i))
    (hWl : Wl = s.Wl) (hxr : ∀ j : Fin 128, xr (ix2 0 j) = s.xrK j) (hAE : ∀ j k : Fin 128, AE (ix2 j k) = s.AE j k) :
    KPay.lb x Wl xr AE k = s.lblk k t := by
  funext r
  have h : t * 2000 + r.val < 100000 := by have := r.isLt; omega
  simp only [KPay.lb, KPay.zv, Stream.lblk, dif_pos ht, Stream.lbK, Stream.eK, Stream.y, hx r _ h, hWl, hxr, hAE]

end abstract

/-! ## The target's term, over variables -/

section abstract_xr

open Cert.Spec

/-- The stored target term is the stream's xrK once the rows and matrices are read off the arguments. -/
theorem xrK_of_reads (s : Stream) (g' lnS' lnB' : Fin 256 → EReal) (Wg' : A2 256 128) (bg' : A1 128)
    (htgt : s.tgt = proj g' lnS' lnB' Wg' bg')
    (g lnS lnB : Vec Ideal S1x256 .f32) (Wg : Vec Ideal S256x128 .f32) (bg bl br : Vec Ideal S1x128 .f32)
    (Wr : Vec Ideal S128x128 .f32)
    (hg : ∀ k : Fin 256, g (ix2 0 k) = g' k) (hlnS : ∀ k : Fin 256, lnS (ix2 0 k) = lnS' k)
    (hlnB : ∀ k : Fin 256, lnB (ix2 0 k) = lnB' k) (hWg : Wg = Wg')
    (hbg : ∀ k : Fin 128, bg (ix2 0 k) = bg' (ix1 k)) (hbl : ∀ k : Fin 128, bl (ix2 0 k) = s.bl (ix1 k))
    (hbr : ∀ k : Fin 128, br (ix2 0 k) = s.br (ix1 k)) (hWr : Wr = s.Wr) (j : Fin 128) :
    (bl (ix2 0 j) + ∑ i : Fin 128,
        proj (fun k => g (ix2 0 k)) (fun k => lnS (ix2 0 k)) (fun k => lnB (ix2 0 k)) Wg
          (fun i => bg (ix2 0 (i 0))) i * Wr (ix2 i j)) + br (ix2 0 j)
      = s.xrK j := by
  have hbias : (fun i : (⟨1, ![128]⟩ : Shape).Idx => bg (ix2 0 (i 0))) = bg' := by
    funext i
    obtain ⟨k, rfl⟩ : ∃ k : Fin 128, i = ix1 k := ⟨i 0, eq_ix1 i⟩
    exact hbg k
  simp only [hg, hlnS, hlnB, hWg, hbias, hbl, hbr, hWr, Stream.xrK, htgt]

end abstract_xr

/-! ## The last write, over variables -/

section abstract_fin

open Cert.Spec

/-- The epilogue read on the skip-added feature X, with the rows and the weight matrix read off the arguments. -/
theorem result_of_reads (A : Args) (v2g s2g : Fin 128 → EReal) (X : Fin 256 → EReal)
    (lnS lnB : Vec Ideal S1x256 .f32) (W : Vec Ideal S256x256 .f32) (b : Vec Ideal S1x256 .f32)
    (hX : X = skipped A v2g s2g) (hS : ∀ q : Fin 256, lnS (ix2 0 q) = A.lnpS (ix1 q))
    (hB : ∀ q : Fin 256, lnB (ix2 0 q) = A.lnpB (ix1 q)) (hW : W = A.Wmlp)
    (hb : ∀ j : Fin 256, b (ix2 0 j) = A.bmlp (ix1 j)) (j : Fin 256) :
    X j + ((∑ i : Fin 256, max (lnorm X (fun q => lnS (ix2 0 q)) (fun q => lnB (ix2 0 q)) i) 0 * W (ix2 i j)) + b (ix2 0 j))
      = result A v2g s2g (ix2 0 j) := by
  simp only [hX, hS, hB, hW, hb, result, epilogue]

/-- One stream's output on lane k from its final state and the two biases added. -/
theorem outK_of_state (s : Stream) (k : Fin 128) (mF sF wF bb : EReal)
    (hst : (mF, sF, wF) = s.stateK k 49) (hbb : bb = s.bl (ix1 k) + s.bias (ix1 k)) :
    Ideal.div wF sF + bb = s.outK k := by
  have h1 : sF = (s.stateK k 49).2.1 := congrArg (fun p => p.2.1) hst
  have h2 : wF = (s.stateK k 49).2.2 := congrArg (fun p => p.2.2) hst
  rw [h1, h2, hbb]; rfl

end abstract_fin

/-! ## One point's update, read on a lane -/

section
variable (c : Dev nD)

open Cert.Spec

/-- The row of ones the kernel sums rows with is one at every point. -/
theorem bOnes_apply (t : Fin cfg0.N) (i : S1x2000.Idx) : KState.bOnes m c t i = 1 := by
  rw [bOnes_eq]; exact KHost.V_ones m c i

/-- The grid has 50 points. -/
theorem lt50 {n : ℕ} (h : n < cfg0.N) : n < 50 := by
  have e : grid0.N = 50 := N_0
  exact e ▸ h

/-- The view stream's update at point t on lane k: one step of the running softmax with block t's logits and values. -/
theorem streamV_step (t : Fin cfg0.N) (p : KState.St Ideal) (k : Fin 128)
    (hxr : ∀ j : Fin 128, p.xrV (ix2 0 j) = (argsOf m c).streamV.xrK j) :
    ((KState.stream m c t p).mV (ix2 0 k), (KState.stream m c t p).sV (ix2 0 k), (KState.stream m c t p).wV (ix2 0 k))
      = Online.step (p.mV (ix2 0 k), p.sV (ix2 0 k), p.wV (ix2 0 k))
          ((argsOf m c).streamV.lblk k t.val) ((argsOf m c).streamV.yblk k t.val) := by
  have ht : t.val < 50 := lt50 t.isLt
  have hx : ∀ (r : Fin 2000) (i : Fin 128) (h : t.val * 2000 + r.val < 100000),
      KState.bView m c t (ix2 r i) = (argsOf m c).streamV.x (ix2 ⟨t.val * 2000 + r.val, h⟩ i) :=
    fun r i h => bView_apply m c t r i h
  have hAE : ∀ j k : Fin 128, KState.bAEV m c t (ix2 j k) = (argsOf m c).streamV.AE j k :=
    fun j k => by rw [bAEV_eq]; exact KHost.V_AEV m c j k
  refine (KPay.view_step (KState.bView m c t) (KState.bOnes m c t) (KState.bWlV m c t) p.xrV (KState.bAEV m c t)
    p.mV p.sV p.wV (bOnes_apply m c t) k).trans ?_
  exact congrArg₂ (Online.step (p.mV (ix2 0 k), p.sV (ix2 0 k), p.wV (ix2 0 k)))
    (lb_eq_lblk (argsOf m c).streamV (KState.bView m c t) (KState.bWlV m c t) p.xrV (KState.bAEV m c t) k t.val ht hx
      (bWlV_arg m c t) hxr hAE)
    (yv_eq_yblk (argsOf m c).streamV (KState.bView m c t) (KState.bWlV m c t) k t.val ht hx (bWlV_arg m c t))

/-- The scene-point stream's update at point t on lane k. -/
theorem streamS_step (t : Fin cfg0.N) (p : KState.St Ideal) (k : Fin 128)
    (hxr : ∀ j : Fin 128, p.xrS (ix2 0 j) = (argsOf m c).streamS.xrK j) :
    ((KState.stream m c t p).mS (ix2 0 k), (KState.stream m c t p).sS (ix2 0 k), (KState.stream m c t p).wS (ix2 0 k))
      = Online.step (p.mS (ix2 0 k), p.sS (ix2 0 k), p.wS (ix2 0 k))
          ((argsOf m c).streamS.lblk k t.val) ((argsOf m c).streamS.yblk k t.val) := by
  have ht : t.val < 50 := lt50 t.isLt
  have hx : ∀ (r : Fin 2000) (i : Fin 128) (h : t.val * 2000 + r.val < 100000),
      KState.bSp m c t (ix2 r i) = (argsOf m c).streamS.x (ix2 ⟨t.val * 2000 + r.val, h⟩ i) :=
    fun r i h => bSp_apply m c t r i h
  have hAE : ∀ j k : Fin 128, KState.bAES m c t (ix2 j k) = (argsOf m c).streamS.AE j k :=
    fun j k => by rw [bAES_eq]; exact KHost.V_AES m c j k
  refine (KPay.sp_step (KState.bSp m c t) (KState.bOnes m c t) (KState.bWlS m c t) p.xrS (KState.bAES m c t)
    p.mS p.sS p.wS (bOnes_apply m c t) k).trans ?_
  exact congrArg₂ (Online.step (p.mS (ix2 0 k), p.sS (ix2 0 k), p.wS (ix2 0 k)))
    (lb_eq_lblk (argsOf m c).streamS (KState.bSp m c t) (KState.bWlS m c t) p.xrS (KState.bAES m c t) k t.val ht hx
      (bWlS_arg m c t) hxr hAE)
    (yv_eq_yblk (argsOf m c).streamS (KState.bSp m c t) (KState.bWlS m c t) k t.val ht hx (bWlS_arg m c t))

end

/-! ## What point 0 stores first -/

section
variable (c : Dev nD)

open Cert.Spec

/-- The view stream's target term as point 0 stores it. -/
theorem xrV_init (t : Fin cfg0.N) (j : Fin 128) :
    (KState.init m c t).xrV (ix2 0 j) = (argsOf m c).streamV.xrK j := by
  refine (KPay.pay7_apply (KState.bG m c t) (KState.bLnvS m c t) (KState.bLnvB m c t) (KState.bWgv m c t)
    (KState.bBgv m c t) (KState.bBlV m c t) (KState.bBrV m c t) (KState.bWrV m c t) j).trans ?_
  exact xrK_of_reads (argsOf m c).streamV (gvec (argsOf m c)) (fun j => (argsOf m c).lnvS (ix1 j))
    (fun j => (argsOf m c).lnvB (ix1 j)) (argsOf m c).Wgv (argsOf m c).bgv rfl
    (KState.bG m c t) (KState.bLnvS m c t) (KState.bLnvB m c t) (KState.bWgv m c t)
    (KState.bBgv m c t) (KState.bBlV m c t) (KState.bBrV m c t) (KState.bWrV m c t)
    (fun k => by rw [bG_arg]; rfl)
    (fun k => by rw [bLnvS_eq]; exact KHost.V_row_lnvS m c k)
    (fun k => by rw [bLnvB_eq]; exact KHost.V_row_lnvB m c k)
    (bWgv_arg m c t)
    (fun k => by rw [bBgv_eq]; exact KHost.V_row_bgv m c k)
    (fun k => by rw [bBlV_eq]; exact KHost.V_row_blV m c k)
    (fun k => by rw [bBrV_eq]; exact KHost.V_row_brV m c k)
    (bWrV_arg m c t) j

/-- The scene-point stream's target term as point 0 stores it. -/
theorem xrS_init (t : Fin cfg0.N) (j : Fin 128) :
    (KState.init m c t).xrS (ix2 0 j) = (argsOf m c).streamS.xrK j := by
  refine (KPay.pay9_apply (KState.bG m c t) (KState.bLnsS m c t) (KState.bLnsB m c t) (KState.bWgs m c t)
    (KState.bBgs m c t) (KState.bBlS m c t) (KState.bBrS m c t) (KState.bWrS m c t) j).trans ?_
  exact xrK_of_reads (argsOf m c).streamS (gvec (argsOf m c)) (fun j => (argsOf m c).lnsS (ix1 j))
    (fun j => (argsOf m c).lnsB (ix1 j)) (argsOf m c).Wgs (argsOf m c).bgs rfl
    (KState.bG m c t) (KState.bLnsS m c t) (KState.bLnsB m c t) (KState.bWgs m c t)
    (KState.bBgs m c t) (KState.bBlS m c t) (KState.bBrS m c t) (KState.bWrS m c t)
    (fun k => by rw [bG_arg]; rfl)
    (fun k => by rw [bLnsS_eq]; exact KHost.V_row_lnsS m c k)
    (fun k => by rw [bLnsB_eq]; exact KHost.V_row_lnsB m c k)
    (bWgs_arg m c t)
    (fun k => by rw [bBgs_eq]; exact KHost.V_row_bgs m c k)
    (fun k => by rw [bBlS_eq]; exact KHost.V_row_blS m c k)
    (fun k => by rw [bBrS_eq]; exact KHost.V_row_brS m c k)
    (bWrS_arg m c t) j

end

/-! ## The state after point n, lane by lane -/

section
variable (c : Dev nD)

open Cert.Spec

theorem kSt_zero (h : 0 < cfg0.N) :
    KState.kSt m c 0 h = KState.stream m c ⟨0, h⟩ (KState.init m c ⟨0, h⟩) := rfl
theorem kSt_succ (n : ℕ) (h : n + 1 < cfg0.N) :
    KState.kSt m c (n + 1) h = KState.stream m c ⟨n + 1, h⟩ (KState.kSt m c n (Nat.lt_of_succ_lt h)) := rfl

/-- The target terms are stored once, by point 0, and carried unchanged. -/
theorem xrV_kSt (n : ℕ) (h : n < cfg0.N) (j : Fin 128) :
    (KState.kSt m c n h).xrV (ix2 0 j) = (argsOf m c).streamV.xrK j := by
  induction n with
  | zero => rw [kSt_zero]; exact xrV_init m c ⟨0, h⟩ j
  | succ n ih => rw [kSt_succ]; exact ih (Nat.lt_of_succ_lt h)

theorem xrS_kSt (n : ℕ) (h : n < cfg0.N) (j : Fin 128) :
    (KState.kSt m c n h).xrS (ix2 0 j) = (argsOf m c).streamS.xrK j := by
  induction n with
  | zero => rw [kSt_zero]; exact xrS_init m c ⟨0, h⟩ j
  | succ n ih => rw [kSt_succ]; exact ih (Nat.lt_of_succ_lt h)

/-- The view stream's (m, s, w) on lane k after point n is the running softmax's state after block n. -/
theorem stateV_kSt (n : ℕ) (h : n < cfg0.N) (k : Fin 128) :
    ((KState.kSt m c n h).mV (ix2 0 k), (KState.kSt m c n h).sV (ix2 0 k), (KState.kSt m c n h).wV (ix2 0 k))
      = (argsOf m c).streamV.stateK k n := by
  induction n with
  | zero =>
    rw [kSt_zero]
    refine (streamV_step m c ⟨0, h⟩ (KState.init m c ⟨0, h⟩) k (xrV_init m c ⟨0, h⟩)).trans ?_
    show Online.step ((k0_pay11 (F := Ideal)) (ix2 0 k), (k0_pay14 (F := Ideal)) (ix2 0 k), (k0_pay16 (F := Ideal)) (ix2 0 k)) _ _ = _
    rw [KPay.pay11_apply, KPay.pay14_apply, KPay.pay16_apply]
    rfl
  | succ n ih =>
    rw [kSt_succ]
    refine (streamV_step m c ⟨n + 1, h⟩ (KState.kSt m c n (Nat.lt_of_succ_lt h)) k
      (xrV_kSt m c n (Nat.lt_of_succ_lt h))).trans ?_
    rw [ih (Nat.lt_of_succ_lt h)]
    rfl

/-- The scene-point stream's (m, s, w) on lane k after point n. -/
theorem stateS_kSt (n : ℕ) (h : n < cfg0.N) (k : Fin 128) :
    ((KState.kSt m c n h).mS (ix2 0 k), (KState.kSt m c n h).sS (ix2 0 k), (KState.kSt m c n h).wS (ix2 0 k))
      = (argsOf m c).streamS.stateK k n := by
  induction n with
  | zero =>
    rw [kSt_zero]
    refine (streamS_step m c ⟨0, h⟩ (KState.init m c ⟨0, h⟩) k (xrS_init m c ⟨0, h⟩)).trans ?_
    show Online.step ((k0_pay12 (F := Ideal)) (ix2 0 k), (k0_pay15 (F := Ideal)) (ix2 0 k), (k0_pay17 (F := Ideal)) (ix2 0 k)) _ _ = _
    rw [KPay.pay12_apply, KPay.pay15_apply, KPay.pay17_apply]
    rfl
  | succ n ih =>
    rw [kSt_succ]
    refine (streamS_step m c ⟨n + 1, h⟩ (KState.kSt m c n (Nat.lt_of_succ_lt h)) k
      (xrS_kSt m c n (Nat.lt_of_succ_lt h))).trans ?_
    rw [ih (Nat.lt_of_succ_lt h)]
    rfl

end

/-! ## The last point's write -/

section
variable (c : Dev nD)

open Cert.Spec

/-- The skip-added feature the last point forms from the final state is the formula's. -/
theorem skipK_eq (h : 49 < cfg0.N) :
    KPay.skipK (KState.kSt m c 49 h).wV (KState.kSt m c 49 h).sV (KState.bBbV m c ⟨49, h⟩)
        (KState.kSt m c 49 h).wS (KState.kSt m c 49 h).sS (KState.bBbS m c ⟨49, h⟩) (KState.bG m c ⟨49, h⟩)
      = skipped (argsOf m c) (argsOf m c).streamV.outK (argsOf m c).streamS.outK := by
  funext j
  unfold KPay.skipK skipped
  rw [bG_arg]
  refine congrArg (gvec (argsOf m c) j + ·) ?_
  by_cases hj : j.val < 128
  · rw [dif_pos hj, dif_pos hj]
    exact outK_of_state (argsOf m c).streamV ⟨j.val, hj⟩ _ _ _ _ (stateV_kSt m c 49 h ⟨j.val, hj⟩)
      (by rw [bBbV_eq]; exact KHost.V_bbV m c ⟨j.val, hj⟩)
  · rw [dif_neg hj, dif_neg hj]
    exact outK_of_state (argsOf m c).streamS ⟨j.val - 128, by have := j.isLt; omega⟩ _ _ _ _
      (stateS_kSt m c 49 h ⟨j.val - 128, by have := j.isLt; omega⟩)
      (by rw [bBbS_eq]; exact KHost.V_bbS m c ⟨j.val - 128, by have := j.isLt; omega⟩)

/-- WHAT THE LAST POINT WRITES, from the state after point 49, is the kernel-side formula of the arguments. -/
theorem fin_eq (h : 49 < cfg0.N) :
    KState.fin m c ⟨49, h⟩ (KState.kSt m c 49 h) = Cert.Spec.KForm (argsOf m c) := by
  funext i
  obtain ⟨a, j, rfl⟩ : ∃ (a : Fin 1) (j : Fin 256), i = ix2 a j := ⟨i 0, i 1, eq_ix2 i⟩
  obtain rfl : a = 0 := Subsingleton.elim _ _
  refine (KPay.pay4_apply (KState.kSt m c 49 h).wV (KState.kSt m c 49 h).sV (KState.bBbV m c ⟨49, h⟩)
    (KState.kSt m c 49 h).wS (KState.kSt m c 49 h).sS (KState.bBbS m c ⟨49, h⟩) (KState.bG m c ⟨49, h⟩)
    (KState.bLnpS m c ⟨49, h⟩) (KState.bLnpB m c ⟨49, h⟩) (KState.bBmlp m c ⟨49, h⟩) (KState.bWmlp m c ⟨49, h⟩) j).trans ?_
  exact result_of_reads (argsOf m c) (argsOf m c).streamV.outK (argsOf m c).streamS.outK _
    (KState.bLnpS m c ⟨49, h⟩) (KState.bLnpB m c ⟨49, h⟩) (KState.bWmlp m c ⟨49, h⟩) (KState.bBmlp m c ⟨49, h⟩)
    (skipK_eq m c h)
    (fun q => by rw [bLnpS_eq]; exact KHost.V_row_lnpS m c q)
    (fun q => by rw [bLnpB_eq]; exact KHost.V_row_lnpB m c q)
    (bWmlp_arg m c ⟨49, h⟩)
    (fun q => by rw [bBmlp_eq]; exact KHost.V_row_bmlp m c q) j

end

end Cert.KernelIdeal.KRead

end
-- ==== Proof.KVal.lean ====
/-
  The idealized kernel's run, with its result named: every weakly fair execution ends with the result buffer at
  the running-softmax form of the attention formula applied to the launch-time arguments, and the arguments
  unchanged. The frame run gives the result as the last point's write over the scratch state after fifty points;
  that state, a pure recurrence over the body's stored values, is read lane by lane as the running softmax.
-/
import proofs.«117868_g33088428049086_cont_sun_c4_530_8_alg».proof.Proof.KRun
import proofs.«117868_g33088428049086_cont_sun_c4_530_8_alg».proof.Proof.KRead

noncomputable section

namespace Cert.KernelIdeal.KVal

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = Cert.Spec.KForm (Cert.KernelIdeal.argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run (defs (F := Ideal)) _ _).mono (fun r h c =>
    ⟨(h c).1.trans (Cert.KernelIdeal.KRead.fin_eq m c _), (h c).2⟩)
    (Cert.KernelIdeal.KRun.run (F := Ideal) m ρ)

end Cert.KernelIdeal.KVal

end
-- ==== Proof.RefRun.lean ====
/-
  The reference program's @main as one straight line of host operations, and its run.

  @main is printed in three consecutive windows, and it calls module-local functions: the variance
  with its guarded division (which calls a select of its own), the rectifier, and the leaky
  rectifier (which calls another select). A call means its callee's body over the call's own
  buffers, so each call is replaced here by the callee's operations in order, a nested call by the
  nested callee's. The line is kept as three lists, one per window, and `ops` is their
  concatenation. Every weakly fair execution of @main then terminates with each buffer at the fold
  of the operations' results over the launch contents (`after ops`), and no operation writes an
  argument buffer, so each argument ends as it began.
-/
import proofs.«117868_g33088428049086_cont_sun_c4_530_8_alg».proof.ReferenceIdeal
import proofs.«117868_g33088428049086_cont_sun_c4_530_8_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window. The first layer norm of the global feature: its mean (the sum over the 256 entries divided by the count constant), the variance function's twenty-three operations over its own buffers (the mean again, the centred entries squared, their sum divided by the count less the converted integer correction, kept where that divisor compares greater than zero, else the function's last constant), the centring, the reciprocal square root of variance plus the epsilon constant, scale and shift. The rectifier (three operations: zero, its broadcast, the maximum). The linear map to 128 features with its bias. The source rows' projection (100000×128 by 128×128) with its bias, reshaped to 8 heads of 16 channels. The target projection of the 128 features with its bias, reshaped and broadcast over the rows; the sum of the two. The leaky rectifier (seven operations: the comparison with zero, the slope constant times the value, the select between the value and that product). The product with the attention vector and its sum over the 16 channels: the scores. Their maximum over the rows from the reduction's initial constant, the scores minus it, the exponentials, their sum over the rows, the quotients; those broadcast over the channels times the projected rows; and the zero the next sum starts from. (90 operations.) -/
abbrev ops0 : List (HloOp τ sig (Elt F)) :=
  [ nullary main_cst (constant S_ .f32 0x00000000#32),
    binary main_arg2 main_cst main_v0 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v0 main_v1 (broadcastInDim S1x1 ![0] bcast_S1_S1x1_0 : (⟨S1, .f32⟩ : BufTy).Contents (Elt F) → (⟨S1x1, .f32⟩ : BufTy).Contents (Elt F)),
    nullary main_cst_0 (constant S_ .f32 0x43800000#32),
    unary main_cst_0 main_v2 (broadcastInDim S1x1 ![] bcast_S_S1x1 : (⟨S_, .f32⟩ : BufTy).Contents (Elt F) → (⟨S1x1, .f32⟩ : BufTy).Contents (Elt F)),
    binary main_v1 main_v2 main_v3 (Host.divf : (⟨S1x1, .f32⟩ : BufTy).Contents (Elt F) → (⟨S1x1, .f32⟩ : BufTy).Contents (Elt F) → (⟨S1x1, .f32⟩ : BufTy).Contents (Elt F)),
    nullary main_c (constantI S_ 32 0#32),
    TRef.nullary main_call0.cst (constant S_ .f32 0x00000000#32),
    TRef.binary (.of main_arg2) main_call0.cst main_call0.v0 (fun x v => Host.reduceAdd x v reducesTo_S1x256_S1_d1 h_S_),
    TRef.unary main_call0.v0 main_call0.v1 (broadcastInDim S1x1 ![0] bcast_S1_S1x1_0),
    TRef.nullary main_call0.cst_0 (constant S_ .f32 0x43800000#32),
    TRef.unary main_call0.cst_0 main_call0.v2 (broadcastInDim S1x1 ![] bcast_S_S1x1),
    TRef.binary main_call0.v1 main_call0.v2 main_call0.v3 Host.divf,
    TRef.unary main_call0.v3 main_call0.v4 (broadcastInDim S1x256 ![0, 1] bcast_S1x1_S1x256_0_1),
    TRef.binary (.of main_arg2) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x256_S1_d1 h_S_),
    TRef.unary main_call0.v9 main_call0.v10 (broadcastInDim S1x1 ![0] bcast_S1_S1x1_0),
    TRef.unary main_call0.v8 main_call0.v11 (broadcastInDim S1x1 ![] bcast_S_S1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1 ![] bcast_S_S1x1),
    TRef.ternary main_call0.v13 main_call0.v12 main_call0.call0.v1 main_call0.call0.v2 (fun p a b => select (broadcastInDim S1x1 ![] bcast_S_S1x1 p) a b),
    unary main_v3 main_v5 (broadcastInDim S1x256 ![0, 1] bcast_S1x1_S1x256_0_1 : (⟨S1x1, .f32⟩ : BufTy).Contents (Elt F) → (⟨S1x256, .f32⟩ : BufTy).Contents (Elt F)),
    binary main_arg2 main_v5 main_v6 (subf : (⟨S1x256, .f32⟩ : BufTy).Contents (Elt F) → (⟨S1x256, .f32⟩ : BufTy).Contents (Elt F) → (⟨S1x256, .f32⟩ : BufTy).Contents (Elt F)),
    nullary main_cst_1 (constant S_ .f32 0x3727C5AC#32),
    unary main_cst_1 main_v7 (broadcastInDim S1x1 ![] bcast_S_S1x1 : (⟨S_, .f32⟩ : BufTy).Contents (Elt F) → (⟨S1x1, .f32⟩ : BufTy).Contents (Elt F)),
    binary main_v4 main_v7 main_v8 (addf : (⟨S1x1, .f32⟩ : BufTy).Contents (Elt F) → (⟨S1x1, .f32⟩ : BufTy).Contents (Elt F) → (⟨S1x1, .f32⟩ : BufTy).Contents (Elt F)),
    unary main_v8 main_v9 (Host.rsqrt : (⟨S1x1, .f32⟩ : BufTy).Contents (Elt F) → (⟨S1x1, .f32⟩ : BufTy).Contents (Elt F)),
    unary main_v9 main_v10 (broadcastInDim S1x256 ![0, 1] bcast_S1x1_S1x256_0_1 : (⟨S1x1, .f32⟩ : BufTy).Contents (Elt F) → (⟨S1x256, .f32⟩ : BufTy).Contents (Elt F)),
    binary main_v6 main_v10 main_v11 (mulf : (⟨S1x256, .f32⟩ : BufTy).Contents (Elt F) → (⟨S1x256, .f32⟩ : BufTy).Contents (Elt F) → (⟨S1x256, .f32⟩ : BufTy).Contents (Elt F)),
    unary main_arg3 main_v12 (broadcastInDim S1x256 ![1] bcast_S256_S1x256_1 : (⟨S256, .f32⟩ : BufTy).Contents (Elt F) → (⟨S1x256, .f32⟩ : BufTy).Contents (Elt F)),
    binary main_v11 main_v12 main_v13 (mulf : (⟨S1x256, .f32⟩ : BufTy).Contents (Elt F) → (⟨S1x256, .f32⟩ : BufTy).Contents (Elt F) → (⟨S1x256, .f32⟩ : BufTy).Contents (Elt F)),
    unary main_arg4 main_v14 (broadcastInDim S1x256 ![1] bcast_S256_S1x256_1 : (⟨S256, .f32⟩ : BufTy).Contents (Elt F) → (⟨S1x256, .f32⟩ : BufTy).Contents (Elt F)),
    binary main_v13 main_v14 main_v15 (addf : (⟨S1x256, .f32⟩ : BufTy).Contents (Elt F) → (⟨S1x256, .f32⟩ : BufTy).Contents (Elt F) → (⟨S1x256, .f32⟩ : BufTy).Contents (Elt F)),
    TRef.nullary main_call1.cst (constant S_ .f32 0x00000000#32),
    TRef.unary main_call1.cst main_call1.v0 (broadcastInDim S1x256 ![] bcast_S_S1x256),
    TRef.binary (.of main_v15) main_call1.v0 main_call1.v1 maximumf,
    binary main_v16 main_arg5 main_v17 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    binary main_v17 main_v18 main_v19 (addf : (⟨S1x128, .f32⟩ : BufTy).Contents (Elt F) → (⟨S1x128, .f32⟩ : BufTy).Contents (Elt F) → (⟨S1x128, .f32⟩ : BufTy).Contents (Elt F)),
    binary main_arg0 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    reshape main_v23 main_v24 rfl shapeCasts_S100000x128_S100000x8x16,
    binary main_v19 main_arg9 main_v25 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    binary main_v25 main_v26 main_v27 (addf : (⟨S1x128, .f32⟩ : BufTy).Contents (Elt F) → (⟨S1x128, .f32⟩ : BufTy).Contents (Elt F) → (⟨S1x128, .f32⟩ : BufTy).Contents (Elt F)),
    reshape main_v27 main_v28 rfl shapeCasts_S1x128_S1x8x16,
    unary main_v28 main_v29 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v24 main_v29 main_v30 (addf : (⟨S100000x8x16, .f32⟩ : BufTy).Contents (Elt F) → (⟨S100000x8x16, .f32⟩ : BufTy).Contents (Elt F) → (⟨S100000x8x16, .f32⟩ : BufTy).Contents (Elt F)),
    nullary main_cst_2 (constant S_ .f32 0x3E4CCCCD#32),
    TRef.nullary main_call2.cst (constant S_ .f32 0x00000000#32),
    TRef.unary main_call2.cst main_call2.v0 (broadcastInDim S100000x8x16 ![] bcast_S_S100000x8x16),
    TRef.binary (.of main_v30) main_call2.v0 main_call2.v1 (cmpf .oge),
    TRef.unary (.of main_cst_2) main_call2.v2 id,
    TRef.unary main_call2.v2 main_call2.v3 (broadcastInDim S100000x8x16 ![] bcast_S_S100000x8x16),
    TRef.binary main_call2.v3 (.of main_v30) main_call2.v4 mulf,
    TRef.ternary main_call2.v1 (.of main_v30) main_call2.v4 main_call2.call0.v0 select,
    unary main_arg11 main_v32 (broadcastInDim S1x8x16 ![1, 2] bcast_S8x16_S1x8x16_1_2 : (⟨S8x16, .f32⟩ : BufTy).Contents (Elt F) → (⟨S1x8x16, .f32⟩ : BufTy).Contents (Elt F)),
    unary main_v32 main_v33 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v31 main_v33 main_v34 (mulf : (⟨S100000x8x16, .f32⟩ : BufTy).Contents (Elt F) → (⟨S100000x8x16, .f32⟩ : BufTy).Contents (Elt F) → (⟨S100000x8x16, .f32⟩ : BufTy).Contents (Elt F)),
    nullary main_cst_3 (constant S_ .f32 0x00000000#32),
    binary main_v34 main_cst_3 main_v35 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    nullary main_cst_4 (constant S_ .f32 0xFF800000#32),
    binary main_v35 main_cst_4 main_v36 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_5 (constant S_ .f32 0xFF800000#32),
    unary main_cst_5 main_v37 (broadcastInDim S8 ![] bcast_S_S8 : (⟨S_, .f32⟩ : BufTy).Contents (Elt F) → (⟨S8, .f32⟩ : BufTy).Contents (Elt F)),
    binary main_v37 main_v36 main_v38 (maximumf : (⟨S8, .f32⟩ : BufTy).Contents (Elt F) → (⟨S8, .f32⟩ : BufTy).Contents (Elt F) → (⟨S8, .f32⟩ : BufTy).Contents (Elt F)),
    unary main_v38 main_v39 (broadcastInDim S1x8 ![1] bcast_S8_S1x8_1 : (⟨S8, .f32⟩ : BufTy).Contents (Elt F) → (⟨S1x8, .f32⟩ : BufTy).Contents (Elt F)),
    unary main_v39 main_v40 (broadcastInDim S100000x8 ![0, 1] bcast_S1x8_S100000x8_0_1 : (⟨S1x8, .f32⟩ : BufTy).Contents (Elt F) → (⟨S100000x8, .f32⟩ : BufTy).Contents (Elt F)),
    binary main_v35 main_v40 main_v41 (subf : (⟨S100000x8, .f32⟩ : BufTy).Contents (Elt F) → (⟨S100000x8, .f32⟩ : BufTy).Contents (Elt F) → (⟨S100000x8, .f32⟩ : BufTy).Contents (Elt F)),
    unary main_v41 main_v42 (Host.exp : (⟨S100000x8, .f32⟩ : BufTy).Contents (Elt F) → (⟨S100000x8, .f32⟩ : BufTy).Contents (Elt F)),
    nullary main_cst_6 (constant S_ .f32 0x00000000#32),
    binary main_v42 main_cst_6 main_v43 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v43 main_v44 (broadcastInDim S1x8 ![1] bcast_S8_S1x8_1 : (⟨S8, .f32⟩ : BufTy).Contents (Elt F) → (⟨S1x8, .f32⟩ : BufTy).Contents (Elt F)),
    unary main_v44 main_v45 (broadcastInDim S100000x8 ![0, 1] bcast_S1x8_S100000x8_0_1 : (⟨S1x8, .f32⟩ : BufTy).Contents (Elt F) → (⟨S100000x8, .f32⟩ : BufTy).Contents (Elt F)),
    binary main_v42 main_v45 main_v46 (Host.divf : (⟨S100000x8, .f32⟩ : BufTy).Contents (Elt F) → (⟨S100000x8, .f32⟩ : BufTy).Contents (Elt F) → (⟨S100000x8, .f32⟩ : BufTy).Contents (Elt F)),
    unary main_v46 main_v47 (broadcastInDim S100000x8x1 ![0, 1] bcast_S100000x8_S100000x8x1_0_1 : (⟨S100000x8, .f32⟩ : BufTy).Contents (Elt F) → (⟨S100000x8x1, .f32⟩ : BufTy).Contents (Elt F)),
    unary main_v47 main_v48 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v48 main_v24 main_v49 (mulf : (⟨S100000x8x16, .f32⟩ : BufTy).Contents (Elt F) → (⟨S100000x8x16, .f32⟩ : BufTy).Contents (Elt F) → (⟨S100000x8x16, .f32⟩ : BufTy).Contents (Elt F)),
    nullary main_cst_7 (constant S_ .f32 0x00000000#32) ]

/-- The second window. The weighted rows summed over the rows, reshaped to 1×128, plus the bias: the first aggregate. Then the second attention in the same order over its own parameters: the layer norm of the global feature (mean, the variance function, centring, reciprocal square root, scale and shift), the rectifier, the linear map with its bias, the source rows' projection with its bias reshaped to heads, the target projection broadcast over the rows, their sum, the leaky rectifier, the scores, their maximum over the rows, the exponentials of the differences, their sum over the rows, and the quotients. (90 operations.) -/
abbrev ops1 : List (HloOp τ sig (Elt F)) :=
  [ binary main_v49 main_cst_7 main_v50 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    reshape main_v50 main_v51 rfl shapeCasts_S8x16_S1x128,
    unary main_arg12 main_v52 (broadcastInDim S1x128 ![1] bcast_S128_S1x128_1 : (⟨S128, .f32⟩ : BufTy).Contents (Elt F) → (⟨S1x128, .f32⟩ : BufTy).Contents (Elt F)),
    binary main_v51 main_v52 main_v53 (addf : (⟨S1x128, .f32⟩ : BufTy).Contents (Elt F) → (⟨S1x128, .f32⟩ : BufTy).Contents (Elt F) → (⟨S1x128, .f32⟩ : BufTy).Contents (Elt F)),
    nullary main_cst_8 (constant S_ .f32 0x00000000#32),
    binary main_arg2 main_cst_8 main_v54 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v54 main_v55 (broadcastInDim S1x1 ![0] bcast_S1_S1x1_0 : (⟨S1, .f32⟩ : BufTy).Contents (Elt F) → (⟨S1x1, .f32⟩ : BufTy).Contents (Elt F)),
    nullary main_cst_9 (constant S_ .f32 0x43800000#32),
    unary main_cst_9 main_v56 (broadcastInDim S1x1 ![] bcast_S_S1x1 : (⟨S_, .f32⟩ : BufTy).Contents (Elt F) → (⟨S1x1, .f32⟩ : BufTy).Contents (Elt F)),
    binary main_v55 main_v56 main_v57 (Host.divf : (⟨S1x1, .f32⟩ : BufTy).Contents (Elt F) → (⟨S1x1, .f32⟩ : BufTy).Contents (Elt F) → (⟨S1x1, .f32⟩ : BufTy).Contents (Elt F)),
    nullary main_c_10 (constantI S_ 32 0#32),
    TRef.nullary main_call3.cst (constant S_ .f32 0x00000000#32),
    TRef.binary (.of main_arg2) main_call3.cst main_call3.v0 (fun x v => Host.reduceAdd x v reducesTo_S1x256_S1_d1 h_S_),
    TRef.unary main_call3.v0 main_call3.v1 (broadcastInDim S1x1 ![0] bcast_S1_S1x1_0),
    TRef.nullary main_call3.cst_0 (constant S_ .f32 0x43800000#32),
    TRef.unary main_call3.cst_0 main_call3.v2 (broadcastInDim S1x1 ![] bcast_S_S1x1),
    TRef.binary main_call3.v1 main_call3.v2 main_call3.v3 Host.divf,
    TRef.unary main_call3.v3 main_call3.v4 (broadcastInDim S1x256 ![0, 1] bcast_S1x1_S1x256_0_1),
    TRef.binary (.of main_arg2) main_call3.v4 main_call3.v5 subf,
    TRef.binary main_call3.v5 main_call3.v5 main_call3.v6 mulf,
    TRef.unary (.of main_c_10) main_call3.v7 (sitofp .f32),
    TRef.nullary main_call3.cst_1 (constant S_ .f32 0x43800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S1x256_S1_d1 h_S_),
    TRef.unary main_call3.v9 main_call3.v10 (broadcastInDim S1x1 ![0] bcast_S1_S1x1_0),
    TRef.unary main_call3.v8 main_call3.v11 (broadcastInDim S1x1 ![] bcast_S_S1x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x1 ![] bcast_S_S1x1),
    TRef.ternary main_call3.v13 main_call3.v12 main_call3.call0.v1 main_call3.call0.v2 (fun p a b => select (broadcastInDim S1x1 ![] bcast_S_S1x1 p) a b),
    unary main_v57 main_v59 (broadcastInDim S1x256 ![0, 1] bcast_S1x1_S1x256_0_1 : (⟨S1x1, .f32⟩ : BufTy).Contents (Elt F) → (⟨S1x256, .f32⟩ : BufTy).Contents (Elt F)),
    binary main_arg2 main_v59 main_v60 (subf : (⟨S1x256, .f32⟩ : BufTy).Contents (Elt F) → (⟨S1x256, .f32⟩ : BufTy).Contents (Elt F) → (⟨S1x256, .f32⟩ : BufTy).Contents (Elt F)),
    nullary main_cst_11 (constant S_ .f32 0x3727C5AC#32),
    unary main_cst_11 main_v61 (broadcastInDim S1x1 ![] bcast_S_S1x1 : (⟨S_, .f32⟩ : BufTy).Contents (Elt F) → (⟨S1x1, .f32⟩ : BufTy).Contents (Elt F)),
    binary main_v58 main_v61 main_v62 (addf : (⟨S1x1, .f32⟩ : BufTy).Contents (Elt F) → (⟨S1x1, .f32⟩ : BufTy).Contents (Elt F) → (⟨S1x1, .f32⟩ : BufTy).Contents (Elt F)),
    unary main_v62 main_v63 (Host.rsqrt : (⟨S1x1, .f32⟩ : BufTy).Contents (Elt F) → (⟨S1x1, .f32⟩ : BufTy).Contents (Elt F)),
    unary main_v63 main_v64 (broadcastInDim S1x256 ![0, 1] bcast_S1x1_S1x256_0_1 : (⟨S1x1, .f32⟩ : BufTy).Contents (Elt F) → (⟨S1x256, .f32⟩ : BufTy).Contents (Elt F)),
    binary main_v60 main_v64 main_v65 (mulf : (⟨S1x256, .f32⟩ : BufTy).Contents (Elt F) → (⟨S1x256, .f32⟩ : BufTy).Contents (Elt F) → (⟨S1x256, .f32⟩ : BufTy).Contents (Elt F)),
    unary main_arg13 main_v66 (broadcastInDim S1x256 ![1] bcast_S256_S1x256_1 : (⟨S256, .f32⟩ : BufTy).Contents (Elt F) → (⟨S1x256, .f32⟩ : BufTy).Contents (Elt F)),
    binary main_v65 main_v66 main_v67 (mulf : (⟨S1x256, .f32⟩ : BufTy).Contents (Elt F) → (⟨S1x256, .f32⟩ : BufTy).Contents (Elt F) → (⟨S1x256, .f32⟩ : BufTy).Contents (Elt F)),
    unary main_arg14 main_v68 (broadcastInDim S1x256 ![1] bcast_S256_S1x256_1 : (⟨S256, .f32⟩ : BufTy).Contents (Elt F) → (⟨S1x256, .f32⟩ : BufTy).Contents (Elt F)),
    binary main_v67 main_v68 main_v69 (addf : (⟨S1x256, .f32⟩ : BufTy).Contents (Elt F) → (⟨S1x256, .f32⟩ : BufTy).Contents (Elt F) → (⟨S1x256, .f32⟩ : BufTy).Contents (Elt F)),
    TRef.nullary main_call4.cst (constant S_ .f32 0x00000000#32),
    TRef.unary main_call4.cst main_call4.v0 (broadcastInDim S1x256 ![] bcast_S_S1x256),
    TRef.binary (.of main_v69) main_call4.v0 main_call4.v1 maximumf,
    binary main_v70 main_arg15 main_v71 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg16 main_v72 (broadcastInDim S1x128 ![1] bcast_S128_S1x128_1 : (⟨S128, .f32⟩ : BufTy).Contents (Elt F) → (⟨S1x128, .f32⟩ : BufTy).Contents (Elt F)),
    binary main_v71 main_v72 main_v73 (addf : (⟨S1x128, .f32⟩ : BufTy).Contents (Elt F) → (⟨S1x128, .f32⟩ : BufTy).Contents (Elt F) → (⟨S1x128, .f32⟩ : BufTy).Contents (Elt F)),
    binary main_arg1 main_arg17 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    reshape main_v77 main_v78 rfl shapeCasts_S100000x128_S100000x8x16,
    binary main_v73 main_arg19 main_v79 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg20 main_v80 (broadcastInDim S1x128 ![1] bcast_S128_S1x128_1 : (⟨S128, .f32⟩ : BufTy).Contents (Elt F) → (⟨S1x128, .f32⟩ : BufTy).Contents (Elt F)),
    binary main_v79 main_v80 main_v81 (addf : (⟨S1x128, .f32⟩ : BufTy).Contents (Elt F) → (⟨S1x128, .f32⟩ : BufTy).Contents (Elt F) → (⟨S1x128, .f32⟩ : BufTy).Contents (Elt F)),
    reshape main_v81 main_v82 rfl shapeCasts_S1x128_S1x8x16,
    unary main_v82 main_v83 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v78 main_v83 main_v84 (addf : (⟨S100000x8x16, .f32⟩ : BufTy).Contents (Elt F) → (⟨S100000x8x16, .f32⟩ : BufTy).Contents (Elt F) → (⟨S100000x8x16, .f32⟩ : BufTy).Contents (Elt F)),
    nullary main_cst_12 (constant S_ .f32 0x3E4CCCCD#32),
    TRef.nullary main_call5.cst (constant S_ .f32 0x00000000#32),
    TRef.unary main_call5.cst main_call5.v0 (broadcastInDim S100000x8x16 ![] bcast_S_S100000x8x16),
    TRef.binary (.of main_v84) main_call5.v0 main_call5.v1 (cmpf .oge),
    TRef.unary (.of main_cst_12) main_call5.v2 id,
    TRef.unary main_call5.v2 main_call5.v3 (broadcastInDim S100000x8x16 ![] bcast_S_S100000x8x16),
    TRef.binary main_call5.v3 (.of main_v84) main_call5.v4 mulf,
    TRef.ternary main_call5.v1 (.of main_v84) main_call5.v4 main_call5.call0.v0 select,
    unary main_arg21 main_v86 (broadcastInDim S1x8x16 ![1, 2] bcast_S8x16_S1x8x16_1_2 : (⟨S8x16, .f32⟩ : BufTy).Contents (Elt F) → (⟨S1x8x16, .f32⟩ : BufTy).Contents (Elt F)),
    unary main_v86 main_v87 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v85 main_v87 main_v88 (mulf : (⟨S100000x8x16, .f32⟩ : BufTy).Contents (Elt F) → (⟨S100000x8x16, .f32⟩ : BufTy).Contents (Elt F) → (⟨S100000x8x16, .f32⟩ : BufTy).Contents (Elt F)),
    nullary main_cst_13 (constant S_ .f32 0x00000000#32),
    binary main_v88 main_cst_13 main_v89 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    nullary main_cst_14 (constant S_ .f32 0xFF800000#32),
    binary main_v89 main_cst_14 main_v90 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_15 (constant S_ .f32 0xFF800000#32),
    unary main_cst_15 main_v91 (broadcastInDim S8 ![] bcast_S_S8 : (⟨S_, .f32⟩ : BufTy).Contents (Elt F) → (⟨S8, .f32⟩ : BufTy).Contents (Elt F)),
    binary main_v91 main_v90 main_v92 (maximumf : (⟨S8, .f32⟩ : BufTy).Contents (Elt F) → (⟨S8, .f32⟩ : BufTy).Contents (Elt F) → (⟨S8, .f32⟩ : BufTy).Contents (Elt F)),
    unary main_v92 main_v93 (broadcastInDim S1x8 ![1] bcast_S8_S1x8_1 : (⟨S8, .f32⟩ : BufTy).Contents (Elt F) → (⟨S1x8, .f32⟩ : BufTy).Contents (Elt F)),
    unary main_v93 main_v94 (broadcastInDim S100000x8 ![0, 1] bcast_S1x8_S100000x8_0_1 : (⟨S1x8, .f32⟩ : BufTy).Contents (Elt F) → (⟨S100000x8, .f32⟩ : BufTy).Contents (Elt F)),
    binary main_v89 main_v94 main_v95 (subf : (⟨S100000x8, .f32⟩ : BufTy).Contents (Elt F) → (⟨S100000x8, .f32⟩ : BufTy).Contents (Elt F) → (⟨S100000x8, .f32⟩ : BufTy).Contents (Elt F)),
    unary main_v95 main_v96 (Host.exp : (⟨S100000x8, .f32⟩ : BufTy).Contents (Elt F) → (⟨S100000x8, .f32⟩ : BufTy).Contents (Elt F)),
    nullary main_cst_16 (constant S_ .f32 0x00000000#32),
    binary main_v96 main_cst_16 main_v97 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v97 main_v98 (broadcastInDim S1x8 ![1] bcast_S8_S1x8_1 : (⟨S8, .f32⟩ : BufTy).Contents (Elt F) → (⟨S1x8, .f32⟩ : BufTy).Contents (Elt F)),
    unary main_v98 main_v99 (broadcastInDim S100000x8 ![0, 1] bcast_S1x8_S100000x8_0_1 : (⟨S1x8, .f32⟩ : BufTy).Contents (Elt F) → (⟨S100000x8, .f32⟩ : BufTy).Contents (Elt F)),
    binary main_v96 main_v99 main_v100 (Host.divf : (⟨S100000x8, .f32⟩ : BufTy).Contents (Elt F) → (⟨S100000x8, .f32⟩ : BufTy).Contents (Elt F) → (⟨S100000x8, .f32⟩ : BufTy).Contents (Elt F)) ]

/-- The third window. The second attention's quotients broadcast over the channels times its projected rows, summed over the rows, reshaped, plus the bias: the second aggregate. The two aggregates side by side (1×256) added to the global feature: the skip sum. Its layer norm (mean, the second variance function's twenty-three operations, centring, reciprocal square root, scale and shift), the rectifier, the 256×256 linear map with its bias, and that added to the skip sum: the result. (59 operations.) -/
abbrev ops2 : List (HloOp τ sig (Elt F)) :=
  [ unary main_v100 main_v101 (broadcastInDim S100000x8x1 ![0, 1] bcast_S100000x8_S100000x8x1_0_1 : (⟨S100000x8, .f32⟩ : BufTy).Contents (Elt F) → (⟨S100000x8x1, .f32⟩ : BufTy).Contents (Elt F)),
    unary main_v101 main_v102 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v102 main_v78 main_v103 (mulf : (⟨S100000x8x16, .f32⟩ : BufTy).Contents (Elt F) → (⟨S100000x8x16, .f32⟩ : BufTy).Contents (Elt F) → (⟨S100000x8x16, .f32⟩ : BufTy).Contents (Elt F)),
    nullary main_cst_17 (constant S_ .f32 0x00000000#32),
    binary main_v103 main_cst_17 main_v104 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    reshape main_v104 main_v105 rfl shapeCasts_S8x16_S1x128,
    unary main_arg22 main_v106 (broadcastInDim S1x128 ![1] bcast_S128_S1x128_1 : (⟨S128, .f32⟩ : BufTy).Contents (Elt F) → (⟨S1x128, .f32⟩ : BufTy).Contents (Elt F)),
    binary main_v105 main_v106 main_v107 (addf : (⟨S1x128, .f32⟩ : BufTy).Contents (Elt F) → (⟨S1x128, .f32⟩ : BufTy).Contents (Elt F) → (⟨S1x128, .f32⟩ : BufTy).Contents (Elt F)),
    binary main_v53 main_v107 main_v108 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    binary main_arg2 main_v108 main_v109 (addf : (⟨S1x256, .f32⟩ : BufTy).Contents (Elt F) → (⟨S1x256, .f32⟩ : BufTy).Contents (Elt F) → (⟨S1x256, .f32⟩ : BufTy).Contents (Elt F)),
    nullary main_cst_18 (constant S_ .f32 0x00000000#32),
    binary main_v109 main_cst_18 main_v110 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v110 main_v111 (broadcastInDim S1x1 ![0] bcast_S1_S1x1_0 : (⟨S1, .f32⟩ : BufTy).Contents (Elt F) → (⟨S1x1, .f32⟩ : BufTy).Contents (Elt F)),
    nullary main_cst_19 (constant S_ .f32 0x43800000#32),
    unary main_cst_19 main_v112 (broadcastInDim S1x1 ![] bcast_S_S1x1 : (⟨S_, .f32⟩ : BufTy).Contents (Elt F) → (⟨S1x1, .f32⟩ : BufTy).Contents (Elt F)),
    binary main_v111 main_v112 main_v113 (Host.divf : (⟨S1x1, .f32⟩ : BufTy).Contents (Elt F) → (⟨S1x1, .f32⟩ : BufTy).Contents (Elt F) → (⟨S1x1, .f32⟩ : BufTy).Contents (Elt F)),
    nullary main_c_20 (constantI S_ 32 0#32),
    TRef.nullary main_call6.cst (constant S_ .f32 0x00000000#32),
    TRef.binary (.of main_v109) main_call6.cst main_call6.v0 (fun x v => Host.reduceAdd x v reducesTo_S1x256_S1_d1 h_S_),
    TRef.unary main_call6.v0 main_call6.v1 (broadcastInDim S1x1 ![0] bcast_S1_S1x1_0),
    TRef.nullary main_call6.cst_0 (constant S_ .f32 0x43800000#32),
    TRef.unary main_call6.cst_0 main_call6.v2 (broadcastInDim S1x1 ![] bcast_S_S1x1),
    TRef.binary main_call6.v1 main_call6.v2 main_call6.v3 Host.divf,
    TRef.unary main_call6.v3 main_call6.v4 (broadcastInDim S1x256 ![0, 1] bcast_S1x1_S1x256_0_1),
    TRef.binary (.of main_v109) main_call6.v4 main_call6.v5 subf,
    TRef.binary main_call6.v5 main_call6.v5 main_call6.v6 mulf,
    TRef.unary (.of main_c_20) main_call6.v7 (sitofp .f32),
    TRef.nullary main_call6.cst_1 (constant S_ .f32 0x43800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S1x256_S1_d1 h_S_),
    TRef.unary main_call6.v9 main_call6.v10 (broadcastInDim S1x1 ![0] bcast_S1_S1x1_0),
    TRef.unary main_call6.v8 main_call6.v11 (broadcastInDim S1x1 ![] bcast_S_S1x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1x1 ![] bcast_S_S1x1),
    TRef.ternary main_call6.v13 main_call6.v12 main_call6.call0.v1 main_call6.call0.v2 (fun p a b => select (broadcastInDim S1x1 ![] bcast_S_S1x1 p) a b),
    unary main_v113 main_v115 (broadcastInDim S1x256 ![0, 1] bcast_S1x1_S1x256_0_1 : (⟨S1x1, .f32⟩ : BufTy).Contents (Elt F) → (⟨S1x256, .f32⟩ : BufTy).Contents (Elt F)),
    binary main_v109 main_v115 main_v116 (subf : (⟨S1x256, .f32⟩ : BufTy).Contents (Elt F) → (⟨S1x256, .f32⟩ : BufTy).Contents (Elt F) → (⟨S1x256, .f32⟩ : BufTy).Contents (Elt F)),
    nullary main_cst_21 (constant S_ .f32 0x3727C5AC#32),
    unary main_cst_21 main_v117 (broadcastInDim S1x1 ![] bcast_S_S1x1 : (⟨S_, .f32⟩ : BufTy).Contents (Elt F) → (⟨S1x1, .f32⟩ : BufTy).Contents (Elt F)),
    binary main_v114 main_v117 main_v118 (addf : (⟨S1x1, .f32⟩ : BufTy).Contents (Elt F) → (⟨S1x1, .f32⟩ : BufTy).Contents (Elt F) → (⟨S1x1, .f32⟩ : BufTy).Contents (Elt F)),
    unary main_v118 main_v119 (Host.rsqrt : (⟨S1x1, .f32⟩ : BufTy).Contents (Elt F) → (⟨S1x1, .f32⟩ : BufTy).Contents (Elt F)),
    unary main_v119 main_v120 (broadcastInDim S1x256 ![0, 1] bcast_S1x1_S1x256_0_1 : (⟨S1x1, .f32⟩ : BufTy).Contents (Elt F) → (⟨S1x256, .f32⟩ : BufTy).Contents (Elt F)),
    binary main_v116 main_v120 main_v121 (mulf : (⟨S1x256, .f32⟩ : BufTy).Contents (Elt F) → (⟨S1x256, .f32⟩ : BufTy).Contents (Elt F) → (⟨S1x256, .f32⟩ : BufTy).Contents (Elt F)),
    unary main_arg23 main_v122 (broadcastInDim S1x256 ![1] bcast_S256_S1x256_1 : (⟨S256, .f32⟩ : BufTy).Contents (Elt F) → (⟨S1x256, .f32⟩ : BufTy).Contents (Elt F)),
    binary main_v121 main_v122 main_v123 (mulf : (⟨S1x256, .f32⟩ : BufTy).Contents (Elt F) → (⟨S1x256, .f32⟩ : BufTy).Contents (Elt F) → (⟨S1x256, .f32⟩ : BufTy).Contents (Elt F)),
    unary main_arg24 main_v124 (broadcastInDim S1x256 ![1] bcast_S256_S1x256_1 : (⟨S256, .f32⟩ : BufTy).Contents (Elt F) → (⟨S1x256, .f32⟩ : BufTy).Contents (Elt F)),
    binary main_v123 main_v124 main_v125 (addf : (⟨S1x256, .f32⟩ : BufTy).Contents (Elt F) → (⟨S1x256, .f32⟩ : BufTy).Contents (Elt F) → (⟨S1x256, .f32⟩ : BufTy).Contents (Elt F)),
    TRef.nullary main_call7.cst (constant S_ .f32 0x00000000#32),
    TRef.unary main_call7.cst main_call7.v0 (broadcastInDim S1x256 ![] bcast_S_S1x256),
    TRef.binary (.of main_v125) main_call7.v0 main_call7.v1 maximumf,
    binary main_v126 main_arg25 main_v127 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg26 main_v128 (broadcastInDim S1x256 ![1] bcast_S256_S1x256_1 : (⟨S256, .f32⟩ : BufTy).Contents (Elt F) → (⟨S1x256, .f32⟩ : BufTy).Contents (Elt F)),
    binary main_v127 main_v128 main_v129 (addf : (⟨S1x256, .f32⟩ : BufTy).Contents (Elt F) → (⟨S1x256, .f32⟩ : BufTy).Contents (Elt F) → (⟨S1x256, .f32⟩ : BufTy).Contents (Elt F)),
    binary main_v109 main_v129 main_v130 (addf : (⟨S1x256, .f32⟩ : BufTy).Contents (Elt F) → (⟨S1x256, .f32⟩ : BufTy).Contents (Elt F) → (⟨S1x256, .f32⟩ : BufTy).Contents (Elt F)) ]

/-- @main's 239 operations in program order, the calls replaced by their callees' operations. -/
abbrev ops : List (HloOp τ sig (Elt F)) := ops0 ++ (ops1 ++ (ops2))

set_option maxRecDepth 8192 in
set_option maxHeartbeats 4000000 in
/-- Window 0 is its list run in order: the callees' definitions unfolded at their calls, the sequencing reassociated (the window ends on an operation, the list's run on the return after it: the same program). -/
theorem main_part0_eq (c : Dev nD) : main_part0 (F := F) c = seq ops0 := by
  simp only [main_part0, fn_var.body, fn_where.body, fn_relu.body, fn_leaky_relu.body, fn_where_0.body, fn_var_1.body, seq, bind_assoc, pure_bind]
  rfl

set_option maxRecDepth 8192 in
set_option maxHeartbeats 4000000 in
/-- Window 1 is its list run in order: the callees' definitions unfolded at their calls, the sequencing reassociated (the window ends on an operation, the list's run on the return after it: the same program). -/
theorem main_part1_eq (c : Dev nD) : main_part1 (F := F) c = seq ops1 := by
  simp only [main_part1, fn_var.body, fn_where.body, fn_relu.body, fn_leaky_relu.body, fn_where_0.body, fn_var_1.body, seq, bind_assoc, pure_bind]
  rfl

set_option maxRecDepth 8192 in
set_option maxHeartbeats 4000000 in
/-- Window 2 is its list run in order: the callees' definitions unfolded at their calls, the sequencing reassociated. -/
theorem main_part2_eq (c : Dev nD) : main_part2 (F := F) c = seq ops2 := by
  simp only [main_part2, fn_var.body, fn_where.body, fn_relu.body, fn_leaky_relu.body, fn_where_0.body, fn_var_1.body, seq, bind_assoc, pure_bind]

/-- @main is the whole line: its windows in order are the concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., binary_bufs_sub .., unary_bufs_sub .., binary_bufs_sub ..,
    nullary_bufs_sub .., unary_bufs_sub .., binary_bufs_sub .., binary_bufs_sub .., unary_bufs_sub .., binary_bufs_sub ..,
    binary_bufs_sub .., unary_bufs_sub .., unary_bufs_sub .., binary_bufs_sub .., reshape_bufs_sub .., binary_bufs_sub ..,
    unary_bufs_sub .., binary_bufs_sub .., reshape_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., unary_bufs_sub .., binary_bufs_sub .., nullary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., unary_bufs_sub .., binary_bufs_sub .., nullary_bufs_sub ..⟩

set_option maxRecDepth 8192 in
theorem ops1_sub : (ops1 : List (HloOp τ sig (Elt F))).Forall fun op => op.bufs ⊆ tcRefs τ sig :=
  ⟨binary_bufs_sub .., reshape_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., binary_bufs_sub .., unary_bufs_sub .., binary_bufs_sub .., nullary_bufs_sub .., unary_bufs_sub ..,
    binary_bufs_sub .., binary_bufs_sub .., unary_bufs_sub .., binary_bufs_sub .., binary_bufs_sub .., unary_bufs_sub ..,
    unary_bufs_sub .., binary_bufs_sub .., reshape_bufs_sub .., binary_bufs_sub .., unary_bufs_sub .., binary_bufs_sub ..,
    reshape_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub .., nullary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..⟩

set_option maxRecDepth 8192 in
theorem ops2_sub : (ops2 : List (HloOp τ sig (Elt F))).Forall fun op => op.bufs ⊆ tcRefs τ sig :=
  ⟨unary_bufs_sub .., unary_bufs_sub .., binary_bufs_sub .., nullary_bufs_sub .., binary_bufs_sub .., reshape_bufs_sub ..,
    unary_bufs_sub .., binary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., binary_bufs_sub .., unary_bufs_sub .., binary_bufs_sub .., nullary_bufs_sub .., unary_bufs_sub ..,
    binary_bufs_sub .., binary_bufs_sub .., unary_bufs_sub .., binary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in
set_option maxHeartbeats 4000000 in
/-- On every device, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines in a row is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.RefRun

end
-- ==== Proof.RefSlices.lean ====
/-
  The reference's line cut into eighteen short stretches, each ending on a buffer a later stretch reads.

  Per attention stream: the global feature's layer norm, rectifier and linear map (the target features); the rows'
  projection; the target's projection; the leaky rectifier of their sum; the scores; the weights; the weighted sum
  over the rows; the aggregate with its bias. Then the skip sum, and the last layer norm, rectifier, linear map and
  sum. Each stretch writes exactly one buffer that is read after it. The line is the stretches in order, so its fold
  is theirs composed; and a buffer a stretch does not write keeps its contents through it.
-/
import proofs.«117868_g33088428049086_cont_sun_c4_530_8_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stream: the global feature's layer norm, the rectifier and the linear map with its bias: the target features. (48 operations, ending on `main_v19`.) -/
abbrev sl1 : List (HloOp τ sig (Elt F)) :=
  [ nullary main_cst (constant S_ .f32 0x00000000#32),
    binary main_arg2 main_cst main_v0 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v0 main_v1 (broadcastInDim S1x1 ![0] bcast_S1_S1x1_0 : (⟨S1, .f32⟩ : BufTy).Contents (Elt F) → (⟨S1x1, .f32⟩ : BufTy).Contents (Elt F)),
    nullary main_cst_0 (constant S_ .f32 0x43800000#32),
    unary main_cst_0 main_v2 (broadcastInDim S1x1 ![] bcast_S_S1x1 : (⟨S_, .f32⟩ : BufTy).Contents (Elt F) → (⟨S1x1, .f32⟩ : BufTy).Contents (Elt F)),
    binary main_v1 main_v2 main_v3 (Host.divf : (⟨S1x1, .f32⟩ : BufTy).Contents (Elt F) → (⟨S1x1, .f32⟩ : BufTy).Contents (Elt F) → (⟨S1x1, .f32⟩ : BufTy).Contents (Elt F)),
    nullary main_c (constantI S_ 32 0#32),
    TRef.nullary main_call0.cst (constant S_ .f32 0x00000000#32),
    TRef.binary (.of main_arg2) main_call0.cst main_call0.v0 (fun x v => Host.reduceAdd x v reducesTo_S1x256_S1_d1 h_S_),
    TRef.unary main_call0.v0 main_call0.v1 (broadcastInDim S1x1 ![0] bcast_S1_S1x1_0),
    TRef.nullary main_call0.cst_0 (constant S_ .f32 0x43800000#32),
    TRef.unary main_call0.cst_0 main_call0.v2 (broadcastInDim S1x1 ![] bcast_S_S1x1),
    TRef.binary main_call0.v1 main_call0.v2 main_call0.v3 Host.divf,
    TRef.unary main_call0.v3 main_call0.v4 (broadcastInDim S1x256 ![0, 1] bcast_S1x1_S1x256_0_1),
    TRef.binary (.of main_arg2) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x256_S1_d1 h_S_),
    TRef.unary main_call0.v9 main_call0.v10 (broadcastInDim S1x1 ![0] bcast_S1_S1x1_0),
    TRef.unary main_call0.v8 main_call0.v11 (broadcastInDim S1x1 ![] bcast_S_S1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1 ![] bcast_S_S1x1),
    TRef.ternary main_call0.v13 main_call0.v12 main_call0.call0.v1 main_call0.call0.v2 (fun p a b => select (broadcastInDim S1x1 ![] bcast_S_S1x1 p) a b),
    unary main_v3 main_v5 (broadcastInDim S1x256 ![0, 1] bcast_S1x1_S1x256_0_1 : (⟨S1x1, .f32⟩ : BufTy).Contents (Elt F) → (⟨S1x256, .f32⟩ : BufTy).Contents (Elt F)),
    binary main_arg2 main_v5 main_v6 (subf : (⟨S1x256, .f32⟩ : BufTy).Contents (Elt F) → (⟨S1x256, .f32⟩ : BufTy).Contents (Elt F) → (⟨S1x256, .f32⟩ : BufTy).Contents (Elt F)),
    nullary main_cst_1 (constant S_ .f32 0x3727C5AC#32),
    unary main_cst_1 main_v7 (broadcastInDim S1x1 ![] bcast_S_S1x1 : (⟨S_, .f32⟩ : BufTy).Contents (Elt F) → (⟨S1x1, .f32⟩ : BufTy).Contents (Elt F)),
    binary main_v4 main_v7 main_v8 (addf : (⟨S1x1, .f32⟩ : BufTy).Contents (Elt F) → (⟨S1x1, .f32⟩ : BufTy).Contents (Elt F) → (⟨S1x1, .f32⟩ : BufTy).Contents (Elt F)),
    unary main_v8 main_v9 (Host.rsqrt : (⟨S1x1, .f32⟩ : BufTy).Contents (Elt F) → (⟨S1x1, .f32⟩ : BufTy).Contents (Elt F)),
    unary main_v9 main_v10 (broadcastInDim S1x256 ![0, 1] bcast_S1x1_S1x256_0_1 : (⟨S1x1, .f32⟩ : BufTy).Contents (Elt F) → (⟨S1x256, .f32⟩ : BufTy).Contents (Elt F)),
    binary main_v6 main_v10 main_v11 (mulf : (⟨S1x256, .f32⟩ : BufTy).Contents (Elt F) → (⟨S1x256, .f32⟩ : BufTy).Contents (Elt F) → (⟨S1x256, .f32⟩ : BufTy).Contents (Elt F)),
    unary main_arg3 main_v12 (broadcastInDim S1x256 ![1] bcast_S256_S1x256_1 : (⟨S256, .f32⟩ : BufTy).Contents (Elt F) → (⟨S1x256, .f32⟩ : BufTy).Contents (Elt F)),
    binary main_v11 main_v12 main_v13 (mulf : (⟨S1x256, .f32⟩ : BufTy).Contents (Elt F) → (⟨S1x256, .f32⟩ : BufTy).Contents (Elt F) → (⟨S1x256, .f32⟩ : BufTy).Contents (Elt F)),
    unary main_arg4 main_v14 (broadcastInDim S1x256 ![1] bcast_S256_S1x256_1 : (⟨S256, .f32⟩ : BufTy).Contents (Elt F) → (⟨S1x256, .f32⟩ : BufTy).Contents (Elt F)),
    binary main_v13 main_v14 main_v15 (addf : (⟨S1x256, .f32⟩ : BufTy).Contents (Elt F) → (⟨S1x256, .f32⟩ : BufTy).Contents (Elt F) → (⟨S1x256, .f32⟩ : BufTy).Contents (Elt F)),
    TRef.nullary main_call1.cst (constant S_ .f32 0x00000000#32),
    TRef.unary main_call1.cst main_call1.v0 (broadcastInDim S1x256 ![] bcast_S_S1x256),
    TRef.binary (.of main_v15) main_call1.v0 main_call1.v1 maximumf,
    binary main_v16 main_arg5 main_v17 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    binary main_v17 main_v18 main_v19 (addf : (⟨S1x128, .f32⟩ : BufTy).Contents (Elt F) → (⟨S1x128, .f32⟩ : BufTy).Contents (Elt F) → (⟨S1x128, .f32⟩ : BufTy).Contents (Elt F)) ]

/-- The first stream: the rows through the first linear map with its bias, seen as heads of channels. (5 operations, ending on `main_v24`.) -/
abbrev sl2 : List (HloOp τ sig (Elt F)) :=
  [ binary main_arg0 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    reshape main_v23 main_v24 rfl shapeCasts_S100000x128_S100000x8x16 ]

/-- The first stream: the target through the second linear map with its bias, seen as heads of channels. (4 operations, ending on `main_v28`.) -/
abbrev sl3 : List (HloOp τ sig (Elt F)) :=
  [ binary main_v19 main_arg9 main_v25 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    binary main_v25 main_v26 main_v27 (addf : (⟨S1x128, .f32⟩ : BufTy).Contents (Elt F) → (⟨S1x128, .f32⟩ : BufTy).Contents (Elt F) → (⟨S1x128, .f32⟩ : BufTy).Contents (Elt F)),
    reshape main_v27 main_v28 rfl shapeCasts_S1x128_S1x8x16 ]

/-- The first stream: the target's projection broadcast over the rows, the sum with the rows' projection, and its leaky rectifier. (10 operations, ending on `main_v31`.) -/
abbrev sl4 : List (HloOp τ sig (Elt F)) :=
  [ unary main_v28 main_v29 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v24 main_v29 main_v30 (addf : (⟨S100000x8x16, .f32⟩ : BufTy).Contents (Elt F) → (⟨S100000x8x16, .f32⟩ : BufTy).Contents (Elt F) → (⟨S100000x8x16, .f32⟩ : BufTy).Contents (Elt F)),
    nullary main_cst_2 (constant S_ .f32 0x3E4CCCCD#32),
    TRef.nullary main_call2.cst (constant S_ .f32 0x00000000#32),
    TRef.unary main_call2.cst main_call2.v0 (broadcastInDim S100000x8x16 ![] bcast_S_S100000x8x16),
    TRef.binary (.of main_v30) main_call2.v0 main_call2.v1 (cmpf .oge),
    TRef.unary (.of main_cst_2) main_call2.v2 id,
    TRef.unary main_call2.v2 main_call2.v3 (broadcastInDim S100000x8x16 ![] bcast_S_S100000x8x16),
    TRef.binary main_call2.v3 (.of main_v30) main_call2.v4 mulf,
    TRef.ternary main_call2.v1 (.of main_v30) main_call2.v4 main_call2.call0.v0 select ]

/-- The first stream: the product with the attention vector summed over the channels: the scores. (5 operations, ending on `main_v35`.) -/
abbrev sl5 : List (HloOp τ sig (Elt F)) :=
  [ unary main_arg11 main_v32 (broadcastInDim S1x8x16 ![1, 2] bcast_S8x16_S1x8x16_1_2 : (⟨S8x16, .f32⟩ : BufTy).Contents (Elt F) → (⟨S1x8x16, .f32⟩ : BufTy).Contents (Elt F)),
    unary main_v32 main_v33 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v31 main_v33 main_v34 (mulf : (⟨S100000x8x16, .f32⟩ : BufTy).Contents (Elt F) → (⟨S100000x8x16, .f32⟩ : BufTy).Contents (Elt F) → (⟨S100000x8x16, .f32⟩ : BufTy).Contents (Elt F)),
    nullary main_cst_3 (constant S_ .f32 0x00000000#32),
    binary main_v34 main_cst_3 main_v35 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)) ]

/-- The first stream: the scores' maximum over the rows, the exponentials of the differences, their sum over the rows, the quotients: the weights. (14 operations, ending on `main_v46`.) -/
abbrev sl6 : List (HloOp τ sig (Elt F)) :=
  [ nullary main_cst_4 (constant S_ .f32 0xFF800000#32),
    binary main_v35 main_cst_4 main_v36 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_5 (constant S_ .f32 0xFF800000#32),
    unary main_cst_5 main_v37 (broadcastInDim S8 ![] bcast_S_S8 : (⟨S_, .f32⟩ : BufTy).Contents (Elt F) → (⟨S8, .f32⟩ : BufTy).Contents (Elt F)),
    binary main_v37 main_v36 main_v38 (maximumf : (⟨S8, .f32⟩ : BufTy).Contents (Elt F) → (⟨S8, .f32⟩ : BufTy).Contents (Elt F) → (⟨S8, .f32⟩ : BufTy).Contents (Elt F)),
    unary main_v38 main_v39 (broadcastInDim S1x8 ![1] bcast_S8_S1x8_1 : (⟨S8, .f32⟩ : BufTy).Contents (Elt F) → (⟨S1x8, .f32⟩ : BufTy).Contents (Elt F)),
    unary main_v39 main_v40 (broadcastInDim S100000x8 ![0, 1] bcast_S1x8_S100000x8_0_1 : (⟨S1x8, .f32⟩ : BufTy).Contents (Elt F) → (⟨S100000x8, .f32⟩ : BufTy).Contents (Elt F)),
    binary main_v35 main_v40 main_v41 (subf : (⟨S100000x8, .f32⟩ : BufTy).Contents (Elt F) → (⟨S100000x8, .f32⟩ : BufTy).Contents (Elt F) → (⟨S100000x8, .f32⟩ : BufTy).Contents (Elt F)),
    unary main_v41 main_v42 (Host.exp : (⟨S100000x8, .f32⟩ : BufTy).Contents (Elt F) → (⟨S100000x8, .f32⟩ : BufTy).Contents (Elt F)),
    nullary main_cst_6 (constant S_ .f32 0x00000000#32),
    binary main_v42 main_cst_6 main_v43 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v43 main_v44 (broadcastInDim S1x8 ![1] bcast_S8_S1x8_1 : (⟨S8, .f32⟩ : BufTy).Contents (Elt F) → (⟨S1x8, .f32⟩ : BufTy).Contents (Elt F)),
    unary main_v44 main_v45 (broadcastInDim S100000x8 ![0, 1] bcast_S1x8_S100000x8_0_1 : (⟨S1x8, .f32⟩ : BufTy).Contents (Elt F) → (⟨S100000x8, .f32⟩ : BufTy).Contents (Elt F)),
    binary main_v42 main_v45 main_v46 (Host.divf : (⟨S100000x8, .f32⟩ : BufTy).Contents (Elt F) → (⟨S100000x8, .f32⟩ : BufTy).Contents (Elt F) → (⟨S100000x8, .f32⟩ : BufTy).Contents (Elt F)) ]

/-- The first stream: the weights broadcast over the channels times the rows' projection, summed over the rows. (5 operations, ending on `main_v50`.) -/
abbrev sl7 : List (HloOp τ sig (Elt F)) :=
  [ unary main_v46 main_v47 (broadcastInDim S100000x8x1 ![0, 1] bcast_S100000x8_S100000x8x1_0_1 : (⟨S100000x8, .f32⟩ : BufTy).Contents (Elt F) → (⟨S100000x8x1, .f32⟩ : BufTy).Contents (Elt F)),
    unary main_v47 main_v48 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v48 main_v24 main_v49 (mulf : (⟨S100000x8x16, .f32⟩ : BufTy).Contents (Elt F) → (⟨S100000x8x16, .f32⟩ : BufTy).Contents (Elt F) → (⟨S100000x8x16, .f32⟩ : BufTy).Contents (Elt F)),
    nullary main_cst_7 (constant S_ .f32 0x00000000#32),
    binary main_v49 main_cst_7 main_v50 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)) ]

/-- The first stream: that sum seen as one row of 128, plus the output bias: the aggregate. (3 operations, ending on `main_v53`.) -/
abbrev sl8 : List (HloOp τ sig (Elt F)) :=
  [ reshape main_v50 main_v51 rfl shapeCasts_S8x16_S1x128,
    unary main_arg12 main_v52 (broadcastInDim S1x128 ![1] bcast_S128_S1x128_1 : (⟨S128, .f32⟩ : BufTy).Contents (Elt F) → (⟨S1x128, .f32⟩ : BufTy).Contents (Elt F)),
    binary main_v51 main_v52 main_v53 (addf : (⟨S1x128, .f32⟩ : BufTy).Contents (Elt F) → (⟨S1x128, .f32⟩ : BufTy).Contents (Elt F) → (⟨S1x128, .f32⟩ : BufTy).Contents (Elt F)) ]

/-- The second stream: the global feature's layer norm, the rectifier and the linear map with its bias: the target features. (48 operations, ending on `main_v73`.) -/
abbrev sl9 : List (HloOp τ sig (Elt F)) :=
  [ nullary main_cst_8 (constant S_ .f32 0x00000000#32),
    binary main_arg2 main_cst_8 main_v54 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v54 main_v55 (broadcastInDim S1x1 ![0] bcast_S1_S1x1_0 : (⟨S1, .f32⟩ : BufTy).Contents (Elt F) → (⟨S1x1, .f32⟩ : BufTy).Contents (Elt F)),
    nullary main_cst_9 (constant S_ .f32 0x43800000#32),
    unary main_cst_9 main_v56 (broadcastInDim S1x1 ![] bcast_S_S1x1 : (⟨S_, .f32⟩ : BufTy).Contents (Elt F) → (⟨S1x1, .f32⟩ : BufTy).Contents (Elt F)),
    binary main_v55 main_v56 main_v57 (Host.divf : (⟨S1x1, .f32⟩ : BufTy).Contents (Elt F) → (⟨S1x1, .f32⟩ : BufTy).Contents (Elt F) → (⟨S1x1, .f32⟩ : BufTy).Contents (Elt F)),
    nullary main_c_10 (constantI S_ 32 0#32),
    TRef.nullary main_call3.cst (constant S_ .f32 0x00000000#32),
    TRef.binary (.of main_arg2) main_call3.cst main_call3.v0 (fun x v => Host.reduceAdd x v reducesTo_S1x256_S1_d1 h_S_),
    TRef.unary main_call3.v0 main_call3.v1 (broadcastInDim S1x1 ![0] bcast_S1_S1x1_0),
    TRef.nullary main_call3.cst_0 (constant S_ .f32 0x43800000#32),
    TRef.unary main_call3.cst_0 main_call3.v2 (broadcastInDim S1x1 ![] bcast_S_S1x1),
    TRef.binary main_call3.v1 main_call3.v2 main_call3.v3 Host.divf,
    TRef.unary main_call3.v3 main_call3.v4 (broadcastInDim S1x256 ![0, 1] bcast_S1x1_S1x256_0_1),
    TRef.binary (.of main_arg2) main_call3.v4 main_call3.v5 subf,
    TRef.binary main_call3.v5 main_call3.v5 main_call3.v6 mulf,
    TRef.unary (.of main_c_10) main_call3.v7 (sitofp .f32),
    TRef.nullary main_call3.cst_1 (constant S_ .f32 0x43800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S1x256_S1_d1 h_S_),
    TRef.unary main_call3.v9 main_call3.v10 (broadcastInDim S1x1 ![0] bcast_S1_S1x1_0),
    TRef.unary main_call3.v8 main_call3.v11 (broadcastInDim S1x1 ![] bcast_S_S1x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x1 ![] bcast_S_S1x1),
    TRef.ternary main_call3.v13 main_call3.v12 main_call3.call0.v1 main_call3.call0.v2 (fun p a b => select (broadcastInDim S1x1 ![] bcast_S_S1x1 p) a b),
    unary main_v57 main_v59 (broadcastInDim S1x256 ![0, 1] bcast_S1x1_S1x256_0_1 : (⟨S1x1, .f32⟩ : BufTy).Contents (Elt F) → (⟨S1x256, .f32⟩ : BufTy).Contents (Elt F)),
    binary main_arg2 main_v59 main_v60 (subf : (⟨S1x256, .f32⟩ : BufTy).Contents (Elt F) → (⟨S1x256, .f32⟩ : BufTy).Contents (Elt F) → (⟨S1x256, .f32⟩ : BufTy).Contents (Elt F)),
    nullary main_cst_11 (constant S_ .f32 0x3727C5AC#32),
    unary main_cst_11 main_v61 (broadcastInDim S1x1 ![] bcast_S_S1x1 : (⟨S_, .f32⟩ : BufTy).Contents (Elt F) → (⟨S1x1, .f32⟩ : BufTy).Contents (Elt F)),
    binary main_v58 main_v61 main_v62 (addf : (⟨S1x1, .f32⟩ : BufTy).Contents (Elt F) → (⟨S1x1, .f32⟩ : BufTy).Contents (Elt F) → (⟨S1x1, .f32⟩ : BufTy).Contents (Elt F)),
    unary main_v62 main_v63 (Host.rsqrt : (⟨S1x1, .f32⟩ : BufTy).Contents (Elt F) → (⟨S1x1, .f32⟩ : BufTy).Contents (Elt F)),
    unary main_v63 main_v64 (broadcastInDim S1x256 ![0, 1] bcast_S1x1_S1x256_0_1 : (⟨S1x1, .f32⟩ : BufTy).Contents (Elt F) → (⟨S1x256, .f32⟩ : BufTy).Contents (Elt F)),
    binary main_v60 main_v64 main_v65 (mulf : (⟨S1x256, .f32⟩ : BufTy).Contents (Elt F) → (⟨S1x256, .f32⟩ : BufTy).Contents (Elt F) → (⟨S1x256, .f32⟩ : BufTy).Contents (Elt F)),
    unary main_arg13 main_v66 (broadcastInDim S1x256 ![1] bcast_S256_S1x256_1 : (⟨S256, .f32⟩ : BufTy).Contents (Elt F) → (⟨S1x256, .f32⟩ : BufTy).Contents (Elt F)),
    binary main_v65 main_v66 main_v67 (mulf : (⟨S1x256, .f32⟩ : BufTy).Contents (Elt F) → (⟨S1x256, .f32⟩ : BufTy).Contents (Elt F) → (⟨S1x256, .f32⟩ : BufTy).Contents (Elt F)),
    unary main_arg14 main_v68 (broadcastInDim S1x256 ![1] bcast_S256_S1x256_1 : (⟨S256, .f32⟩ : BufTy).Contents (Elt F) → (⟨S1x256, .f32⟩ : BufTy).Contents (Elt F)),
    binary main_v67 main_v68 main_v69 (addf : (⟨S1x256, .f32⟩ : BufTy).Contents (Elt F) → (⟨S1x256, .f32⟩ : BufTy).Contents (Elt F) → (⟨S1x256, .f32⟩ : BufTy).Contents (Elt F)),
    TRef.nullary main_call4.cst (constant S_ .f32 0x00000000#32),
    TRef.unary main_call4.cst main_call4.v0 (broadcastInDim S1x256 ![] bcast_S_S1x256),
    TRef.binary (.of main_v69) main_call4.v0 main_call4.v1 maximumf,
    binary main_v70 main_arg15 main_v71 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg16 main_v72 (broadcastInDim S1x128 ![1] bcast_S128_S1x128_1 : (⟨S128, .f32⟩ : BufTy).Contents (Elt F) → (⟨S1x128, .f32⟩ : BufTy).Contents (Elt F)),
    binary main_v71 main_v72 main_v73 (addf : (⟨S1x128, .f32⟩ : BufTy).Contents (Elt F) → (⟨S1x128, .f32⟩ : BufTy).Contents (Elt F) → (⟨S1x128, .f32⟩ : BufTy).Contents (Elt F)) ]

/-- The second stream: the rows through the first linear map with its bias, seen as heads of channels. (5 operations, ending on `main_v78`.) -/
abbrev sl10 : List (HloOp τ sig (Elt F)) :=
  [ binary main_arg1 main_arg17 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    reshape main_v77 main_v78 rfl shapeCasts_S100000x128_S100000x8x16 ]

/-- The second stream: the target through the second linear map with its bias, seen as heads of channels. (4 operations, ending on `main_v82`.) -/
abbrev sl11 : List (HloOp τ sig (Elt F)) :=
  [ binary main_v73 main_arg19 main_v79 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg20 main_v80 (broadcastInDim S1x128 ![1] bcast_S128_S1x128_1 : (⟨S128, .f32⟩ : BufTy).Contents (Elt F) → (⟨S1x128, .f32⟩ : BufTy).Contents (Elt F)),
    binary main_v79 main_v80 main_v81 (addf : (⟨S1x128, .f32⟩ : BufTy).Contents (Elt F) → (⟨S1x128, .f32⟩ : BufTy).Contents (Elt F) → (⟨S1x128, .f32⟩ : BufTy).Contents (Elt F)),
    reshape main_v81 main_v82 rfl shapeCasts_S1x128_S1x8x16 ]

/-- The second stream: the target's projection broadcast over the rows, the sum with the rows' projection, and its leaky rectifier. (10 operations, ending on `main_v85`.) -/
abbrev sl12 : List (HloOp τ sig (Elt F)) :=
  [ unary main_v82 main_v83 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v78 main_v83 main_v84 (addf : (⟨S100000x8x16, .f32⟩ : BufTy).Contents (Elt F) → (⟨S100000x8x16, .f32⟩ : BufTy).Contents (Elt F) → (⟨S100000x8x16, .f32⟩ : BufTy).Contents (Elt F)),
    nullary main_cst_12 (constant S_ .f32 0x3E4CCCCD#32),
    TRef.nullary main_call5.cst (constant S_ .f32 0x00000000#32),
    TRef.unary main_call5.cst main_call5.v0 (broadcastInDim S100000x8x16 ![] bcast_S_S100000x8x16),
    TRef.binary (.of main_v84) main_call5.v0 main_call5.v1 (cmpf .oge),
    TRef.unary (.of main_cst_12) main_call5.v2 id,
    TRef.unary main_call5.v2 main_call5.v3 (broadcastInDim S100000x8x16 ![] bcast_S_S100000x8x16),
    TRef.binary main_call5.v3 (.of main_v84) main_call5.v4 mulf,
    TRef.ternary main_call5.v1 (.of main_v84) main_call5.v4 main_call5.call0.v0 select ]

/-- The second stream: the product with the attention vector summed over the channels: the scores. (5 operations, ending on `main_v89`.) -/
abbrev sl13 : List (HloOp τ sig (Elt F)) :=
  [ unary main_arg21 main_v86 (broadcastInDim S1x8x16 ![1, 2] bcast_S8x16_S1x8x16_1_2 : (⟨S8x16, .f32⟩ : BufTy).Contents (Elt F) → (⟨S1x8x16, .f32⟩ : BufTy).Contents (Elt F)),
    unary main_v86 main_v87 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v85 main_v87 main_v88 (mulf : (⟨S100000x8x16, .f32⟩ : BufTy).Contents (Elt F) → (⟨S100000x8x16, .f32⟩ : BufTy).Contents (Elt F) → (⟨S100000x8x16, .f32⟩ : BufTy).Contents (Elt F)),
    nullary main_cst_13 (constant S_ .f32 0x00000000#32),
    binary main_v88 main_cst_13 main_v89 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)) ]

/-- The second stream: the scores' maximum over the rows, the exponentials of the differences, their sum over the rows, the quotients: the weights. (14 operations, ending on `main_v100`.) -/
abbrev sl14 : List (HloOp τ sig (Elt F)) :=
  [ nullary main_cst_14 (constant S_ .f32 0xFF800000#32),
    binary main_v89 main_cst_14 main_v90 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_15 (constant S_ .f32 0xFF800000#32),
    unary main_cst_15 main_v91 (broadcastInDim S8 ![] bcast_S_S8 : (⟨S_, .f32⟩ : BufTy).Contents (Elt F) → (⟨S8, .f32⟩ : BufTy).Contents (Elt F)),
    binary main_v91 main_v90 main_v92 (maximumf : (⟨S8, .f32⟩ : BufTy).Contents (Elt F) → (⟨S8, .f32⟩ : BufTy).Contents (Elt F) → (⟨S8, .f32⟩ : BufTy).Contents (Elt F)),
    unary main_v92 main_v93 (broadcastInDim S1x8 ![1] bcast_S8_S1x8_1 : (⟨S8, .f32⟩ : BufTy).Contents (Elt F) → (⟨S1x8, .f32⟩ : BufTy).Contents (Elt F)),
    unary main_v93 main_v94 (broadcastInDim S100000x8 ![0, 1] bcast_S1x8_S100000x8_0_1 : (⟨S1x8, .f32⟩ : BufTy).Contents (Elt F) → (⟨S100000x8, .f32⟩ : BufTy).Contents (Elt F)),
    binary main_v89 main_v94 main_v95 (subf : (⟨S100000x8, .f32⟩ : BufTy).Contents (Elt F) → (⟨S100000x8, .f32⟩ : BufTy).Contents (Elt F) → (⟨S100000x8, .f32⟩ : BufTy).Contents (Elt F)),
    unary main_v95 main_v96 (Host.exp : (⟨S100000x8, .f32⟩ : BufTy).Contents (Elt F) → (⟨S100000x8, .f32⟩ : BufTy).Contents (Elt F)),
    nullary main_cst_16 (constant S_ .f32 0x00000000#32),
    binary main_v96 main_cst_16 main_v97 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v97 main_v98 (broadcastInDim S1x8 ![1] bcast_S8_S1x8_1 : (⟨S8, .f32⟩ : BufTy).Contents (Elt F) → (⟨S1x8, .f32⟩ : BufTy).Contents (Elt F)),
    unary main_v98 main_v99 (broadcastInDim S100000x8 ![0, 1] bcast_S1x8_S100000x8_0_1 : (⟨S1x8, .f32⟩ : BufTy).Contents (Elt F) → (⟨S100000x8, .f32⟩ : BufTy).Contents (Elt F)),
    binary main_v96 main_v99 main_v100 (Host.divf : (⟨S100000x8, .f32⟩ : BufTy).Contents (Elt F) → (⟨S100000x8, .f32⟩ : BufTy).Contents (Elt F) → (⟨S100000x8, .f32⟩ : BufTy).Contents (Elt F)) ]

/-- The second stream: the weights broadcast over the channels times the rows' projection, summed over the rows. (5 operations, ending on `main_v104`.) -/
abbrev sl15 : List (HloOp τ sig (Elt F)) :=
  [ unary main_v100 main_v101 (broadcastInDim S100000x8x1 ![0, 1] bcast_S100000x8_S100000x8x1_0_1 : (⟨S100000x8, .f32⟩ : BufTy).Contents (Elt F) → (⟨S100000x8x1, .f32⟩ : BufTy).Contents (Elt F)),
    unary main_v101 main_v102 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v102 main_v78 main_v103 (mulf : (⟨S100000x8x16, .f32⟩ : BufTy).Contents (Elt F) → (⟨S100000x8x16, .f32⟩ : BufTy).Contents (Elt F) → (⟨S100000x8x16, .f32⟩ : BufTy).Contents (Elt F)),
    nullary main_cst_17 (constant S_ .f32 0x00000000#32),
    binary main_v103 main_cst_17 main_v104 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)) ]

/-- The second stream: that sum seen as one row of 128, plus the output bias: the aggregate. (3 operations, ending on `main_v107`.) -/
abbrev sl16 : List (HloOp τ sig (Elt F)) :=
  [ reshape main_v104 main_v105 rfl shapeCasts_S8x16_S1x128,
    unary main_arg22 main_v106 (broadcastInDim S1x128 ![1] bcast_S128_S1x128_1 : (⟨S128, .f32⟩ : BufTy).Contents (Elt F) → (⟨S1x128, .f32⟩ : BufTy).Contents (Elt F)),
    binary main_v105 main_v106 main_v107 (addf : (⟨S1x128, .f32⟩ : BufTy).Contents (Elt F) → (⟨S1x128, .f32⟩ : BufTy).Contents (Elt F) → (⟨S1x128, .f32⟩ : BufTy).Contents (Elt F)) ]

/-- The two aggregates side by side, added to the global feature: the skip sum. (2 operations, ending on `main_v109`.) -/
abbrev sl17 : List (HloOp τ sig (Elt F)) :=
  [ binary main_v53 main_v107 main_v108 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    binary main_arg2 main_v108 main_v109 (addf : (⟨S1x256, .f32⟩ : BufTy).Contents (Elt F) → (⟨S1x256, .f32⟩ : BufTy).Contents (Elt F) → (⟨S1x256, .f32⟩ : BufTy).Contents (Elt F)) ]

/-- The skip sum's layer norm, the rectifier, the last linear map with its bias, and the sum with the skip sum: the result. (49 operations, ending on `main_v130`.) -/
abbrev sl18 : List (HloOp τ sig (Elt F)) :=
  [ nullary main_cst_18 (constant S_ .f32 0x00000000#32),
    binary main_v109 main_cst_18 main_v110 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v110 main_v111 (broadcastInDim S1x1 ![0] bcast_S1_S1x1_0 : (⟨S1, .f32⟩ : BufTy).Contents (Elt F) → (⟨S1x1, .f32⟩ : BufTy).Contents (Elt F)),
    nullary main_cst_19 (constant S_ .f32 0x43800000#32),
    unary main_cst_19 main_v112 (broadcastInDim S1x1 ![] bcast_S_S1x1 : (⟨S_, .f32⟩ : BufTy).Contents (Elt F) → (⟨S1x1, .f32⟩ : BufTy).Contents (Elt F)),
    binary main_v111 main_v112 main_v113 (Host.divf : (⟨S1x1, .f32⟩ : BufTy).Contents (Elt F) → (⟨S1x1, .f32⟩ : BufTy).Contents (Elt F) → (⟨S1x1, .f32⟩ : BufTy).Contents (Elt F)),
    nullary main_c_20 (constantI S_ 32 0#32),
    TRef.nullary main_call6.cst (constant S_ .f32 0x00000000#32),
    TRef.binary (.of main_v109) main_call6.cst main_call6.v0 (fun x v => Host.reduceAdd x v reducesTo_S1x256_S1_d1 h_S_),
    TRef.unary main_call6.v0 main_call6.v1 (broadcastInDim S1x1 ![0] bcast_S1_S1x1_0),
    TRef.nullary main_call6.cst_0 (constant S_ .f32 0x43800000#32),
    TRef.unary main_call6.cst_0 main_call6.v2 (broadcastInDim S1x1 ![] bcast_S_S1x1),
    TRef.binary main_call6.v1 main_call6.v2 main_call6.v3 Host.divf,
    TRef.unary main_call6.v3 main_call6.v4 (broadcastInDim S1x256 ![0, 1] bcast_S1x1_S1x256_0_1),
    TRef.binary (.of main_v109) main_call6.v4 main_call6.v5 subf,
    TRef.binary main_call6.v5 main_call6.v5 main_call6.v6 mulf,
    TRef.unary (.of main_c_20) main_call6.v7 (sitofp .f32),
    TRef.nullary main_call6.cst_1 (constant S_ .f32 0x43800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S1x256_S1_d1 h_S_),
    TRef.unary main_call6.v9 main_call6.v10 (broadcastInDim S1x1 ![0] bcast_S1_S1x1_0),
    TRef.unary main_call6.v8 main_call6.v11 (broadcastInDim S1x1 ![] bcast_S_S1x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1x1 ![] bcast_S_S1x1),
    TRef.ternary main_call6.v13 main_call6.v12 main_call6.call0.v1 main_call6.call0.v2 (fun p a b => select (broadcastInDim S1x1 ![] bcast_S_S1x1 p) a b),
    unary main_v113 main_v115 (broadcastInDim S1x256 ![0, 1] bcast_S1x1_S1x256_0_1 : (⟨S1x1, .f32⟩ : BufTy).Contents (Elt F) → (⟨S1x256, .f32⟩ : BufTy).Contents (Elt F)),
    binary main_v109 main_v115 main_v116 (subf : (⟨S1x256, .f32⟩ : BufTy).Contents (Elt F) → (⟨S1x256, .f32⟩ : BufTy).Contents (Elt F) → (⟨S1x256, .f32⟩ : BufTy).Contents (Elt F)),
    nullary main_cst_21 (constant S_ .f32 0x3727C5AC#32),
    unary main_cst_21 main_v117 (broadcastInDim S1x1 ![] bcast_S_S1x1 : (⟨S_, .f32⟩ : BufTy).Contents (Elt F) → (⟨S1x1, .f32⟩ : BufTy).Contents (Elt F)),
    binary main_v114 main_v117 main_v118 (addf : (⟨S1x1, .f32⟩ : BufTy).Contents (Elt F) → (⟨S1x1, .f32⟩ : BufTy).Contents (Elt F) → (⟨S1x1, .f32⟩ : BufTy).Contents (Elt F)),
    unary main_v118 main_v119 (Host.rsqrt : (⟨S1x1, .f32⟩ : BufTy).Contents (Elt F) → (⟨S1x1, .f32⟩ : BufTy).Contents (Elt F)),
    unary main_v119 main_v120 (broadcastInDim S1x256 ![0, 1] bcast_S1x1_S1x256_0_1 : (⟨S1x1, .f32⟩ : BufTy).Contents (Elt F) → (⟨S1x256, .f32⟩ : BufTy).Contents (Elt F)),
    binary main_v116 main_v120 main_v121 (mulf : (⟨S1x256, .f32⟩ : BufTy).Contents (Elt F) → (⟨S1x256, .f32⟩ : BufTy).Contents (Elt F) → (⟨S1x256, .f32⟩ : BufTy).Contents (Elt F)),
    unary main_arg23 main_v122 (broadcastInDim S1x256 ![1] bcast_S256_S1x256_1 : (⟨S256, .f32⟩ : BufTy).Contents (Elt F) → (⟨S1x256, .f32⟩ : BufTy).Contents (Elt F)),
    binary main_v121 main_v122 main_v123 (mulf : (⟨S1x256, .f32⟩ : BufTy).Contents (Elt F) → (⟨S1x256, .f32⟩ : BufTy).Contents (Elt F) → (⟨S1x256, .f32⟩ : BufTy).Contents (Elt F)),
    unary main_arg24 main_v124 (broadcastInDim S1x256 ![1] bcast_S256_S1x256_1 : (⟨S256, .f32⟩ : BufTy).Contents (Elt F) → (⟨S1x256, .f32⟩ : BufTy).Contents (Elt F)),
    binary main_v123 main_v124 main_v125 (addf : (⟨S1x256, .f32⟩ : BufTy).Contents (Elt F) → (⟨S1x256, .f32⟩ : BufTy).Contents (Elt F) → (⟨S1x256, .f32⟩ : BufTy).Contents (Elt F)),
    TRef.nullary main_call7.cst (constant S_ .f32 0x00000000#32),
    TRef.unary main_call7.cst main_call7.v0 (broadcastInDim S1x256 ![] bcast_S_S1x256),
    TRef.binary (.of main_v125) main_call7.v0 main_call7.v1 maximumf,
    binary main_v126 main_arg25 main_v127 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg26 main_v128 (broadcastInDim S1x256 ![1] bcast_S256_S1x256_1 : (⟨S256, .f32⟩ : BufTy).Contents (Elt F) → (⟨S1x256, .f32⟩ : BufTy).Contents (Elt F)),
    binary main_v127 main_v128 main_v129 (addf : (⟨S1x256, .f32⟩ : BufTy).Contents (Elt F) → (⟨S1x256, .f32⟩ : BufTy).Contents (Elt F) → (⟨S1x256, .f32⟩ : BufTy).Contents (Elt F)),
    binary main_v109 main_v129 main_v130 (addf : (⟨S1x256, .f32⟩ : BufTy).Contents (Elt F) → (⟨S1x256, .f32⟩ : BufTy).Contents (Elt F) → (⟨S1x256, .f32⟩ : BufTy).Contents (Elt F)) ]

set_option maxRecDepth 16384 in
set_option maxHeartbeats 4000000 in
/-- The line is the eighteen stretches in order. -/
theorem ops_slices : (ops : List (HloOp τ sig (Elt F))) = sl1 ++ (sl2 ++ (sl3 ++ (sl4 ++ (sl5 ++ (sl6 ++ (sl7 ++ (sl8 ++ (sl9 ++ (sl10 ++ (sl11 ++ (sl12 ++ (sl13 ++ (sl14 ++ (sl15 ++ (sl16 ++ (sl17 ++ (sl18))))))))))))))))) := rfl

/-- The buffers stretch 1 writes, in order. -/
abbrev wr1 : List (Ref sig .tc) :=
  [main_cst, main_v0, main_v1, main_cst_0, main_v2, main_v3, main_c, main_call0.cst.ref,
   main_call0.v0.ref, main_call0.v1.ref, main_call0.cst_0.ref, main_call0.v2.ref, main_call0.v3.ref, main_call0.v4.ref, main_call0.v5.ref, main_call0.v6.ref,
   main_call0.v7.ref, main_call0.cst_1.ref, main_call0.v8.ref, main_call0.cst_2.ref, main_call0.v9.ref, main_call0.v10.ref, main_call0.v11.ref, main_call0.v12.ref,
   main_call0.cst_3.ref, main_call0.v13.ref, main_call0.cst_4.ref, main_call0.call0.v0.ref, main_call0.call0.v1.ref, main_call0.call0.v2.ref, main_v5, main_v6,
   main_cst_1, main_v7, main_v8, main_v9, main_v10, main_v11, main_v12, main_v13,
   main_v14, main_v15, main_call1.cst.ref, main_call1.v0.ref, main_call1.v1.ref, main_v17, main_v18, main_v19]

set_option maxRecDepth 8192 in
theorem sl1_writes : (sl1 : List (HloOp τ sig (Elt F))).Forall fun op => op.writes ⊆ (wr1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 1 does not write keeps its contents through it. -/
theorem keep1 (U : Valuation τ sig (Elt F)) {r : Ref sig .tc} (h : r ∉ wr1) :
    after (sl1 (F := F)) U (no_index (Proc.devRef .tc r)) = U (Proc.devRef .tc r) :=
  after_of_writes_sub sl1 U sl1_writes h

/-- The buffers stretch 2 writes, in order. -/
abbrev wr2 : List (Ref sig .tc) :=
  [main_v20, main_v21, main_v22, main_v23, main_v24]

set_option maxRecDepth 8192 in
theorem sl2_writes : (sl2 : List (HloOp τ sig (Elt F))).Forall fun op => op.writes ⊆ (wr2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 2 does not write keeps its contents through it. -/
theorem keep2 (U : Valuation τ sig (Elt F)) {r : Ref sig .tc} (h : r ∉ wr2) :
    after (sl2 (F := F)) U (no_index (Proc.devRef .tc r)) = U (Proc.devRef .tc r) :=
  after_of_writes_sub sl2 U sl2_writes h

/-- The buffers stretch 3 writes, in order. -/
abbrev wr3 : List (Ref sig .tc) :=
  [main_v25, main_v26, main_v27, main_v28]

set_option maxRecDepth 8192 in
theorem sl3_writes : (sl3 : List (HloOp τ sig (Elt F))).Forall fun op => op.writes ⊆ (wr3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 3 does not write keeps its contents through it. -/
theorem keep3 (U : Valuation τ sig (Elt F)) {r : Ref sig .tc} (h : r ∉ wr3) :
    after (sl3 (F := F)) U (no_index (Proc.devRef .tc r)) = U (Proc.devRef .tc r) :=
  after_of_writes_sub sl3 U sl3_writes h

/-- The buffers stretch 4 writes, in order. -/
abbrev wr4 : List (Ref sig .tc) :=
  [main_v29, main_v30, main_cst_2, main_call2.cst.ref, main_call2.v0.ref, main_call2.v1.ref, main_call2.v2.ref, main_call2.v3.ref,
   main_call2.v4.ref, main_call2.call0.v0.ref]

set_option maxRecDepth 8192 in
theorem sl4_writes : (sl4 : List (HloOp τ sig (Elt F))).Forall fun op => op.writes ⊆ (wr4.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 4 does not write keeps its contents through it. -/
theorem keep4 (U : Valuation τ sig (Elt F)) {r : Ref sig .tc} (h : r ∉ wr4) :
    after (sl4 (F := F)) U (no_index (Proc.devRef .tc r)) = U (Proc.devRef .tc r) :=
  after_of_writes_sub sl4 U sl4_writes h

/-- The buffers stretch 5 writes, in order. -/
abbrev wr5 : List (Ref sig .tc) :=
  [main_v32, main_v33, main_v34, main_cst_3, main_v35]

set_option maxRecDepth 8192 in
theorem sl5_writes : (sl5 : List (HloOp τ sig (Elt F))).Forall fun op => op.writes ⊆ (wr5.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 5 does not write keeps its contents through it. -/
theorem keep5 (U : Valuation τ sig (Elt F)) {r : Ref sig .tc} (h : r ∉ wr5) :
    after (sl5 (F := F)) U (no_index (Proc.devRef .tc r)) = U (Proc.devRef .tc r) :=
  after_of_writes_sub sl5 U sl5_writes h

/-- The buffers stretch 6 writes, in order. -/
abbrev wr6 : List (Ref sig .tc) :=
  [main_cst_4, main_v36, main_cst_5, main_v37, main_v38, main_v39, main_v40, main_v41,
   main_v42, main_cst_6, main_v43, main_v44, main_v45, main_v46]

set_option maxRecDepth 8192 in
theorem sl6_writes : (sl6 : List (HloOp τ sig (Elt F))).Forall fun op => op.writes ⊆ (wr6.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 6 does not write keeps its contents through it. -/
theorem keep6 (U : Valuation τ sig (Elt F)) {r : Ref sig .tc} (h : r ∉ wr6) :
    after (sl6 (F := F)) U (no_index (Proc.devRef .tc r)) = U (Proc.devRef .tc r) :=
  after_of_writes_sub sl6 U sl6_writes h

/-- The buffers stretch 7 writes, in order. -/
abbrev wr7 : List (Ref sig .tc) :=
  [main_v47, main_v48, main_v49, main_cst_7, main_v50]

set_option maxRecDepth 8192 in
theorem sl7_writes : (sl7 : List (HloOp τ sig (Elt F))).Forall fun op => op.writes ⊆ (wr7.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 7 does not write keeps its contents through it. -/
theorem keep7 (U : Valuation τ sig (Elt F)) {r : Ref sig .tc} (h : r ∉ wr7) :
    after (sl7 (F := F)) U (no_index (Proc.devRef .tc r)) = U (Proc.devRef .tc r) :=
  after_of_writes_sub sl7 U sl7_writes h

/-- The buffers stretch 8 writes, in order. -/
abbrev wr8 : List (Ref sig .tc) :=
  [main_v51, main_v52, main_v53]

set_option maxRecDepth 8192 in
theorem sl8_writes : (sl8 : List (HloOp τ sig (Elt F))).Forall fun op => op.writes ⊆ (wr8.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 8 does not write keeps its contents through it. -/
theorem keep8 (U : Valuation τ sig (Elt F)) {r : Ref sig .tc} (h : r ∉ wr8) :
    after (sl8 (F := F)) U (no_index (Proc.devRef .tc r)) = U (Proc.devRef .tc r) :=
  after_of_writes_sub sl8 U sl8_writes h

/-- The buffers stretch 9 writes, in order. -/
abbrev wr9 : List (Ref sig .tc) :=
  [main_cst_8, main_v54, main_v55, main_cst_9, main_v56, main_v57, main_c_10, main_call3.cst.ref,
   main_call3.v0.ref, main_call3.v1.ref, main_call3.cst_0.ref, main_call3.v2.ref, main_call3.v3.ref, main_call3.v4.ref, main_call3.v5.ref, main_call3.v6.ref,
   main_call3.v7.ref, main_call3.cst_1.ref, main_call3.v8.ref, main_call3.cst_2.ref, main_call3.v9.ref, main_call3.v10.ref, main_call3.v11.ref, main_call3.v12.ref,
   main_call3.cst_3.ref, main_call3.v13.ref, main_call3.cst_4.ref, main_call3.call0.v0.ref, main_call3.call0.v1.ref, main_call3.call0.v2.ref, main_v59, main_v60,
   main_cst_11, main_v61, main_v62, main_v63, main_v64, main_v65, main_v66, main_v67,
   main_v68, main_v69, main_call4.cst.ref, main_call4.v0.ref, main_call4.v1.ref, main_v71, main_v72, main_v73]

set_option maxRecDepth 8192 in
theorem sl9_writes : (sl9 : List (HloOp τ sig (Elt F))).Forall fun op => op.writes ⊆ (wr9.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 9 does not write keeps its contents through it. -/
theorem keep9 (U : Valuation τ sig (Elt F)) {r : Ref sig .tc} (h : r ∉ wr9) :
    after (sl9 (F := F)) U (no_index (Proc.devRef .tc r)) = U (Proc.devRef .tc r) :=
  after_of_writes_sub sl9 U sl9_writes h

/-- The buffers stretch 10 writes, in order. -/
abbrev wr10 : List (Ref sig .tc) :=
  [main_v74, main_v75, main_v76, main_v77, main_v78]

set_option maxRecDepth 8192 in
theorem sl10_writes : (sl10 : List (HloOp τ sig (Elt F))).Forall fun op => op.writes ⊆ (wr10.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 10 does not write keeps its contents through it. -/
theorem keep10 (U : Valuation τ sig (Elt F)) {r : Ref sig .tc} (h : r ∉ wr10) :
    after (sl10 (F := F)) U (no_index (Proc.devRef .tc r)) = U (Proc.devRef .tc r) :=
  after_of_writes_sub sl10 U sl10_writes h

/-- The buffers stretch 11 writes, in order. -/
abbrev wr11 : List (Ref sig .tc) :=
  [main_v79, main_v80, main_v81, main_v82]

set_option maxRecDepth 8192 in
theorem sl11_writes : (sl11 : List (HloOp τ sig (Elt F))).Forall fun op => op.writes ⊆ (wr11.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 11 does not write keeps its contents through it. -/
theorem keep11 (U : Valuation τ sig (Elt F)) {r : Ref sig .tc} (h : r ∉ wr11) :
    after (sl11 (F := F)) U (no_index (Proc.devRef .tc r)) = U (Proc.devRef .tc r) :=
  after_of_writes_sub sl11 U sl11_writes h

/-- The buffers stretch 12 writes, in order. -/
abbrev wr12 : List (Ref sig .tc) :=
  [main_v83, main_v84, main_cst_12, main_call5.cst.ref, main_call5.v0.ref, main_call5.v1.ref, main_call5.v2.ref, main_call5.v3.ref,
   main_call5.v4.ref, main_call5.call0.v0.ref]

set_option maxRecDepth 8192 in
theorem sl12_writes : (sl12 : List (HloOp τ sig (Elt F))).Forall fun op => op.writes ⊆ (wr12.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 12 does not write keeps its contents through it. -/
theorem keep12 (U : Valuation τ sig (Elt F)) {r : Ref sig .tc} (h : r ∉ wr12) :
    after (sl12 (F := F)) U (no_index (Proc.devRef .tc r)) = U (Proc.devRef .tc r) :=
  after_of_writes_sub sl12 U sl12_writes h

/-- The buffers stretch 13 writes, in order. -/
abbrev wr13 : List (Ref sig .tc) :=
  [main_v86, main_v87, main_v88, main_cst_13, main_v89]

set_option maxRecDepth 8192 in
theorem sl13_writes : (sl13 : List (HloOp τ sig (Elt F))).Forall fun op => op.writes ⊆ (wr13.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 13 does not write keeps its contents through it. -/
theorem keep13 (U : Valuation τ sig (Elt F)) {r : Ref sig .tc} (h : r ∉ wr13) :
    after (sl13 (F := F)) U (no_index (Proc.devRef .tc r)) = U (Proc.devRef .tc r) :=
  after_of_writes_sub sl13 U sl13_writes h

/-- The buffers stretch 14 writes, in order. -/
abbrev wr14 : List (Ref sig .tc) :=
  [main_cst_14, main_v90, main_cst_15, main_v91, main_v92, main_v93, main_v94, main_v95,
   main_v96, main_cst_16, main_v97, main_v98, main_v99, main_v100]

set_option maxRecDepth 8192 in
theorem sl14_writes : (sl14 : List (HloOp τ sig (Elt F))).Forall fun op => op.writes ⊆ (wr14.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 14 does not write keeps its contents through it. -/
theorem keep14 (U : Valuation τ sig (Elt F)) {r : Ref sig .tc} (h : r ∉ wr14) :
    after (sl14 (F := F)) U (no_index (Proc.devRef .tc r)) = U (Proc.devRef .tc r) :=
  after_of_writes_sub sl14 U sl14_writes h

/-- The buffers stretch 15 writes, in order. -/
abbrev wr15 : List (Ref sig .tc) :=
  [main_v101, main_v102, main_v103, main_cst_17, main_v104]

set_option maxRecDepth 8192 in
theorem sl15_writes : (sl15 : List (HloOp τ sig (Elt F))).Forall fun op => op.writes ⊆ (wr15.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 15 does not write keeps its contents through it. -/
theorem keep15 (U : Valuation τ sig (Elt F)) {r : Ref sig .tc} (h : r ∉ wr15) :
    after (sl15 (F := F)) U (no_index (Proc.devRef .tc r)) = U (Proc.devRef .tc r) :=
  after_of_writes_sub sl15 U sl15_writes h

/-- The buffers stretch 16 writes, in order. -/
abbrev wr16 : List (Ref sig .tc) :=
  [main_v105, main_v106, main_v107]

set_option maxRecDepth 8192 in
theorem sl16_writes : (sl16 : List (HloOp τ sig (Elt F))).Forall fun op => op.writes ⊆ (wr16.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 16 does not write keeps its contents through it. -/
theorem keep16 (U : Valuation τ sig (Elt F)) {r : Ref sig .tc} (h : r ∉ wr16) :
    after (sl16 (F := F)) U (no_index (Proc.devRef .tc r)) = U (Proc.devRef .tc r) :=
  after_of_writes_sub sl16 U sl16_writes h

/-- The buffers stretch 17 writes, in order. -/
abbrev wr17 : List (Ref sig .tc) :=
  [main_v108, main_v109]

set_option maxRecDepth 8192 in
theorem sl17_writes : (sl17 : List (HloOp τ sig (Elt F))).Forall fun op => op.writes ⊆ (wr17.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide)))⟩

/-- A buffer stretch 17 does not write keeps its contents through it. -/
theorem keep17 (U : Valuation τ sig (Elt F)) {r : Ref sig .tc} (h : r ∉ wr17) :
    after (sl17 (F := F)) U (no_index (Proc.devRef .tc r)) = U (Proc.devRef .tc r) :=
  after_of_writes_sub sl17 U sl17_writes h

/-- The buffers stretch 18 writes, in order. -/
abbrev wr18 : List (Ref sig .tc) :=
  [main_cst_18, main_v110, main_v111, main_cst_19, main_v112, main_v113, main_c_20, main_call6.cst.ref,
   main_call6.v0.ref, main_call6.v1.ref, main_call6.cst_0.ref, main_call6.v2.ref, main_call6.v3.ref, main_call6.v4.ref, main_call6.v5.ref, main_call6.v6.ref,
   main_call6.v7.ref, main_call6.cst_1.ref, main_call6.v8.ref, main_call6.cst_2.ref, main_call6.v9.ref, main_call6.v10.ref, main_call6.v11.ref, main_call6.v12.ref,
   main_call6.cst_3.ref, main_call6.v13.ref, main_call6.cst_4.ref, main_call6.call0.v0.ref, main_call6.call0.v1.ref, main_call6.call0.v2.ref, main_v115, main_v116,
   main_cst_21, main_v117, main_v118, main_v119, main_v120, main_v121, main_v122, main_v123,
   main_v124, main_v125, main_call7.cst.ref, main_call7.v0.ref, main_call7.v1.ref, main_v127, main_v128, main_v129,
   main_v130]

set_option maxRecDepth 8192 in
theorem sl18_writes : (sl18 : List (HloOp τ sig (Elt F))).Forall fun op => op.writes ⊆ (wr18.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer stretch 18 does not write keeps its contents through it. -/
theorem keep18 (U : Valuation τ sig (Elt F)) {r : Ref sig .tc} (h : r ∉ wr18) :
    after (sl18 (F := F)) U (no_index (Proc.devRef .tc r)) = U (Proc.devRef .tc r) :=
  after_of_writes_sub sl18 U sl18_writes h

end Cert.ReferenceIdeal.RefRun

end
-- ==== Proof.RefGatTerm.lean ====
/-
  One attention stream of the reference, as a term over whole arrays.

  With x the source rows [100000, 128], t the target's features [1, 128], the two linear maps with their biases,
  the attention vector [8, 16] and the output bias, the reference computes
    xl = reshape (x · Wl + bl) to [100000, 8, 16],   xr = reshape (t · Wr + br) to [1, 8, 16],
    e = leaky (xl + xr)   (compare with zero, multiply by the slope, select),
    logits = Σ_c e · att  [100000, 8],
    α = exp (logits − max (−∞, max over rows)) / Σ over rows of the same exponentials,
    out = reshape (Σ over rows of α · xl) to [1, 128], plus the bias.
  Each definition below is the composition of array operations that computes the named value, the operations and
  their shape witnesses those of the reference program's text, in its order. The two streams use the same
  operations on different arrays, so one term serves both.
-/
import proofs.«117868_g33088428049086_cont_sun_c4_530_8_alg».proof.ReferenceIdeal
import proofs.«117868_g33088428049086_cont_sun_c4_530_8_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- The rows through the first linear map, plus its bias, seen as [100000, 8, 16]. -/
def rXl (x : FVec Ideal S100000x128 .f32) (Wl : FVec Ideal S128x128 .f32) (bl : FVec Ideal S128 .f32) :
    FVec Ideal S100000x8x16 .f32 :=
  shapeCast S100000x8x16
    (addf (Host.dotGeneral dot_S100000x128_S128x128_S100000x128_1_0_0_1_n_n none x Wl)
      (broadcastInDim S100000x128 ![0, 1] bcast_S1x128_S100000x128_0_1
        (broadcastInDim S1x128 ![1] bcast_S128_S1x128_1 bl)))
    shapeCasts_S100000x128_S100000x8x16

/-- The target through the second linear map, plus its bias, seen as [1, 8, 16]. -/
def rXr (tgt : FVec Ideal S1x128 .f32) (Wr : FVec Ideal S128x128 .f32) (br : FVec Ideal S128 .f32) :
    FVec Ideal S1x8x16 .f32 :=
  shapeCast S1x8x16
    (addf (Host.dotGeneral dot_S1x128_S128x128_S1x128_1_0_0_1_n_n none tgt Wr)
      (broadcastInDim S1x128 ![1] bcast_S128_S1x128_1 br))
    shapeCasts_S1x128_S1x8x16

/-- The leaky rectifier on a [100000, 8, 16] array: where z ≥ 0 the entry, elsewhere the slope times the entry. -/
def rLeaky (z : FVec Ideal S100000x8x16 .f32) : FVec Ideal S100000x8x16 .f32 :=
  select
    (cmpf .oge z (broadcastInDim S100000x8x16 ![] bcast_S_S100000x8x16 (constant (F := Ideal) S_ .f32 0x00000000#32)))
    z
    (mulf (broadcastInDim S100000x8x16 ![] bcast_S_S100000x8x16 (id (constant (F := Ideal) S_ .f32 0x3E4CCCCD#32))) z)

/-- The rectified sum of the two projections, before the attention vector. -/
def rE (x : FVec Ideal S100000x128 .f32) (tgt : FVec Ideal S1x128 .f32) (Wl : FVec Ideal S128x128 .f32)
    (bl : FVec Ideal S128 .f32) (Wr : FVec Ideal S128x128 .f32) (br : FVec Ideal S128 .f32) :
    FVec Ideal S100000x8x16 .f32 :=
  rLeaky (addf (rXl x Wl bl)
    (broadcastInDim S100000x8x16 ![0, 1, 2] bcast_S1x8x16_S100000x8x16_0_1_2 (rXr tgt Wr br)))

/-- The logits [100000, 8]: the rectified sum times the attention vector, summed over the 16 channels. -/
def rLogits (x : FVec Ideal S100000x128 .f32) (tgt : FVec Ideal S1x128 .f32) (Wl : FVec Ideal S128x128 .f32)
    (bl : FVec Ideal S128 .f32) (Wr : FVec Ideal S128x128 .f32) (br : FVec Ideal S128 .f32)
    (att : FVec Ideal S8x16 .f32) : FVec Ideal S100000x8 .f32 :=
  Host.reduceAdd
    (mulf (rE x tgt Wl bl Wr br)
      (broadcastInDim S100000x8x16 ![0, 1, 2] bcast_S1x8x16_S100000x8x16_0_1_2
        (broadcastInDim S1x8x16 ![1, 2] bcast_S8x16_S1x8x16_1_2 att)))
    (constant (F := Ideal) S_ .f32 0x00000000#32) reducesTo_S100000x8x16_S100000x8_d2 h_S_

/-- The softmax's shift per head: the maximum of −∞ and the maximum of the logits over the rows. -/
def rMax (l : FVec Ideal S100000x8 .f32) : FVec Ideal S8 .f32 :=
  maximumf (broadcastInDim S8 ![] bcast_S_S8 (constant (F := Ideal) S_ .f32 0xFF800000#32))
    (Host.reduce (FloatOps.maximumf (F := Ideal) (φ := .f32)) l (constant (F := Ideal) S_ .f32 0xFF800000#32)
      reducesTo_S100000x8_S8_d0 h_S_)

/-- The shifted exponentials. -/
def rP (l : FVec Ideal S100000x8 .f32) : FVec Ideal S100000x8 .f32 :=
  Host.exp (subf l
    (broadcastInDim S100000x8 ![0, 1] bcast_S1x8_S100000x8_0_1 (broadcastInDim S1x8 ![1] bcast_S8_S1x8_1 (rMax l))))

/-- The attention weights: each shifted exponential over the sum of its head's over the rows. -/
def rAlpha (l : FVec Ideal S100000x8 .f32) : FVec Ideal S100000x8 .f32 :=
  Host.divf (rP l)
    (broadcastInDim S100000x8 ![0, 1] bcast_S1x8_S100000x8_0_1
      (broadcastInDim S1x8 ![1] bcast_S8_S1x8_1
        (Host.reduceAdd (rP l) (constant (F := Ideal) S_ .f32 0x00000000#32) reducesTo_S100000x8_S8_d0 h_S_)))

/-- The weighted rows summed over the rows, [8, 16]. -/
def rAgg (a : FVec Ideal S100000x8 .f32) (xl : FVec Ideal S100000x8x16 .f32) : FVec Ideal S8x16 .f32 :=
  Host.reduceAdd
    (mulf (broadcastInDim S100000x8x16 ![0, 1, 2] bcast_S100000x8x1_S100000x8x16_0_1_2
        (broadcastInDim S100000x8x1 ![0, 1] bcast_S100000x8_S100000x8x1_0_1 a))
      xl)
    (constant (F := Ideal) S_ .f32 0x00000000#32) reducesTo_S100000x8x16_S8x16_d0 h_S_

/-- One attention stream of the reference: the aggregate seen as [1, 128], plus the output bias. -/
def rGat (x : FVec Ideal S100000x128 .f32) (tgt : FVec Ideal S1x128 .f32) (Wl : FVec Ideal S128x128 .f32)
    (bl : FVec Ideal S128 .f32) (Wr : FVec Ideal S128x128 .f32) (br : FVec Ideal S128 .f32)
    (att : FVec Ideal S8x16 .f32) (bias : FVec Ideal S128 .f32) : FVec Ideal S1x128 .f32 :=
  addf
    (shapeCast S1x128 (rAgg (rAlpha (rLogits x tgt Wl bl Wr br att)) (rXl x Wl bl)) shapeCasts_S8x16_S1x128)
    (broadcastInDim S1x128 ![1] bcast_S128_S1x128_1 bias)

end Cert.ReferenceIdeal.RefTerm

end
-- ==== Proof.RefTerm.lean ====
/-
  The reference program's result as one term in its twenty-seven argument arrays.

  The program computes, for each of two attention streams, a layer norm of the global feature (mean, biased
  variance with its guarded division, reciprocal square root, scale and shift), a rectifier and a linear map
  giving the stream's target features; the attention aggregation of the stream's hundred thousand rows into that
  target; then it lays the two 128-vectors side by side, adds the global feature, and applies a layer norm, a
  rectifier, a linear map with bias and the skip once more. Each piece below is the composite of the program's own
  array operations, applied in the program's order with the program's shape evidence, as a function of whole arrays;
  `RTerm` composes them as the program does. The aggregation of one stream is `rGat`.
-/
import proofs.«117868_g33088428049086_cont_sun_c4_530_8_alg».proof.ReferenceIdeal
import proofs.«117868_g33088428049086_cont_sun_c4_530_8_alg».proof.Proof.Gen.ReferenceIdeal
import Idealize.ShloMosaic.PureOps.Ideal
import proofs.«117868_g33088428049086_cont_sun_c4_530_8_alg».proof.Proof.RefGatTerm

noncomputable section

namespace Cert.ReferenceIdeal.RefTerm

open Cert.ReferenceIdeal Cert.ReferenceIdeal.Gen Idealize.ShloMosaic

/-- The mean of the 256 entries of a row: their sum from the zero constant, divided by the constant 256. -/
def rMean (x : FVec Ideal S1x256 .f32) : FVec Ideal S1x1 .f32 :=
  Host.divf
    (broadcastInDim S1x1 ![0] bcast_S1_S1x1_0
      (Host.reduceAdd x (constant (F := Ideal) S_ .f32 0x00000000#32) reducesTo_S1x256_S1_d1 h_S_))
    (broadcastInDim S1x1 ![] bcast_S_S1x1 (constant (F := Ideal) S_ .f32 0x43800000#32))

/-- The count the variance divides by: 256 less the integer correction 0 converted to a float. -/
def rCount : FVec Ideal S_ .f32 :=
  subf (constant (F := Ideal) S_ .f32 0x43800000#32) (sitofp .f32 (constantI S_ 32 0#32) : FVec Ideal S_ .f32)

/-- The variance function: the squared deviations from the mean, summed and divided by the count, kept where the
    count compares greater than zero and replaced by the function's last constant elsewhere. -/
def rVar (x : FVec Ideal S1x256 .f32) : FVec Ideal S1x1 .f32 :=
  select
    (broadcastInDim S1x1 ![] bcast_S_S1x1 (cmpf .ogt rCount (constant (F := Ideal) S_ .f32 0x00000000#32)))
    (Host.divf
      (broadcastInDim S1x1 ![0] bcast_S1_S1x1_0
        (Host.reduceAdd
          (mulf (subf x (broadcastInDim S1x256 ![0, 1] bcast_S1x1_S1x256_0_1 (rMean x)))
                (subf x (broadcastInDim S1x256 ![0, 1] bcast_S1x1_S1x256_0_1 (rMean x))))
          (constant (F := Ideal) S_ .f32 0x00000000#32) reducesTo_S1x256_S1_d1 h_S_))
      (broadcastInDim S1x1 ![] bcast_S_S1x1 rCount))
    (broadcastInDim S1x1 ![] bcast_S_S1x1 (id (constant (F := Ideal) S_ .f32 0x7FC00000#32)))

/-- The layer norm of a row: (x − mean) · rsqrt (variance + ε) · scale + shift. -/
def rLN (x : FVec Ideal S1x256 .f32) (s b : FVec Ideal S256 .f32) : FVec Ideal S1x256 .f32 :=
  addf
    (mulf
      (mulf
        (subf x (broadcastInDim S1x256 ![0, 1] bcast_S1x1_S1x256_0_1 (rMean x)))
        (broadcastInDim S1x256 ![0, 1] bcast_S1x1_S1x256_0_1
          (Host.rsqrt (addf (rVar x) (broadcastInDim S1x1 ![] bcast_S_S1x1 (constant (F := Ideal) S_ .f32 0x3727C5AC#32))))))
      (broadcastInDim S1x256 ![1] bcast_S256_S1x256_1 s))
    (broadcastInDim S1x256 ![1] bcast_S256_S1x256_1 b)

/-- The rectifier on a row: the maximum with the zero row. -/
def rRelu (x : FVec Ideal S1x256 .f32) : FVec Ideal S1x256 .f32 :=
  maximumf x (broadcastInDim S1x256 ![] bcast_S_S1x256 (constant (F := Ideal) S_ .f32 0x00000000#32))

/-- The projection of the global feature into a stream's source space: relu (layer norm) · W + bias. -/
def rProj (g : FVec Ideal S1x256 .f32) (s b : FVec Ideal S256 .f32) (W : FVec Ideal S256x128 .f32)
    (bias : FVec Ideal S128 .f32) : FVec Ideal S1x128 .f32 :=
  addf
    (Host.dotGeneral dot_S1x256_S256x128_S1x128_1_0_0_1_n_n none (rRelu (rLN g s b)) W)
    (broadcastInDim S1x128 ![1] bcast_S128_S1x128_1 bias)

/-- The two aggregates side by side, plus the global feature. -/
def rSkip (g : FVec Ideal S1x256 .f32) (v2g s2g : FVec Ideal S1x128 .f32) : FVec Ideal S1x256 .f32 :=
  addf g (concatenate S1x256 1 [⟨S1x128, v2g⟩, ⟨S1x128, s2g⟩] concatenates_S1x128_S1x128_S1x256_d1)

/-- The epilogue: x + (relu (layer norm x) · W + bias) at x the skip-added feature. -/
def rFinal (g : FVec Ideal S1x256 .f32) (v2g s2g : FVec Ideal S1x128 .f32) (lnpS lnpB : FVec Ideal S256 .f32)
    (Wmlp : FVec Ideal S256x256 .f32) (bmlp : FVec Ideal S256 .f32) : FVec Ideal S1x256 .f32 :=
  addf (rSkip g v2g s2g)
    (addf
      (Host.dotGeneral dot_S1x256_S256x256_S1x256_1_0_0_1_n_n none (rRelu (rLN (rSkip g v2g s2g) lnpS lnpB)) Wmlp)
      (broadcastInDim S1x256 ![1] bcast_S256_S1x256_1 bmlp))

/-- The program's result from its arguments, in argument order. -/
def RTerm (a0 a1 : FVec Ideal S100000x128 .f32) (a2 : FVec Ideal S1x256 .f32)
    (a3 a4 : FVec Ideal S256 .f32) (a5 : FVec Ideal S256x128 .f32) (a6 : FVec Ideal S128 .f32)
    (a7 : FVec Ideal S128x128 .f32) (a8 : FVec Ideal S128 .f32) (a9 : FVec Ideal S128x128 .f32) (a10 : FVec Ideal S128 .f32)
    (a11 : FVec Ideal S8x16 .f32) (a12 : FVec Ideal S128 .f32)
    (a13 a14 : FVec Ideal S256 .f32) (a15 : FVec Ideal S256x128 .f32) (a16 : FVec Ideal S128 .f32)
    (a17 : FVec Ideal S128x128 .f32) (a18 : FVec Ideal S128 .f32) (a19 : FVec Ideal S128x128 .f32) (a20 : FVec Ideal S128 .f32)
    (a21 : FVec Ideal S8x16 .f32) (a22 : FVec Ideal S128 .f32)
    (a23 a24 : FVec Ideal S256 .f32) (a25 : FVec Ideal S256x256 .f32) (a26 : FVec Ideal S256 .f32) : FVec Ideal S1x256 .f32 :=
  rFinal a2
    (rGat a0 (rProj a2 a3 a4 a5 a6) a7 a8 a9 a10 a11 a12)
    (rGat a1 (rProj a2 a13 a14 a15 a16) a17 a18 a19 a20 a21 a22)
    a23 a24 a25 a26

end Cert.ReferenceIdeal.RefTerm

end
-- ==== Proof.RefVals.lean ====
/-
  What each of the eighteen stretches of the reference's line leaves in the one buffer that is read after it.

  From ANY contents `U` at its start, a stretch leaves in that buffer the matching piece of the reference's term
  applied to `U` at the buffers the stretch reads: the composition of its operations' functions, which is the
  piece's definition.
-/
import proofs.«117868_g33088428049086_cont_sun_c4_530_8_alg».proof.Proof.RefSlices
import proofs.«117868_g33088428049086_cont_sun_c4_530_8_alg».proof.Proof.RefTerm

noncomputable section

namespace Cert.ReferenceIdeal.RefRun

open Cert.ReferenceIdeal Cert.ReferenceIdeal.Gen Cert.ReferenceIdeal.RefTerm Idealize.ShloMosaic Idealize.ShloMosaic.TcCoe Idealize.SL.Sem
  Idealize.ShloMosaic.StableHlo

-- the sums and maxima over rows are folds over their operand's elements: kept folded, no equation here looks inside them
attribute [local irreducible] Host.reduce Host.reduceAdd

set_option maxRecDepth 16384 in
set_option maxHeartbeats 400000 in
/-- Stretch 1 leaves the target features: the global feature's layer norm, rectified, through the linear map, plus its bias. -/
theorem val1 (U : Valuation τ sig (Elt Ideal)) :
    after (sl1 (F := Ideal)) U (no_index (Proc.devRef .tc main_v19))
      = rProj (U (Proc.devRef .tc main_arg2)) (U (Proc.devRef .tc main_arg3)) (U (Proc.devRef .tc main_arg4)) (U (Proc.devRef .tc main_arg5)) (U (Proc.devRef .tc main_arg6)) := by
  after_results_simp
  rfl

set_option maxRecDepth 16384 in
set_option maxHeartbeats 400000 in
/-- Stretch 2 leaves the rows' projection seen as heads of channels. -/
theorem val2 (U : Valuation τ sig (Elt Ideal)) :
    after (sl2 (F := Ideal)) U (no_index (Proc.devRef .tc main_v24))
      = rXl (U (Proc.devRef .tc main_arg0)) (U (Proc.devRef .tc main_arg7)) (U (Proc.devRef .tc main_arg8)) := by
  after_results_simp
  rfl

set_option maxRecDepth 16384 in
set_option maxHeartbeats 400000 in
/-- Stretch 3 leaves the target's projection seen as heads of channels. -/
theorem val3 (U : Valuation τ sig (Elt Ideal)) :
    after (sl3 (F := Ideal)) U (no_index (Proc.devRef .tc main_v28))
      = rXr (U (Proc.devRef .tc main_v19)) (U (Proc.devRef .tc main_arg9)) (U (Proc.devRef .tc main_arg10)) := by
  after_results_simp
  rfl

set_option maxRecDepth 16384 in
set_option maxHeartbeats 400000 in
/-- Stretch 4 leaves the leaky rectifier of the two projections' sum. -/
theorem val4 (U : Valuation τ sig (Elt Ideal)) :
    after (sl4 (F := Ideal)) U (no_index (Proc.devRef .tc main_v31))
      = rLeaky (addf (U (Proc.devRef .tc main_v24)) (broadcastInDim S100000x8x16 ![0, 1, 2] bcast_S1x8x16_S100000x8x16_0_1_2 (U (Proc.devRef .tc main_v28)))) := by
  after_results_simp
  rfl

set_option maxRecDepth 16384 in
set_option maxHeartbeats 400000 in
/-- Stretch 5 leaves the scores: the product with the attention vector summed over the channels. -/
theorem val5 (U : Valuation τ sig (Elt Ideal)) :
    after (sl5 (F := Ideal)) U (no_index (Proc.devRef .tc main_v35))
      = Host.reduceAdd (mulf (U (Proc.devRef .tc main_v31)) (broadcastInDim S100000x8x16 ![0, 1, 2] bcast_S1x8x16_S100000x8x16_0_1_2 (broadcastInDim S1x8x16 ![1, 2] bcast_S8x16_S1x8x16_1_2 (U (Proc.devRef .tc main_arg11)))))
        (constant (F := Ideal) S_ .f32 0x00000000#32) reducesTo_S100000x8x16_S100000x8_d2 h_S_ := by
  after_results_simp

set_option maxRecDepth 16384 in
set_option maxHeartbeats 400000 in
/-- Stretch 6 leaves the weights: the shifted exponentials over their sum over the rows. -/
theorem val6 (U : Valuation τ sig (Elt Ideal)) :
    after (sl6 (F := Ideal)) U (no_index (Proc.devRef .tc main_v46))
      = rAlpha (U (Proc.devRef .tc main_v35)) := by
  after_results_simp
  rfl

set_option maxRecDepth 16384 in
set_option maxHeartbeats 400000 in
/-- Stretch 7 leaves the weighted rows summed over the rows. -/
theorem val7 (U : Valuation τ sig (Elt Ideal)) :
    after (sl7 (F := Ideal)) U (no_index (Proc.devRef .tc main_v50))
      = rAgg (U (Proc.devRef .tc main_v46)) (U (Proc.devRef .tc main_v24)) := by
  after_results_simp
  rfl

set_option maxRecDepth 16384 in
set_option maxHeartbeats 400000 in
/-- Stretch 8 leaves the aggregate seen as one row, plus the output bias. -/
theorem val8 (U : Valuation τ sig (Elt Ideal)) :
    after (sl8 (F := Ideal)) U (no_index (Proc.devRef .tc main_v53))
      = (addf (shapeCast S1x128 (U (Proc.devRef .tc main_v50)) shapeCasts_S8x16_S1x128) (broadcastInDim S1x128 ![1] bcast_S128_S1x128_1 (U (Proc.devRef .tc main_arg12))) : FVec Ideal S1x128 .f32) := by
  after_results_simp
  rfl

set_option maxRecDepth 16384 in
set_option maxHeartbeats 400000 in
/-- Stretch 9 leaves the target features: the global feature's layer norm, rectified, through the linear map, plus its bias. -/
theorem val9 (U : Valuation τ sig (Elt Ideal)) :
    after (sl9 (F := Ideal)) U (no_index (Proc.devRef .tc main_v73))
      = rProj (U (Proc.devRef .tc main_arg2)) (U (Proc.devRef .tc main_arg13)) (U (Proc.devRef .tc main_arg14)) (U (Proc.devRef .tc main_arg15)) (U (Proc.devRef .tc main_arg16)) := by
  after_results_simp
  rfl

set_option maxRecDepth 16384 in
set_option maxHeartbeats 400000 in
/-- Stretch 10 leaves the rows' projection seen as heads of channels. -/
theorem val10 (U : Valuation τ sig (Elt Ideal)) :
    after (sl10 (F := Ideal)) U (no_index (Proc.devRef .tc main_v78))
      = rXl (U (Proc.devRef .tc main_arg1)) (U (Proc.devRef .tc main_arg17)) (U (Proc.devRef .tc main_arg18)) := by
  after_results_simp
  rfl

set_option maxRecDepth 16384 in
set_option maxHeartbeats 400000 in
/-- Stretch 11 leaves the target's projection seen as heads of channels. -/
theorem val11 (U : Valuation τ sig (Elt Ideal)) :
    after (sl11 (F := Ideal)) U (no_index (Proc.devRef .tc main_v82))
      = rXr (U (Proc.devRef .tc main_v73)) (U (Proc.devRef .tc main_arg19)) (U (Proc.devRef .tc main_arg20)) := by
  after_results_simp
  rfl

set_option maxRecDepth 16384 in
set_option maxHeartbeats 400000 in
/-- Stretch 12 leaves the leaky rectifier of the two projections' sum. -/
theorem val12 (U : Valuation τ sig (Elt Ideal)) :
    after (sl12 (F := Ideal)) U (no_index (Proc.devRef .tc main_v85))
      = rLeaky (addf (U (Proc.devRef .tc main_v78)) (broadcastInDim S100000x8x16 ![0, 1, 2] bcast_S1x8x16_S100000x8x16_0_1_2 (U (Proc.devRef .tc main_v82)))) := by
  after_results_simp
  rfl

set_option maxRecDepth 16384 in
set_option maxHeartbeats 400000 in
/-- Stretch 13 leaves the scores: the product with the attention vector summed over the channels. -/
theorem val13 (U : Valuation τ sig (Elt Ideal)) :
    after (sl13 (F := Ideal)) U (no_index (Proc.devRef .tc main_v89))
      = Host.reduceAdd (mulf (U (Proc.devRef .tc main_v85)) (broadcastInDim S100000x8x16 ![0, 1, 2] bcast_S1x8x16_S100000x8x16_0_1_2 (broadcastInDim S1x8x16 ![1, 2] bcast_S8x16_S1x8x16_1_2 (U (Proc.devRef .tc main_arg21)))))
        (constant (F := Ideal) S_ .f32 0x00000000#32) reducesTo_S100000x8x16_S100000x8_d2 h_S_ := by
  after_results_simp

set_option maxRecDepth 16384 in
set_option maxHeartbeats 400000 in
/-- Stretch 14 leaves the weights: the shifted exponentials over their sum over the rows. -/
theorem val14 (U : Valuation τ sig (Elt Ideal)) :
    after (sl14 (F := Ideal)) U (no_index (Proc.devRef .tc main_v100))
      = rAlpha (U (Proc.devRef .tc main_v89)) := by
  after_results_simp
  rfl

set_option maxRecDepth 16384 in
set_option maxHeartbeats 400000 in
/-- Stretch 15 leaves the weighted rows summed over the rows. -/
theorem val15 (U : Valuation τ sig (Elt Ideal)) :
    after (sl15 (F := Ideal)) U (no_index (Proc.devRef .tc main_v104))
      = rAgg (U (Proc.devRef .tc main_v100)) (U (Proc.devRef .tc main_v78)) := by
  after_results_simp
  rfl

set_option maxRecDepth 16384 in
set_option maxHeartbeats 400000 in
/-- Stretch 16 leaves the aggregate seen as one row, plus the output bias. -/
theorem val16 (U : Valuation τ sig (Elt Ideal)) :
    after (sl16 (F := Ideal)) U (no_index (Proc.devRef .tc main_v107))
      = (addf (shapeCast S1x128 (U (Proc.devRef .tc main_v104)) shapeCasts_S8x16_S1x128) (broadcastInDim S1x128 ![1] bcast_S128_S1x128_1 (U (Proc.devRef .tc main_arg22))) : FVec Ideal S1x128 .f32) := by
  after_results_simp
  rfl

set_option maxRecDepth 16384 in
set_option maxHeartbeats 400000 in
/-- Stretch 17 leaves the skip sum: the two aggregates side by side, added to the global feature. -/
theorem val17 (U : Valuation τ sig (Elt Ideal)) :
    after (sl17 (F := Ideal)) U (no_index (Proc.devRef .tc main_v109))
      = rSkip (U (Proc.devRef .tc main_arg2)) (U (Proc.devRef .tc main_v53)) (U (Proc.devRef .tc main_v107)) := by
  after_results_simp
  rfl

set_option maxRecDepth 16384 in
set_option maxHeartbeats 400000 in
/-- Stretch 18 leaves the result: the skip sum plus its layer norm, rectified, through the last linear map, plus its bias. -/
theorem val18 (U : Valuation τ sig (Elt Ideal)) :
    after (sl18 (F := Ideal)) U (no_index (Proc.devRef .tc main_v130))
      = (addf (U (Proc.devRef .tc main_v109))
        (addf (Host.dotGeneral (φ₂ := .f32) dot_S1x256_S256x256_S1x256_1_0_0_1_n_n none (rRelu (rLN (U (Proc.devRef .tc main_v109)) (U (Proc.devRef .tc main_arg23)) (U (Proc.devRef .tc main_arg24)))) (U (Proc.devRef .tc main_arg25)))
          (broadcastInDim S1x256 ![1] bcast_S256_S1x256_1 (U (Proc.devRef .tc main_arg26)))) : FVec Ideal S1x256 .f32) := by
  after_results_simp
  rfl

end Cert.ReferenceIdeal.RefRun

end
-- ==== Proof.RefOut.lean ====
/-
  The reference's result buffer holds the term `RTerm` of the arguments' contents.

  The line is eighteen stretches in a row, each writing one buffer that is read after it, and leaving in it the
  matching piece of `RTerm` of the contents at the buffers it reads; a buffer a stretch does not write it leaves
  alone. Composing the eighteen from the launch contents `V`, each read buffer is replaced by the piece that wrote
  it, back to the arguments: the result buffer holds the pieces composed as `RTerm` composes them.
-/
import proofs.«117868_g33088428049086_cont_sun_c4_530_8_alg».proof.Proof.RefVals

noncomputable section

namespace Cert.ReferenceIdeal.RefRun

open Cert.ReferenceIdeal Cert.ReferenceIdeal.Gen Cert.ReferenceIdeal.RefTerm Idealize.ShloMosaic Idealize.ShloMosaic.TcCoe Idealize.SL.Sem
  Idealize.ShloMosaic.StableHlo

-- the sums and maxima over rows are folds over their operand's elements: kept folded, no equation here looks inside them
attribute [local irreducible] Host.reduce Host.reduceAdd

set_option maxRecDepth 16384 in
set_option maxHeartbeats 1000000 in
/-- The fold of the whole line at the result buffer is `RTerm` of the arguments' contents. -/
theorem out_eq (V : Valuation τ sig (Elt Ideal)) :
    after (ops (F := Ideal)) V (main_v130 : DevRef τ sig)
      = RTerm (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig))
          (V (main_arg16 : DevRef τ sig)) (V (main_arg17 : DevRef τ sig)) (V (main_arg18 : DevRef τ sig)) (V (main_arg19 : DevRef τ sig))
          (V (main_arg20 : DevRef τ sig)) (V (main_arg21 : DevRef τ sig)) (V (main_arg22 : DevRef τ sig)) (V (main_arg23 : DevRef τ sig))
          (V (main_arg24 : DevRef τ sig)) (V (main_arg25 : DevRef τ sig)) (V (main_arg26 : DevRef τ sig)) := by
  rw [ops_slices]
  simp only [after_app]
  simp (disch := decide) only [val1, val2, val3, val4, val5, val6, val7, val8, val9, val10, val11, val12, val13, val14, val15, val16, val17, val18,
    keep1, keep2, keep3, keep4, keep5, keep6, keep7, keep8, keep9, keep10, keep11, keep12, keep13, keep14, keep15, keep16, keep17, keep18]
  rfl

end Cert.ReferenceIdeal.RefRun

end
-- ==== Proof.RefKeep.lean ====
/-
  No operation of the reference's line writes an argument of @main.

  Each operation writes one buffer, its result. The results are listed window by window; no argument is in any
  of the three lists, so the fold of the operations' results leaves every argument's contents as they were.
-/
import proofs.«117868_g33088428049086_cont_sun_c4_530_8_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers window 0's operations write, in order. -/
abbrev written0 : List (Ref sig .tc) :=
  [main_cst, main_v0, main_v1, main_cst_0, main_v2, main_v3, main_c, main_call0.cst.ref,
   main_call0.v0.ref, main_call0.v1.ref, main_call0.cst_0.ref, main_call0.v2.ref, main_call0.v3.ref, main_call0.v4.ref, main_call0.v5.ref, main_call0.v6.ref,
   main_call0.v7.ref, main_call0.cst_1.ref, main_call0.v8.ref, main_call0.cst_2.ref, main_call0.v9.ref, main_call0.v10.ref, main_call0.v11.ref, main_call0.v12.ref,
   main_call0.cst_3.ref, main_call0.v13.ref, main_call0.cst_4.ref, main_call0.call0.v0.ref, main_call0.call0.v1.ref, main_call0.call0.v2.ref, main_v5, main_v6,
   main_cst_1, main_v7, main_v8, main_v9, main_v10, main_v11, main_v12, main_v13,
   main_v14, main_v15, main_call1.cst.ref, main_call1.v0.ref, main_call1.v1.ref, main_v17, main_v18, main_v19,
   main_v20, main_v21, main_v22, main_v23, main_v24, main_v25, main_v26, main_v27,
   main_v28, main_v29, main_v30, main_cst_2, main_call2.cst.ref, main_call2.v0.ref, main_call2.v1.ref, main_call2.v2.ref,
   main_call2.v3.ref, main_call2.v4.ref, main_call2.call0.v0.ref, main_v32, main_v33, main_v34, main_cst_3, main_v35,
   main_cst_4, main_v36, main_cst_5, main_v37, main_v38, main_v39, main_v40, main_v41,
   main_v42, main_cst_6, main_v43, main_v44, main_v45, main_v46, main_v47, main_v48,
   main_v49, main_cst_7]

set_option maxRecDepth 8192 in
set_option maxHeartbeats 4000000 in
theorem ops0_writes : (ops0 : List (HloOp τ sig (Elt F))).Forall fun op => op.writes ⊆ (written0.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers window 1's operations write, in order. -/
abbrev written1 : List (Ref sig .tc) :=
  [main_v50, main_v51, main_v52, main_v53, main_cst_8, main_v54, main_v55, main_cst_9,
   main_v56, main_v57, main_c_10, main_call3.cst.ref, main_call3.v0.ref, main_call3.v1.ref, main_call3.cst_0.ref, main_call3.v2.ref,
   main_call3.v3.ref, main_call3.v4.ref, main_call3.v5.ref, main_call3.v6.ref, main_call3.v7.ref, main_call3.cst_1.ref, main_call3.v8.ref, main_call3.cst_2.ref,
   main_call3.v9.ref, main_call3.v10.ref, main_call3.v11.ref, main_call3.v12.ref, main_call3.cst_3.ref, main_call3.v13.ref, main_call3.cst_4.ref, main_call3.call0.v0.ref,
   main_call3.call0.v1.ref, main_call3.call0.v2.ref, main_v59, main_v60, main_cst_11, main_v61, main_v62, main_v63,
   main_v64, main_v65, main_v66, main_v67, main_v68, main_v69, main_call4.cst.ref, main_call4.v0.ref,
   main_call4.v1.ref, main_v71, main_v72, main_v73, main_v74, main_v75, main_v76, main_v77,
   main_v78, main_v79, main_v80, main_v81, main_v82, main_v83, main_v84, main_cst_12,
   main_call5.cst.ref, main_call5.v0.ref, main_call5.v1.ref, main_call5.v2.ref, main_call5.v3.ref, main_call5.v4.ref, main_call5.call0.v0.ref, main_v86,
   main_v87, main_v88, main_cst_13, main_v89, main_cst_14, main_v90, main_cst_15, main_v91,
   main_v92, main_v93, main_v94, main_v95, main_v96, main_cst_16, main_v97, main_v98,
   main_v99, main_v100]

set_option maxRecDepth 8192 in
set_option maxHeartbeats 4000000 in
theorem ops1_writes : (ops1 : List (HloOp τ sig (Elt F))).Forall fun op => op.writes ⊆ (written1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers window 2's operations write, in order. -/
abbrev written2 : List (Ref sig .tc) :=
  [main_v101, main_v102, main_v103, main_cst_17, main_v104, main_v105, main_v106, main_v107,
   main_v108, main_v109, main_cst_18, main_v110, main_v111, main_cst_19, main_v112, main_v113,
   main_c_20, main_call6.cst.ref, main_call6.v0.ref, main_call6.v1.ref, main_call6.cst_0.ref, main_call6.v2.ref, main_call6.v3.ref, main_call6.v4.ref,
   main_call6.v5.ref, main_call6.v6.ref, main_call6.v7.ref, main_call6.cst_1.ref, main_call6.v8.ref, main_call6.cst_2.ref, main_call6.v9.ref, main_call6.v10.ref,
   main_call6.v11.ref, main_call6.v12.ref, main_call6.cst_3.ref, main_call6.v13.ref, main_call6.cst_4.ref, main_call6.call0.v0.ref, main_call6.call0.v1.ref, main_call6.call0.v2.ref,
   main_v115, main_v116, main_cst_21, main_v117, main_v118, main_v119, main_v120, main_v121,
   main_v122, main_v123, main_v124, main_v125, main_call7.cst.ref, main_call7.v0.ref, main_call7.v1.ref, main_v127,
   main_v128, main_v129, main_v130]

set_option maxRecDepth 8192 in
set_option maxHeartbeats 4000000 in
theorem ops2_writes : (ops2 : List (HloOp τ sig (Elt F))).Forall fun op => op.writes ⊆ (written2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A reference none of the three windows writes keeps its contents through the whole line. -/
theorem keep (V : Valuation τ sig (Elt F)) {r : Ref sig .tc} (h0 : r ∉ written0) (h1 : r ∉ written1) (h2 : r ∉ written2) :
    after ops V (Proc.devRef .tc r) = V (Proc.devRef .tc r) := by
  simp only [ops, after_app]
  rw [after_of_writes_sub ops2 _ ops2_writes h2, after_of_writes_sub ops1 _ ops1_writes h1, after_of_writes_sub ops0 _ ops0_writes h0]

theorem arg_eq_0 (V : Valuation τ sig (Elt F)) : after ops V (main_arg0 : DevRef τ sig) = V (main_arg0 : DevRef τ sig) :=
  keep V (by decide) (by decide) (by decide)
theorem arg_eq_1 (V : Valuation τ sig (Elt F)) : after ops V (main_arg1 : DevRef τ sig) = V (main_arg1 : DevRef τ sig) :=
  keep V (by decide) (by decide) (by decide)
theorem arg_eq_2 (V : Valuation τ sig (Elt F)) : after ops V (main_arg2 : DevRef τ sig) = V (main_arg2 : DevRef τ sig) :=
  keep V (by decide) (by decide) (by decide)
theorem arg_eq_3 (V : Valuation τ sig (Elt F)) : after ops V (main_arg3 : DevRef τ sig) = V (main_arg3 : DevRef τ sig) :=
  keep V (by decide) (by decide) (by decide)
theorem arg_eq_4 (V : Valuation τ sig (Elt F)) : after ops V (main_arg4 : DevRef τ sig) = V (main_arg4 : DevRef τ sig) :=
  keep V (by decide) (by decide) (by decide)
theorem arg_eq_5 (V : Valuation τ sig (Elt F)) : after ops V (main_arg5 : DevRef τ sig) = V (main_arg5 : DevRef τ sig) :=
  keep V (by decide) (by decide) (by decide)
theorem arg_eq_6 (V : Valuation τ sig (Elt F)) : after ops V (main_arg6 : DevRef τ sig) = V (main_arg6 : DevRef τ sig) :=
  keep V (by decide) (by decide) (by decide)
theorem arg_eq_7 (V : Valuation τ sig (Elt F)) : after ops V (main_arg7 : DevRef τ sig) = V (main_arg7 : DevRef τ sig) :=
  keep V (by decide) (by decide) (by decide)
theorem arg_eq_8 (V : Valuation τ sig (Elt F)) : after ops V (main_arg8 : DevRef τ sig) = V (main_arg8 : DevRef τ sig) :=
  keep V (by decide) (by decide) (by decide)
theorem arg_eq_9 (V : Valuation τ sig (Elt F)) : after ops V (main_arg9 : DevRef τ sig) = V (main_arg9 : DevRef τ sig) :=
  keep V (by decide) (by decide) (by decide)
theorem arg_eq_10 (V : Valuation τ sig (Elt F)) : after ops V (main_arg10 : DevRef τ sig) = V (main_arg10 : DevRef τ sig) :=
  keep V (by decide) (by decide) (by decide)
theorem arg_eq_11 (V : Valuation τ sig (Elt F)) : after ops V (main_arg11 : DevRef τ sig) = V (main_arg11 : DevRef τ sig) :=
  keep V (by decide) (by decide) (by decide)
theorem arg_eq_12 (V : Valuation τ sig (Elt F)) : after ops V (main_arg12 : DevRef τ sig) = V (main_arg12 : DevRef τ sig) :=
  keep V (by decide) (by decide) (by decide)
theorem arg_eq_13 (V : Valuation τ sig (Elt F)) : after ops V (main_arg13 : DevRef τ sig) = V (main_arg13 : DevRef τ sig) :=
  keep V (by decide) (by decide) (by decide)
theorem arg_eq_14 (V : Valuation τ sig (Elt F)) : after ops V (main_arg14 : DevRef τ sig) = V (main_arg14 : DevRef τ sig) :=
  keep V (by decide) (by decide) (by decide)
theorem arg_eq_15 (V : Valuation τ sig (Elt F)) : after ops V (main_arg15 : DevRef τ sig) = V (main_arg15 : DevRef τ sig) :=
  keep V (by decide) (by decide) (by decide)
theorem arg_eq_16 (V : Valuation τ sig (Elt F)) : after ops V (main_arg16 : DevRef τ sig) = V (main_arg16 : DevRef τ sig) :=
  keep V (by decide) (by decide) (by decide)
theorem arg_eq_17 (V : Valuation τ sig (Elt F)) : after ops V (main_arg17 : DevRef τ sig) = V (main_arg17 : DevRef τ sig) :=
  keep V (by decide) (by decide) (by decide)
theorem arg_eq_18 (V : Valuation τ sig (Elt F)) : after ops V (main_arg18 : DevRef τ sig) = V (main_arg18 : DevRef τ sig) :=
  keep V (by decide) (by decide) (by decide)
theorem arg_eq_19 (V : Valuation τ sig (Elt F)) : after ops V (main_arg19 : DevRef τ sig) = V (main_arg19 : DevRef τ sig) :=
  keep V (by decide) (by decide) (by decide)
theorem arg_eq_20 (V : Valuation τ sig (Elt F)) : after ops V (main_arg20 : DevRef τ sig) = V (main_arg20 : DevRef τ sig) :=
  keep V (by decide) (by decide) (by decide)
theorem arg_eq_21 (V : Valuation τ sig (Elt F)) : after ops V (main_arg21 : DevRef τ sig) = V (main_arg21 : DevRef τ sig) :=
  keep V (by decide) (by decide) (by decide)
theorem arg_eq_22 (V : Valuation τ sig (Elt F)) : after ops V (main_arg22 : DevRef τ sig) = V (main_arg22 : DevRef τ sig) :=
  keep V (by decide) (by decide) (by decide)
theorem arg_eq_23 (V : Valuation τ sig (Elt F)) : after ops V (main_arg23 : DevRef τ sig) = V (main_arg23 : DevRef τ sig) :=
  keep V (by decide) (by decide) (by decide)
theorem arg_eq_24 (V : Valuation τ sig (Elt F)) : after ops V (main_arg24 : DevRef τ sig) = V (main_arg24 : DevRef τ sig) :=
  keep V (by decide) (by decide) (by decide)
theorem arg_eq_25 (V : Valuation τ sig (Elt F)) : after ops V (main_arg25 : DevRef τ sig) = V (main_arg25 : DevRef τ sig) :=
  keep V (by decide) (by decide) (by decide)
theorem arg_eq_26 (V : Valuation τ sig (Elt F)) : after ops V (main_arg26 : DevRef τ sig) = V (main_arg26 : DevRef τ sig) :=
  keep V (by decide) (by decide) (by decide)

end Cert.ReferenceIdeal.RefRun

end
-- ==== Proof.ArgsR.lean ====
/-
  The argument arrays of the program, read off a memory, as the bundle the value formulas are written over.
-/
import proofs.«117868_g33088428049086_cont_sun_c4_530_8_alg».proof.ReferenceIdeal
import proofs.«117868_g33088428049086_cont_sun_c4_530_8_alg».proof.Proof.Spec

noncomputable section

namespace Cert.ReferenceIdeal

open Idealize.ShloMosaic Idealize.ShloMosaic.TcCoe Idealize.SL.Sem

/-- Core `c`'s 27 argument arrays in the memory `m`, in argument order. -/
def argsOf (m : (ℓ : Loc nD τ sig) → Buf (Elt Ideal) ℓ) (c : Dev nD) : Cert.Spec.Args where
  view := m ((c.tc : Thread nD τ).loc main_arg0)
  sp := m ((c.tc : Thread nD τ).loc main_arg1)
  g := m ((c.tc : Thread nD τ).loc main_arg2)
  lnvS := m ((c.tc : Thread nD τ).loc main_arg3)
  lnvB := m ((c.tc : Thread nD τ).loc main_arg4)
  Wgv := m ((c.tc : Thread nD τ).loc main_arg5)
  bgv := m ((c.tc : Thread nD τ).loc main_arg6)
  WlV := m ((c.tc : Thread nD τ).loc main_arg7)
  blV := m ((c.tc : Thread nD τ).loc main_arg8)
  WrV := m ((c.tc : Thread nD τ).loc main_arg9)
  brV := m ((c.tc : Thread nD τ).loc main_arg10)
  attV := m ((c.tc : Thread nD τ).loc main_arg11)
  biasV := m ((c.tc : Thread nD τ).loc main_arg12)
  lnsS := m ((c.tc : Thread nD τ).loc main_arg13)
  lnsB := m ((c.tc : Thread nD τ).loc main_arg14)
  Wgs := m ((c.tc : Thread nD τ).loc main_arg15)
  bgs := m ((c.tc : Thread nD τ).loc main_arg16)
  WlS := m ((c.tc : Thread nD τ).loc main_arg17)
  blS := m ((c.tc : Thread nD τ).loc main_arg18)
  WrS := m ((c.tc : Thread nD τ).loc main_arg19)
  brS := m ((c.tc : Thread nD τ).loc main_arg20)
  attS := m ((c.tc : Thread nD τ).loc main_arg21)
  biasS := m ((c.tc : Thread nD τ).loc main_arg22)
  lnpS := m ((c.tc : Thread nD τ).loc main_arg23)
  lnpB := m ((c.tc : Thread nD τ).loc main_arg24)
  Wmlp := m ((c.tc : Thread nD τ).loc main_arg25)
  bmlp := m ((c.tc : Thread nD τ).loc main_arg26)

end Cert.ReferenceIdeal

end
-- ==== Proof.RefRead.lean ====
/-
  The pieces of the reference's term read at an index, against the specification's formulas.

  Every array here has one row, so an entry is named by its column. The mean of the row is its sum (taken from the
  zero constant) over the word for 256; the variance function divides the sum of squared deviations by 256 less the
  converted integer zero, which is 256 again, and its guard "the divisor is greater than zero" holds because that word
  denotes a positive real, so the guarded division takes its first branch. With these the layer norm, the rectified
  linear maps (a product with one contracted axis is the sum over that axis's 256 coordinates), the two aggregates
  laid side by side (the first 128 columns from the first, the rest from the second) and the epilogue are, entry by
  entry, the specification's lnorm, proj, skipped and epilogue; and the whole term is the specification's reference
  form once each attention stream's aggregate is its softmax form at every lane.
-/
import proofs.«117868_g33088428049086_cont_sun_c4_530_8_alg».proof.Proof.RefTerm
import proofs.«117868_g33088428049086_cont_sun_c4_530_8_alg».proof.Proof.Forms
import proofs.«117868_g33088428049086_cont_sun_c4_530_8_alg».proof.Proof.ArgsR
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.ReferenceIdeal.RefRead

open Cert.ReferenceIdeal Cert.ReferenceIdeal.Gen Cert.ReferenceIdeal.RefTerm Idealize.ShloMosaic Idealize.ShloMosaic.ValueIdx
open scoped BigOperators

/-! ## The literals -/

/-- The word 0x43800000 is the real number 256. -/
theorem c256_eq : Cert.Spec.c256 = ((256 : ℝ) : EReal) := by
  unfold Cert.Spec.c256
  simp [Ideal.ofBits, Ideal.ieee, -EReal.coe_mul]; norm_num

/-- … which is positive. -/
theorem c256_pos : (0 : EReal) < Cert.Spec.c256 := by
  rw [c256_eq]; exact EReal.coe_pos.mpr (by norm_num)

/-- The 32-bit integer zero converts to the float zero. -/
theorem sitofp_zero : (FloatOps.sitofp (F := Ideal) .f32 (0#32 : BitVec 32) : EReal) = 0 := by
  show (((0#32 : BitVec 32).toInt : ℝ) : EReal) = 0
  simp

/-! ## The mean, the count, the variance -/

/-- The sum over the row from the zero constant, read at its one index. -/
theorem rowSum_apply (x : FVec Ideal S1x256 .f32) (j : S1.Idx) :
    Host.reduceAdd x (constant (F := Ideal) S_ .f32 0x00000000#32) reducesTo_S1x256_S1_d1 h_S_ j
      = ∑ k : Fin 256, x (ix2 (0 : Fin 1) k) := by
  have hR : S1x256.Reduces [1] S1 := by decide
  show Ideal.hostReduceAdd reducesTo_S1x256_S1_d1 x (Ideal.ofBits .f32 0x00000000#32) j = _
  rw [Ideal.hostReduceAdd_single reducesTo_S1x256_S1_d1 hR, Ideal.ofBits_zero_f32, zero_add]
  refine Finset.sum_congr rfl fun k _ => congrArg x ?_
  funext a
  match a with
  | ⟨0, _⟩ => exact Fin.ext (by have := (hR.lift j k ⟨0, by decide⟩).isLt; have e : (hR.lift j k ⟨0, by decide⟩).val < 1 := this; show (hR.lift j k ⟨0, _⟩).val = 0; omega)
  | ⟨1, _⟩ => exact Fin.ext rfl

/-- The mean of the row at the one index of its 1 × 1 array. -/
theorem rMean_apply (x : FVec Ideal S1x256 .f32) (j : S1x1.Idx) :
    rMean x j = Cert.Spec.mean fun k => x (ix2 (0 : Fin 1) k) := by
  unfold rMean Cert.Spec.mean
  rw [hostDivf_apply, broadcastInDim_scalar_apply, constant_apply]
  refine congrArg (fun z => Ideal.div z Cert.Spec.c256) ?_
  unfold broadcastInDim
  exact rowSum_apply x _

/-- The mean broadcast along the row reads the mean at every entry. -/
theorem rMean_bcast_apply (x : FVec Ideal S1x256 .f32) (i : S1x256.Idx) :
    broadcastInDim S1x256 ![0, 1] bcast_S1x1_S1x256_0_1 (rMean x) i = Cert.Spec.mean fun k => x (ix2 (0 : Fin 1) k) := by
  unfold broadcastInDim
  exact rMean_apply x _

/-- The variance's divisor: 256 less the converted integer zero is 256. -/
theorem rCount_apply (j : S_.Idx) : rCount j = Cert.Spec.c256 := by
  unfold rCount
  rw [subf_apply, constant_apply, sitofp_apply]
  show Cert.Spec.c256 - FloatOps.sitofp (F := Ideal) .f32 (0#32 : BitVec 32) = _
  rw [sitofp_zero, sub_zero]

/-- The guard of the variance's division holds: the divisor is greater than zero. -/
theorem rGuard_apply (j : S1x1.Idx) :
    broadcastInDim S1x1 ![] bcast_S_S1x1 (cmpf .ogt rCount (constant (F := Ideal) S_ .f32 0x00000000#32)) j = 1#1 := by
  rw [broadcastInDim_scalar_apply, cmpf_apply, rCount_apply, constant_apply, Ideal.ofBits_zero_f32, Ideal.cmpf_def]
  unfold Ideal.cmp
  simp [c256_pos]

/-- The variance of the row: the mean of the squared deviations. -/
theorem rVar_apply (x : FVec Ideal S1x256 .f32) (j : S1x1.Idx) :
    rVar x j = Cert.Spec.var fun k => x (ix2 (0 : Fin 1) k) := by
  unfold rVar
  rw [select_apply, rGuard_apply, select_one, hostDivf_apply, broadcastInDim_scalar_apply, rCount_apply]
  unfold Cert.Spec.var
  refine congrArg (fun z => Ideal.div z Cert.Spec.c256) ?_
  unfold broadcastInDim
  rw [rowSum_apply]
  refine Finset.sum_congr rfl fun k _ => ?_
  rw [mulf_apply, subf_apply, rMean_apply]

/-- The layer norm of the row at entry j. -/
theorem rLN_apply (x : FVec Ideal S1x256 .f32) (s b : FVec Ideal S256 .f32) (j : Fin 256) :
    rLN x s b (ix2 (0 : Fin 1) j)
      = Cert.Spec.lnorm (fun k => x (ix2 (0 : Fin 1) k)) (fun k => s (ix1 k)) (fun k => b (ix1 k)) j := by
  unfold rLN Cert.Spec.lnorm
  rw [addf_apply, mulf_apply, mulf_apply, subf_apply, rMean_bcast_apply]
  have hs : ∀ v : FVec Ideal S256 .f32, broadcastInDim S1x256 ![1] bcast_S256_S1x256_1 v (ix2 (0 : Fin 1) j) = v (ix1 j) := fun v =>
    broadcastInDim_apply ![1] bcast_S256_S1x256_1 v (ix2 (0 : Fin 1) j) (ix1 j) (by
      intro a
      match a with
      | ⟨0, _⟩ => rfl)
  rw [hs, hs]
  have hr : broadcastInDim S1x256 ![0, 1] bcast_S1x1_S1x256_0_1
      (Host.rsqrt (addf (rVar x) (broadcastInDim S1x1 ![] bcast_S_S1x1 (constant (F := Ideal) S_ .f32 0x3727C5AC#32)))) (ix2 (0 : Fin 1) j)
      = Ideal.rsqrt (Cert.Spec.var (fun k => x (ix2 (0 : Fin 1) k)) + Cert.Spec.eps) := by
    unfold broadcastInDim
    show Ideal.rsqrt (addf (rVar x) (broadcastInDim S1x1 ![] bcast_S_S1x1 (constant (F := Ideal) S_ .f32 0x3727C5AC#32)) _) = _
    rw [addf_apply, rVar_apply, broadcastInDim_scalar_apply, constant_apply]
    rfl
  rw [hr]

/-- The rectifier at an entry: the maximum with zero. -/
theorem rRelu_apply (x : FVec Ideal S1x256 .f32) (i : S1x256.Idx) : rRelu x i = max (x i) 0 := by
  unfold rRelu
  rw [maximumf_apply, broadcastInDim_scalar_apply, constant_apply, Ideal.ofBits_zero_f32]

/-! ## The linear maps -/

/-- The 1 × 256 by 256 × 128 product at entry j: the sum over the 256 contracted entries. -/
theorem dot128_apply (L : FVec Ideal S1x256 .f32) (W : FVec Ideal S256x128 .f32) (j : Fin 128) :
    Host.dotGeneral dot_S1x256_S256x128_S1x128_1_0_0_1_n_n none L W (ix2 (0 : Fin 1) j)
      = ∑ c : Fin 256, L (ix2 (0 : Fin 1) c) * W (ix2 c j) :=
  StackMember.dotGeneral_plain_apply (m := 1) (n := 128) (k := 256) none L W 0 j

/-- The 1 × 256 by 256 × 256 product at entry j. -/
theorem dot256_apply (L : FVec Ideal S1x256 .f32) (W : FVec Ideal S256x256 .f32) (j : Fin 256) :
    Host.dotGeneral dot_S1x256_S256x256_S1x256_1_0_0_1_n_n none L W (ix2 (0 : Fin 1) j)
      = ∑ c : Fin 256, L (ix2 (0 : Fin 1) c) * W (ix2 c j) :=
  StackMember.dotGeneral_plain_apply (m := 1) (n := 256) (k := 256) none L W 0 j

/-- A 128-vector laid along the one row reads its own entry. -/
theorem bias128_apply (v : FVec Ideal S128 .f32) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) (by
    intro a
    match a with
    | ⟨0, _⟩ => rfl)

/-- A 256-vector laid along the one row reads its own entry. -/
theorem bias256_apply (v : FVec Ideal S256 .f32) (j : Fin 256) :
    broadcastInDim S1x256 ![1] bcast_S256_S1x256_1 v (ix2 (0 : Fin 1) j) = v (ix1 j) :=
  broadcastInDim_apply ![1] bcast_S256_S1x256_1 v (ix2 (0 : Fin 1) j) (ix1 j) (by
    intro a
    match a with
    | ⟨0, _⟩ => rfl)

/-- The projection of the global feature at entry j. -/
theorem rProj_apply (g : FVec Ideal S1x256 .f32) (s b : FVec Ideal S256 .f32) (W : FVec Ideal S256x128 .f32)
    (bias : FVec Ideal S128 .f32) (j : Fin 128) :
    rProj g s b W bias (ix2 (0 : Fin 1) j)
      = Cert.Spec.proj (fun k => g (ix2 (0 : Fin 1) k)) (fun k => s (ix1 k)) (fun k => b (ix1 k)) W bias j := by
  unfold rProj Cert.Spec.proj
  rw [addf_apply, dot128_apply, bias128_apply]
  refine congrArg (· + bias (ix1 j)) (Finset.sum_congr rfl fun c _ => ?_)
  rw [rRelu_apply, rLN_apply]

/-! ## The epilogue -/

/-- The two aggregates side by side plus the global feature, at entry j: the first 128 entries come from the first
    aggregate, the last 128 from the second. -/
theorem rSkip_apply (g : FVec Ideal S1x256 .f32) (v2g s2g : FVec Ideal S1x128 .f32) (j : Fin 256) :
    rSkip g v2g s2g (ix2 (0 : Fin 1) j)
      = g (ix2 (0 : Fin 1) j)
        + (if h : j.val < 128 then v2g (ix2 (0 : Fin 1) (⟨j.val, h⟩ : Fin 128))
           else s2g (ix2 (0 : Fin 1) (⟨j.val - 128, by omega⟩ : Fin 128))) := by
  unfold rSkip
  rw [addf_apply]
  refine congrArg (g (ix2 (0 : Fin 1) j) + ·) ?_
  split
  · rename_i h
    exact concatenate_pair_apply_left (1 : Fin S1x256.rank) v2g s2g concatenates_S1x128_S1x128_S1x256_d1
      (ix2 (0 : Fin 1) j) rfl (ix2 (0 : Fin 1) (⟨j.val, h⟩ : Fin 128)) (by
        intro b
        match b with
        | ⟨0, _⟩ => rfl
        | ⟨1, _⟩ => rfl)
  · rename_i h
    exact concatenate_pair_apply_right (1 : Fin S1x256.rank) v2g s2g concatenates_S1x128_S1x128_S1x256_d1
      (ix2 (0 : Fin 1) j) rfl rfl (ix2 (0 : Fin 1) (⟨j.val - 128, by omega⟩ : Fin 128)) (by
        intro b hb
        match b, hb with
        | ⟨0, _⟩, _ => rfl
        | ⟨1, _⟩, hb => exact absurd rfl hb)
      (by show (j.val - 128) + 128 = j.val; omega)

/-- The epilogue at entry j, over the skip-added row X: X j + (Σ relu (layer norm X) · W + bias). -/
theorem rFinal_apply (g : FVec Ideal S1x256 .f32) (v2g s2g : FVec Ideal S1x128 .f32) (lnpS lnpB : FVec Ideal S256 .f32)
    (Wmlp : FVec Ideal S256x256 .f32) (bmlp : FVec Ideal S256 .f32) (j : Fin 256) :
    rFinal g v2g s2g lnpS lnpB Wmlp bmlp (ix2 (0 : Fin 1) j)
      = rSkip g v2g s2g (ix2 (0 : Fin 1) j)
        + ((∑ i : Fin 256, max (Cert.Spec.lnorm (fun k => rSkip g v2g s2g (ix2 (0 : Fin 1) k)) (fun k => lnpS (ix1 k))
              (fun k => lnpB (ix1 k)) i) 0 * Wmlp (ix2 i j)) + bmlp (ix1 j)) := by
  unfold rFinal
  rw [addf_apply, addf_apply, dot256_apply, bias256_apply]
  refine congrArg (fun z => rSkip g v2g s2g (ix2 (0 : Fin 1) j) + (z + bmlp (ix1 j))) (Finset.sum_congr rfl fun c _ => ?_)
  rw [rRelu_apply, rLN_apply]

/-- The epilogue over a bundle's arrays is the specification's result from the two aggregates. -/
theorem rFinal_eq (A : Cert.Spec.Args) (v2g s2g : FVec Ideal S1x128 .f32) :
    rFinal A.g v2g s2g A.lnpS A.lnpB A.Wmlp A.bmlp
      = Cert.Spec.result A (fun k => v2g (ix2 (0 : Fin 1) k)) (fun k => s2g (ix2 (0 : Fin 1) k)) := by
  funext i
  obtain ⟨p, j, rfl⟩ : ∃ (p : Fin 1) (j : Fin 256), i = ix2 p j := ⟨i 0, i 1, eq_ix2 i⟩
  obtain rfl : p = 0 := Subsingleton.elim _ _
  have hx : (fun k : Fin 256 => rSkip A.g v2g s2g (ix2 (0 : Fin 1) k))
      = Cert.Spec.skipped A (fun k => v2g (ix2 (0 : Fin 1) k)) (fun k => s2g (ix2 (0 : Fin 1) k)) := by
    funext k
    rw [rSkip_apply]
    rfl
  rw [rFinal_apply, hx]
  show _ = Cert.Spec.epilogue A _ j
  unfold Cert.Spec.epilogue
  rw [← hx]

/-! ## The whole result -/

/-- The reference's term over a bundle's arrays is the specification's reference form, given that one attention stream's
    aggregate is, at every lane, the softmax-weighted sum of the projected rows plus the output bias. -/
theorem RTerm_eq_of
    (rGat_apply : ∀ (x : FVec Ideal S100000x128 .f32) (tgt : FVec Ideal S1x128 .f32) (Wl : FVec Ideal S128x128 .f32)
      (bl : FVec Ideal S128 .f32) (Wr : FVec Ideal S128x128 .f32) (br : FVec Ideal S128 .f32) (att : FVec Ideal S8x16 .f32)
      (bias : FVec Ideal S128 .f32) (k : Fin 128),
      rGat x tgt Wl bl Wr br att bias (ix2 (0 : Fin 1) k)
        = Cert.Spec.Stream.outR ⟨x, fun i => tgt (ix2 (0 : Fin 1) i), Wl, bl, Wr, br, att, bias⟩ k)
    (A : Cert.Spec.Args) :
    RTerm A.view A.sp A.g A.lnvS A.lnvB A.Wgv A.bgv A.WlV A.blV A.WrV A.brV A.attV A.biasV
      A.lnsS A.lnsB A.Wgs A.bgs A.WlS A.blS A.WrS A.brS A.attS A.biasS A.lnpS A.lnpB A.Wmlp A.bmlp
      = Cert.Spec.RForm A := by
  have htV : (fun i : Fin 128 => rProj A.g A.lnvS A.lnvB A.Wgv A.bgv (ix2 (0 : Fin 1) i)) = Cert.Spec.tgtV A := by
    funext i
    rw [rProj_apply]
    rfl
  have htS : (fun i : Fin 128 => rProj A.g A.lnsS A.lnsB A.Wgs A.bgs (ix2 (0 : Fin 1) i)) = Cert.Spec.tgtS A := by
    funext i
    rw [rProj_apply]
    rfl
  have hV : (fun k : Fin 128 => rGat A.view (rProj A.g A.lnvS A.lnvB A.Wgv A.bgv) A.WlV A.blV A.WrV A.brV A.attV A.biasV
      (ix2 (0 : Fin 1) k)) = A.streamV.outR := by
    funext k
    rw [rGat_apply, htV]
    rfl
  have hS : (fun k : Fin 128 => rGat A.sp (rProj A.g A.lnsS A.lnsB A.Wgs A.bgs) A.WlS A.blS A.WrS A.brS A.attS A.biasS
      (ix2 (0 : Fin 1) k)) = A.streamS.outR := by
    funext k
    rw [rGat_apply, htS]
    rfl
  unfold RTerm Cert.Spec.RForm
  rw [rFinal_eq, hV, hS]

end Cert.ReferenceIdeal.RefRead

end
-- ==== Proof.RefGat.lean ====
/-
  One attention stream of the reference, read at a lane.

  The reference's term for one stream (the composition of whole-array operations, in the module of the term) is
  read at lane k of its [1, 128] result and found to be the formula
    Σ_n α n (k / 16) · xl n k + bias k,
  with xl n j = Σ_i x n i · Wl i j + bl j, xr j = Σ_i t i · Wr i j + br j,
  logit n h = Σ_c leaky (xl n (16h+c) + xr (16h+c)) · att h c, the shift max (−∞, max_n logit n h),
  p n h = exp (logit n h − shift h) and α n h = p n h / Σ_n' p n' h.

  Each operation is read at an index by a lemma over variables of the array types: a product as the sum over the
  one contracted axis, a reshape by the row-major position (entry (n, h, c) of [100000, 8, 16] is entry
  (n, 16h + c) of [100000, 128]; lane k of [1, 128] is entry (k / 16, k % 16) of [8, 16]), a broadcast by the
  coordinates it keeps, a sum over one axis from zero as the sum over that axis's coordinates, the maximum over
  the rows from −∞ as the fold of max from the bottom element, and the compare–multiply–select of the leaky
  rectifier as the choice on the sign. The stream's values are then read one after the other.
-/
import proofs.«117868_g33088428049086_cont_sun_c4_530_8_alg».proof.Proof.RefGatTerm
import proofs.«117868_g33088428049086_cont_sun_c4_530_8_alg».proof.Proof.Forms
import Idealize.ShloMosaic.PureOps.Ideal.Laws
import Idealize.ShloMosaic.Lib.Pipeline.Value
import Idealize.ShloMosaic.Lib.ValueIdx

noncomputable section

namespace Cert.ReferenceIdeal.RefRead

open Cert.ReferenceIdeal Cert.ReferenceIdeal.Gen Cert.ReferenceIdeal.RefTerm Idealize.ShloMosaic Idealize.ShloMosaic.ValueIdx Cert.Spec
open scoped BigOperators

/-! ## The two products -/

theorem lhsX_0 (j : S100000x128.Idx) (k : dot_S100000x128_S128x128_S100000x128_1_0_0_1_n_n.contr.Idx) :
    (dot_S100000x128_S128x128_S100000x128_1_0_0_1_n_n.lhsIdx j k 0).val = (j 0).val := rfl
theorem lhsX_1 (j : S100000x128.Idx) (k : dot_S100000x128_S128x128_S100000x128_1_0_0_1_n_n.contr.Idx) :
    (dot_S100000x128_S128x128_S100000x128_1_0_0_1_n_n.lhsIdx j k 1).val = (k ⟨0, by decide⟩).val := rfl
theorem rhsX_0 (j : S100000x128.Idx) (k : dot_S100000x128_S128x128_S100000x128_1_0_0_1_n_n.contr.Idx) :
    (dot_S100000x128_S128x128_S100000x128_1_0_0_1_n_n.rhsIdx j k 0).val = (k ⟨0, by decide⟩).val := rfl
theorem rhsX_1 (j : S100000x128.Idx) (k : dot_S100000x128_S128x128_S100000x128_1_0_0_1_n_n.contr.Idx) :
    (dot_S100000x128_S128x128_S100000x128_1_0_0_1_n_n.rhsIdx j k 1).val = (j 1).val := rfl

/-- The rows' product at (n, j): the sum over the 128 inputs. -/
theorem dotX_apply (x : FVec Ideal S100000x128 .f32) (W : FVec Ideal S128x128 .f32) (n : Fin 100000) (j : Fin 128) :
    Host.dotGeneral (F := Ideal) dot_S100000x128_S128x128_S100000x128_1_0_0_1_n_n none x W (ix2 n j)
      = ∑ i : Fin 128, x (ix2 n i) * W (ix2 i j) := by
  show FloatOps.dotGeneral dot_S100000x128_S128x128_S100000x128_1_0_0_1_n_n none .single x W (ix2 n j) = _
  rw [Ideal.dotGeneral_apply,
    ← Equiv.sum_comp (contrEquiv1 dot_S100000x128_S128x128_S100000x128_1_0_0_1_n_n 128 rfl rfl).symm]
  refine Finset.sum_congr rfl fun i _ => ?_
  have hk := contrEquiv1_symm_val dot_S100000x128_S128x128_S100000x128_1_0_0_1_n_n 128 rfl rfl i
  have hl : dot_S100000x128_S128x128_S100000x128_1_0_0_1_n_n.lhsIdx (ix2 n j)
      ((contrEquiv1 dot_S100000x128_S128x128_S100000x128_1_0_0_1_n_n 128 rfl rfl).symm i) = ix2 n i := by
    funext a; apply Fin.ext
    match a with
    | ⟨0, _⟩ => exact lhsX_0 _ _
    | ⟨1, _⟩ => exact (lhsX_1 _ _).trans hk
  have hr : dot_S100000x128_S128x128_S100000x128_1_0_0_1_n_n.rhsIdx (ix2 n j)
      ((contrEquiv1 dot_S100000x128_S128x128_S100000x128_1_0_0_1_n_n 128 rfl rfl).symm i) = ix2 i j := by
    funext a; apply Fin.ext
    match a with
    | ⟨0, _⟩ => exact (rhsX_0 _ _).trans hk
    | ⟨1, _⟩ => exact rhsX_1 _ _
  rw [hl, hr]

/-! ## Reshapes -/

/-- [100000, 128] seen as [100000, 8, 16]: entry (n, h, c) is entry (n, 16h + c). -/
theorem reshape_rows_apply {α : Type} (v : S100000x128.Idx → α) (n : Fin 100000) (h : Fin 8) (c : Fin 16) :
    shapeCast S100000x8x16 v shapeCasts_S100000x128_S100000x8x16 (ix3 n h c) = v (ix2 n (hc h c)) := by
  refine shapeCast_apply v _ (ix3 n h c) (ix2 n (hc h c)) ?_
  rw [Shape.rowMajor_val_two, Shape.rowMajor_val_three]
  show n.val * 128 + (16 * h.val + c.val) = (n.val * 8 + h.val) * 16 + c.val
  omega

/-- [1, 128] seen as [1, 8, 16]. -/
theorem reshape_tgt_apply {α : Type} (v : S1x128.Idx → α) (h : Fin 8) (c : Fin 16) :
    shapeCast S1x8x16 v shapeCasts_S1x128_S1x8x16 (ix3 0 h c) = v (ix2 0 (hc h c)) := by
  refine shapeCast_apply v _ (ix3 0 h c) (ix2 0 (hc h c)) ?_
  rw [Shape.rowMajor_val_two, Shape.rowMajor_val_three]
  show 0 * 128 + (16 * h.val + c.val) = (0 * 8 + h.val) * 16 + c.val
  omega

/-- [8, 16] seen as [1, 128]: lane k is entry (k / 16, k % 16). -/
theorem reshape_out_apply {α : Type} (v : S8x16.Idx → α) (k : Fin 128) :
    shapeCast S1x128 v shapeCasts_S8x16_S1x128 (ix2 0 k) = v (ix2 (headOf k) (chanOf k)) := by
  refine shapeCast_apply v _ (ix2 0 k) (ix2 (headOf k) (chanOf k)) ?_
  rw [Shape.rowMajor_val_two, Shape.rowMajor_val_two]
  show k.val / 16 * 16 + k.val % 16 = 0 * 128 + k.val
  omega

/-! ## Broadcasts -/

/-- A 128-vector as a row, repeated over the 100000 rows. -/
theorem bcast_rows_apply {α : Type} (b : S128.Idx → α) (n : Fin 100000) (j : Fin 128) :
    broadcastInDim S100000x128 ![0, 1] bcast_S1x128_S100000x128_0_1 (broadcastInDim S1x128 ![1] bcast_S128_S1x128_1 b) (ix2 n j)
      = b (ix1 j) := by
  refine (broadcastInDim_apply _ _ _ (ix2 n j) (ix2 0 j) fun a => ?_).trans
    (broadcastInDim_apply _ _ b (ix2 0 j) (ix1 j) fun a => ?_)
  · match a with
    | ⟨0, _⟩ => rfl
    | ⟨1, _⟩ => rfl
  · match a with
    | ⟨0, _⟩ => rfl

/-- A 128-vector as a row. -/
theorem bcast_row_apply {α : Type} (b : S128.Idx → α) (j : Fin 128) :
    broadcastInDim S1x128 ![1] bcast_S128_S1x128_1 b (ix2 0 j) = b (ix1 j) := by
  refine broadcastInDim_apply _ _ b (ix2 0 j) (ix1 j) fun a => ?_
  match a with
  | ⟨0, _⟩ => rfl

/-- A [1, 8, 16] array repeated over the 100000 rows. -/
theorem bcast_tgt_apply {α : Type} (v : S1x8x16.Idx → α) (n : Fin 100000) (h : Fin 8) (c : Fin 16) :
    broadcastInDim S100000x8x16 ![0, 1, 2] bcast_S1x8x16_S100000x8x16_0_1_2 v (ix3 n h c) = v (ix3 0 h c) := by
  refine broadcastInDim_apply _ _ v (ix3 n h c) (ix3 0 h c) fun a => ?_
  match a with
  | ⟨0, _⟩ => rfl
  | ⟨1, _⟩ => rfl
  | ⟨2, _⟩ => rfl

/-- The attention vector [8, 16] as [1, 8, 16]. -/
theorem bcast_att_apply {α : Type} (v : S8x16.Idx → α) (h : Fin 8) (c : Fin 16) :
    broadcastInDim S1x8x16 ![1, 2] bcast_S8x16_S1x8x16_1_2 v (ix3 0 h c) = v (ix2 h c) := by
  refine broadcastInDim_apply _ _ v (ix3 0 h c) (ix2 h c) fun a => ?_
  match a with
  | ⟨0, _⟩ => rfl
  | ⟨1, _⟩ => rfl

/-- An 8-vector as a row, repeated over the 100000 rows. -/
theorem bcast_heads_apply {α : Type} (v : S8.Idx → α) (n : Fin 100000) (h : Fin 8) :
    broadcastInDim S100000x8 ![0, 1] bcast_S1x8_S100000x8_0_1 (broadcastInDim S1x8 ![1] bcast_S8_S1x8_1 v) (ix2 n h)
      = v (ix1 h) := by
  refine (broadcastInDim_apply _ _ _ (ix2 n h) (ix2 0 h) fun a => ?_).trans
    (broadcastInDim_apply _ _ v (ix2 0 h) (ix1 h) fun a => ?_)
  · match a with
    | ⟨0, _⟩ => rfl
    | ⟨1, _⟩ => rfl
  · match a with
    | ⟨0, _⟩ => rfl

/-- A [100000, 8] array with a unit channel axis, repeated over the 16 channels. -/
theorem bcast_chan_apply {α : Type} (v : S100000x8.Idx → α) (n : Fin 100000) (h : Fin 8) (c : Fin 16) :
    broadcastInDim S100000x8x16 ![0, 1, 2] bcast_S100000x8x1_S100000x8x16_0_1_2
        (broadcastInDim S100000x8x1 ![0, 1] bcast_S100000x8_S100000x8x1_0_1 v) (ix3 n h c)
      = v (ix2 n h) := by
  refine (broadcastInDim_apply _ _ _ (ix3 n h c) (ix3 n h 0) fun a => ?_).trans
    (broadcastInDim_apply _ _ v (ix3 n h 0) (ix2 n h) fun a => ?_)
  · match a with
    | ⟨0, _⟩ => rfl
    | ⟨1, _⟩ => rfl
    | ⟨2, _⟩ => rfl
  · match a with
    | ⟨0, _⟩ => rfl
    | ⟨1, _⟩ => rfl

/-! ## The target's product -/

theorem lhsT_0 (j : S1x128.Idx) (k : dot_S1x128_S128x128_S1x128_1_0_0_1_n_n.contr.Idx) :
    (dot_S1x128_S128x128_S1x128_1_0_0_1_n_n.lhsIdx j k 0).val = (j 0).val := rfl
theorem lhsT_1 (j : S1x128.Idx) (k : dot_S1x128_S128x128_S1x128_1_0_0_1_n_n.contr.Idx) :
    (dot_S1x128_S128x128_S1x128_1_0_0_1_n_n.lhsIdx j k 1).val = (k ⟨0, by decide⟩).val := rfl
theorem rhsT_0 (j : S1x128.Idx) (k : dot_S1x128_S128x128_S1x128_1_0_0_1_n_n.contr.Idx) :
    (dot_S1x128_S128x128_S1x128_1_0_0_1_n_n.rhsIdx j k 0).val = (k ⟨0, by decide⟩).val := rfl
theorem rhsT_1 (j : S1x128.Idx) (k : dot_S1x128_S128x128_S1x128_1_0_0_1_n_n.contr.Idx) :
    (dot_S1x128_S128x128_S1x128_1_0_0_1_n_n.rhsIdx j k 1).val = (j 1).val := rfl

/-- The target's product at lane j: the sum over the 128 inputs. -/
theorem dotT_apply (t : FVec Ideal S1x128 .f32) (W : FVec Ideal S128x128 .f32) (j : Fin 128) :
    Host.dotGeneral (F := Ideal) dot_S1x128_S128x128_S1x128_1_0_0_1_n_n none t W (ix2 0 j)
      = ∑ i : Fin 128, t (ix2 0 i) * W (ix2 i j) := by
  show FloatOps.dotGeneral dot_S1x128_S128x128_S1x128_1_0_0_1_n_n none .single t W (ix2 0 j) = _
  rw [Ideal.dotGeneral_apply,
    ← Equiv.sum_comp (contrEquiv1 dot_S1x128_S128x128_S1x128_1_0_0_1_n_n 128 rfl rfl).symm]
  refine Finset.sum_congr rfl fun i _ => ?_
  have hk := contrEquiv1_symm_val dot_S1x128_S128x128_S1x128_1_0_0_1_n_n 128 rfl rfl i
  have hl : dot_S1x128_S128x128_S1x128_1_0_0_1_n_n.lhsIdx (ix2 0 j)
      ((contrEquiv1 dot_S1x128_S128x128_S1x128_1_0_0_1_n_n 128 rfl rfl).symm i) = ix2 0 i := by
    funext a; apply Fin.ext
    match a with
    | ⟨0, _⟩ => exact lhsT_0 _ _
    | ⟨1, _⟩ => exact (lhsT_1 _ _).trans hk
  have hr : dot_S1x128_S128x128_S1x128_1_0_0_1_n_n.rhsIdx (ix2 0 j)
      ((contrEquiv1 dot_S1x128_S128x128_S1x128_1_0_0_1_n_n 128 rfl rfl).symm i) = ix2 i j := by
    funext a; apply Fin.ext
    match a with
    | ⟨0, _⟩ => exact (rhsT_0 _ _).trans hk
    | ⟨1, _⟩ => exact rhsT_1 _ _
  rw [hl, hr]

/-! ## The sums and the maximum -/

theorem red_chan : S100000x8x16.Reduces [2] S100000x8 := by decide
theorem red_rows2 : S100000x8.Reduces [0] S8 := by decide
theorem red_rows3 : S100000x8x16.Reduces [0] S8x16 := by decide

/-- The sum over the 16 channels from zero. -/
theorem sum_chan_apply (v : FVec Ideal S100000x8x16 .f32) (n : Fin 100000) (h : Fin 8) :
    Host.reduceAdd (F := Ideal) v (constant (F := Ideal) S_ .f32 0x00000000#32) reducesTo_S100000x8x16_S100000x8_d2 h_S_ (ix2 n h)
      = ∑ c : Fin 16, v (ix3 n h c) := by
  show Ideal.hostReduceAdd reducesTo_S100000x8x16_S100000x8_d2 v (Ideal.ofBits .f32 0x00000000#32) (ix2 n h) = _
  rw [Ideal.hostReduceAdd_single reducesTo_S100000x8x16_S100000x8_d2 red_chan, Ideal.ofBits_zero_f32, zero_add]
  refine Finset.sum_congr rfl fun c _ => congrArg v ?_
  funext a; apply Fin.ext
  match a with
  | ⟨0, _⟩ => rfl
  | ⟨1, _⟩ => rfl
  | ⟨2, _⟩ => rfl

/-- The sum over the 100000 rows of a [100000, 8] array from zero. -/
theorem sum_rows2_apply (v : FVec Ideal S100000x8 .f32) (h : Fin 8) :
    Host.reduceAdd (F := Ideal) v (constant (F := Ideal) S_ .f32 0x00000000#32) reducesTo_S100000x8_S8_d0 h_S_ (ix1 h)
      = ∑ n : Fin 100000, v (ix2 n h) := by
  show Ideal.hostReduceAdd reducesTo_S100000x8_S8_d0 v (Ideal.ofBits .f32 0x00000000#32) (ix1 h) = _
  rw [Ideal.hostReduceAdd_single reducesTo_S100000x8_S8_d0 red_rows2, Ideal.ofBits_zero_f32, zero_add]
  refine Finset.sum_congr rfl fun n _ => congrArg v ?_
  funext a; apply Fin.ext
  match a with
  | ⟨0, _⟩ => rfl
  | ⟨1, _⟩ => rfl

/-- The sum over the 100000 rows of a [100000, 8, 16] array from zero. -/
theorem sum_rows3_apply (v : FVec Ideal S100000x8x16 .f32) (h : Fin 8) (c : Fin 16) :
    Host.reduceAdd (F := Ideal) v (constant (F := Ideal) S_ .f32 0x00000000#32) reducesTo_S100000x8x16_S8x16_d0 h_S_ (ix2 h c)
      = ∑ n : Fin 100000, v (ix3 n h c) := by
  show Ideal.hostReduceAdd reducesTo_S100000x8x16_S8x16_d0 v (Ideal.ofBits .f32 0x00000000#32) (ix2 h c) = _
  rw [Ideal.hostReduceAdd_single reducesTo_S100000x8x16_S8x16_d0 red_rows3, Ideal.ofBits_zero_f32, zero_add]
  refine Finset.sum_congr rfl fun n _ => congrArg v ?_
  funext a; apply Fin.ext
  match a with
  | ⟨0, _⟩ => rfl
  | ⟨1, _⟩ => rfl
  | ⟨2, _⟩ => rfl

/-- The word of −∞ is the bottom element. -/
theorem ofBits_neg_inf : Ideal.ofBits .f32 0xFF800000#32 = ⊥ := by simp [Ideal.ofBits, Ideal.ieee]

/-- The maximum over the 100000 rows from −∞. -/
theorem max_rows_apply (v : FVec Ideal S100000x8 .f32) (h : Fin 8) :
    Host.reduce (FloatOps.maximumf (F := Ideal) (φ := .f32)) v (constant (F := Ideal) S_ .f32 0xFF800000#32)
        reducesTo_S100000x8_S8_d0 h_S_ (ix1 h)
      = Finset.univ.fold max ⊥ fun n : Fin 100000 => v (ix2 n h) := by
  rw [Host.reduce_eq_fold_single (FloatOps.maximumf (F := Ideal) (φ := .f32)) v _ reducesTo_S100000x8_S8_d0 red_rows2 h_S_]
  show (Finset.univ : Finset (Fin 100000)).fold max (Ideal.ofBits .f32 0xFF800000#32) (v ∘ red_rows2.lift (ix1 h)) = _
  rw [ofBits_neg_inf]
  congr 1
  funext n
  refine congrArg v ?_
  funext a; apply Fin.ext
  match a with
  | ⟨0, _⟩ => rfl
  | ⟨1, _⟩ => rfl

/-! ## The leaky rectifier at an entry -/

theorem leaky_select (z : EReal) :
    Scalar.select (Ideal.cmp .oge z (Ideal.ofBits .f32 0x00000000#32)) z (Ideal.ofBits .f32 0x3E4CCCCD#32 * z) = leaky z := by
  rw [Ideal.ofBits_zero_f32]
  unfold leaky Scalar.select Ideal.cmp Cert.Spec.slope
  by_cases hz : (0 : EReal) ≤ z
  · simp [hz]
  · simp [hz]

/-! ## The stream's values at an index -/

/-- The stream's arrays as the formulas' bundle: the target's features are the row of the [1, 128] array. -/
abbrev strm (x : FVec Ideal S100000x128 .f32) (tgt : FVec Ideal S1x128 .f32) (Wl : FVec Ideal S128x128 .f32)
    (bl : FVec Ideal S128 .f32) (Wr : FVec Ideal S128x128 .f32) (br : FVec Ideal S128 .f32)
    (att : FVec Ideal S8x16 .f32) (bias : FVec Ideal S128 .f32) : Stream :=
  ⟨x, fun i => tgt (ix2 0 i), Wl, bl, Wr, br, att, bias⟩

section
variable (x : FVec Ideal S100000x128 .f32) (tgt : FVec Ideal S1x128 .f32) (Wl : FVec Ideal S128x128 .f32)
  (bl : FVec Ideal S128 .f32) (Wr : FVec Ideal S128x128 .f32) (br : FVec Ideal S128 .f32)
  (att : FVec Ideal S8x16 .f32) (bias : FVec Ideal S128 .f32)

theorem rXl_apply (n : Fin 100000) (h : Fin 8) (c : Fin 16) :
    rXl x Wl bl (ix3 n h c) = (strm x tgt Wl bl Wr br att bias).xl n (hc h c) := by
  unfold rXl
  rw [reshape_rows_apply, addf_apply, dotX_apply, bcast_rows_apply]
  rfl

theorem rXr_apply (h : Fin 8) (c : Fin 16) :
    rXr tgt Wr br (ix3 0 h c) = (strm x tgt Wl bl Wr br att bias).xr (hc h c) := by
  unfold rXr
  rw [reshape_tgt_apply, addf_apply, dotT_apply, bcast_row_apply]
  rfl

theorem rLeaky_apply (z : FVec Ideal S100000x8x16 .f32) (i : S100000x8x16.Idx) : rLeaky z i = leaky (z i) :=
  leaky_select (z i)

theorem rE_apply (n : Fin 100000) (h : Fin 8) (c : Fin 16) :
    rE x tgt Wl bl Wr br (ix3 n h c)
      = leaky ((strm x tgt Wl bl Wr br att bias).xl n (hc h c) + (strm x tgt Wl bl Wr br att bias).xr (hc h c)) := by
  unfold rE
  rw [rLeaky_apply, addf_apply, rXl_apply x tgt Wl bl Wr br att bias, bcast_tgt_apply,
    rXr_apply x tgt Wl bl Wr br att bias]

theorem rLogits_apply (n : Fin 100000) (h : Fin 8) :
    rLogits x tgt Wl bl Wr br att (ix2 n h) = (strm x tgt Wl bl Wr br att bias).logitR n h := by
  unfold rLogits
  rw [sum_chan_apply]
  unfold Stream.logitR
  refine Finset.sum_congr rfl fun c _ => ?_
  rw [mulf_apply, rE_apply x tgt Wl bl Wr br att bias, bcast_tgt_apply, bcast_att_apply]

end

/-- The host's quotient and exponential at an entry are the extended reals'. -/
theorem hostDivf_apply {s : Shape} {φ : FTy} (a b : FVec Ideal s φ) (i : s.Idx) :
    Host.divf a b i = Ideal.div (a i) (b i) := rfl
theorem hostExp_apply {s : Shape} {φ : FTy} (a : FVec Ideal s φ) (i : s.Idx) : Host.exp a i = Ideal.exp (a i) := rfl

/-- The shift: the maximum of −∞ and the maximum over the rows. -/
theorem rMax_apply (l : FVec Ideal S100000x8 .f32) (h : Fin 8) :
    rMax l (ix1 h) = max ⊥ (Finset.univ.fold max ⊥ fun n : Fin 100000 => l (ix2 n h)) := by
  unfold rMax
  rw [maximumf_apply, max_rows_apply]
  show max (Ideal.ofBits .f32 0xFF800000#32) _ = _
  rw [ofBits_neg_inf]

theorem rP_apply (l : FVec Ideal S100000x8 .f32) (n : Fin 100000) (h : Fin 8) :
    rP l (ix2 n h) = Ideal.exp (l (ix2 n h) - max ⊥ (Finset.univ.fold max ⊥ fun n' : Fin 100000 => l (ix2 n' h))) := by
  unfold rP
  rw [hostExp_apply, subf_apply, bcast_heads_apply, rMax_apply]

theorem rAlpha_apply (l : FVec Ideal S100000x8 .f32) (n : Fin 100000) (h : Fin 8) :
    rAlpha l (ix2 n h) = Ideal.div (rP l (ix2 n h)) (∑ n' : Fin 100000, rP l (ix2 n' h)) := by
  unfold rAlpha
  rw [hostDivf_apply, bcast_heads_apply, sum_rows2_apply]

theorem rAgg_apply (a : FVec Ideal S100000x8 .f32) (xl : FVec Ideal S100000x8x16 .f32) (h : Fin 8) (c : Fin 16) :
    rAgg a xl (ix2 h c) = ∑ n : Fin 100000, a (ix2 n h) * xl (ix3 n h c) := by
  unfold rAgg
  rw [sum_rows3_apply]
  refine Finset.sum_congr rfl fun n _ => ?_
  rw [mulf_apply, bcast_chan_apply]

section
variable (x : FVec Ideal S100000x128 .f32) (tgt : FVec Ideal S1x128 .f32) (Wl : FVec Ideal S128x128 .f32)
  (bl : FVec Ideal S128 .f32) (Wr : FVec Ideal S128x128 .f32) (br : FVec Ideal S128 .f32)
  (att : FVec Ideal S8x16 .f32) (bias : FVec Ideal S128 .f32)

theorem rP_pR (n : Fin 100000) (h : Fin 8) :
    rP (rLogits x tgt Wl bl Wr br att) (ix2 n h) = (strm x tgt Wl bl Wr br att bias).pR n h := by
  rw [rP_apply]
  unfold Stream.pR Stream.maxR
  simp only [rLogits_apply x tgt Wl bl Wr br att bias]

theorem rAlpha_alphaR (n : Fin 100000) (h : Fin 8) :
    rAlpha (rLogits x tgt Wl bl Wr br att) (ix2 n h) = (strm x tgt Wl bl Wr br att bias).alphaR n h := by
  rw [rAlpha_apply]
  unfold Stream.alphaR
  simp only [rP_pR x tgt Wl bl Wr br att bias]

/-- One attention stream of the reference at lane k: the softmax-weighted sum of the projected rows, plus the bias. -/
theorem rGat_apply (k : Fin 128) :
    rGat x tgt Wl bl Wr br att bias (ix2 0 k)
      = Cert.Spec.Stream.outR ⟨x, fun i => tgt (ix2 0 i), Wl, bl, Wr, br, att, bias⟩ k := by
  have hk : hc (headOf k) (chanOf k) = k :=
    Fin.ext (by show 16 * (k.val / 16) + k.val % 16 = k.val; omega)
  show _ = (strm x tgt Wl bl Wr br att bias).outR k
  unfold rGat
  rw [addf_apply, bcast_row_apply, reshape_out_apply, rAgg_apply]
  unfold Stream.outR
  refine congrArg₂ (· + ·) (Finset.sum_congr rfl fun n _ => ?_) rfl
  rw [rXl_apply x tgt Wl bl Wr br att bias, hk, rAlpha_alphaR x tgt Wl bl Wr br att bias]

end

end Cert.ReferenceIdeal.RefRead

end
-- ==== Proof.RefForm.lean ====
/-
  The reference's term over a bundle's arrays is the specification's reference form.

  The pieces outside the attention (the projections, the side-by-side layout, the epilogue) read entry by entry as the
  specification's formulas; each attention stream's aggregate reads, lane by lane, as the softmax-weighted sum of the
  projected rows plus the output bias. Together they give the whole term.
-/
import proofs.«117868_g33088428049086_cont_sun_c4_530_8_alg».proof.Proof.RefRead
import proofs.«117868_g33088428049086_cont_sun_c4_530_8_alg».proof.Proof.RefGat

noncomputable section

namespace Cert.ReferenceIdeal.RefRead

open Cert.ReferenceIdeal Cert.ReferenceIdeal.RefTerm Idealize.ShloMosaic

/-- The reference's term at a bundle's twenty-seven arrays, in argument order, is the reference form of the bundle. -/
theorem RTerm_eq (A : Cert.Spec.Args) :
    RTerm A.view A.sp A.g A.lnvS A.lnvB A.Wgv A.bgv A.WlV A.blV A.WrV A.brV A.attV A.biasV
      A.lnsS A.lnsB A.Wgs A.bgs A.WlS A.blS A.WrS A.brS A.attS A.biasS A.lnpS A.lnpB A.Wmlp A.bmlp
      = Cert.Spec.RForm A :=
  RTerm_eq_of (fun x tgt Wl bl Wr br att bias k => rGat_apply x tgt Wl bl Wr br att bias k) A

end Cert.ReferenceIdeal.RefRead

end
-- ==== Proof.RefVal.lean ====
/-
  The reference program's run, with its result named: every weakly fair execution ends with the result buffer
  at the softmax form of the attention formula applied to the launch-time arguments, and the arguments unchanged.
  The run is the straight line of the program's host operations; its result, a pure term of the arguments, is read
  index by index as the formula.
-/
import proofs.«117868_g33088428049086_cont_sun_c4_530_8_alg».proof.Proof.RefOut
import proofs.«117868_g33088428049086_cont_sun_c4_530_8_alg».proof.Proof.RefKeep
import proofs.«117868_g33088428049086_cont_sun_c4_530_8_alg».proof.Proof.RefForm
import proofs.«117868_g33088428049086_cont_sun_c4_530_8_alg».proof.Proof.ArgsR

noncomputable section

namespace Cert.ReferenceIdeal.RefVal

open Cert.ReferenceIdeal Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v130) = Cert.Spec.RForm (Cert.ReferenceIdeal.argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run (defs (F := Ideal)) _ _).mono (fun r h c =>
    ⟨(h c main_v130).trans ((Cert.ReferenceIdeal.RefRun.out_eq _).trans
        (Cert.ReferenceIdeal.RefRead.RTerm_eq (Cert.ReferenceIdeal.argsOf m c))),
      (h c main_arg0).trans (Cert.ReferenceIdeal.RefRun.arg_eq_0 _),
      (h c main_arg1).trans (Cert.ReferenceIdeal.RefRun.arg_eq_1 _),
      (h c main_arg2).trans (Cert.ReferenceIdeal.RefRun.arg_eq_2 _),
      (h c main_arg3).trans (Cert.ReferenceIdeal.RefRun.arg_eq_3 _),
      (h c main_arg4).trans (Cert.ReferenceIdeal.RefRun.arg_eq_4 _),
      (h c main_arg5).trans (Cert.ReferenceIdeal.RefRun.arg_eq_5 _),
      (h c main_arg6).trans (Cert.ReferenceIdeal.RefRun.arg_eq_6 _),
      (h c main_arg7).trans (Cert.ReferenceIdeal.RefRun.arg_eq_7 _),
      (h c main_arg8).trans (Cert.ReferenceIdeal.RefRun.arg_eq_8 _),
      (h c main_arg9).trans (Cert.ReferenceIdeal.RefRun.arg_eq_9 _),
      (h c main_arg10).trans (Cert.ReferenceIdeal.RefRun.arg_eq_10 _),
      (h c main_arg11).trans (Cert.ReferenceIdeal.RefRun.arg_eq_11 _),
      (h c main_arg12).trans (Cert.ReferenceIdeal.RefRun.arg_eq_12 _),
      (h c main_arg13).trans (Cert.ReferenceIdeal.RefRun.arg_eq_13 _),
      (h c main_arg14).trans (Cert.ReferenceIdeal.RefRun.arg_eq_14 _),
      (h c main_arg15).trans (Cert.ReferenceIdeal.RefRun.arg_eq_15 _),
      (h c main_arg16).trans (Cert.ReferenceIdeal.RefRun.arg_eq_16 _),
      (h c main_arg17).trans (Cert.ReferenceIdeal.RefRun.arg_eq_17 _),
      (h c main_arg18).trans (Cert.ReferenceIdeal.RefRun.arg_eq_18 _),
      (h c main_arg19).trans (Cert.ReferenceIdeal.RefRun.arg_eq_19 _),
      (h c main_arg20).trans (Cert.ReferenceIdeal.RefRun.arg_eq_20 _),
      (h c main_arg21).trans (Cert.ReferenceIdeal.RefRun.arg_eq_21 _),
      (h c main_arg22).trans (Cert.ReferenceIdeal.RefRun.arg_eq_22 _),
      (h c main_arg23).trans (Cert.ReferenceIdeal.RefRun.arg_eq_23 _),
      (h c main_arg24).trans (Cert.ReferenceIdeal.RefRun.arg_eq_24 _),
      (h c main_arg25).trans (Cert.ReferenceIdeal.RefRun.arg_eq_25 _),
      (h c main_arg26).trans (Cert.ReferenceIdeal.RefRun.arg_eq_26 _)⟩)
    (Cert.ReferenceIdeal.RefRun.run_main (F := Ideal) m ρ)

end Cert.ReferenceIdeal.RefVal

end
-- ==== Proof.OnlineMath.lean ====
/-
  The running softmax is the softmax.

  One lane of the streamed aggregation keeps a triple (m, s, w): the maximum of the logits seen so far, the
  normaliser Σ exp (l − m) and the weighted sum Σ exp (l − m) · y over the rows seen so far. A new block replaces
  m by the larger m' and multiplies the old s and w by exp (m − m') before adding the block's own terms; since
  exp (l − m) · exp (m − m') = exp (l − m'), after every block s and w are again the sums over all rows seen,
  shifted by the current m. Before the first block the triple is (−∞, 0, 0) and the rescaling factor multiplies
  a zero. The quotient w / s does not depend on the shift (numerator and denominator carry the same factor
  exp (−m)), so after the last block it is the softmax-weighted mean Σ α · y of all rows, whatever shift the
  softmax itself uses; and Σ α = 1 lets a constant added once after the division be added to every row's value
  before it.

  Everything is proved by showing that each quantity is (the coercion of) a real number and doing the
  arithmetic in ℝ.
-/
import proofs.«117868_g33088428049086_cont_sun_c4_530_8_alg».proof.Proof.Forms
import Mathlib.Analysis.SpecialFunctions.Exp
import Mathlib.Algebra.BigOperators.Fin
import Mathlib.Data.Finset.Fold
import Mathlib.Data.EReal.Operations
import Mathlib.Tactic.FieldSimp
import Mathlib.Tactic.Ring

noncomputable section

namespace Cert.Math

open Idealize.ShloMosaic
open scoped BigOperators
open Cert.Spec

/-! ## Coercions of reals into the extended reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, ((f i : ℝ) : EReal) := coe_sum Finset.univ f

/-- The coercion of the larger of two reals is the larger of the coercions. -/
theorem coe_max (x y : ℝ) : ((max x y : ℝ) : EReal) = max (x : EReal) (y : EReal) :=
  EReal.coe_strictMono.monotone.map_max

/-- A sum of extended reals each of which is a real is a real. -/
theorem exists_coe_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-- The running maximum (from −∞) of real numbers over a nonempty index set is a real number. -/
theorem fold_max_coe {ι : Type*} {s : Finset ι} (hs : s.Nonempty) (f : ι → ℝ) :
    ∃ m : ℝ, s.fold max ⊥ (fun i => ((f i : ℝ) : EReal)) = (m : EReal) := by
  induction hs using Finset.Nonempty.cons_induction with
  | singleton a => exact ⟨f a, by rw [Finset.fold_singleton, max_bot_right]⟩
  | cons a s ha hs ih =>
    obtain ⟨m, hm⟩ := ih
    exact ⟨max (f a) m, by rw [Finset.fold_cons, hm, coe_max]⟩

/-- That real is an upper bound of the family and is attained: it is the maximum. -/
theorem fold_max_coe_spec {ι : Type*} {s : Finset ι} (hs : s.Nonempty) (f : ι → ℝ) :
    ∃ m : ℝ, s.fold max ⊥ (fun i => ((f i : ℝ) : EReal)) = (m : EReal) ∧ (∀ i ∈ s, f i ≤ m) ∧ ∃ i ∈ s, f i = m := by
  induction hs using Finset.Nonempty.cons_induction with
  | singleton a =>
    exact ⟨f a, by rw [Finset.fold_singleton, max_bot_right], by simp, by simp⟩
  | cons a s ha hs ih =>
    obtain ⟨m, hm, hle, i, his, hi⟩ := ih
    refine ⟨max (f a) m, by rw [Finset.fold_cons, hm, coe_max], ?_, ?_⟩
    · intro j hj
      rcases Finset.mem_cons.mp hj with rfl | hj
      · exact le_max_left _ _
      · exact (hle j hj).trans (le_max_right _ _)
    · rcases le_total (f a) m with h | h
      · exact ⟨i, Finset.mem_cons.mpr (Or.inr his), by rw [hi, max_eq_right h]⟩
      · exact ⟨a, Finset.mem_cons.mpr (Or.inl rfl), by rw [max_eq_left h]⟩

/-! ## One block's update -/

/-- The rescaling law behind the update: the sum over the rows seen, shifted by the old maximum and multiplied
    by exp (old − new), plus the new block's terms shifted by the new maximum, is the sum over all rows now seen,
    shifted by the new maximum. `f` the logits, `g` the weights (values), rows indexed by ℕ, the block of
    `B` rows starting at row `a`. -/
theorem sum_rescale_add_block (f g : ℕ → ℝ) (a B : ℕ) (M M' : ℝ) :
    (∑ n ∈ Finset.range a, Real.exp (f n - M) * g n) * Real.exp (M - M')
        + ∑ r : Fin B, Real.exp (f (a + r.val) - M') * g (a + r.val)
      = ∑ n ∈ Finset.range (a + B), Real.exp (f n - M') * g n := by
  rw [Finset.sum_range_add, ← Finset.sum_range (fun x => Real.exp (f (a + x) - M') * g (a + x)), Finset.sum_mul]
  congr 1
  refine Finset.sum_congr rfl (fun n _ => ?_)
  rw [mul_right_comm, ← Real.exp_add, sub_add_sub_cancel]

/-- The same without weights (the normaliser). -/
theorem sum_rescale_add_block_one (f : ℕ → ℝ) (a B : ℕ) (M M' : ℝ) :
    (∑ n ∈ Finset.range a, Real.exp (f n - M)) * Real.exp (M - M')
        + ∑ r : Fin B, Real.exp (f (a + r.val) - M')
      = ∑ n ∈ Finset.range (a + B), Real.exp (f n - M') := by
  simpa using sum_rescale_add_block f (fun _ => 1) a B M M'

/-- One update from a real state (m, s, w) on a nonempty block of real logits `lam` and real values `ups`:
    the new state is real, with the new maximum m' = max m (max of the block), s · exp (m − m') + Σ exp (lam − m')
    and w · exp (m − m') + Σ exp (lam − m') · ups. -/
theorem step_coe {B : ℕ} (hB : 0 < B) (M S W : ℝ) (l y : Fin B → EReal) (lam ups : Fin B → ℝ)
    (hl : ∀ r, l r = ((lam r : ℝ) : EReal)) (hy : ∀ r, y r = ((ups r : ℝ) : EReal)) :
    ∃ M' : ℝ, M ≤ M' ∧ (∀ r, lam r ≤ M') ∧ Online.step ((M : EReal), (S : EReal), (W : EReal)) l y =
      ((M' : EReal),
       ((S * Real.exp (M - M') + ∑ r : Fin B, Real.exp (lam r - M') : ℝ) : EReal),
       ((W * Real.exp (M - M') + ∑ r : Fin B, Real.exp (lam r - M') * ups r : ℝ) : EReal)) := by
  obtain rfl : l = fun r => ((lam r : ℝ) : EReal) := funext hl
  obtain rfl : y = fun r => ((ups r : ℝ) : EReal) := funext hy
  haveI : Nonempty (Fin B) := ⟨⟨0, hB⟩⟩
  obtain ⟨m, hm, hle, -⟩ := fold_max_coe_spec (Finset.univ_nonempty (α := Fin B)) lam
  refine ⟨max M m, le_max_left _ _, fun r => (hle r (Finset.mem_univ r)).trans (le_max_right _ _), ?_⟩
  simp only [Online.step, hm, ← coe_max, ← EReal.coe_sub, Ideal.exp_coe, ← EReal.coe_mul, ← coe_sum_univ,
    ← EReal.coe_add]

/-- The first update, from (−∞, 0, 0): the new maximum is the block's, and the two sums are the block's own
    (the rescaling factor exp (−∞ − m') multiplies the zeros). -/
theorem step_init {B : ℕ} (hB : 0 < B) (l y : Fin B → EReal) (lam ups : Fin B → ℝ)
    (hl : ∀ r, l r = ((lam r : ℝ) : EReal)) (hy : ∀ r, y r = ((ups r : ℝ) : EReal)) :
    ∃ M' : ℝ, (∀ r, lam r ≤ M') ∧ Online.step ((⊥ : EReal), (0 : EReal), (0 : EReal)) l y =
      ((M' : EReal),
       ((∑ r : Fin B, Real.exp (lam r - M') : ℝ) : EReal),
       ((∑ r : Fin B, Real.exp (lam r - M') * ups r : ℝ) : EReal)) := by
  obtain rfl : l = fun r => ((lam r : ℝ) : EReal) := funext hl
  obtain rfl : y = fun r => ((ups r : ℝ) : EReal) := funext hy
  haveI : Nonempty (Fin B) := ⟨⟨0, hB⟩⟩
  obtain ⟨m, hm, hle, -⟩ := fold_max_coe_spec (Finset.univ_nonempty (α := Fin B)) lam
  refine ⟨m, fun r => hle r (Finset.mem_univ r), ?_⟩
  simp only [Online.step, hm, max_bot_left, zero_mul, zero_add, ← EReal.coe_sub, Ideal.exp_coe, ← EReal.coe_mul,
    ← coe_sum_univ]

/-! ## The state after every block -/

/-- After block `t` the state is real: for some real shift `M` (an upper bound of the logits seen), the
    normaliser is Σ exp (l n − M) and the weighted sum Σ exp (l n − M) · y n over the first (t + 1) · B rows.
    Rows are indexed by ℕ: block t', row r is row t' · B + r. -/
theorem run_coe {B : ℕ} (hB : 0 < B) (l y : ℕ → Fin B → EReal) (lx yx : ℕ → ℝ) (t : ℕ)
    (hl : ∀ t' ≤ t, ∀ r : Fin B, l t' r = ((lx (t' * B + r.val) : ℝ) : EReal))
    (hy : ∀ t' ≤ t, ∀ r : Fin B, y t' r = ((yx (t' * B + r.val) : ℝ) : EReal)) :
    ∃ M : ℝ, (∀ n < (t + 1) * B, lx n ≤ M) ∧ Online.run l y t =
      ((M : EReal),
       ((∑ n ∈ Finset.range ((t + 1) * B), Real.exp (lx n - M) : ℝ) : EReal),
       ((∑ n ∈ Finset.range ((t + 1) * B), Real.exp (lx n - M) * yx n : ℝ) : EReal)) := by
  induction t with
  | zero =>
    obtain ⟨M', hle, h⟩ := step_init hB (l 0) (y 0) (fun r => lx (0 * B + r.val)) (fun r => yx (0 * B + r.val))
      (hl 0 le_rfl) (hy 0 le_rfl)
    refine ⟨M', ?_, ?_⟩
    · intro n hn
      have hn' : n < B := by simpa using hn
      simpa using hle ⟨n, hn'⟩
    · have h01 : (0 + 1) * B = B := by rw [zero_add, one_mul]
      rw [Online.run, h, h01, Finset.sum_range, Finset.sum_range]
      simp only [zero_mul, zero_add]
  | succ t ih =>
    obtain ⟨M, hleM, hM⟩ := ih (fun t' ht' => hl t' (Nat.le_succ_of_le ht')) (fun t' ht' => hy t' (Nat.le_succ_of_le ht'))
    obtain ⟨M', hMM', hle, h⟩ := step_coe hB M _ _ (l (t + 1)) (y (t + 1))
      (fun r => lx ((t + 1) * B + r.val)) (fun r => yx ((t + 1) * B + r.val)) (hl (t + 1) le_rfl) (hy (t + 1) le_rfl)
    have hsplit : (t + 1 + 1) * B = (t + 1) * B + B := Nat.succ_mul _ _
    refine ⟨M', ?_, ?_⟩
    · intro n hn
      rcases Nat.lt_or_ge n ((t + 1) * B) with h1 | h1
      · exact (hleM n h1).trans hMM'
      · have hn' : n - (t + 1) * B < B := by omega
        have := hle ⟨n - (t + 1) * B, hn'⟩
        simpa [Nat.add_sub_cancel' h1] using this
    · rw [Online.run, hM, h, hsplit, sum_rescale_add_block_one, sum_rescale_add_block]

/-! ## The quotient does not depend on the shift -/

/-- Softmax-weighted mean plus a constant, with two different shifts: numerator and denominator shifted by `M`,
    against the normalised weights shifted by `M0` applied to the values with the constant added to each. -/
theorem weighted_mean_shift {ι : Type*} [Fintype ι] [Nonempty ι] (L Y : ι → ℝ) (M M0 b : ℝ) :
    (∑ n, Real.exp (L n - M) * Y n) * (1 / ∑ n, Real.exp (L n - M)) + b
      = ∑ n, Real.exp (L n - M0) * (1 / ∑ n', Real.exp (L n' - M0)) * (Y n + b) := by
  have hk : ∀ n, Real.exp (L n - M) = Real.exp (M0 - M) * Real.exp (L n - M0) := by
    intro n; rw [← Real.exp_add]; congr 1; ring
  have hkne : Real.exp (M0 - M) ≠ 0 := (Real.exp_pos _).ne'
  have hS0 : (∑ n, Real.exp (L n - M0)) ≠ 0 :=
    (Finset.sum_pos (fun n _ => Real.exp_pos _) Finset.univ_nonempty).ne'
  have h1 : ∑ n, Real.exp (L n - M) = Real.exp (M0 - M) * ∑ n, Real.exp (L n - M0) := by
    rw [Finset.mul_sum]; exact Finset.sum_congr rfl (fun n _ => hk n)
  have h2 : ∑ n, Real.exp (L n - M) * Y n = Real.exp (M0 - M) * ∑ n, Real.exp (L n - M0) * Y n := by
    rw [Finset.mul_sum]; exact Finset.sum_congr rfl (fun n _ => by rw [hk n, mul_assoc])
  have h3 : ∑ n, Real.exp (L n - M0) * (1 / ∑ n', Real.exp (L n' - M0)) * (Y n + b)
      = (∑ n, Real.exp (L n - M0) * Y n) * (1 / ∑ n', Real.exp (L n' - M0))
        + b * ((∑ n, Real.exp (L n - M0)) * (1 / ∑ n', Real.exp (L n' - M0))) := by
    rw [Finset.sum_mul, Finset.sum_mul, Finset.mul_sum, ← Finset.sum_add_distrib]
    exact Finset.sum_congr rfl (fun n _ => by ring)
  rw [h1, h2, h3, mul_one_div_cancel hS0, mul_one]
  congr 1
  field_simp

/-! ## The running softmax is the softmax -/

/-- The main statement, in the form that is easiest to apply. `N = T · B` rows in `T = tl + 1` blocks of `B`
    (`tl` the last block); the rows' logits `L` and values `Y` are real; `lK t r`, `yK t r` are any block-indexed families that agree with them
    at row t · B + r wherever that is a row. Then the weighted sum over the normaliser after the last block, plus
    a constant `b` added once, is Σ_n α n · (Y n + b) with α the softmax of `L` over all rows, shifted by the
    maximum of all logits as the reference writes it. -/
theorem run_div_eq_softmax {N T B tl : ℕ} (hN : T * B = N) (hT : tl + 1 = T) (hB : 0 < B)
    (L Y : Fin N → ℝ) (b : ℝ) (lK yK : ℕ → Fin B → EReal)
    (hl : ∀ (t : ℕ) (r : Fin B) (h : t * B + r.val < N), lK t r = ((L ⟨t * B + r.val, h⟩ : ℝ) : EReal))
    (hy : ∀ (t : ℕ) (r : Fin B) (h : t * B + r.val < N), yK t r = ((Y ⟨t * B + r.val, h⟩ : ℝ) : EReal)) :
    Ideal.div (Online.run lK yK tl).2.2 (Online.run lK yK tl).2.1 + ((b : ℝ) : EReal)
      = ∑ n : Fin N,
          Ideal.div
            (Ideal.exp (((L n : ℝ) : EReal) - max ⊥ (Finset.univ.fold max ⊥ fun n : Fin N => ((L n : ℝ) : EReal))))
            (∑ n' : Fin N,
              Ideal.exp (((L n' : ℝ) : EReal) - max ⊥ (Finset.univ.fold max ⊥ fun n : Fin N => ((L n : ℝ) : EReal))))
          * (((Y n : ℝ) : EReal) + ((b : ℝ) : EReal)) := by
  subst hN
  subst hT
  have hpos : 0 < (tl + 1) * B := Nat.mul_pos (Nat.succ_pos tl) hB
  haveI : Nonempty (Fin ((tl + 1) * B)) := ⟨⟨0, hpos⟩⟩
  -- the rows indexed by ℕ (zero past the last row, never read)
  let lx : ℕ → ℝ := fun n => if h : n < (tl + 1) * B then L ⟨n, h⟩ else 0
  let yx : ℕ → ℝ := fun n => if h : n < (tl + 1) * B then Y ⟨n, h⟩ else 0
  have hidx : ∀ t' ≤ tl, ∀ r : Fin B, t' * B + r.val < (tl + 1) * B := by
    intro t' ht' r
    have h1 : t' + 1 ≤ tl + 1 := by omega
    calc t' * B + r.val < t' * B + B := Nat.add_lt_add_left r.isLt _
      _ = (t' + 1) * B := (Nat.succ_mul _ _).symm
      _ ≤ (tl + 1) * B := Nat.mul_le_mul_right B h1
  obtain ⟨M, -, hM⟩ := run_coe hB lK yK lx yx tl
    (fun t' ht' r => by rw [hl t' r (hidx t' ht' r)]; simp only [lx, dif_pos (hidx t' ht' r)])
    (fun t' ht' r => by rw [hy t' r (hidx t' ht' r)]; simp only [yx, dif_pos (hidx t' ht' r)])
  have hs : ∑ n ∈ Finset.range ((tl + 1) * B), Real.exp (lx n - M) = ∑ n : Fin ((tl + 1) * B), Real.exp (L n - M) := by
    rw [Finset.sum_range]
    exact Finset.sum_congr rfl (fun n _ => by simp only [lx, dif_pos n.isLt, Fin.eta])
  have hw : ∑ n ∈ Finset.range ((tl + 1) * B), Real.exp (lx n - M) * yx n
      = ∑ n : Fin ((tl + 1) * B), Real.exp (L n - M) * Y n := by
    rw [Finset.sum_range]
    exact Finset.sum_congr rfl (fun n _ => by simp only [lx, yx, dif_pos n.isLt, Fin.eta])
  rw [hs, hw] at hM
  obtain ⟨M0, hM0⟩ := fold_max_coe (Finset.univ_nonempty (α := Fin ((tl + 1) * B))) L
  have hSne : (∑ n : Fin ((tl + 1) * B), Real.exp (L n - M)) ≠ 0 :=
    (Finset.sum_pos (fun n _ => Real.exp_pos _) Finset.univ_nonempty).ne'
  have hS0ne : (∑ n : Fin ((tl + 1) * B), Real.exp (L n - M0)) ≠ 0 :=
    (Finset.sum_pos (fun n _ => Real.exp_pos _) Finset.univ_nonempty).ne'
  rw [hM]
  simp only [hM0, max_bot_left, ← EReal.coe_sub, Ideal.exp_coe, ← coe_sum_univ]
  rw [Ideal.div_coe hSne]
  simp only [Ideal.div_coe hS0ne, ← EReal.coe_mul, ← EReal.coe_add, ← coe_sum_univ]
  rw [weighted_mean_shift L Y M M0 b]

/-- Row t · B + r of block t < T is a row. -/
theorem blockRow_lt {T B t : ℕ} (h : t < T) (r : Fin B) : t * B + r.val < T * B :=
  calc t * B + r.val < t * B + B := Nat.add_lt_add_left r.isLt _
    _ = (t + 1) * B := (Nat.succ_mul _ _).symm
    _ ≤ T * B := Nat.mul_le_mul_right B h

/-- The same for logits, values and the constant given as extended reals that are real numbers. -/
theorem run_div_eq_softmax_of_real {N T B tl : ℕ} (hN : T * B = N) (hT : tl + 1 = T) (hB : 0 < B)
    (lR yR : Fin N → EReal) (bE : EReal)
    (hlR : ∀ n, ∃ r : ℝ, lR n = (r : EReal)) (hyR : ∀ n, ∃ r : ℝ, yR n = (r : EReal))
    (hb : ∃ r : ℝ, bE = (r : EReal)) (lK yK : ℕ → Fin B → EReal)
    (hl : ∀ (t : ℕ) (r : Fin B) (h : t * B + r.val < N), lK t r = lR ⟨t * B + r.val, h⟩)
    (hy : ∀ (t : ℕ) (r : Fin B) (h : t * B + r.val < N), yK t r = yR ⟨t * B + r.val, h⟩) :
    Ideal.div (Online.run lK yK tl).2.2 (Online.run lK yK tl).2.1 + bE
      = ∑ n : Fin N,
          Ideal.div (Ideal.exp (lR n - max ⊥ (Finset.univ.fold max ⊥ fun n : Fin N => lR n)))
            (∑ n' : Fin N, Ideal.exp (lR n' - max ⊥ (Finset.univ.fold max ⊥ fun n : Fin N => lR n)))
          * (yR n + bE) := by
  choose L hL using hlR
  choose Y hY using hyR
  obtain ⟨b, rfl⟩ := hb
  obtain rfl : lR = fun n => ((L n : ℝ) : EReal) := funext hL
  obtain rfl : yR = fun n => ((Y n : ℝ) : EReal) := funext hY
  exact run_div_eq_softmax hN hT hB L Y b lK yK hl hy

/-- The statement with the block families written out: block t's row r is row t · B + r, zero past the
    last block; the state after block T − 1. -/
theorem online_eq_softmax {T B : ℕ} (hT : 0 < T) (hB : 0 < B) (L Y : Fin (T * B) → ℝ) (b : ℝ) :
    let lK : ℕ → Fin B → EReal := fun t r =>
      if h : t < T then ((L ⟨t * B + r.val, blockRow_lt h r⟩ : ℝ) : EReal) else 0
    let yK : ℕ → Fin B → EReal := fun t r =>
      if h : t < T then ((Y ⟨t * B + r.val, blockRow_lt h r⟩ : ℝ) : EReal) else 0
    let st := Online.run lK yK (T - 1)
    let MR : EReal := max ⊥ (Finset.univ.fold max ⊥ fun n : Fin (T * B) => ((L n : ℝ) : EReal))
    let pR : Fin (T * B) → EReal := fun n => Ideal.exp (((L n : ℝ) : EReal) - MR)
    Ideal.div st.2.2 st.2.1 + ((b : ℝ) : EReal)
      = ∑ n : Fin (T * B), Ideal.div (pR n) (∑ n' : Fin (T * B), pR n') * (((Y n : ℝ) : EReal) + ((b : ℝ) : EReal)) := by
  intro lK yK st MR pR
  have hlt : ∀ (t : ℕ) (r : Fin B), t * B + r.val < T * B → t < T := by
    intro t r h
    by_contra hge
    have h1 : T * B ≤ t * B := Nat.mul_le_mul_right B (Nat.le_of_not_lt hge)
    omega
  exact run_div_eq_softmax rfl (Nat.sub_add_cancel hT) hB L Y b lK yK
    (fun t r h => by simp only [lK, dif_pos (hlt t r h)])
    (fun t r h => by simp only [yK, dif_pos (hlt t r h)])

/-! ## Small facts for the two writings of the logit -/

/-- For a slope between 0 and 1 the larger of z and slope · z is z on z ≥ 0 and slope · z below. -/
theorem max_mul_eq_ite_real (z c : ℝ) (hc0 : 0 ≤ c) (hc1 : c ≤ 1) :
    max z (c * z) = if 0 ≤ z then z else c * z := by
  split_ifs with h
  · exact max_eq_left (by nlinarith)
  · exact max_eq_right (by nlinarith)

/-- The same over the extended reals, at real numbers. -/
theorem max_mul_eq_ite (z c : ℝ) (hc0 : 0 ≤ c) (hc1 : c ≤ 1) :
    max ((z : ℝ) : EReal) (((c : ℝ) : EReal) * ((z : ℝ) : EReal))
      = if (0 : EReal) ≤ ((z : ℝ) : EReal) then ((z : ℝ) : EReal) else ((c : ℝ) : EReal) * ((z : ℝ) : EReal) := by
  rw [← EReal.coe_mul, ← coe_max, max_mul_eq_ite_real z c hc0 hc1]
  by_cases h : 0 ≤ z
  · rw [if_pos h, if_pos (EReal.coe_nonneg.mpr h)]
  · rw [if_neg h, if_neg (fun h' => h (EReal.coe_nonneg.mp h'))]

/-- The same for extended reals known to be real numbers. -/
theorem max_mul_eq_ite_of_real (zE cE : EReal) (hz : ∃ z : ℝ, zE = (z : EReal)) (c : ℝ) (hc : cE = (c : EReal))
    (hc0 : 0 ≤ c) (hc1 : c ≤ 1) :
    max zE (cE * zE) = if 0 ≤ zE then zE else cE * zE := by
  obtain ⟨z, rfl⟩ := hz
  subst hc
  exact max_mul_eq_ite z c hc0 hc1

/-- A lane is the lane of its head and channel, and back. -/
theorem headOf_hc (h : Fin 8) (c : Fin 16) : headOf (hc h c) = h := by
  apply Fin.ext; simp only [headOf, hc]; omega
theorem chanOf_hc (h : Fin 8) (c : Fin 16) : chanOf (hc h c) = c := by
  apply Fin.ext; simp only [chanOf, hc]; omega
theorem hc_headOf_chanOf (k : Fin 128) : hc (headOf k) (chanOf k) = k := by
  apply Fin.ext; simp only [headOf, chanOf, hc]; omega

/-- The product with the block-diagonal matrix is the sum over the lane's own head: with δ j k = 1 when lanes
    j and k lie in the same head (j / 16 = k / 16) and 0 otherwise, Σ_j e j · (δ j k · a j) is the sum of
    e · a over the 16 lanes of k's head. (No finiteness needed: a zero factor kills its term.) -/
theorem sum_blockdiag (e a : Fin 128 → EReal) (k : Fin 128) :
    ∑ j : Fin 128, e j * ((if j.val / 16 = k.val / 16 then (1 : EReal) else 0) * a j)
      = ∑ c : Fin 16, e (hc (headOf k) c) * a (hc (headOf k) c) := by
  have h1 : ∀ j : Fin 128, e j * ((if j.val / 16 = k.val / 16 then (1 : EReal) else 0) * a j)
      = if j.val / 16 = k.val / 16 then e j * a j else 0 := by
    intro j
    split_ifs
    · rw [one_mul]
    · rw [zero_mul, mul_zero]
  rw [Finset.sum_congr rfl (fun j _ => h1 j), ← Finset.sum_filter]
  refine Finset.sum_nbij' (fun j => chanOf j) (fun c => hc (headOf k) c) ?_ ?_ ?_ ?_ ?_
  · intro j _; exact Finset.mem_univ _
  · intro c _
    rw [Finset.mem_filter]
    refine ⟨Finset.mem_univ _, ?_⟩
    have := c.isLt
    simp only [hc, headOf]; omega
  · intro j hj
    rw [Finset.mem_filter] at hj
    apply Fin.ext
    have := hj.2
    simp only [hc, headOf, chanOf]; omega
  · intro c _; exact chanOf_hc _ c
  · intro j hj
    rw [Finset.mem_filter] at hj
    have hjk : hc (headOf k) (chanOf j) = j := by
      apply Fin.ext
      have := hj.2
      simp only [hc, headOf, chanOf]; omega
    rw [hjk]

end Cert.Math

end
-- ==== Proof.Bridge.lean ====
/-
  The two writings of the attention aggregation agree on real inputs.

  Everything the two programs compute before the softmax is a finite expression in real numbers: the layer norm
  divides by the real 256 and takes the reciprocal square root of a variance (a mean of squares, ≥ 0) plus a
  positive ε, so the attention target is real; the projected rows, the target's term and the logits are finite
  sums of products of reals. On reals the kernel's logit (leaky ReLU as a maximum, the per-head sum as a product
  with a block-diagonal matrix, the row bias folded into the target's term) is the reference's logit, and the
  running softmax over 50 blocks of 2000 rows is the softmax over all 100000 rows. Both programs then apply the
  same epilogue to equal inputs.
-/
import proofs.«117868_g33088428049086_cont_sun_c4_530_8_alg».proof.Proof.OnlineMath
import Mathlib.Tactic.NormNum
import Mathlib.Tactic.Positivity

noncomputable section

namespace Cert.Math

open Idealize.ShloMosaic Idealize.ShloMosaic.ValueIdx
open scoped BigOperators
open Cert.Spec

/-! ## Being a real number, and what preserves it -/

/-- The extended real `x` is a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem add {a b : EReal} (ha : IsReal a) (hb : IsReal b) : IsReal (a + b) := by
  obtain ⟨x, rfl⟩ := ha; obtain ⟨y, rfl⟩ := hb; exact ⟨x + y, (EReal.coe_add x y).symm⟩
theorem mul {a b : EReal} (ha : IsReal a) (hb : IsReal b) : IsReal (a * b) := by
  obtain ⟨x, rfl⟩ := ha; obtain ⟨y, rfl⟩ := hb; exact ⟨x * y, (EReal.coe_mul x y).symm⟩
theorem sub {a b : EReal} (ha : IsReal a) (hb : IsReal b) : IsReal (a - b) := by
  obtain ⟨x, rfl⟩ := ha; obtain ⟨y, rfl⟩ := hb; exact ⟨x - y, (EReal.coe_sub x y).symm⟩
theorem max {a b : EReal} (ha : IsReal a) (hb : IsReal b) : IsReal (max a b) := by
  obtain ⟨x, rfl⟩ := ha; obtain ⟨y, rfl⟩ := hb; exact ⟨Max.max x y, (coe_max x y).symm⟩
theorem ite {p : Prop} [Decidable p] {a b : EReal} (ha : IsReal a) (hb : IsReal b) :
    IsReal (if p then a else b) := by
  split_ifs
  · exact ha
  · exact hb
theorem sum {ι : Type*} (s : Finset ι) (f : ι → EReal) (hf : ∀ i, IsReal (f i)) : IsReal (∑ i ∈ s, f i) :=
  exists_coe_sum s f hf
/-- The quotient by a nonzero real. -/
theorem div_coe {a : EReal} (ha : IsReal a) {y : ℝ} (hy : y ≠ 0) : IsReal (Ideal.div a (y : EReal)) := by
  rw [Ideal.div_coe hy]; exact ha.mul (coe _)
/-- The reciprocal square root of a positive real. -/
theorem rsqrt_coe {r : ℝ} (hr : 0 < r) : IsReal (Ideal.rsqrt (r : EReal)) := by
  rw [Ideal.rsqrt_coe, if_neg (not_lt.mpr hr.le), if_neg hr.ne']; exact coe _
theorem exp {a : EReal} (ha : IsReal a) : IsReal (Ideal.exp a) := by
  obtain ⟨x, rfl⟩ := ha; exact ⟨Real.exp x, rfl⟩

end IsReal

/-! ## The three float constants -/

/-- The word 0x43800000 is 256. -/
theorem c256_eq : c256 = ((256 : ℝ) : EReal) := by
  have h : c256 = ((8388608 * (2 ^ 15)⁻¹ : ℝ) : EReal) := by
    unfold c256
    simp [Ideal.ofBits, Ideal.ieee]
  rw [h]
  congr 1
  norm_num
/-- The layer norm's ε (the word 0x3727C5AC) is a positive real. -/
theorem eps_pos : ∃ e : ℝ, eps = (e : EReal) ∧ 0 < e := by
  refine ⟨10995116 * (2 ^ 40)⁻¹, ?_, by positivity⟩
  unfold eps
  simp [Ideal.ofBits, Ideal.ieee]
/-- The leaky-ReLU slope (the word 0x3E4CCCCD) is a real between 0 and 1. -/
theorem slope_unit : ∃ c : ℝ, Cert.Spec.slope = (c : EReal) ∧ 0 ≤ c ∧ c ≤ 1 := by
  refine ⟨13421773 * (2 ^ 26)⁻¹, ?_, by positivity, by norm_num⟩
  unfold Cert.Spec.slope
  simp [Ideal.ofBits, Ideal.ieee]

/-! ## The shared prologue is real -/

section Prologue

variable {x s b : Fin 256 → EReal}

theorem mean_isReal (hx : ∀ k, IsReal (x k)) : IsReal (mean x) := by
  unfold mean
  rw [c256_eq]
  exact (IsReal.sum _ _ hx).div_coe (by norm_num)

/-- The variance of real numbers is a real number ≥ 0. -/
theorem var_nonneg (hx : ∀ k, IsReal (x k)) : ∃ v : ℝ, var x = (v : EReal) ∧ 0 ≤ v := by
  obtain ⟨m, hm⟩ := mean_isReal hx
  choose xr hxr using hx
  refine ⟨(∑ k, (xr k - m) * (xr k - m)) * (1 / 256), ?_, ?_⟩
  · unfold var
    rw [c256_eq, Ideal.div_coe (by norm_num), hm]
    simp only [hxr, ← EReal.coe_sub, ← EReal.coe_mul, ← coe_sum_univ]
  · exact mul_nonneg (Finset.sum_nonneg (fun k _ => mul_self_nonneg _)) (by norm_num)

theorem lnorm_isReal (hx : ∀ k, IsReal (x k)) (hs : ∀ k, IsReal (s k)) (hb : ∀ k, IsReal (b k)) (j : Fin 256) :
    IsReal (lnorm x s b j) := by
  unfold lnorm
  obtain ⟨v, hv, hv0⟩ := var_nonneg hx
  obtain ⟨e, he, he0⟩ := eps_pos
  have hr : IsReal (Ideal.rsqrt (var x + eps)) := by
    rw [hv, he, ← EReal.coe_add]
    exact IsReal.rsqrt_coe (add_pos_of_nonneg_of_pos hv0 he0)
  exact ((((hx j).sub (mean_isReal hx)).mul hr).mul (hs j)).add (hb j)

theorem proj_isReal {W : A2 256 128} {bias : A1 128} (hx : ∀ k, IsReal (x k)) (hs : ∀ k, IsReal (s k))
    (hb : ∀ k, IsReal (b k)) (hW : ∀ i, IsReal (W i)) (hbias : ∀ i, IsReal (bias i)) (j : Fin 128) :
    IsReal (proj x s b W bias j) := by
  unfold proj
  exact (IsReal.sum _ _ (fun i => ((lnorm_isReal hx hs hb i).max IsReal.zero).mul (hW _))).add (hbias _)

end Prologue

theorem tgtV_isReal (A : Args) (hA : A.Finite) (j : Fin 128) : IsReal (tgtV A j) :=
  proj_isReal (fun k => hA.g _) (fun k => hA.lnvS _) (fun k => hA.lnvB _) hA.Wgv hA.bgv j
theorem tgtS_isReal (A : Args) (hA : A.Finite) (j : Fin 128) : IsReal (tgtS A j) :=
  proj_isReal (fun k => hA.g _) (fun k => hA.lnsS _) (fun k => hA.lnsB _) hA.Wgs hA.bgs j

/-! ## One stream -/

/-- Every array of the stream but the output bias holds real numbers. -/
structure StreamReal (s : Stream) : Prop where
  x : ∀ i, IsReal (s.x i)
  tgt : ∀ i, IsReal (s.tgt i)
  Wl : ∀ i, IsReal (s.Wl i)
  bl : ∀ i, IsReal (s.bl i)
  Wr : ∀ i, IsReal (s.Wr i)
  br : ∀ i, IsReal (s.br i)
  att : ∀ i, IsReal (s.att i)

theorem streamV_real (A : Args) (hA : A.Finite) : StreamReal A.streamV :=
  ⟨hA.view, tgtV_isReal A hA, hA.WlV, hA.blV, hA.WrV, hA.brV, hA.attV⟩
theorem streamS_real (A : Args) (hA : A.Finite) : StreamReal A.streamS :=
  ⟨hA.sp, tgtS_isReal A hA, hA.WlS, hA.blS, hA.WrS, hA.brS, hA.attS⟩

section OneStream

variable {s : Stream} (hs : StreamReal s)
include hs

theorem y_isReal (n : Fin 100000) (j : Fin 128) : IsReal (s.y n j) :=
  IsReal.sum _ _ (fun i => (hs.x _).mul (hs.Wl _))

theorem xrK_isReal (j : Fin 128) : IsReal (s.xrK j) :=
  ((hs.bl _).add (IsReal.sum _ _ (fun i => (hs.tgt _).mul (hs.Wr _)))).add (hs.br _)

omit hs in
/-- The pre-activation, whichever way the three summands are grouped. -/
theorem xl_add_xr (n : Fin 100000) (j : Fin 128) : s.xl n j + s.xr j = s.y n j + s.xrK j := by
  unfold Stream.xl Stream.xr Stream.xrK
  simp only [add_assoc]

/-- The kernel's head-replicated logit at lane k is the reference's logit of k's head. -/
theorem lbK_eq_logitR (n : Fin 100000) (k : Fin 128) : s.lbK n k = s.logitR n (headOf k) := by
  obtain ⟨c, hcs, hc0, hc1⟩ := slope_unit
  unfold Stream.lbK Stream.logitR
  refine (sum_blockdiag (fun j => s.eK n j) (fun j => s.att (ix2 (headOf j) (chanOf j))) k).trans ?_
  refine Finset.sum_congr rfl (fun c' _ => ?_)
  rw [headOf_hc, chanOf_hc, xl_add_xr]
  congr 1
  exact max_mul_eq_ite_of_real _ _ ((y_isReal hs n _).add (xrK_isReal hs _)) c hcs hc0 hc1

theorem logitR_isReal (n : Fin 100000) (h : Fin 8) : IsReal (s.logitR n h) := by
  obtain ⟨c, hcs, -, -⟩ := slope_unit
  unfold Stream.logitR
  refine IsReal.sum _ _ (fun c' => IsReal.mul ?_ (hs.att _))
  rw [xl_add_xr]
  have hz : IsReal (s.y n (hc h c') + s.xrK (hc h c')) := (y_isReal hs n _).add (xrK_isReal hs _)
  unfold leaky
  exact IsReal.ite hz (IsReal.mul ⟨c, hcs⟩ hz)

/-- The kernel's aggregation is the reference's, lane by lane. -/
theorem outK_eq_outR (k : Fin 128) : s.outK k = s.outR k := by
  have h := run_div_eq_softmax_of_real (N := 100000) (T := 50) (B := 2000) (tl := 49) (by norm_num) rfl (by norm_num)
    (fun n => s.logitR n (headOf k)) (fun n => s.y n k) (s.bl (ix1 k))
    (fun n => logitR_isReal hs n (headOf k)) (fun n => y_isReal hs n k) (hs.bl _) (s.lblk k) (s.yblk k)
    (fun t r h => by
      have ht : t < 50 := by omega
      simp only [Stream.lblk, dif_pos ht]
      exact lbK_eq_logitR hs _ k)
    (fun t r h => by
      have ht : t < 50 := by omega
      simp only [Stream.yblk, dif_pos ht])
  unfold Stream.outK Stream.outR Stream.stateK
  rw [← add_assoc, h]
  rfl

end OneStream

/-! ## The whole result -/

/-- On real inputs the kernel's form of the result is the reference's. -/
theorem bridge (A : Cert.Spec.Args) (hA : A.Finite) : Cert.Spec.KForm A = Cert.Spec.RForm A := by
  have hV : A.streamV.outK = A.streamV.outR := funext (outK_eq_outR (streamV_real A hA))
  have hS : A.streamS.outK = A.streamS.outR := funext (outK_eq_outR (streamS_real A hA))
  unfold KForm RForm
  rw [hV, hS]

end Cert.Math

end
-- ==== Proof.PreFinite.lean ====
/-
  Finiteness from the precondition.

  The precondition says that a certain word is 1: the conjunction, over the 27 argument arrays, of the
  conjunction over all entries x of an array of the comparison "|x| < +∞", where |x| = max x (−x) on the
  extended reals and +∞ is written as the binary word 0x7F800000.

  A conjunction of one-bit words is 1 exactly when every word in it is 1, so each entry x of each array
  satisfies max x (−x) < ⊤. On the extended reals that excludes x = ⊤ (then max x (−x) = ⊤) and x = ⊥
  (then −x = ⊤), which leaves x a real number. This module proves that once for an array of any shape and
  then reads it off the precondition for each of the 27 arrays.
-/
import proofs.«117868_g33088428049086_cont_sun_c4_530_8_alg».proof.Defs
import proofs.«117868_g33088428049086_cont_sun_c4_530_8_alg».proof.Proof.Gen.Pre_finite_inputs
import proofs.«117868_g33088428049086_cont_sun_c4_530_8_alg».proof.Proof.ArgsK
import Idealize.ShloMosaic.PureOps.Ideal.Laws
import Idealize.ShloMosaic.Lib.ReduceAll

noncomputable section

namespace Cert.Proof.PreFinite

open Idealize.ShloMosaic Idealize.ShloMosaic.ValueIdx Idealize.ShloMosaic.TcCoe Idealize.SL.Sem

/-- The rank-0 shape has one index. -/
instance : Subsingleton (⟨0, ![]⟩ : Shape).Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max x (−x) lies strictly below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The same, read off the comparison word: "|x| < +∞" came out 1. -/
theorem real_of_cmp (x : EReal)
    (h : Ideal.cmp .olt (max x (-x)) (Ideal.ofBits .f32 0x7F800000#32) = 1#1) : ∃ r : ℝ, x = (r : EReal) := by
  rw [inf_word] at h
  refine real_of_abs_lt_top x ?_
  by_contra hn
  simp [Ideal.cmp, hn] at h

/-- One array of any shape: if the conjunction over all entries of "|x| < +∞" is 1, every entry is a real. -/
theorem finite_of_all {S : Shape} {axes : List (Fin S.rank)} (x : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (e : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have hi := Host.reduce_andi_all _ _ hr hu ix0 e i
  exact real_of_cmp (x i) hi

/-- The precondition read back. Its value is the conjunction, over the 27 argument arrays in order, of
    "every entry x has max x (−x) < +∞"; that it is 1 gives each conjunct, and each conjunct gives that
    every entry of its array is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.argsOf m c).Finite := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, andi] at e
  simp only [IntOp.andi_eq_one] at e
  obtain ⟨⟨⟨⟨⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩, e26⟩ := e
  exact {
    view := finite_of_all _ _ _ _ e0
    sp := finite_of_all _ _ _ _ e1
    g := finite_of_all _ _ _ _ e2
    lnvS := finite_of_all _ _ _ _ e3
    lnvB := finite_of_all _ _ _ _ e4
    Wgv := finite_of_all _ _ _ _ e5
    bgv := finite_of_all _ _ _ _ e6
    WlV := finite_of_all _ _ _ _ e7
    blV := finite_of_all _ _ _ _ e8
    WrV := finite_of_all _ _ _ _ e9
    brV := finite_of_all _ _ _ _ e10
    attV := finite_of_all _ _ _ _ e11
    biasV := finite_of_all _ _ _ _ e12
    lnsS := finite_of_all _ _ _ _ e13
    lnsB := finite_of_all _ _ _ _ e14
    Wgs := finite_of_all _ _ _ _ e15
    bgs := finite_of_all _ _ _ _ e16
    WlS := finite_of_all _ _ _ _ e17
    blS := finite_of_all _ _ _ _ e18
    WrS := finite_of_all _ _ _ _ e19
    brS := finite_of_all _ _ _ _ e20
    attS := finite_of_all _ _ _ _ e21
    biasS := finite_of_all _ _ _ _ e22
    lnpS := finite_of_all _ _ _ _ e23
    lnpB := finite_of_all _ _ _ _ e24
    Wmlp := finite_of_all _ _ _ _ e25
    bmlp := finite_of_all _ _ _ _ e26 }

end Cert.Proof.PreFinite

end
-- ==== Proof.lean ====
/-
  Kernel against reference for the two-stream GATv2 star aggregation with its LayerNorm → ReLU → Linear prologue
  and its skip + LayerNorm → ReLU → Linear + skip epilogue on the [1, 256] global feature.

  The reference takes, per head, the softmax over all 100000 rows of the attention logits and returns the
  softmax-weighted sum of the projected rows. The kernel streams the rows in 50 blocks of 2000 and keeps, per lane,
  a running maximum m, normaliser s and weighted sum w, rescaling by exp (m_old − m_new) at each block; it takes
  the logits head-replicated through one product with a block-diagonal matrix, writes leaky ReLU as
  max (z, 0.2 z), and leaves the row bias out of the stream, adding it back once since the weights sum to one.
  At the exact reading of floats as extended reals, on inputs whose entries are all real numbers:
    · w / s after the last block is Σ_n exp (l_n − M) y_n / Σ_n exp (l_n − M) for ANY shift M, because
      exp (a − b) · exp (b − c) = exp (a − c) on the reals and the first block's rescaling of (0, 0) by exp (−∞) = 0
      is harmless; so the kernel's quotient is the reference's softmax-weighted sum;
    · Σ_n α_n (y_n + b) = Σ_n α_n y_n + b as the normaliser is a positive real;
    · the block-diagonal product is the per-head channel sum, a zero factor against a real being zero;
    · max (z, c z) is the sign choice for 0 ≤ c ≤ 1.
  The three frame claims are the generated frame runs (the kernel's) and the reference's straight-line run; the
  idealization rewrote nothing, so `preserves` is trivial.
-/
import proofs.«117868_g33088428049086_cont_sun_c4_530_8_alg».proof.Defs
import proofs.«117868_g33088428049086_cont_sun_c4_530_8_alg».proof.Proof.Gen.Kernel
import proofs.«117868_g33088428049086_cont_sun_c4_530_8_alg».proof.Proof.Gen.KernelIdeal
import proofs.«117868_g33088428049086_cont_sun_c4_530_8_alg».proof.Proof.Gen.ReferenceIdeal
import proofs.«117868_g33088428049086_cont_sun_c4_530_8_alg».proof.Proof.Gen.Pre_finite_inputs
import proofs.«117868_g33088428049086_cont_sun_c4_530_8_alg».proof.Proof.Pat.Kernel.Frame
import proofs.«117868_g33088428049086_cont_sun_c4_530_8_alg».proof.Proof.Pat.KernelIdeal.Frame
import proofs.«117868_g33088428049086_cont_sun_c4_530_8_alg».proof.Proof.KVal
import proofs.«117868_g33088428049086_cont_sun_c4_530_8_alg».proof.Proof.RefVal
import proofs.«117868_g33088428049086_cont_sun_c4_530_8_alg».proof.Proof.Bridge
import proofs.«117868_g33088428049086_cont_sun_c4_530_8_alg».proof.Proof.PreFinite
import Idealize.ShloMosaic.Adequacy
import Idealize.ShloMosaic.Init

noncomputable section

namespace Cert.Proof

open Idealize.ShloMosaic Idealize.SL.Sem

/-- The word-level kernel runs and leaves its arguments unchanged: its frame run. -/
theorem frame_k : Cert.frame_Kernel := fun m ρ _ => Cert.Kernel.GenP.frame m ρ

/-- The idealized kernel likewise. -/
theorem frame_ki : Cert.frame_KernelIdeal := fun m ρ _ => Cert.KernelIdeal.GenP.frame m ρ

/-- The reference runs and leaves its arguments unchanged: its straight-line run with the result dropped. -/
theorem frame_ri : Cert.frame_ReferenceIdeal := fun m ρ _ =>
  (θ_run Cert.ReferenceIdeal.defs _ _).mono (fun _ h c => (h c).2) (Cert.ReferenceIdeal.RefVal.run m ρ)

/-- Memories that agree on the 27 arguments give the same argument bundle. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.argsOf m' c = Cert.KernelIdeal.argsOf m c := by
  show Cert.Spec.Args.mk _ _ _ _ _ _ _ _ _ _ _ _ _ _ _ _ _ _ _ _ _ _ _ _ _ _ _ = Cert.Spec.Args.mk _ _ _ _ _ _ _ _ _ _ _ _ _ _ _ _ _ _ _ _ _ _ _ _ _ _ _
  exact (Cert.Spec.Args.mk.injEq ..).mpr ⟨h0, h1, h2, h3, h4, h5, h6, h7, h8, h9, h10, h11, h12, h13, h14, h15, h16, h17, h18, h19, h20, h21, h22, h23, h24, h25, h26⟩

/-- Both idealized programs, from memories agreeing on finite arguments, end at the same [1, 256] result: the
    kernel's at the running-softmax formula, the reference's at the softmax formula, equal on finite inputs. -/
theorem algebraic : Cert.algebraic_KernelIdeal_ReferenceIdeal := by
  intro m ρ m' ρ' hpre hagree
  refine ⟨fun c => Cert.Spec.KForm (Cert.KernelIdeal.argsOf m c), Cert.KernelIdeal.KVal.run m ρ, ?_⟩
  refine (θ_run Cert.ReferenceIdeal.defs _ _).mono (fun _ h c => ⟨(h c).1.trans ?_, (h c).2⟩)
    (Cert.ReferenceIdeal.RefVal.run m' ρ')
  obtain ⟨h0, h1, h2, h3, h4, h5, h6, h7, h8, h9, h10, h11, h12, h13, h14, h15, h16, h17, h18, h19, h20, h21, h22, h23, h24, h25, h26⟩ := hagree c
  rw [args_agree m m' c h0 h1 h2 h3 h4 h5 h6 h7 h8 h9 h10 h11 h12 h13 h14 h15 h16 h17 h18 h19 h20 h21 h22 h23 h24 h25 h26]
  exact (Cert.Math.bridge _ (Cert.Proof.PreFinite.finite_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
